-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_1000" .f32 0x3A83126F#32 ((1 / 1000 : ℝ) : EReal)

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x16 : Shape := ⟨2, ![16384, 16]⟩
abbrev S1000x16 : Shape := ⟨2, ![1000, 16]⟩
abbrev S_ : Shape := ⟨0, ![]⟩

class Facts : Prop where
  bcast_S_S16384x16 : S_.BroadcastsInDim S16384x16 (![] : Fin 0 → Fin S16384x16.rank)
  reducesTo_S16384x16_S_d0_1 : S16384x16.ReducesTo [0, 1] S_
  h_S_ : 0 < S_.numel
  bcast_S_S1000x16 : S_.BroadcastsInDim S1000x16 (![] : Fin 0 → Fin S1000x16.rank)
  reducesTo_S1000x16_S_d0_1 : S1000x16.ReducesTo [0, 1] S_
  reducesTo_S_S_d : S_.ReducesTo [] S_

variable [Facts]

def fn {F : FTy → Type} [FloatOps F] (main_arg0 : FVec F S16384x16 .f32) (main_arg1 : FVec F S1000x16 .f32) (main_arg2 : IVec S_ 32) : IVec S_ 1 :=
  let main_v0 : FVec F S16384x16 .f32 := Host.absf main_arg0
  let main_cst : FVec F S_ .f32 := constant S_ .f32 0x7F800000#32
  let main_v1 : FVec F S16384x16 .f32 := broadcastInDim S16384x16 ![] bcast_S_S16384x16 main_cst
  let main_v2 : IVec S16384x16 1 := cmpf .olt main_v0 main_v1
  let main_c : IVec S_ 1 := constantI S_ 1 1#1
  let main_v3 : IVec S_ 1 := (fun x v => Host.reduce IntOp.andi x v reducesTo_S16384x16_S_d0_1 h_S_) main_v2 main_c
  let main_v4 : FVec F S1000x16 .f32 := Host.absf main_arg1
  let main_cst_0 : FVec F S_ .f32 := constant S_ .f32 0x7F800000#32
  let main_v5 : FVec F S1000x16 .f32 := broadcastInDim S1000x16 ![] bcast_S_S1000x16 main_cst_0
  let main_v6 : IVec S1000x16 1 := cmpf .olt main_v4 main_v5
  let main_c_1 : IVec S_ 1 := constantI S_ 1 1#1
  let main_v7 : IVec S_ 1 := (fun x v => Host.reduce IntOp.andi x v reducesTo_S1000x16_S_d0_1 h_S_) main_v6 main_c_1
  let main_v8 : IVec S_ 1 := andi main_v3 main_v7
  let main_c_2 : IVec S_ 32 := constantI S_ 32 1000#32
  let main_v9 : IVec S_ 1 := cmpi .sge main_arg2 main_c_2
  let main_c_3 : IVec S_ 32 := constantI S_ 32 1000#32
  let main_v10 : IVec S_ 1 := cmpi .sle main_arg2 main_c_3
  let main_v11 : IVec S_ 1 := andi main_v9 main_v10
  let main_c_4 : IVec S_ 1 := constantI S_ 1 1#1
  let main_v12 : IVec S_ 1 := (fun x v => Host.reduce IntOp.andi x v reducesTo_S_S_d h_S_) main_v11 main_c_4
  let main_v13 : IVec S_ 1 := andi main_v8 main_v12
  main_v13
-- ==== Kernel.lean ====
abbrev S16384x16 : Shape := ⟨2, ![16384, 16]⟩
abbrev S1000x16 : Shape := ⟨2, ![1000, 16]⟩
abbrev S_ : Shape := ⟨0, ![]⟩
abbrev S1024x16 : Shape := ⟨2, ![1024, 16]⟩
abbrev S16x1024 : Shape := ⟨2, ![16, 1024]⟩
abbrev S16x32x32 : Shape := ⟨3, ![16, 32, 32]⟩
abbrev S32x16x32 : Shape := ⟨3, ![32, 16, 32]⟩
abbrev S16000 : Shape := ⟨1, ![16000]⟩
abbrev S32x1024 : Shape := ⟨2, ![32, 1024]⟩
abbrev S16x32 : Shape := ⟨2, ![16, 32]⟩
abbrev S16384 : Shape := ⟨1, ![16384]⟩
abbrev S1024 : Shape := ⟨1, ![1024]⟩
abbrev S1600 : Shape := ⟨1, ![1600]⟩
abbrev S1x16x32 : Shape := ⟨3, ![1, 16, 32]⟩
abbrev S16 : Shape := ⟨1, ![16]⟩
abbrev S1 : Shape := ⟨1, ![1]⟩
abbrev S1x16 : Shape := ⟨2, ![1, 16]⟩
abbrev S1x1024 : Shape := ⟨2, ![1, 1024]⟩
abbrev S8x1024 : Shape := ⟨2, ![8, 1024]⟩
abbrev S1024x1024 : Shape := ⟨2, ![1024, 1024]⟩
abbrev S1024x1 : Shape := ⟨2, ![1024, 1]⟩
abbrev S128x8x1024 : Shape := ⟨3, ![128, 8, 1024]⟩

abbrev nBuf : Table → Nat
  | .hbm => 24
  | .local .tc .vmem => 5
  | .local .scVector .smem => 1
  | .local .scVector .vmem => 8
  | _ => 0

abbrev bufTy : (tb : Table) → Fin (nBuf tb) → BufTy
  | .hbm, ⟨0, _⟩ => ⟨S16384x16, .f32⟩
  | .hbm, ⟨1, _⟩ => ⟨S1000x16, .f32⟩
  | .hbm, ⟨2, _⟩ => ⟨S_, .i32⟩
  | .hbm, ⟨3, _⟩ => ⟨S1024x16, .f32⟩
  | .hbm, ⟨4, _⟩ => ⟨S16x1024, .f32⟩
  | .hbm, ⟨5, _⟩ => ⟨S16x32x32, .f32⟩
  | .hbm, ⟨6, _⟩ => ⟨S32x16x32, .f32⟩
  | .hbm, ⟨7, _⟩ => ⟨S_, .f32⟩
  | .hbm, ⟨8, _⟩ => ⟨S1000x16, .f32⟩
  | .hbm, ⟨9, _⟩ => ⟨S1000x16, .f32⟩
  | .hbm, ⟨10, _⟩ => ⟨S16000, .f32⟩
  | .hbm, ⟨11, _⟩ => ⟨S_, .i32⟩
  | .hbm, ⟨12, _⟩ => ⟨S_, .f32⟩
  | .hbm, ⟨13, _⟩ => ⟨S1024x16, .f32⟩
  | .hbm, ⟨14, _⟩ => ⟨S16x1024, .f32⟩
  | .hbm, ⟨15, _⟩ => ⟨S_, .f32⟩
  | .hbm, ⟨16, _⟩ => ⟨S16x1024, .f32⟩
  | .hbm, ⟨17, _⟩ => ⟨S16x1024, .f32⟩
  | .hbm, ⟨18, _⟩ => ⟨S32x1024, .f32⟩
  | .hbm, ⟨19, _⟩ => ⟨S1x1024, .f32⟩
  | .hbm, ⟨20, _⟩ => ⟨S1024, .f32⟩
  | .hbm, ⟨21, _⟩ => ⟨S16, .f32⟩
  | .hbm, ⟨22, _⟩ => ⟨S1, .f32⟩
  | .hbm, ⟨23, _⟩ => ⟨S_, .f32⟩
  | .local .tc .vmem, ⟨0, _⟩ => ⟨S1024x16, .f32⟩
  | .local .tc .vmem, ⟨1, _⟩ => ⟨S1024x16, .f32⟩
  | .local .tc .vmem, ⟨2, _⟩ => ⟨S16x1024, .f32⟩
  | .local .tc .vmem, ⟨3, _⟩ => ⟨S1x1024, .f32⟩
  | .local .tc .vmem, ⟨4, _⟩ => ⟨S8x1024, .f32⟩
  | .local .scVector .smem, ⟨0, _⟩ => ⟨S1600, .f32⟩
  | .local .scVector .vmem, ⟨0, _⟩ => ⟨S16x32, .f32⟩
  | .local .scVector .vmem, ⟨1, _⟩ => ⟨S16000, .f32⟩
  | .local .scVector .vmem, ⟨2, _⟩ => ⟨S16384, .f32⟩
  | .local .scVector .vmem, ⟨3, _⟩ => ⟨S1024, .f32⟩
  | .local .scVector .vmem, ⟨4, _⟩ => ⟨S32x1024, .f32⟩
  | .local .scVector .vmem, ⟨5, _⟩ => ⟨S1024, .f32⟩
  | .local .scVector .vmem, ⟨6, _⟩ => ⟨S16x1024, .f32⟩
  | .local .scVector .vmem, ⟨7, _⟩ => ⟨S16, .f32⟩
  | _, _ => ⟨S16384x16, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => false
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v3_scv : Ref sig .scVector := ⟨.hbm, 6, rfl⟩
abbrev main_v6_scv : Ref sig .scVector := ⟨.hbm, 10, rfl⟩
abbrev main_v11_scv : Ref sig .scVector := ⟨.hbm, 18, rfl⟩
abbrev main_v13_scv : Ref sig .scVector := ⟨.hbm, 20, rfl⟩
abbrev main_v8_scv : Ref sig .scVector := ⟨.hbm, 14, rfl⟩
abbrev main_v14_scv : Ref sig .scVector := ⟨.hbm, 21, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_scratch0 : Ref sig .tc := ⟨.vmem, 4, rfl⟩
abbrev cc0_scratch4 : Ref sig .scVector := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc2_scratch0 : Ref sig .scVector := ⟨.vmem, 4, rfl⟩
abbrev cc2_scratch1 : Ref sig .scVector := ⟨.vmem, 5, rfl⟩
abbrev cc2_scratch2 : Ref sig .scVector := ⟨.vmem, 6, rfl⟩
abbrev cc2_scratch3 : Ref sig .scVector := ⟨.vmem, 7, rfl⟩
abbrev cc1_sem0_0 : DmaSem sig := 3
abbrev cc1_sem0_1 : DmaSem sig := 4
abbrev cc1_sem1_0 : DmaSem sig := 5
abbrev cc1_sem2_0 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4_r0 : BitVec 32 := 0#32
  let c0_i32_5_r0 : BitVec 32 := 0#32
  ![v1.toNat, 0, 0]
@[reducible] def k0_t1_loop : Scf.Loop 32 :=
  let c0_i32 : BitVec 32 := 0#32
  let c10_i32 : BitVec 32 := 10#32
  let v2 : BitVec 32 := Scalar.addi c0_i32 c10_i32
  let c1_i32 : BitVec 32 := 1#32
  ⟨c0_i32, v2, c1_i32⟩
@[reducible] def k0_t2_loop : Scf.Loop 32 :=
  let c0_i32_4 : BitVec 32 := 0#32
  let c100_i32 : BitVec 32 := 100#32
  let v4 : BitVec 32 := Scalar.addi c0_i32_4 c100_i32
  let c1_i32_5 : BitVec 32 := 1#32
  ⟨c0_i32_4, v4, c1_i32_5⟩
def k0_off2 (k0_t1 : Fin k0_t1_loop.trips) (k0_t2 : Fin k0_t2_loop.trips) : Fin 1 → Nat :=
  let c0_i32 : BitVec 32 := 0#32
  let c1_i32 : BitVec 32 := 1#32
  let arg10 : BitVec 32 := Scf.iv c0_i32 c1_i32 k0_t1
  let c100_i32_61 : BitVec 32 := 100#32
  let v164 : BitVec 32 := Scalar.muli arg10 c100_i32_61
  let c0_i32_4 : BitVec 32 := 0#32
  let c1_i32_5 : BitVec 32 := 1#32
  let arg11 : BitVec 32 := Scf.iv c0_i32_4 c1_i32_5 k0_t2
  let v165 : BitVec 32 := Scalar.addi v164 arg11
  let c16_i32 : BitVec 32 := 16#32
  let v166 : BitVec 32 := Scalar.muli v165 c16_i32
  let v167 : Index := Scalar.indexCast v166
  ![v167.toNat]
def k0_off3 (k0_t2 : Fin k0_t2_loop.trips) (c0_i32_63 : BitVec 32) : Fin 1 → Nat :=
  let c0_i32_4 : BitVec 32 := 0#32
  let c1_i32_5 : BitVec 32 := 1#32
  let arg11 : BitVec 32 := Scf.iv c0_i32_4 c1_i32_5 k0_t2
  let c16_i32_62 : BitVec 32 := 16#32
  let v172 : BitVec 32 := Scalar.muli arg11 c16_i32_62
  let v173 : BitVec 32 := Scalar.addi v172 c0_i32_63
  let v174 : Index := Scalar.indexCast v173
  ![v174.toNat]
@[reducible] def k0_t3_loop : Scf.Loop 32 :=
  let c0_i32_57 : BitVec 32 := 0#32
  let c100_i32_58 : BitVec 32 := 100#32
  let v163 : BitVec 32 := Scalar.addi c0_i32_57 c100_i32_58
  let c1_i32_59 : BitVec 32 := 1#32
  ⟨c0_i32_57, v163, c1_i32_59⟩
def k0_off4 (k0_t3 : Fin k0_t3_loop.trips) : Fin 1 → Nat :=
  let c0_i32_57 : BitVec 32 := 0#32
  let c1_i32_59 : BitVec 32 := 1#32
  let arg11 : BitVec 32 := Scf.iv c0_i32_57 c1_i32_59 k0_t3
  let c16_i32 : BitVec 32 := 16#32
  let v164 : BitVec 32 := Scalar.muli arg11 c16_i32
  let v165 : Index := Scalar.indexCast v164
  ![v165.toNat]
def k0_off5 (k0_t3 : Fin k0_t3_loop.trips) (c1_i32_61 : BitVec 32) : Fin 1 → Nat :=
  let c0_i32_57 : BitVec 32 := 0#32
  let c1_i32_59 : BitVec 32 := 1#32
  let arg11 : BitVec 32 := Scf.iv c0_i32_57 c1_i32_59 k0_t3
  let c16_i32 : BitVec 32 := 16#32
  let v164 : BitVec 32 := Scalar.muli arg11 c16_i32
  let v171 : BitVec 32 := Scalar.addi v164 c1_i32_61
  let v172 : Index := Scalar.indexCast v171
  ![v172.toNat]
def k0_off6 (k0_t1 : Fin k0_t1_loop.trips) (k0_t3 : Fin k0_t3_loop.trips) : Fin 1 → Nat :=
  let c0_i32 : BitVec 32 := 0#32
  let c1_i32 : BitVec 32 := 1#32
  let arg10 : BitVec 32 := Scf.iv c0_i32 c1_i32 k0_t1
  let c100_i32_76 : BitVec 32 := 100#32
  let v309 : BitVec 32 := Scalar.muli arg10 c100_i32_76
  let c0_i32_57 : BitVec 32 := 0#32
  let c1_i32_59 : BitVec 32 := 1#32
  let arg11 : BitVec 32 := Scf.iv c0_i32_57 c1_i32_59 k0_t3
  let v310 : BitVec 32 := Scalar.addi v309 arg11
  let c16_i32_77 : BitVec 32 := 16#32
  let v311 : BitVec 32 := Scalar.muli v310 c16_i32_77
  let v312 : Index := Scalar.indexCast v311
  ![v312.toNat]
@[reducible] def k0_t4_loop : Scf.Loop 32 :=
  let c0_i32_1 : BitVec 32 := 0#32
  let c64_i32 : BitVec 32 := 64#32
  let v3 : BitVec 32 := Scalar.addi c0_i32_1 c64_i32
  let c1_i32_2 : BitVec 32 := 1#32
  ⟨c0_i32_1, v3, c1_i32_2⟩
def k0_off7 (k0_t4 : Fin k0_t4_loop.trips) (c0_i32_4 : BitVec 32) : Fin 1 → Nat :=
  let c0_i32_1 : BitVec 32 := 0#32
  let c1_i32_2 : BitVec 32 := 1#32
  let arg10 : BitVec 32 := Scf.iv c0_i32_1 c1_i32_2 k0_t4
  let c16_i32 : BitVec 32 := 16#32
  let v4 : BitVec 32 := Scalar.muli arg10 c16_i32
  let v5 : BitVec 32 := Scalar.addi v4 c0_i32_4
  let c16_i32_5 : BitVec 32 := 16#32
  let v6 : BitVec 32 := Scalar.muli v5 c16_i32_5
  let v7 : Index := Scalar.indexCast v6
  ![v7.toNat]
def k0_off8 (k0_t4 : Fin k0_t4_loop.trips) : Fin 1 → Nat :=
  let c0_i32_1 : BitVec 32 := 0#32
  let c1_i32_2 : BitVec 32 := 1#32
  let arg10 : BitVec 32 := Scf.iv c0_i32_1 c1_i32_2 k0_t4
  let c16_i32_54 : BitVec 32 := 16#32
  let v914 : BitVec 32 := Scalar.muli arg10 c16_i32_54
  let v915 : Index := Scalar.indexCast v914
  ![v915.toNat]
def k0_off9 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_4_r2 : BitVec 32 := 0#32
  ![v1.toNat, 0]
abbrev grid1 : Pipeline.Grid := ⟨1, ![15], ![false]⟩

def k1_cond2 (i : grid1.Coords) : BitVec 1 :=
  let arg0 : BitVec 32 := BitVec.ofNat 32 (i 0).val
  let c14_i32 : BitVec 32 := 14#32
  let v19 : BitVec 1 := Scalar.cmpi .eq arg0 c14_i32
  let v20 : BitVec 32 := Scalar.extui v19
  let c0_i32_10 : BitVec 32 := 0#32
  let v21 : BitVec 1 := Scalar.cmpi .ne v20 c0_i32_10
  v21

def cc1_transform_0 (i : grid1.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1024x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨2, ![2, 16], ![false, false]⟩

def k2_cond1 (i : grid2.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

@[reducible] def k2_t1_loop : Scf.Loop 32 :=
  let c0_i32_2 : BitVec 32 := 0#32
  let c64_i32 : BitVec 32 := 64#32
  let v6 : BitVec 32 := Scalar.addi c0_i32_2 c64_i32
  let c1_i32 : BitVec 32 := 1#32
  ⟨c0_i32_2, v6, c1_i32⟩
def k2_off1 (k2_t1 : Fin k2_t1_loop.trips) : Fin 2 → Nat :=
  let c0_i32_5 : BitVec 32 := 0#32
  let v61 : Index := Scalar.indexCast c0_i32_5
  let c0_i32_2 : BitVec 32 := 0#32
  let c1_i32 : BitVec 32 := 1#32
  let arg10 : BitVec 32 := Scf.iv c0_i32_2 c1_i32 k2_t1
  let c16_i32 : BitVec 32 := 16#32
  let v60 : BitVec 32 := Scalar.muli arg10 c16_i32
  let v62 : Index := Scalar.indexCast v60
  ![0, v62.toNat]
def k2_off2 (k2_t1 : Fin k2_t1_loop.trips) : Fin 1 → Nat :=
  let c0_i32_2 : BitVec 32 := 0#32
  let c1_i32 : BitVec 32 := 1#32
  let arg10 : BitVec 32 := Scf.iv c0_i32_2 c1_i32 k2_t1
  let c16_i32 : BitVec 32 := 16#32
  let v60 : BitVec 32 := Scalar.muli arg10 c16_i32
  let v65 : Index := Scalar.indexCast v60
  ![v65.toNat]
def k2_off3 (k2_t1 : Fin k2_t1_loop.trips) : Fin 2 → Nat :=
  let c1_i32_6 : BitVec 32 := 1#32
  let v69 : Index := Scalar.indexCast c1_i32_6
  let c0_i32_2 : BitVec 32 := 0#32
  let c1_i32 : BitVec 32 := 1#32
  let arg10 : BitVec 32 := Scf.iv c0_i32_2 c1_i32 k2_t1
  let c16_i32 : BitVec 32 := 16#32
  let v60 : BitVec 32 := Scalar.muli arg10 c16_i32
  let v70 : Index := Scalar.indexCast v60
  ![1, v70.toNat]
def k2_off4 (k2_t1 : Fin k2_t1_loop.trips) : Fin 2 → Nat :=
  let c2_i32 : BitVec 32 := 2#32
  let v74 : Index := Scalar.indexCast c2_i32
  let c0_i32_2 : BitVec 32 := 0#32
  let c1_i32 : BitVec 32 := 1#32
  let arg10 : BitVec 32 := Scf.iv c0_i32_2 c1_i32 k2_t1
  let c16_i32 : BitVec 32 := 16#32
  let v60 : BitVec 32 := Scalar.muli arg10 c16_i32
  let v75 : Index := Scalar.indexCast v60
  ![2, v75.toNat]
def k2_off5 (k2_t1 : Fin k2_t1_loop.trips) : Fin 2 → Nat :=
  let c3_i32 : BitVec 32 := 3#32
  let v79 : Index := Scalar.indexCast c3_i32
  let c0_i32_2 : BitVec 32 := 0#32
  let c1_i32 : BitVec 32 := 1#32
  let arg10 : BitVec 32 := Scf.iv c0_i32_2 c1_i32 k2_t1
  let c16_i32 : BitVec 32 := 16#32
  let v60 : BitVec 32 := Scalar.muli arg10 c16_i32
  let v80 : Index := Scalar.indexCast v60
  ![3, v80.toNat]
def k2_off6 (k2_t1 : Fin k2_t1_loop.trips) : Fin 2 → Nat :=
  let c4_i32 : BitVec 32 := 4#32
  let v84 : Index := Scalar.indexCast c4_i32
  let c0_i32_2 : BitVec 32 := 0#32
  let c1_i32 : BitVec 32 := 1#32
  let arg10 : BitVec 32 := Scf.iv c0_i32_2 c1_i32 k2_t1
  let c16_i32 : BitVec 32 := 16#32
  let v60 : BitVec 32 := Scalar.muli arg10 c16_i32
  let v85 : Index := Scalar.indexCast v60
  ![4, v85.toNat]
def k2_off7 (k2_t1 : Fin k2_t1_loop.trips) : Fin 2 → Nat :=
  let c5_i32 : BitVec 32 := 5#32
  let v89 : Index := Scalar.indexCast c5_i32
  let c0_i32_2 : BitVec 32 := 0#32
  let c1_i32 : BitVec 32 := 1#32
  let arg10 : BitVec 32 := Scf.iv c0_i32_2 c1_i32 k2_t1
  let c16_i32 : BitVec 32 := 16#32
  let v60 : BitVec 32 := Scalar.muli arg10 c16_i32
  let v90 : Index := Scalar.indexCast v60
  ![5, v90.toNat]
def k2_off8 (k2_t1 : Fin k2_t1_loop.trips) : Fin 2 → Nat :=
  let c6_i32 : BitVec 32 := 6#32
  let v94 : Index := Scalar.indexCast c6_i32
  let c0_i32_2 : BitVec 32 := 0#32
  let c1_i32 : BitVec 32 := 1#32
  let arg10 : BitVec 32 := Scf.iv c0_i32_2 c1_i32 k2_t1
  let c16_i32 : BitVec 32 := 16#32
  let v60 : BitVec 32 := Scalar.muli arg10 c16_i32
  let v95 : Index := Scalar.indexCast v60
  ![6, v95.toNat]
def k2_off9 (k2_t1 : Fin k2_t1_loop.trips) : Fin 2 → Nat :=
  let c7_i32 : BitVec 32 := 7#32
  let v99 : Index := Scalar.indexCast c7_i32
  let c0_i32_2 : BitVec 32 := 0#32
  let c1_i32 : BitVec 32 := 1#32
  let arg10 : BitVec 32 := Scf.iv c0_i32_2 c1_i32 k2_t1
  let c16_i32 : BitVec 32 := 16#32
  let v60 : BitVec 32 := Scalar.muli arg10 c16_i32
  let v100 : Index := Scalar.indexCast v60
  ![7, v100.toNat]
def k2_off10 (k2_t1 : Fin k2_t1_loop.trips) : Fin 2 → Nat :=
  let c8_i32 : BitVec 32 := 8#32
  let v104 : Index := Scalar.indexCast c8_i32
  let c0_i32_2 : BitVec 32 := 0#32
  let c1_i32 : BitVec 32 := 1#32
  let arg10 : BitVec 32 := Scf.iv c0_i32_2 c1_i32 k2_t1
  let c16_i32 : BitVec 32 := 16#32
  let v60 : BitVec 32 := Scalar.muli arg10 c16_i32
  let v105 : Index := Scalar.indexCast v60
  ![8, v105.toNat]
def k2_off11 (k2_t1 : Fin k2_t1_loop.trips) : Fin 2 → Nat :=
  let c9_i32 : BitVec 32 := 9#32
  let v109 : Index := Scalar.indexCast c9_i32
  let c0_i32_2 : BitVec 32 := 0#32
  let c1_i32 : BitVec 32 := 1#32
  let arg10 : BitVec 32 := Scf.iv c0_i32_2 c1_i32 k2_t1
  let c16_i32 : BitVec 32 := 16#32
  let v60 : BitVec 32 := Scalar.muli arg10 c16_i32
  let v110 : Index := Scalar.indexCast v60
  ![9, v110.toNat]
def k2_off12 (k2_t1 : Fin k2_t1_loop.trips) : Fin 2 → Nat :=
  let c10_i32 : BitVec 32 := 10#32
  let v114 : Index := Scalar.indexCast c10_i32
  let c0_i32_2 : BitVec 32 := 0#32
  let c1_i32 : BitVec 32 := 1#32
  let arg10 : BitVec 32 := Scf.iv c0_i32_2 c1_i32 k2_t1
  let c16_i32 : BitVec 32 := 16#32
  let v60 : BitVec 32 := Scalar.muli arg10 c16_i32
  let v115 : Index := Scalar.indexCast v60
  ![10, v115.toNat]
def k2_off13 (k2_t1 : Fin k2_t1_loop.trips) : Fin 2 → Nat :=
  let c11_i32 : BitVec 32 := 11#32
  let v119 : Index := Scalar.indexCast c11_i32
  let c0_i32_2 : BitVec 32 := 0#32
  let c1_i32 : BitVec 32 := 1#32
  let arg10 : BitVec 32 := Scf.iv c0_i32_2 c1_i32 k2_t1
  let c16_i32 : BitVec 32 := 16#32
  let v60 : BitVec 32 := Scalar.muli arg10 c16_i32
  let v120 : Index := Scalar.indexCast v60
  ![11, v120.toNat]
def k2_off14 (k2_t1 : Fin k2_t1_loop.trips) : Fin 2 → Nat :=
  let c12_i32 : BitVec 32 := 12#32
  let v124 : Index := Scalar.indexCast c12_i32
  let c0_i32_2 : BitVec 32 := 0#32
  let c1_i32 : BitVec 32 := 1#32
  let arg10 : BitVec 32 := Scf.iv c0_i32_2 c1_i32 k2_t1
  let c16_i32 : BitVec 32 := 16#32
  let v60 : BitVec 32 := Scalar.muli arg10 c16_i32
  let v125 : Index := Scalar.indexCast v60
  ![12, v125.toNat]
def k2_off15 (k2_t1 : Fin k2_t1_loop.trips) : Fin 2 → Nat :=
  let c13_i32 : BitVec 32 := 13#32
  let v129 : Index := Scalar.indexCast c13_i32
  let c0_i32_2 : BitVec 32 := 0#32
  let c1_i32 : BitVec 32 := 1#32
  let arg10 : BitVec 32 := Scf.iv c0_i32_2 c1_i32 k2_t1
  let c16_i32 : BitVec 32 := 16#32
  let v60 : BitVec 32 := Scalar.muli arg10 c16_i32
  let v130 : Index := Scalar.indexCast v60
  ![13, v130.toNat]
def k2_off16 (k2_t1 : Fin k2_t1_loop.trips) : Fin 2 → Nat :=
  let c14_i32 : BitVec 32 := 14#32
  let v134 : Index := Scalar.indexCast c14_i32
  let c0_i32_2 : BitVec 32 := 0#32
  let c1_i32 : BitVec 32 := 1#32
  let arg10 : BitVec 32 := Scf.iv c0_i32_2 c1_i32 k2_t1
  let c16_i32 : BitVec 32 := 16#32
  let v60 : BitVec 32 := Scalar.muli arg10 c16_i32
  let v135 : Index := Scalar.indexCast v60
  ![14, v135.toNat]
def k2_off17 (k2_t1 : Fin k2_t1_loop.trips) : Fin 2 → Nat :=
  let c15_i32 : BitVec 32 := 15#32
  let v139 : Index := Scalar.indexCast c15_i32
  let c0_i32_2 : BitVec 32 := 0#32
  let c1_i32 : BitVec 32 := 1#32
  let arg10 : BitVec 32 := Scf.iv c0_i32_2 c1_i32 k2_t1
  let c16_i32 : BitVec 32 := 16#32
  let v60 : BitVec 32 := Scalar.muli arg10 c16_i32
  let v140 : Index := Scalar.indexCast v60
  ![15, v140.toNat]
def k2_off18 (k2_t1 : Fin k2_t1_loop.trips) : Fin 2 → Nat :=
  let c16_i32_7 : BitVec 32 := 16#32
  let v144 : Index := Scalar.indexCast c16_i32_7
  let c0_i32_2 : BitVec 32 := 0#32
  let c1_i32 : BitVec 32 := 1#32
  let arg10 : BitVec 32 := Scf.iv c0_i32_2 c1_i32 k2_t1
  let c16_i32 : BitVec 32 := 16#32
  let v60 : BitVec 32 := Scalar.muli arg10 c16_i32
  let v145 : Index := Scalar.indexCast v60
  ![16, v145.toNat]
def k2_off19 (k2_t1 : Fin k2_t1_loop.trips) : Fin 2 → Nat :=
  let c17_i32 : BitVec 32 := 17#32
  let v149 : Index := Scalar.indexCast c17_i32
  let c0_i32_2 : BitVec 32 := 0#32
  let c1_i32 : BitVec 32 := 1#32
  let arg10 : BitVec 32 := Scf.iv c0_i32_2 c1_i32 k2_t1
  let c16_i32 : BitVec 32 := 16#32
  let v60 : BitVec 32 := Scalar.muli arg10 c16_i32
  let v150 : Index := Scalar.indexCast v60
  ![17, v150.toNat]
def k2_off20 (k2_t1 : Fin k2_t1_loop.trips) : Fin 2 → Nat :=
  let c18_i32 : BitVec 32 := 18#32
  let v154 : Index := Scalar.indexCast c18_i32
  let c0_i32_2 : BitVec 32 := 0#32
  let c1_i32 : BitVec 32 := 1#32
  let arg10 : BitVec 32 := Scf.iv c0_i32_2 c1_i32 k2_t1
  let c16_i32 : BitVec 32 := 16#32
  let v60 : BitVec 32 := Scalar.muli arg10 c16_i32
  let v155 : Index := Scalar.indexCast v60
  ![18, v155.toNat]
def k2_off21 (k2_t1 : Fin k2_t1_loop.trips) : Fin 2 → Nat :=
  let c19_i32 : BitVec 32 := 19#32
  let v159 : Index := Scalar.indexCast c19_i32
  let c0_i32_2 : BitVec 32 := 0#32
  let c1_i32 : BitVec 32 := 1#32
  let arg10 : BitVec 32 := Scf.iv c0_i32_2 c1_i32 k2_t1
  let c16_i32 : BitVec 32 := 16#32
  let v60 : BitVec 32 := Scalar.muli arg10 c16_i32
  let v160 : Index := Scalar.indexCast v60
  ![19, v160.toNat]
def k2_off22 (k2_t1 : Fin k2_t1_loop.trips) : Fin 2 → Nat :=
  let c20_i32 : BitVec 32 := 20#32
  let v164 : Index := Scalar.indexCast c20_i32
  let c0_i32_2 : BitVec 32 := 0#32
  let c1_i32 : BitVec 32 := 1#32
  let arg10 : BitVec 32 := Scf.iv c0_i32_2 c1_i32 k2_t1
  let c16_i32 : BitVec 32 := 16#32
  let v60 : BitVec 32 := Scalar.muli arg10 c16_i32
  let v165 : Index := Scalar.indexCast v60
  ![20, v165.toNat]
def k2_off23 (k2_t1 : Fin k2_t1_loop.trips) : Fin 2 → Nat :=
  let c21_i32 : BitVec 32 := 21#32
  let v169 : Index := Scalar.indexCast c21_i32
  let c0_i32_2 : BitVec 32 := 0#32
  let c1_i32 : BitVec 32 := 1#32
  let arg10 : BitVec 32 := Scf.iv c0_i32_2 c1_i32 k2_t1
  let c16_i32 : BitVec 32 := 16#32
  let v60 : BitVec 32 := Scalar.muli arg10 c16_i32
  let v170 : Index := Scalar.indexCast v60
  ![21, v170.toNat]
def k2_off24 (k2_t1 : Fin k2_t1_loop.trips) : Fin 2 → Nat :=
  let c22_i32 : BitVec 32 := 22#32
  let v174 : Index := Scalar.indexCast c22_i32
  let c0_i32_2 : BitVec 32 := 0#32
  let c1_i32 : BitVec 32 := 1#32
  let arg10 : BitVec 32 := Scf.iv c0_i32_2 c1_i32 k2_t1
  let c16_i32 : BitVec 32 := 16#32
  let v60 : BitVec 32 := Scalar.muli arg10 c16_i32
  let v175 : Index := Scalar.indexCast v60
  ![22, v175.toNat]
def k2_off25 (k2_t1 : Fin k2_t1_loop.trips) : Fin 2 → Nat :=
  let c23_i32 : BitVec 32 := 23#32
  let v179 : Index := Scalar.indexCast c23_i32
  let c0_i32_2 : BitVec 32 := 0#32
  let c1_i32 : BitVec 32 := 1#32
  let arg10 : BitVec 32 := Scf.iv c0_i32_2 c1_i32 k2_t1
  let c16_i32 : BitVec 32 := 16#32
  let v60 : BitVec 32 := Scalar.muli arg10 c16_i32
  let v180 : Index := Scalar.indexCast v60
  ![23, v180.toNat]
def k2_off26 (k2_t1 : Fin k2_t1_loop.trips) : Fin 2 → Nat :=
  let c24_i32 : BitVec 32 := 24#32
  let v184 : Index := Scalar.indexCast c24_i32
  let c0_i32_2 : BitVec 32 := 0#32
  let c1_i32 : BitVec 32 := 1#32
  let arg10 : BitVec 32 := Scf.iv c0_i32_2 c1_i32 k2_t1
  let c16_i32 : BitVec 32 := 16#32
  let v60 : BitVec 32 := Scalar.muli arg10 c16_i32
  let v185 : Index := Scalar.indexCast v60
  ![24, v185.toNat]
def k2_off27 (k2_t1 : Fin k2_t1_loop.trips) : Fin 2 → Nat :=
  let c25_i32 : BitVec 32 := 25#32
  let v189 : Index := Scalar.indexCast c25_i32
  let c0_i32_2 : BitVec 32 := 0#32
  let c1_i32 : BitVec 32 := 1#32
  let arg10 : BitVec 32 := Scf.iv c0_i32_2 c1_i32 k2_t1
  let c16_i32 : BitVec 32 := 16#32
  let v60 : BitVec 32 := Scalar.muli arg10 c16_i32
  let v190 : Index := Scalar.indexCast v60
  ![25, v190.toNat]
def k2_off28 (k2_t1 : Fin k2_t1_loop.trips) : Fin 2 → Nat :=
  let c26_i32 : BitVec 32 := 26#32
  let v194 : Index := Scalar.indexCast c26_i32
  let c0_i32_2 : BitVec 32 := 0#32
  let c1_i32 : BitVec 32 := 1#32
  let arg10 : BitVec 32 := Scf.iv c0_i32_2 c1_i32 k2_t1
  let c16_i32 : BitVec 32 := 16#32
  let v60 : BitVec 32 := Scalar.muli arg10 c16_i32
  let v195 : Index := Scalar.indexCast v60
  ![26, v195.toNat]
def k2_off29 (k2_t1 : Fin k2_t1_loop.trips) : Fin 2 → Nat :=
  let c27_i32 : BitVec 32 := 27#32
  let v199 : Index := Scalar.indexCast c27_i32
  let c0_i32_2 : BitVec 32 := 0#32
  let c1_i32 : BitVec 32 := 1#32
  let arg10 : BitVec 32 := Scf.iv c0_i32_2 c1_i32 k2_t1
  let c16_i32 : BitVec 32 := 16#32
  let v60 : BitVec 32 := Scalar.muli arg10 c16_i32
  let v200 : Index := Scalar.indexCast v60
  ![27, v200.toNat]
def k2_off30 (k2_t1 : Fin k2_t1_loop.trips) : Fin 2 → Nat :=
  let c28_i32 : BitVec 32 := 28#32
  let v204 : Index := Scalar.indexCast c28_i32
  let c0_i32_2 : BitVec 32 := 0#32
  let c1_i32 : BitVec 32 := 1#32
  let arg10 : BitVec 32 := Scf.iv c0_i32_2 c1_i32 k2_t1
  let c16_i32 : BitVec 32 := 16#32
  let v60 : BitVec 32 := Scalar.muli arg10 c16_i32
  let v205 : Index := Scalar.indexCast v60
  ![28, v205.toNat]
def k2_off31 (k2_t1 : Fin k2_t1_loop.trips) : Fin 2 → Nat :=
  let c29_i32 : BitVec 32 := 29#32
  let v209 : Index := Scalar.indexCast c29_i32
  let c0_i32_2 : BitVec 32 := 0#32
  let c1_i32 : BitVec 32 := 1#32
  let arg10 : BitVec 32 := Scf.iv c0_i32_2 c1_i32 k2_t1
  let c16_i32 : BitVec 32 := 16#32
  let v60 : BitVec 32 := Scalar.muli arg10 c16_i32
  let v210 : Index := Scalar.indexCast v60
  ![29, v210.toNat]
def k2_off32 (k2_t1 : Fin k2_t1_loop.trips) : Fin 2 → Nat :=
  let c30_i32 : BitVec 32 := 30#32
  let v214 : Index := Scalar.indexCast c30_i32
  let c0_i32_2 : BitVec 32 := 0#32
  let c1_i32 : BitVec 32 := 1#32
  let arg10 : BitVec 32 := Scf.iv c0_i32_2 c1_i32 k2_t1
  let c16_i32 : BitVec 32 := 16#32
  let v60 : BitVec 32 := Scalar.muli arg10 c16_i32
  let v215 : Index := Scalar.indexCast v60
  ![30, v215.toNat]
def k2_off33 (k2_t1 : Fin k2_t1_loop.trips) : Fin 2 → Nat :=
  let c31_i32 : BitVec 32 := 31#32
  let v219 : Index := Scalar.indexCast c31_i32
  let c0_i32_2 : BitVec 32 := 0#32
  let c1_i32 : BitVec 32 := 1#32
  let arg10 : BitVec 32 := Scf.iv c0_i32_2 c1_i32 k2_t1
  let c16_i32 : BitVec 32 := 16#32
  let v60 : BitVec 32 := Scalar.muli arg10 c16_i32
  let v220 : Index := Scalar.indexCast v60
  ![31, v220.toNat]
def k2_off34 (k2_t1 : Fin k2_t1_loop.trips) : Fin 2 → Nat :=
  let c0_i32_8 : BitVec 32 := 0#32
  let v224 : Index := Scalar.indexCast c0_i32_8
  let c0_i32_2 : BitVec 32 := 0#32
  let c1_i32 : BitVec 32 := 1#32
  let arg10 : BitVec 32 := Scf.iv c0_i32_2 c1_i32 k2_t1
  let c16_i32 : BitVec 32 := 16#32
  let v60 : BitVec 32 := Scalar.muli arg10 c16_i32
  let v225 : Index := Scalar.indexCast v60
  ![0, v225.toNat]
def k2_off35 (k2_t1 : Fin k2_t1_loop.trips) : Fin 2 → Nat :=
  let c1_i32_10 : BitVec 32 := 1#32
  let v233 : Index := Scalar.indexCast c1_i32_10
  let c0_i32_2 : BitVec 32 := 0#32
  let c1_i32 : BitVec 32 := 1#32
  let arg10 : BitVec 32 := Scf.iv c0_i32_2 c1_i32 k2_t1
  let c16_i32 : BitVec 32 := 16#32
  let v60 : BitVec 32 := Scalar.muli arg10 c16_i32
  let v234 : Index := Scalar.indexCast v60
  ![1, v234.toNat]
def k2_off36 (k2_t1 : Fin k2_t1_loop.trips) : Fin 2 → Nat :=
  let c2_i32_12 : BitVec 32 := 2#32
  let v243 : Index := Scalar.indexCast c2_i32_12
  let c0_i32_2 : BitVec 32 := 0#32
  let c1_i32 : BitVec 32 := 1#32
  let arg10 : BitVec 32 := Scf.iv c0_i32_2 c1_i32 k2_t1
  let c16_i32 : BitVec 32 := 16#32
  let v60 : BitVec 32 := Scalar.muli arg10 c16_i32
  let v244 : Index := Scalar.indexCast v60
  ![2, v244.toNat]
def k2_off37 (k2_t1 : Fin k2_t1_loop.trips) : Fin 2 → Nat :=
  let c3_i32_14 : BitVec 32 := 3#32
  let v253 : Index := Scalar.indexCast c3_i32_14
  let c0_i32_2 : BitVec 32 := 0#32
  let c1_i32 : BitVec 32 := 1#32
  let arg10 : BitVec 32 := Scf.iv c0_i32_2 c1_i32 k2_t1
  let c16_i32 : BitVec 32 := 16#32
  let v60 : BitVec 32 := Scalar.muli arg10 c16_i32
  let v254 : Index := Scalar.indexCast v60
  ![3, v254.toNat]
def k2_off38 (k2_t1 : Fin k2_t1_loop.trips) : Fin 2 → Nat :=
  let c4_i32_16 : BitVec 32 := 4#32
  let v263 : Index := Scalar.indexCast c4_i32_16
  let c0_i32_2 : BitVec 32 := 0#32
  let c1_i32 : BitVec 32 := 1#32
  let arg10 : BitVec 32 := Scf.iv c0_i32_2 c1_i32 k2_t1
  let c16_i32 : BitVec 32 := 16#32
  let v60 : BitVec 32 := Scalar.muli arg10 c16_i32
  let v264 : Index := Scalar.indexCast v60
  ![4, v264.toNat]
def k2_off39 (k2_t1 : Fin k2_t1_loop.trips) : Fin 2 → Nat :=
  let c5_i32_18 : BitVec 32 := 5#32
  let v273 : Index := Scalar.indexCast c5_i32_18
  let c0_i32_2 : BitVec 32 := 0#32
  let c1_i32 : BitVec 32 := 1#32
  let arg10 : BitVec 32 := Scf.iv c0_i32_2 c1_i32 k2_t1
  let c16_i32 : BitVec 32 := 16#32
  let v60 : BitVec 32 := Scalar.muli arg10 c16_i32
  let v274 : Index := Scalar.indexCast v60
  ![5, v274.toNat]
def k2_off40 (k2_t1 : Fin k2_t1_loop.trips) : Fin 2 → Nat :=
  let c6_i32_20 : BitVec 32 := 6#32
  let v283 : Index := Scalar.indexCast c6_i32_20
  let c0_i32_2 : BitVec 32 := 0#32
  let c1_i32 : BitVec 32 := 1#32
  let arg10 : BitVec 32 := Scf.iv c0_i32_2 c1_i32 k2_t1
  let c16_i32 : BitVec 32 := 16#32
  let v60 : BitVec 32 := Scalar.muli arg10 c16_i32
  let v284 : Index := Scalar.indexCast v60
  ![6, v284.toNat]
def k2_off41 (k2_t1 : Fin k2_t1_loop.trips) : Fin 2 → Nat :=
  let c7_i32_22 : BitVec 32 := 7#32
  let v293 : Index := Scalar.indexCast c7_i32_22
  let c0_i32_2 : BitVec 32 := 0#32
  let c1_i32 : BitVec 32 := 1#32
  let arg10 : BitVec 32 := Scf.iv c0_i32_2 c1_i32 k2_t1
  let c16_i32 : BitVec 32 := 16#32
  let v60 : BitVec 32 := Scalar.muli arg10 c16_i32
  let v294 : Index := Scalar.indexCast v60
  ![7, v294.toNat]
def k2_off42 (k2_t1 : Fin k2_t1_loop.trips) : Fin 2 → Nat :=
  let c8_i32_24 : BitVec 32 := 8#32
  let v303 : Index := Scalar.indexCast c8_i32_24
  let c0_i32_2 : BitVec 32 := 0#32
  let c1_i32 : BitVec 32 := 1#32
  let arg10 : BitVec 32 := Scf.iv c0_i32_2 c1_i32 k2_t1
  let c16_i32 : BitVec 32 := 16#32
  let v60 : BitVec 32 := Scalar.muli arg10 c16_i32
  let v304 : Index := Scalar.indexCast v60
  ![8, v304.toNat]
def k2_off43 (k2_t1 : Fin k2_t1_loop.trips) : Fin 2 → Nat :=
  let c9_i32_26 : BitVec 32 := 9#32
  let v313 : Index := Scalar.indexCast c9_i32_26
  let c0_i32_2 : BitVec 32 := 0#32
  let c1_i32 : BitVec 32 := 1#32
  let arg10 : BitVec 32 := Scf.iv c0_i32_2 c1_i32 k2_t1
  let c16_i32 : BitVec 32 := 16#32
  let v60 : BitVec 32 := Scalar.muli arg10 c16_i32
  let v314 : Index := Scalar.indexCast v60
  ![9, v314.toNat]
def k2_off44 (k2_t1 : Fin k2_t1_loop.trips) : Fin 2 → Nat :=
  let c10_i32_28 : BitVec 32 := 10#32
  let v323 : Index := Scalar.indexCast c10_i32_28
  let c0_i32_2 : BitVec 32 := 0#32
  let c1_i32 : BitVec 32 := 1#32
  let arg10 : BitVec 32 := Scf.iv c0_i32_2 c1_i32 k2_t1
  let c16_i32 : BitVec 32 := 16#32
  let v60 : BitVec 32 := Scalar.muli arg10 c16_i32
  let v324 : Index := Scalar.indexCast v60
  ![10, v324.toNat]
def k2_off45 (k2_t1 : Fin k2_t1_loop.trips) : Fin 2 → Nat :=
  let c11_i32_30 : BitVec 32 := 11#32
  let v333 : Index := Scalar.indexCast c11_i32_30
  let c0_i32_2 : BitVec 32 := 0#32
  let c1_i32 : BitVec 32 := 1#32
  let arg10 : BitVec 32 := Scf.iv c0_i32_2 c1_i32 k2_t1
  let c16_i32 : BitVec 32 := 16#32
  let v60 : BitVec 32 := Scalar.muli arg10 c16_i32
  let v334 : Index := Scalar.indexCast v60
  ![11, v334.toNat]
def k2_off46 (k2_t1 : Fin k2_t1_loop.trips) : Fin 2 → Nat :=
  let c12_i32_32 : BitVec 32 := 12#32
  let v343 : Index := Scalar.indexCast c12_i32_32
  let c0_i32_2 : BitVec 32 := 0#32
  let c1_i32 : BitVec 32 := 1#32
  let arg10 : BitVec 32 := Scf.iv c0_i32_2 c1_i32 k2_t1
  let c16_i32 : BitVec 32 := 16#32
  let v60 : BitVec 32 := Scalar.muli arg10 c16_i32
  let v344 : Index := Scalar.indexCast v60
  ![12, v344.toNat]
def k2_off47 (k2_t1 : Fin k2_t1_loop.trips) : Fin 2 → Nat :=
  let c13_i32_34 : BitVec 32 := 13#32
  let v353 : Index := Scalar.indexCast c13_i32_34
  let c0_i32_2 : BitVec 32 := 0#32
  let c1_i32 : BitVec 32 := 1#32
  let arg10 : BitVec 32 := Scf.iv c0_i32_2 c1_i32 k2_t1
  let c16_i32 : BitVec 32 := 16#32
  let v60 : BitVec 32 := Scalar.muli arg10 c16_i32
  let v354 : Index := Scalar.indexCast v60
  ![13, v354.toNat]
def k2_off48 (k2_t1 : Fin k2_t1_loop.trips) : Fin 2 → Nat :=
  let c14_i32_36 : BitVec 32 := 14#32
  let v363 : Index := Scalar.indexCast c14_i32_36
  let c0_i32_2 : BitVec 32 := 0#32
  let c1_i32 : BitVec 32 := 1#32
  let arg10 : BitVec 32 := Scf.iv c0_i32_2 c1_i32 k2_t1
  let c16_i32 : BitVec 32 := 16#32
  let v60 : BitVec 32 := Scalar.muli arg10 c16_i32
  let v364 : Index := Scalar.indexCast v60
  ![14, v364.toNat]
def k2_off49 (k2_t1 : Fin k2_t1_loop.trips) : Fin 2 → Nat :=
  let c15_i32_38 : BitVec 32 := 15#32
  let v373 : Index := Scalar.indexCast c15_i32_38
  let c0_i32_2 : BitVec 32 := 0#32
  let c1_i32 : BitVec 32 := 1#32
  let arg10 : BitVec 32 := Scf.iv c0_i32_2 c1_i32 k2_t1
  let c16_i32 : BitVec 32 := 16#32
  let v60 : BitVec 32 := Scalar.muli arg10 c16_i32
  let v374 : Index := Scalar.indexCast v60
  ![15, v374.toNat]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))

class Facts₀ : Prop where
  slices_S16384x16_S1024x16_0_0 : S16384x16.Slices ![0, 0] S1024x16
  transposes_S1024x16_S16x1024_1_0 : S1024x16.Transposes [1, 0] S16x1024
  shapeCasts_S16x1024_S16x32x32 : S16x1024.ShapeCasts S16x32x32
  transposes_S16x32x32_S32x16x32_1_0_2 : S16x32x32.Transposes [1, 0, 2] S32x16x32
  bcast_S_S1000x16 : S_.BroadcastsInDim S1000x16 (![] : Fin 0 → Fin S1000x16.rank)
  shapeCasts_S1000x16_S16000 : S1000x16.ShapeCasts S16000
  pads_S1000x16_S1024x16_0240_000 : S1000x16.Pads (![0, 0] : Fin 2 → Nat) ![24, 0] ![0, 0] S1024x16
  h_S_ : 0 < S_.numel
  bcast_S_S16x1024 : S_.BroadcastsInDim S16x1024 (![] : Fin 0 → Fin S16x1024.rank)
  squeezes_S1x16x32_S16x32 : S1x16x32.Squeezes S16x32
  h_S16 : 0 < S16.numel
  shapeCasts_S16_S16 : S16.ShapeCasts S16
  slices_S16_o0_S1 : S16.Slices ![0] S1
  inpos_S1_p0 : ∀ a, (![0] : Fin 1 → Nat) a < S1.size a
  numel1_S1 : S1.numel = 1
  slices_S16_o1_S1 : S16.Slices ![1] S1
  slices_S16_o2_S1 : S16.Slices ![2] S1
  slices_S16_o3_S1 : S16.Slices ![3] S1
  slices_S16_o4_S1 : S16.Slices ![4] S1
  slices_S16_o5_S1 : S16.Slices ![5] S1
  slices_S16_o6_S1 : S16.Slices ![6] S1
  slices_S16_o7_S1 : S16.Slices ![7] S1
  slices_S16_o8_S1 : S16.Slices ![8] S1
  slices_S16_o9_S1 : S16.Slices ![9] S1
  slices_S16_o10_S1 : S16.Slices ![10] S1
  slices_S16_o11_S1 : S16.Slices ![11] S1
  slices_S16_o12_S1 : S16.Slices ![12] S1
  slices_S16_o13_S1 : S16.Slices ![13] S1
  slices_S16_o14_S1 : S16.Slices ![14] S1
  slices_S16_o15_S1 : S16.Slices ![15] S1
  inb_S16x32_S1x16_0_0 : ∀ a, (![0, 0] : Fin 2 → Nat) a + S1x16.size a ≤ S16x32.size a
  h_S1x16 : 0 < S1x16.numel
  shapeCasts_S1x16_S16 : S1x16.ShapeCasts S16
  inb_S16x32_S1x16_1_0 : ∀ a, (![1, 0] : Fin 2 → Nat) a + S1x16.size a ≤ S16x32.size a
  inb_S16x32_S1x16_2_0 : ∀ a, (![2, 0] : Fin 2 → Nat) a + S1x16.size a ≤ S16x32.size a
  inb_S16x32_S1x16_3_0 : ∀ a, (![3, 0] : Fin 2 → Nat) a + S1x16.size a ≤ S16x32.size a
  inb_S16x32_S1x16_4_0 : ∀ a, (![4, 0] : Fin 2 → Nat) a + S1x16.size a ≤ S16x32.size a
  inb_S16x32_S1x16_5_0 : ∀ a, (![5, 0] : Fin 2 → Nat) a + S1x16.size a ≤ S16x32.size a
  inb_S16x32_S1x16_6_0 : ∀ a, (![6, 0] : Fin 2 → Nat) a + S1x16.size a ≤ S16x32.size a
  inb_S16x32_S1x16_7_0 : ∀ a, (![7, 0] : Fin 2 → Nat) a + S1x16.size a ≤ S16x32.size a
  inb_S16x32_S1x16_8_0 : ∀ a, (![8, 0] : Fin 2 → Nat) a + S1x16.size a ≤ S16x32.size a
  inb_S16x32_S1x16_9_0 : ∀ a, (![9, 0] : Fin 2 → Nat) a + S1x16.size a ≤ S16x32.size a
  inb_S16x32_S1x16_10_0 : ∀ a, (![10, 0] : Fin 2 → Nat) a + S1x16.size a ≤ S16x32.size a
  inb_S16x32_S1x16_11_0 : ∀ a, (![11, 0] : Fin 2 → Nat) a + S1x16.size a ≤ S16x32.size a
  inb_S16x32_S1x16_12_0 : ∀ a, (![12, 0] : Fin 2 → Nat) a + S1x16.size a ≤ S16x32.size a
  inb_S16x32_S1x16_13_0 : ∀ a, (![13, 0] : Fin 2 → Nat) a + S1x16.size a ≤ S16x32.size a
  inb_S16x32_S1x16_14_0 : ∀ a, (![14, 0] : Fin 2 → Nat) a + S1x16.size a ≤ S16x32.size a
  inb_S16x32_S1x16_15_0 : ∀ a, (![15, 0] : Fin 2 → Nat) a + S1x16.size a ≤ S16x32.size a
  inb_S16x32_S1x16_0_16 : ∀ a, (![0, 16] : Fin 2 → Nat) a + S1x16.size a ≤ S16x32.size a
  inb_S16x32_S1x16_1_16 : ∀ a, (![1, 16] : Fin 2 → Nat) a + S1x16.size a ≤ S16x32.size a
  inb_S16x32_S1x16_2_16 : ∀ a, (![2, 16] : Fin 2 → Nat) a + S1x16.size a ≤ S16x32.size a
  inb_S16x32_S1x16_3_16 : ∀ a, (![3, 16] : Fin 2 → Nat) a + S1x16.size a ≤ S16x32.size a
  inb_S16x32_S1x16_4_16 : ∀ a, (![4, 16] : Fin 2 → Nat) a + S1x16.size a ≤ S16x32.size a
  inb_S16x32_S1x16_5_16 : ∀ a, (![5, 16] : Fin 2 → Nat) a + S1x16.size a ≤ S16x32.size a
  inb_S16x32_S1x16_6_16 : ∀ a, (![6, 16] : Fin 2 → Nat) a + S1x16.size a ≤ S16x32.size a
  inb_S16x32_S1x16_7_16 : ∀ a, (![7, 16] : Fin 2 → Nat) a + S1x16.size a ≤ S16x32.size a
  inb_S16x32_S1x16_8_16 : ∀ a, (![8, 16] : Fin 2 → Nat) a + S1x16.size a ≤ S16x32.size a
  inb_S16x32_S1x16_9_16 : ∀ a, (![9, 16] : Fin 2 → Nat) a + S1x16.size a ≤ S16x32.size a
  inb_S16x32_S1x16_10_16 : ∀ a, (![10, 16] : Fin 2 → Nat) a + S1x16.size a ≤ S16x32.size a
  inb_S16x32_S1x16_11_16 : ∀ a, (![11, 16] : Fin 2 → Nat) a + S1x16.size a ≤ S16x32.size a
  inb_S16x32_S1x16_12_16 : ∀ a, (![12, 16] : Fin 2 → Nat) a + S1x16.size a ≤ S16x32.size a
  inb_S16x32_S1x16_13_16 : ∀ a, (![13, 16] : Fin 2 → Nat) a + S1x16.size a ≤ S16x32.size a
  inb_S16x32_S1x16_14_16 : ∀ a, (![14, 16] : Fin 2 → Nat) a + S1x16.size a ≤ S16x32.size a
  inb_S16x32_S1x16_15_16 : ∀ a, (![15, 16] : Fin 2 → Nat) a + S1x16.size a ≤ S16x32.size a
  iota_S16_d0_w32_scVector : S16.Iotas .scVector 32 [0]
  squeezes_S1x1024_S1024 : S1x1024.Squeezes S1024
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  inb_S1024x16_S1024x16_0_0 : ∀ a, (![0, 0] : Fin 2 → Nat) a + S1024x16.size a ≤ S1024x16.size a
  h_S1024x16 : 0 < S1024x16.numel
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  reduces_S1024x16_S1024 : S1024x16.Reduces [1] S1024
  shapeCasts_S1024_S1024x1 : S1024.ShapeCasts S1024x1
  broadcasts_S1024x1_S1024x1024 : S1024x1.Broadcasts S1024x1024
  shapeCasts_S1024x1024_S128x8x1024 : S1024x1024.ShapeCasts S128x8x1024
  reduces_S128x8x1024_S8x1024 : S128x8x1024.Reduces [0] S8x1024
  reduces_S8x1024_S1024 : S8x1024.Reduces [0] S1024
  shapeCasts_S1024_S1x1024 : S1024.ShapeCasts S1x1024
  inb_S1x1024_S1x1024_0_0 : ∀ a, (![0, 0] : Fin 2 → Nat) a + S1x1024.size a ≤ S1x1024.size a
  h_S1x1024 : 0 < S1x1024.numel
  shapeCasts_S1x1024_S1024 : S1x1024.ShapeCasts S1024
  inb_S16_S16_0 : ∀ a, (![0] : Fin 1 → Nat) a + S16.size a ≤ S16.size a
  slices_S16_S1_0 : S16.Slices ![0] S1
  shapeCasts_S1_S_ : S1.ShapeCasts S_
  dot_S1024x16_S16x1024_S1024x1024_1_0_0_1_n_n_wf : DotDims.WF S1024x16 S16x1024 S1024x1024 [1] [0] [0] [1] [] []
  hcc0_scoped0 : 0 + S_.numel ≤ 11
  hcc0_scoped1 : 1 + S_.numel ≤ 11
  hcc0_scoped2 : 2 + S_.numel ≤ 11
  hcc2_scoped0 : 7 + S_.numel ≤ 11
  hcc2_scoped1 : 8 + S_.numel ≤ 11
  hcc2_scoped2 : 9 + S_.numel ≤ 11
  hcc2_scoped3 : 10 + S_.numel ≤ 11
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x16x32.size a ≤ S32x16x32.size a
  k0_t1_ok : k0_t1_loop.OK
  k0_t2_ok : k0_t2_loop.OK
  k0_off2_inb : ∀ (k0_t1 : Fin k0_t1_loop.trips) (k0_t2 : Fin k0_t2_loop.trips), ∀ a, (k0_off2 k0_t1 k0_t2) a + S16.size a ≤ S16000.size a
  k0_off3_inb : ∀ k0_t2 : Fin k0_t2_loop.trips, ∀ (r : Fin 16), ∀ a, (k0_off3 k0_t2 (BitVec.ofNat 32 r.val)) a + S1.size a ≤ S1600.size a
  k0_t3_ok : k0_t3_loop.OK
  k0_off4_inb : ∀ k0_t3 : Fin k0_t3_loop.trips, ∀ a, (k0_off4 k0_t3) a + S1.size a ≤ S1600.size a
  k0_off5_inb : ∀ k0_t3 : Fin k0_t3_loop.trips, ∀ (r : Fin 15), ∀ a, (k0_off5 k0_t3 (BitVec.ofNat 32 (1 + r.val))) a + S1.size a ≤ S1600.size a
  k0_off6_inb : ∀ (k0_t1 : Fin k0_t1_loop.trips) (k0_t3 : Fin k0_t3_loop.trips), ∀ a, (k0_off6 k0_t1 k0_t3) a + S16.size a ≤ S16384.size a
  k0_t4_ok : k0_t4_loop.OK
  k0_off7_inb : ∀ k0_t4 : Fin k0_t4_loop.trips, ∀ (r : Fin 16), ∀ a, (k0_off7 k0_t4 (BitVec.ofNat 32 r.val)) a + S16.size a ≤ S16384.size a
  k0_off8_inb : ∀ k0_t4 : Fin k0_t4_loop.trips, ∀ a, (k0_off8 k0_t4) a + S16.size a ≤ S1024.size a
  k0_off9_inb : ∀ i : grid0.Coords, ∀ a, (k0_off9 i) a + S1x1024.size a ≤ S32x1024.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x16.size a ≤ S16384x16.size a
  hwx1_0 : ∀ i : grid1.Coords, EltTy.bits .f32 = 32 ∨ (Rect.block (s := S16384x16) S1024x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x1024.size a ≤ S16x1024.size a
  hwx1_1 : ∀ i : grid1.Coords, EltTy.bits .f32 = 32 ∨ (Rect.block (s := S16x1024) S16x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hcore2 : grid2.bound 0 ≤ τ.nSC
  hsub2 : grid2.bound 1 ≤ τ.nSub
  k2_t1_ok : ∀ i : grid2.Coords, ∀ (k2_h1 : k2_cond1 i = 1#1), k2_t1_loop.OK
  k2_off1_inb : ∀ (i : grid2.Coords) (k2_t1 : Fin k2_t1_loop.trips), ∀ (k2_h1 : k2_cond1 i = 1#1), ∀ a, (k2_off1 k2_t1) a + S1x16.size a ≤ S32x1024.size a
  k2_off2_inb : ∀ (i : grid2.Coords) (k2_t1 : Fin k2_t1_loop.trips), ∀ (k2_h1 : k2_cond1 i = 1#1), ∀ a, (k2_off2 k2_t1) a + S16.size a ≤ S1024.size a
  k2_off3_inb : ∀ (i : grid2.Coords) (k2_t1 : Fin k2_t1_loop.trips), ∀ (k2_h1 : k2_cond1 i = 1#1), ∀ a, (k2_off3 k2_t1) a + S1x16.size a ≤ S32x1024.size a
  k2_off4_inb : ∀ (i : grid2.Coords) (k2_t1 : Fin k2_t1_loop.trips), ∀ (k2_h1 : k2_cond1 i = 1#1), ∀ a, (k2_off4 k2_t1) a + S1x16.size a ≤ S32x1024.size a
  k2_off5_inb : ∀ (i : grid2.Coords) (k2_t1 : Fin k2_t1_loop.trips), ∀ (k2_h1 : k2_cond1 i = 1#1), ∀ a, (k2_off5 k2_t1) a + S1x16.size a ≤ S32x1024.size a
  k2_off6_inb : ∀ (i : grid2.Coords) (k2_t1 : Fin k2_t1_loop.trips), ∀ (k2_h1 : k2_cond1 i = 1#1), ∀ a, (k2_off6 k2_t1) a + S1x16.size a ≤ S32x1024.size a
  k2_off7_inb : ∀ (i : grid2.Coords) (k2_t1 : Fin k2_t1_loop.trips), ∀ (k2_h1 : k2_cond1 i = 1#1), ∀ a, (k2_off7 k2_t1) a + S1x16.size a ≤ S32x1024.size a
  k2_off8_inb : ∀ (i : grid2.Coords) (k2_t1 : Fin k2_t1_loop.trips), ∀ (k2_h1 : k2_cond1 i = 1#1), ∀ a, (k2_off8 k2_t1) a + S1x16.size a ≤ S32x1024.size a
  k2_off9_inb : ∀ (i : grid2.Coords) (k2_t1 : Fin k2_t1_loop.trips), ∀ (k2_h1 : k2_cond1 i = 1#1), ∀ a, (k2_off9 k2_t1) a + S1x16.size a ≤ S32x1024.size a
  k2_off10_inb : ∀ (i : grid2.Coords) (k2_t1 : Fin k2_t1_loop.trips), ∀ (k2_h1 : k2_cond1 i = 1#1), ∀ a, (k2_off10 k2_t1) a + S1x16.size a ≤ S32x1024.size a
  k2_off11_inb : ∀ (i : grid2.Coords) (k2_t1 : Fin k2_t1_loop.trips), ∀ (k2_h1 : k2_cond1 i = 1#1), ∀ a, (k2_off11 k2_t1) a + S1x16.size a ≤ S32x1024.size a
  k2_off12_inb : ∀ (i : grid2.Coords) (k2_t1 : Fin k2_t1_loop.trips), ∀ (k2_h1 : k2_cond1 i = 1#1), ∀ a, (k2_off12 k2_t1) a + S1x16.size a ≤ S32x1024.size a
  k2_off13_inb : ∀ (i : grid2.Coords) (k2_t1 : Fin k2_t1_loop.trips), ∀ (k2_h1 : k2_cond1 i = 1#1), ∀ a, (k2_off13 k2_t1) a + S1x16.size a ≤ S32x1024.size a
  k2_off14_inb : ∀ (i : grid2.Coords) (k2_t1 : Fin k2_t1_loop.trips), ∀ (k2_h1 : k2_cond1 i = 1#1), ∀ a, (k2_off14 k2_t1) a + S1x16.size a ≤ S32x1024.size a
  k2_off15_inb : ∀ (i : grid2.Coords) (k2_t1 : Fin k2_t1_loop.trips), ∀ (k2_h1 : k2_cond1 i = 1#1), ∀ a, (k2_off15 k2_t1) a + S1x16.size a ≤ S32x1024.size a
  k2_off16_inb : ∀ (i : grid2.Coords) (k2_t1 : Fin k2_t1_loop.trips), ∀ (k2_h1 : k2_cond1 i = 1#1), ∀ a, (k2_off16 k2_t1) a + S1x16.size a ≤ S32x1024.size a
  k2_off17_inb : ∀ (i : grid2.Coords) (k2_t1 : Fin k2_t1_loop.trips), ∀ (k2_h1 : k2_cond1 i = 1#1), ∀ a, (k2_off17 k2_t1) a + S1x16.size a ≤ S32x1024.size a
  k2_off18_inb : ∀ (i : grid2.Coords) (k2_t1 : Fin k2_t1_loop.trips), ∀ (k2_h1 : k2_cond1 i = 1#1), ∀ a, (k2_off18 k2_t1) a + S1x16.size a ≤ S32x1024.size a
  k2_off19_inb : ∀ (i : grid2.Coords) (k2_t1 : Fin k2_t1_loop.trips), ∀ (k2_h1 : k2_cond1 i = 1#1), ∀ a, (k2_off19 k2_t1) a + S1x16.size a ≤ S32x1024.size a
  k2_off20_inb : ∀ (i : grid2.Coords) (k2_t1 : Fin k2_t1_loop.trips), ∀ (k2_h1 : k2_cond1 i = 1#1), ∀ a, (k2_off20 k2_t1) a + S1x16.size a ≤ S32x1024.size a
  k2_off21_inb : ∀ (i : grid2.Coords) (k2_t1 : Fin k2_t1_loop.trips), ∀ (k2_h1 : k2_cond1 i = 1#1), ∀ a, (k2_off21 k2_t1) a + S1x16.size a ≤ S32x1024.size a
  k2_off22_inb : ∀ (i : grid2.Coords) (k2_t1 : Fin k2_t1_loop.trips), ∀ (k2_h1 : k2_cond1 i = 1#1), ∀ a, (k2_off22 k2_t1) a + S1x16.size a ≤ S32x1024.size a
  k2_off23_inb : ∀ (i : grid2.Coords) (k2_t1 : Fin k2_t1_loop.trips), ∀ (k2_h1 : k2_cond1 i = 1#1), ∀ a, (k2_off23 k2_t1) a + S1x16.size a ≤ S32x1024.size a
  k2_off24_inb : ∀ (i : grid2.Coords) (k2_t1 : Fin k2_t1_loop.trips), ∀ (k2_h1 : k2_cond1 i = 1#1), ∀ a, (k2_off24 k2_t1) a + S1x16.size a ≤ S32x1024.size a
  k2_off25_inb : ∀ (i : grid2.Coords) (k2_t1 : Fin k2_t1_loop.trips), ∀ (k2_h1 : k2_cond1 i = 1#1), ∀ a, (k2_off25 k2_t1) a + S1x16.size a ≤ S32x1024.size a
  k2_off26_inb : ∀ (i : grid2.Coords) (k2_t1 : Fin k2_t1_loop.trips), ∀ (k2_h1 : k2_cond1 i = 1#1), ∀ a, (k2_off26 k2_t1) a + S1x16.size a ≤ S32x1024.size a
  k2_off27_inb : ∀ (i : grid2.Coords) (k2_t1 : Fin k2_t1_loop.trips), ∀ (k2_h1 : k2_cond1 i = 1#1), ∀ a, (k2_off27 k2_t1) a + S1x16.size a ≤ S32x1024.size a
  k2_off28_inb : ∀ (i : grid2.Coords) (k2_t1 : Fin k2_t1_loop.trips), ∀ (k2_h1 : k2_cond1 i = 1#1), ∀ a, (k2_off28 k2_t1) a + S1x16.size a ≤ S32x1024.size a
  k2_off29_inb : ∀ (i : grid2.Coords) (k2_t1 : Fin k2_t1_loop.trips), ∀ (k2_h1 : k2_cond1 i = 1#1), ∀ a, (k2_off29 k2_t1) a + S1x16.size a ≤ S32x1024.size a
  k2_off30_inb : ∀ (i : grid2.Coords) (k2_t1 : Fin k2_t1_loop.trips), ∀ (k2_h1 : k2_cond1 i = 1#1), ∀ a, (k2_off30 k2_t1) a + S1x16.size a ≤ S32x1024.size a
  k2_off31_inb : ∀ (i : grid2.Coords) (k2_t1 : Fin k2_t1_loop.trips), ∀ (k2_h1 : k2_cond1 i = 1#1), ∀ a, (k2_off31 k2_t1) a + S1x16.size a ≤ S32x1024.size a
  k2_off32_inb : ∀ (i : grid2.Coords) (k2_t1 : Fin k2_t1_loop.trips), ∀ (k2_h1 : k2_cond1 i = 1#1), ∀ a, (k2_off32 k2_t1) a + S1x16.size a ≤ S32x1024.size a
  k2_off33_inb : ∀ (i : grid2.Coords) (k2_t1 : Fin k2_t1_loop.trips), ∀ (k2_h1 : k2_cond1 i = 1#1), ∀ a, (k2_off33 k2_t1) a + S1x16.size a ≤ S32x1024.size a
  k2_off34_inb : ∀ (i : grid2.Coords) (k2_t1 : Fin k2_t1_loop.trips), ∀ (k2_h1 : k2_cond1 i = 1#1), ∀ a, (k2_off34 k2_t1) a + S1x16.size a ≤ S16x1024.size a
  k2_off35_inb : ∀ (i : grid2.Coords) (k2_t1 : Fin k2_t1_loop.trips), ∀ (k2_h1 : k2_cond1 i = 1#1), ∀ a, (k2_off35 k2_t1) a + S1x16.size a ≤ S16x1024.size a
  k2_off36_inb : ∀ (i : grid2.Coords) (k2_t1 : Fin k2_t1_loop.trips), ∀ (k2_h1 : k2_cond1 i = 1#1), ∀ a, (k2_off36 k2_t1) a + S1x16.size a ≤ S16x1024.size a
  k2_off37_inb : ∀ (i : grid2.Coords) (k2_t1 : Fin k2_t1_loop.trips), ∀ (k2_h1 : k2_cond1 i = 1#1), ∀ a, (k2_off37 k2_t1) a + S1x16.size a ≤ S16x1024.size a
  k2_off38_inb : ∀ (i : grid2.Coords) (k2_t1 : Fin k2_t1_loop.trips), ∀ (k2_h1 : k2_cond1 i = 1#1), ∀ a, (k2_off38 k2_t1) a + S1x16.size a ≤ S16x1024.size a
  k2_off39_inb : ∀ (i : grid2.Coords) (k2_t1 : Fin k2_t1_loop.trips), ∀ (k2_h1 : k2_cond1 i = 1#1), ∀ a, (k2_off39 k2_t1) a + S1x16.size a ≤ S16x1024.size a
  k2_off40_inb : ∀ (i : grid2.Coords) (k2_t1 : Fin k2_t1_loop.trips), ∀ (k2_h1 : k2_cond1 i = 1#1), ∀ a, (k2_off40 k2_t1) a + S1x16.size a ≤ S16x1024.size a
  k2_off41_inb : ∀ (i : grid2.Coords) (k2_t1 : Fin k2_t1_loop.trips), ∀ (k2_h1 : k2_cond1 i = 1#1), ∀ a, (k2_off41 k2_t1) a + S1x16.size a ≤ S16x1024.size a
  k2_off42_inb : ∀ (i : grid2.Coords) (k2_t1 : Fin k2_t1_loop.trips), ∀ (k2_h1 : k2_cond1 i = 1#1), ∀ a, (k2_off42 k2_t1) a + S1x16.size a ≤ S16x1024.size a
  k2_off43_inb : ∀ (i : grid2.Coords) (k2_t1 : Fin k2_t1_loop.trips), ∀ (k2_h1 : k2_cond1 i = 1#1), ∀ a, (k2_off43 k2_t1) a + S1x16.size a ≤ S16x1024.size a
  k2_off44_inb : ∀ (i : grid2.Coords) (k2_t1 : Fin k2_t1_loop.trips), ∀ (k2_h1 : k2_cond1 i = 1#1), ∀ a, (k2_off44 k2_t1) a + S1x16.size a ≤ S16x1024.size a
  k2_off45_inb : ∀ (i : grid2.Coords) (k2_t1 : Fin k2_t1_loop.trips), ∀ (k2_h1 : k2_cond1 i = 1#1), ∀ a, (k2_off45 k2_t1) a + S1x16.size a ≤ S16x1024.size a
  k2_off46_inb : ∀ (i : grid2.Coords) (k2_t1 : Fin k2_t1_loop.trips), ∀ (k2_h1 : k2_cond1 i = 1#1), ∀ a, (k2_off46 k2_t1) a + S1x16.size a ≤ S16x1024.size a
  k2_off47_inb : ∀ (i : grid2.Coords) (k2_t1 : Fin k2_t1_loop.trips), ∀ (k2_h1 : k2_cond1 i = 1#1), ∀ a, (k2_off47 k2_t1) a + S1x16.size a ≤ S16x1024.size a
  k2_off48_inb : ∀ (i : grid2.Coords) (k2_t1 : Fin k2_t1_loop.trips), ∀ (k2_h1 : k2_cond1 i = 1#1), ∀ a, (k2_off48 k2_t1) a + S1x16.size a ≤ S16x1024.size a
  k2_off49_inb : ∀ (i : grid2.Coords) (k2_t1 : Fin k2_t1_loop.trips), ∀ (k2_h1 : k2_cond1 i = 1#1), ∀ a, (k2_off49 k2_t1) a + S1x16.size a ≤ S16x1024.size a

variable [Facts₀]

abbrev cc0_scoped0 : DmaSems sig S_ := SemArray.consecutive 0 S_ hcc0_scoped0
abbrev cc0_scoped1 : DmaSems sig S_ := SemArray.consecutive 1 S_ hcc0_scoped1
abbrev cc0_scoped2 : DmaSems sig S_ := SemArray.consecutive 2 S_ hcc0_scoped2
abbrev cc2_scoped0 : DmaSems sig S_ := SemArray.consecutive 7 S_ hcc2_scoped0
abbrev cc2_scoped1 : DmaSems sig S_ := SemArray.consecutive 8 S_ hcc2_scoped1
abbrev cc2_scoped2 : DmaSems sig S_ := SemArray.consecutive 9 S_ hcc2_scoped2
abbrev cc2_scoped3 : DmaSems sig S_ := SemArray.consecutive 10 S_ hcc2_scoped3
def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf

abbrev win1_0 : Pipeline.Window sig grid1 :=
  Pipeline.Window.ofSpec (Memref.whole main_arg0) S1024x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S16x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v12) S1x1024.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S16384x16 : Shape := ⟨2, ![16384, 16]⟩
abbrev S1000x16 : Shape := ⟨2, ![1000, 16]⟩
abbrev S_ : Shape := ⟨0, ![]⟩
abbrev S16384x1x16 : Shape := ⟨3, ![16384, 1, 16]⟩
abbrev S1x1000x16 : Shape := ⟨3, ![1, 1000, 16]⟩
abbrev S16384x1000x16 : Shape := ⟨3, ![16384, 1000, 16]⟩
abbrev S16384x1000 : Shape := ⟨2, ![16384, 1000]⟩
abbrev S1000 : Shape := ⟨1, ![1000]⟩

abbrev nBuf : Space → Nat
  | .hbm => 19
  | .vmem => 0
  | .smem => 0
  | _ => 0

abbrev bufTy : (tb : Table) → Fin (tcTables nBuf tb) → BufTy
  | .hbm, ⟨0, _⟩ => ⟨S16384x16, .f32⟩
  | .hbm, ⟨1, _⟩ => ⟨S1000x16, .f32⟩
  | .hbm, ⟨2, _⟩ => ⟨S_, .i32⟩
  | .hbm, ⟨3, _⟩ => ⟨S16384x1x16, .f32⟩
  | .hbm, ⟨4, _⟩ => ⟨S1x1000x16, .f32⟩
  | .hbm, ⟨5, _⟩ => ⟨S16384x1000x16, .f32⟩
  | .hbm, ⟨6, _⟩ => ⟨S16384x1000x16, .f32⟩
  | .hbm, ⟨7, _⟩ => ⟨S16384x1000x16, .f32⟩
  | .hbm, ⟨8, _⟩ => ⟨S16384x1000x16, .f32⟩
  | .hbm, ⟨9, _⟩ => ⟨S_, .f32⟩
  | .hbm, ⟨10, _⟩ => ⟨S16384x1000, .f32⟩
  | .hbm, ⟨11, _⟩ => ⟨S16384x1000, .f32⟩
  | .hbm, ⟨12, _⟩ => ⟨S16384x1000, .f32⟩
  | .hbm, ⟨13, _⟩ => ⟨S_, .f32⟩
  | .hbm, ⟨14, _⟩ => ⟨S1000, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | _, _ => ⟨S16384x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩

abbrev nD : Nat := 1
abbrev τ : Topo := Topo.v7x

variable {F : FTy → Type} [FloatOps F]

class Facts₀ : Prop where
  bcast_S16384x16_S16384x1x16_0_2 : S16384x16.BroadcastsInDim S16384x1x16 (![0, 2] : Fin 2 → Fin S16384x1x16.rank)
  bcast_S1000x16_S1x1000x16_1_2 : S1000x16.BroadcastsInDim S1x1000x16 (![1, 2] : Fin 2 → Fin S1x1000x16.rank)
  bcast_S16384x1x16_S16384x1000x16_0_1_2 : S16384x1x16.BroadcastsInDim S16384x1000x16 (![0, 1, 2] : Fin 3 → Fin S16384x1000x16.rank)
  bcast_S1x1000x16_S16384x1000x16_0_1_2 : S1x1000x16.BroadcastsInDim S16384x1000x16 (![0, 1, 2] : Fin 3 → Fin S16384x1000x16.rank)
  reducesTo_S16384x1000x16_S16384x1000_d2 : S16384x1000x16.ReducesTo [2] S16384x1000
  h_S_ : 0 < S_.numel
  reducesTo_S16384x1000_S1000_d0 : S16384x1000.ReducesTo [0] S1000
  reducesTo_S1000_S_d0 : S1000.ReducesTo [0] S_

variable [Facts₀]

class Facts : Prop extends Facts₀ where

variable [Facts]
-- ==== Proof.Spec.lean ====
/-
  The mathematics of the claim, over the reals. With `z` of 16384 rows and `e` of 1000 rows, 16 columns each,
  the reference is the mean over `m` of the least squared distance `‖z_b - e_m‖²` over all `b`. The kernel
  drops the term `‖e_m‖²` (it does not depend on `b`) from the minimum and adds it back afterwards:
  `D b m = ‖z_b‖² + Σ_j (-2 e_mj) z_bj`, minimised over the first 1024 rows in 32 groups of 32 (one group per tile)
  and over the remaining 15360 rows by the matrix unit; the final sum is scaled by `1/1000`.
  The formulas only; the proofs that the two agree are in RefValue.lean.
-/
import Idealize.ShloMosaic.PureOps.Ideal

noncomputable section

namespace Cert.Proof.Spec

/-- The squared distance of row `b` of `z` to row `m` of `e`, without `‖e_m‖²`. -/
def D (zr : Fin 16384 → Fin 16 → ℝ) (er : Fin 1000 → Fin 16 → ℝ) (b : Fin 16384) (mm : Fin 1000) : ℝ :=
  (∑ j, zr b j * zr b j) + ∑ j, (-2 * er mm j) * zr b j
/-- `‖e_m‖²`. -/
def en (er : Fin 1000 → Fin 16 → ℝ) (mm : Fin 1000) : ℝ := ∑ j, er mm j * er mm j
/-- Row `32 w + p`: point `p` of the slab tile `w` works on. -/
def scIdx (w : Fin 32) (p : Fin 32) : Fin 16384 := ⟨32 * w.val + p.val, by omega⟩
/-- Row `1024 + b`: the rows the matrix unit covers. -/
def tcIdx (b : Fin 15360) : Fin 16384 := ⟨1024 + b.val, by omega⟩
/-- What tile `w` leaves at column `m` of its row of partial minima. -/
def minSC (zr : Fin 16384 → Fin 16 → ℝ) (er : Fin 1000 → Fin 16 → ℝ) (w : Fin 32) (mm : Fin 1000) : ℝ :=
  Finset.univ.inf' Finset.univ_nonempty fun p : Fin 32 => D zr er (scIdx w p) mm
/-- What the matrix unit's pipeline leaves at column `m` of its row of minima. -/
def minTC (zr : Fin 16384 → Fin 16 → ℝ) (er : Fin 1000 → Fin 16 → ℝ) (mm : Fin 1000) : ℝ :=
  Finset.univ.inf' Finset.univ_nonempty fun b : Fin 15360 => D zr er (tcIdx b) mm
/-- The kernel's result: per column the least of the 32 tiles' minima and the pipeline's, plus `‖e_m‖²`, summed, times `1/1000`. -/
def kerReal (zr : Fin 16384 → Fin 16 → ℝ) (er : Fin 1000 → Fin 16 → ℝ) : ℝ :=
  (∑ mm : Fin 1000, (min (Finset.univ.inf' Finset.univ_nonempty fun w : Fin 32 => minSC zr er w mm) (minTC zr er mm) + en er mm)) * (1 / 1000)
/-- The reference's result: the mean over `m` of the least `‖z_b - e_m‖²`. -/
def refReal (zr : Fin 16384 → Fin 16 → ℝ) (er : Fin 1000 → Fin 16 → ℝ) : ℝ :=
  (∑ mm : Fin 1000, Finset.univ.inf' Finset.univ_nonempty fun b : Fin 16384 => ∑ j, (zr b j - er mm j) * (zr b j - er mm j)) / 1000

end Cert.Proof.Spec

end
-- ==== Proof.RefImports.lean ====
/- The reference's run read back, and its read-at-an-index lemmas: the two generated modules the value side builds on. -/
import proofs.«209935_g88441966559691_cont_sun_c4_661_34_alg».proof.Proof.Gen.ReferenceIdeal.Run
import proofs.«209935_g88441966559691_cont_sun_c4_661_34_alg».proof.Proof.Gen.ReferenceIdeal.Read
-- ==== Proof.RefValue.lean ====
/-
  The reference read as a real number. With every entry of `z` and `e` a real, each stage of the reference
  is the textbook operation on reals: the difference and its square column by column, the sum over the 16 columns,
  the square root of a sum of squares (which is not negative) squared again, the least value over the 16384 rows
  (the initial `+∞` never wins against a real), the sum over the 1000 rows of `e` and the quotient by 1000.
  Also here: the precondition makes every entry of both arrays finite.
-/
import proofs.«209935_g88441966559691_cont_sun_c4_661_34_alg».proof.Proof.Spec
import proofs.«209935_g88441966559691_cont_sun_c4_661_34_alg».proof.Proof.RefImports
import proofs.«209935_g88441966559691_cont_sun_c4_661_34_alg».proof.Proof.Gen.Pre_input_domain
import Idealize.ShloMosaic.Lib.ReduceAll
import Idealize.ShloMosaic.Lib.ValueIdx
import Idealize.ShloMosaic.PureOps.Ideal.Laws

noncomputable section

namespace Cert.Proof.Ref

open Idealize.ShloMosaic Idealize.ShloMosaic.TcCoe Idealize.SL.Sem Idealize.ShloMosaic.ValueIdx
open Cert.ReferenceIdeal Cert.ReferenceIdeal.Gen Cert.ReferenceIdeal.Read
open Cert.Proof.Spec

/-! ## The constants -/

/-- The pattern `0x7F800000` is `+∞`. -/
theorem ofBits_inf : Ideal.ofBits .f32 0x7F800000#32 = ⊤ := by
  simp [Ideal.ofBits, Ideal.ieee]

/-- The pattern `0x447A0000` is the real 1000. -/
theorem ofBits_1000 : Ideal.ofBits .f32 0x447A0000#32 = ((1000 : ℝ) : EReal) := by
  simp [Ideal.ofBits, Ideal.ieee, -EReal.coe_mul]; norm_num

/-! ## Sums and least values of reals among the extended reals -/

/-- A finite sum of reals, read among the extended reals, is the sum of the readings. -/
theorem coe_sum {ι : Type} (s : Finset ι) (f : ι → ℝ) : ((∑ i ∈ s, f i : ℝ) : EReal) = ∑ i ∈ s, ((f i : ℝ) : EReal) :=
  map_sum (⟨⟨Real.toEReal, EReal.coe_zero⟩, EReal.coe_add⟩ : ℝ →+ EReal) f s

/-- Folding `min` from `+∞` over a nonempty finite family of reals gives the least of them. -/
theorem fold_min_top_coe {ι : Type} (s : Finset ι) (hs : s.Nonempty) (g : ι → ℝ) :
    s.fold min (⊤ : EReal) (fun i => ((g i : ℝ) : EReal)) = ((s.inf' hs g : ℝ) : EReal) := by
  apply le_antisymm
  · obtain ⟨i, hi, hmin⟩ := Finset.exists_mem_eq_inf' hs g
    rw [hmin]
    exact (Finset.fold_min_le _).mpr (Or.inr ⟨i, hi, le_rfl⟩)
  · exact (Finset.le_fold_min _).mpr ⟨le_top, fun i hi => EReal.coe_le_coe_iff.mpr (Finset.inf'_le g hi)⟩

/-- A sum over the indices of a one-axis shape is the sum over the axis's coordinates. -/
theorem sum_idx1 {M : Type} [AddCommMonoid M] {n : Nat} (f : (⟨1, ![n]⟩ : Shape).Idx → M) :
    ∑ i, f i = ∑ a : Fin n, f (ix1 a) :=
  Fintype.sum_equiv ⟨fun i => i 0, ix1, fun i => (eq_ix1 i).symm, fun _ => rfl⟩ f (fun a => f (ix1 a))
    (fun i => congrArg f (eq_ix1 i))

/-! ## The stages, at an index -/

section Stages

variable (x0 : (⟨S16384x16, .f32⟩ : BufTy).Contents (Elt Ideal)) (x1 : (⟨S1000x16, .f32⟩ : BufTy).Contents (Elt Ideal))
  (zr : Fin 16384 → Fin 16 → ℝ) (er : Fin 1000 → Fin 16 → ℝ)
  (hz : ∀ b j, x0 (ix2 b j) = ((zr b j : ℝ) : EReal)) (he : ∀ mm j, x1 (ix2 mm j) = ((er mm j : ℝ) : EReal))

include hz he

/-- The difference at `(b, m, k)` is `z_bk - e_mk`. -/
theorem v4_at (b : Fin 16384) (mm : Fin 1000) (k : Fin 16) :
    val_main_v4 (F := Ideal) x0 x1 (ix3 b mm k) = ((zr b k - er mm k : ℝ) : EReal) := by
  have e0 : idx_main_v0 (idx_main_v2 (ix3 b mm k)) = ix2 b k :=
    funext fun a => by match a with | ⟨0, _⟩ => rfl | ⟨1, _⟩ => rfl
  have e1 : idx_main_v1 (idx_main_v3 (ix3 b mm k)) = ix2 mm k :=
    funext fun a => by match a with | ⟨0, _⟩ => rfl | ⟨1, _⟩ => rfl
  rw [val_main_v4_apply, val_main_v2_apply, val_main_v0_apply, val_main_v3_apply, val_main_v1_apply, e0, e1, hz, he,
    Ideal.subf_def, EReal.coe_sub]

/-- Its square. -/
theorem v5_at (b : Fin 16384) (mm : Fin 1000) (k : Fin 16) :
    val_main_v5 (F := Ideal) x0 x1 (ix3 b mm k) = (((zr b k - er mm k) * (zr b k - er mm k) : ℝ) : EReal) := by
  rw [val_main_v5_apply, v4_at x0 x1 zr er hz he, Ideal.mulf_def, EReal.coe_mul]

/-- The sum of the squares over the 16 columns: the squared distance of row `b` of `z` to row `m` of `e`. -/
theorem v6_at (b : Fin 16384) (mm : Fin 1000) :
    val_main_v6 (F := Ideal) x0 x1 (ix2 b mm) = ((∑ j, (zr b j - er mm j) * (zr b j - er mm j) : ℝ) : EReal) := by
  have e : ∀ k : Fin 16, idx_main_v6 (ix2 b mm) k = ix3 b mm k := fun k =>
    funext fun a => by match a with | ⟨0, _⟩ => rfl | ⟨1, _⟩ => rfl | ⟨2, _⟩ => rfl
  rw [val_main_v6_apply, val_main_cst_apply, Ideal.ofBits_def, Ideal.ofBits_zero_f32, zero_add, coe_sum]
  exact Finset.sum_congr rfl fun k _ => by rw [e k, v5_at x0 x1 zr er hz he]

omit hz he in
theorem sqdist_nonneg (b : Fin 16384) (mm : Fin 1000) : 0 ≤ ∑ j, (zr b j - er mm j) * (zr b j - er mm j) :=
  Finset.sum_nonneg fun j _ => mul_self_nonneg _

/-- The square root of the squared distance, squared, is the squared distance: it is not negative. -/
theorem v8_at (b : Fin 16384) (mm : Fin 1000) :
    val_main_v8 (F := Ideal) x0 x1 (ix2 b mm) = ((∑ j, (zr b j - er mm j) * (zr b j - er mm j) : ℝ) : EReal) := by
  rw [val_main_v8_apply, val_main_v7_apply, v6_at x0 x1 zr er hz he, Ideal.hostUnary_sqrt_def, Ideal.sqrt_coe,
    if_neg (not_lt.mpr (sqdist_nonneg zr er b mm)), Ideal.mulf_def, ← EReal.coe_mul,
    Real.mul_self_sqrt (sqdist_nonneg zr er b mm)]

omit hz he in
/-- Column `m` of the minimum, with row `k` put back, is the entry `(k, m)`. -/
theorem lift_row (h : S16384x1000.Reduces [0] S1000) (mm : Fin 1000) (k : Fin (S16384x1000.size 0)) :
    h.lift (ix1 mm) k = ix2 (⟨k.val, k.isLt⟩ : Fin 16384) mm := by
  funext c; apply Fin.ext
  fin_cases c <;> rfl

/-- The minimum over the rows of `z`, at column `m`: the least squared distance to row `m` of `e`. -/
theorem v9_at (mm : Fin 1000) :
    val_main_v9 (F := Ideal) x0 x1 (ix1 mm)
      = ((Finset.univ.inf' Finset.univ_nonempty fun b : Fin 16384 => ∑ j, (zr b j - er mm j) * (zr b j - er mm j) : ℝ) : EReal) := by
  have h : S16384x1000.Reduces [0] S1000 := by decide
  unfold val_main_v9
  rw [Host.reduce_eq_fold_single FloatOps.minimumf _ _ reducesTo_S16384x1000_S1000_d0 h h_S_, val_main_cst_0_apply,
    Ideal.ofBits_def, ofBits_inf]
  have hf : (val_main_v8 (F := Ideal) x0 x1 ∘ h.lift (ix1 mm))
      = fun k : Fin 16384 => ((∑ j, (zr k j - er mm j) * (zr k j - er mm j) : ℝ) : EReal) :=
    funext fun k => by
      show val_main_v8 (F := Ideal) x0 x1 (h.lift (ix1 mm) k) = _
      rw [lift_row h mm k]
      exact v8_at x0 x1 zr er hz he _ mm
  exact (congrArg (fun f => Finset.fold min (⊤ : EReal) f (Finset.univ : Finset (Fin 16384))) hf).trans
    (fold_min_top_coe _ _ _)

/-- The sum of the 1000 minima. -/
theorem v10_at (i : S_.Idx) :
    val_main_v10 (F := Ideal) x0 x1 i
      = ((∑ mm : Fin 1000, Finset.univ.inf' Finset.univ_nonempty fun b : Fin 16384 =>
            ∑ j, (zr b j - er mm j) * (zr b j - er mm j) : ℝ) : EReal) := by
  rw [val_main_v10_apply, val_main_cst_1_apply, Ideal.ofBits_def, Ideal.ofBits_zero_f32, zero_add, coe_sum, sum_idx1]
  exact Finset.sum_congr rfl fun mm _ => v9_at x0 x1 zr er hz he mm

/-- The reference's result is `refReal` of the real copies of its arguments. -/
theorem val_v11 : val_main_v11 (F := Ideal) x0 x1 = fun _ => ((refReal zr er : ℝ) : EReal) := by
  funext i
  rw [val_main_v11_apply, v10_at x0 x1 zr er hz he, val_main_cst_2_apply, Ideal.ofBits_def, ofBits_1000, Ideal.hostDivf_def,
    Ideal.div_coe (by norm_num : (1000 : ℝ) ≠ 0), ← EReal.coe_mul]
  unfold refReal
  exact congrArg Real.toEReal (div_eq_mul_one_div _ _).symm

end Stages

/-! ## The run -/

/-- From a memory whose first two arguments hold the reals `zr`, `er`, the reference ends with `refReal zr er` in
    its result and its arguments unchanged. -/
theorem ref_run (m : (ℓ : Loc nD τ sig) → Buf (Elt Ideal) ℓ) (ρ : Dev nD → PrngReg)
    (zr : Fin 16384 → Fin 16 → ℝ) (er : Fin 1000 → Fin 16 → ℝ)
    (hz : ∀ (c : Dev nD) (b : Fin 16384) (j : Fin 16),
      (m ((c.tc : Thread nD τ).loc main_arg0) : S16384x16.Idx → EReal) (ix2 b j) = ((zr b j : ℝ) : EReal))
    (he : ∀ (c : Dev nD) (mm : Fin 1000) (j : Fin 16),
      (m ((c.tc : Thread nD τ).loc main_arg1) : S1000x16.Idx → EReal) (ix2 mm j) = ((er mm j : ℝ) : EReal)) :
    θ_run (Cert.ReferenceIdeal.defs (F := Ideal)) (onTc (τ := Cert.ReferenceIdeal.τ) (Cert.ReferenceIdeal.main (F := Ideal)))
      ⟨m, fun _ => 0, ρ⟩ (fun r => ∀ c : Dev nD,
        r.2.mem ((c.tc : Thread nD τ).loc main_v11) = (fun _ => ((refReal zr er : ℝ) : EReal))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)) :=
  (θ_run Cert.ReferenceIdeal.defs _ _).mono
    (fun _ h c => ⟨(h c).1.trans ((val_main_v11_eq (F := Ideal) _ _).trans (val_v11 _ _ zr er (hz c) (he c))), (h c).2⟩)
    (Cert.ReferenceIdeal.Value.run (F := Ideal) m ρ)

/-! ## The precondition makes every entry finite -/

instance : Subsingleton Cert.Pre_input_domain.S_.Idx := ⟨fun a b => funext fun d => d.elim0⟩

/-- An extended real whose absolute value is below `+∞` is a real. -/
theorem real_of_abs_lt_inf (x : EReal)
    (h : FloatOps.cmpf (F := Ideal) (φ := .f32) .olt (FloatOps.hostAbsf x) (FloatOps.ofBits .f32 0x7F800000#32) = 1#1) :
    ∃ r : ℝ, x = (r : EReal) := by
  have h' : max x (-x) < (⊤ : EReal) := by
    by_contra hn
    have h2 : BitVec.ofBool (decide (max x (-x) < Ideal.ofBits .f32 0x7F800000#32)) = 1#1 := h
    rw [ofBits_inf, decide_eq_false hn] at h2
    exact absurd h2 (by decide)
  induction x using EReal.rec with
  | bot => simp at h'
  | top => simp at h'
  | coe r => exact ⟨r, rfl⟩

/-- Under the precondition every entry of `z` and of `e` is a real. -/
theorem finite_of_pre [Cert.Pre_input_domain.Facts] (z : FVec Ideal Cert.Pre_input_domain.S16384x16 .f32)
    (e : FVec Ideal Cert.Pre_input_domain.S1000x16 .f32) (M : IVec Cert.Pre_input_domain.S_ 32)
    (h : Cert.Pre_input_domain.fn (F := Ideal) z e M = fun _ => 1#1) :
    (∀ i, ∃ r : ℝ, z i = (r : EReal)) ∧ (∀ i, ∃ r : ℝ, e i = (r : EReal)) := by
  have h0 := congrFun h ix0
  dsimp only [Cert.Pre_input_domain.fn, andi] at h0
  obtain ⟨h1, _⟩ := IntOp.andi_eq_one.1 h0
  obtain ⟨hz, he⟩ := IntOp.andi_eq_one.1 h1
  refine ⟨fun i => real_of_abs_lt_inf (z i) ?_, fun i => real_of_abs_lt_inf (e i) ?_⟩
  · exact Host.reduce_andi_all _ _ _ _ ix0 hz i
  · exact Host.reduce_andi_all _ _ _ _ ix0 he i

end Cert.Proof.Ref

end
-- ==== Proof.Iface.lean ====
/-
  What every module of this proof shares: the program as the SparseCore launch theorem reads it (two vector-subcore
  calls around one TensorCore pipeline), the launch facts, and the ghost state: the handshakes' rounds, the
  pipeline's staging cells' rounds, and the transfer counters the tiles' local copies use.
-/
import proofs.«209935_g88441966559691_cont_sun_c4_661_34_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«209935_g88441966559691_cont_sun_c4_661_34_alg».proof.Proof.Gen.KernelIdeal
import proofs.«209935_g88441966559691_cont_sun_c4_661_34_alg».proof.Proof.Gen.KernelIdeal.Skeleton
import proofs.«209935_g88441966559691_cont_sun_c4_661_34_alg».proof.Proof.Gen.KernelIdeal.Launch
import proofs.«209935_g88441966559691_cont_sun_c4_661_34_alg».proof.Proof.Gen.KernelIdeal.Points

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 2 := sc (F := F)
theorem nCore_eq (q : Fin 2) : (K (F := F)).nCore q = 2 := by fin_cases q <;> rfl
theorem nSub_eq (q : Fin 2) : (K (F := F)).nSub q = 16 := by fin_cases q <;> rfl
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := UR sig nD τ
abbrev UU : Type := UH × (UP × Counters)

abbrev 𝕄F (F : FTy → Type) : Type := MT nD τ sig (HIx 2) (Elt F) ℕ UU ℕ

/-- The handshakes' rounds: the left factor. -/
abbrev EH : Emb UH (𝕄F F) := embL
/-- The pipeline's staging cells' rounds: the left of the right factor. -/
def EP : Emb UP (𝕄F F) := (Emb.inl : Emb UP (UP × Counters)).trans embR

instance EP_landsIn : (EP : Emb UP (𝕄F F)).LandsIn (upEmb : UEmb _ (𝕄F F)) := by unfold EP; infer_instance

end Cert.Proof.KI

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

local notation "𝕄" => MT nD τ sig (HIx 2) (Elt F) ℕ UU ℕ

/-! ## The arrays the three calls touch, as locations of device `d` -/

/-- The two arguments `z` and `e`. -/
abbrev a0Loc (d : Dev nD) : Loc nD τ sig := (SparseCore.T d).loc main_arg0
abbrev a1Loc (d : Dev nD) : Loc nD τ sig := (SparseCore.T d).loc main_arg1
/-- The first 1024 rows of `z`, transposed and cut into 32 slabs of 16 × 32; `-2 e` flattened; the padded `e` transposed. -/
abbrev ztLoc (d : Dev nD) : Loc nD τ sig := (SparseCore.T d).loc main_v3
abbrev e2Loc (d : Dev nD) : Loc nD τ sig := (SparseCore.T d).loc main_v6
abbrev etLoc (d : Dev nD) : Loc nD τ sig := (SparseCore.T d).loc main_v8
/-- The tiles' partial minima (32 × 1024), the TensorCore's row of minima (1024), the result vector (16). -/
abbrev ptLoc (d : Dev nD) : Loc nD τ sig := (SparseCore.T d).loc main_v11
abbrev tcLoc (d : Dev nD) : Loc nD τ sig := (SparseCore.T d).loc main_v13
abbrev ouLoc (d : Dev nD) : Loc nD τ sig := (SparseCore.T d).loc main_v14

/-! ## The slab of `zt` and the row of the partial minima that tile `w` is handed -/

theorem hdivZ : 32 ∣ S32x16x32.size 0 := ⟨1, rfl⟩
theorem hdivP : 32 ∣ S32x1024.size 0 := ⟨1, rfl⟩
abbrev zRow (w : Fin 32) : Rect S32x16x32 := Rect.part (s := S32x16x32) (a₀ := 0) hdivZ w
abbrev pRow (w : Fin 32) : Rect S32x1024 := Rect.part (s := S32x1024) (a₀ := 0) hdivP w
abbrev zRowSet (w : Fin 32) : Finset S32x16x32.Idx := (zRow w).set
abbrev pRowSet (w : Fin 32) : Finset S32x1024.Idx := (pRow w).set

/-- Tile `(c, i)` works on slab `2 i + c`. -/
def wid (c : Fin 2) (i : Fin 16) : Fin 32 := ⟨2 * i.val + c.val, by omega⟩

/-! ## What the proof's parts agree on: the three host-computed operands and what each call leaves -/

/-- The contents of the host-computed operands when the calls start, and what each call's result satisfies: stated
    abstractly here; the stages' modules say what they are. -/
structure Vals (F : FTy → Type) where
  zt : (d : Dev nD) → Buf (Elt F) (ztLoc d)
  e2 : (d : Dev nD) → Buf (Elt F) (e2Loc d)
  et : (d : Dev nD) → Buf (Elt F) (etLoc d)
  /-- what tile `w` leaves in row `w` of the partial minima (a statement about that row only) -/
  post0 : (d : Dev nD) → Fin 32 → Buf (Elt F) (ptLoc d) → Prop
  /-- what the TensorCore pipeline leaves in its row of minima -/
  postTC : (d : Dev nD) → Buf (Elt F) (tcLoc d) → Prop
  /-- what the second call leaves in the result vector -/
  post2 : (d : Dev nD) → Buf (Elt F) (ouLoc d) → Prop

variable (X : Vals F)

/-- Call 0, tile on slab `w`: its slab of `zt`, a read share of `e2`, row `w` of the partial minima at any contents; -/
def go0 (d : Dev nD) (w : Fin 32) : sProp 𝕄 :=
  iprop((ztLoc d ↦[zRowSet w]{fullShare} X.zt d) ∗ (e2Loc d ↦{shareTok fullShare 32 w} X.e2 d) ∗ ∃ f, ptLoc d ↦[pRowSet w]{fullShare} f)
/-- back: the same, the row at contents satisfying the tile's post. -/
def td0 (d : Dev nD) (w : Fin 32) : sProp 𝕄 :=
  iprop((ztLoc d ↦[zRowSet w]{fullShare} X.zt d) ∗ (e2Loc d ↦{shareTok fullShare 32 w} X.e2 d) ∗ ∃ f, ⌜X.post0 d w f⌝ ∗ ptLoc d ↦[pRowSet w]{fullShare} f)
/-- Call 1, the one tile that works: the partial minima (every row at its post), the TensorCore's row, `et`, the result vector; -/
def go1 (d : Dev nD) : sProp 𝕄 :=
  iprop(∃ f tc, ⌜∀ w, X.post0 d w f⌝ ∗ ⌜X.postTC d tc⌝ ∗ (ptLoc d ↦{fullShare} f) ∗ (tcLoc d ↦{fullShare} tc) ∗ (etLoc d ↦{fullShare} X.et d) ∗ ∃ o, ouLoc d ↦{fullShare} o)
/-- back: the three operands at some contents, `et` kept, the result vector at its post. -/
def td1 (d : Dev nD) : sProp 𝕄 :=
  iprop((∃ f, ptLoc d ↦{fullShare} f) ∗ (∃ tc, tcLoc d ↦{fullShare} tc) ∗ (etLoc d ↦{fullShare} X.et d) ∗ ∃ o, ⌜X.post2 d o⌝ ∗ ouLoc d ↦{fullShare} o)

def goP (q : Fin 2) (d : Dev nD) (c : Fin ((K (F := F)).nCore q)) (i : Fin ((K (F := F)).nSub q)) : sProp 𝕄 :=
  match q with
  | 0 => go0 X d (wid (Fin.cast (nCore_eq 0) c) (Fin.cast (nSub_eq 0) i))
  | 1 => if c.val = 0 ∧ i.val = 0 then go1 X d else iprop(emp)
def tdP (q : Fin 2) (d : Dev nD) (c : Fin ((K (F := F)).nCore q)) (i : Fin ((K (F := F)).nSub q)) : sProp 𝕄 :=
  match q with
  | 0 => td0 X d (wid (Fin.cast (nCore_eq 0) c) (Fin.cast (nSub_eq 0) i))
  | 1 => if c.val = 0 ∧ i.val = 0 then td1 X d else iprop(emp)

/-- The handshakes' payloads: a SparseCore is handed exactly its tiles' pieces, so the split among the tiles is the identity. -/
def P : (K (F := F)).Pay (nD := nD) (Val := Elt F) (Name := ℕ) (U := UU) where
  st := fun q d c => bigSep Finset.univ fun i => goP X q d c i
  dn := fun q d c => bigSep Finset.univ fun i => tdP X q d c i
  go := goP X
  td := tdP X
  x := fun _ _ => iprop(emp)

instance goP_storable (q : Fin 2) (d : Dev nD) (c : Fin ((K (F := F)).nCore q)) (i : Fin ((K (F := F)).nSub q)) :
    BI.Storable (upEmb : UEmb _ 𝕄) (goP X q d c i) := by
  match q with
  | 0 => unfold goP go0; infer_instance
  | 1 => unfold goP go1; dsimp only; split <;> infer_instance
instance tdP_storable (q : Fin 2) (d : Dev nD) (c : Fin ((K (F := F)).nCore q)) (i : Fin ((K (F := F)).nSub q)) :
    BI.Storable (upEmb : UEmb _ 𝕄) (tdP X q d c i) := by
  match q with
  | 0 => unfold tdP td0; infer_instance
  | 1 => unfold tdP td1; dsimp only; split <;> infer_instance

instance P_storable : (P X).IsStorable where
  st q d c := by unfold P; dsimp only; infer_instance
  dn q d c := by unfold P; dsimp only; infer_instance
  go q d c i := by unfold P; dsimp only; infer_instance
  td q d c i := by unfold P; dsimp only; infer_instance

/-- The split of a SparseCore's operands among its tiles, and the gathering back: nothing to do. -/
theorem vecSplit (q : Fin 2) : (K (F := F)).VecSplit' (P X) q := by
  intro d c
  show (bigSep Finset.univ fun i => goP X q d c i) ⊢ |={Set.univ}=> iprop((bigSep Finset.univ fun i => goP X q d c i)
    ∗ ((bigSep Finset.univ fun i => tdP X q d c i) -∗ bigSep Finset.univ fun i => tdP X q d c i))
  iintro H; imodintro
  isplitl [H]; · iexact H
  iintro H; iexact H

end Cert.Proof.KI

end
-- ==== Proof.HostVal.lean ====
/-
  The contents of the operands the host computes before and between the three calls, as pure functions of the two
  arguments: the first 1024 rows of `z` transposed and cut into 32 slabs of 16 × 32, `-2 e` flattened, `e` padded to 1024
  rows and transposed, and `-2` times that; then the two reshapes of results. Each is the composition of the printed
  operations in the printed order, and is what the printed line of host operations leaves in its buffer. Then what each
  reads at an index: for every float instance where only the layout is involved, and below the marked line over the reals.
-/
import proofs.«209935_g88441966559691_cont_sun_c4_661_34_alg».proof.Proof.Iface
import proofs.«209935_g88441966559691_cont_sun_c4_661_34_alg».proof.Proof.Spec
import Idealize.ShloMosaic.Lib.KernelVsHost
import Idealize.ShloMosaic.Lib.IdealHost

noncomputable section

namespace Cert.Proof.HV

open Cert.KernelIdeal
open Cert.KernelIdeal.Facts₀
open Idealize.ShloMosaic
open Idealize.ShloMosaic.ValueIdx

variable {F : FTy → Type} [FloatOps F] [Named F]

/-! ## The slabs of `z`: slice, transpose, reshape, transpose -/

/-- The first 1024 rows of `z`. -/
def v0V (z : Vec F S16384x16 .f32) : Vec F S1024x16 .f32 :=
  extractStridedSlice S1024x16 ![0, 0] z slices_S16384x16_S1024x16_0_0
/-- Transposed: 16 × 1024. -/
def v1V (z : Vec F S16384x16 .f32) : Vec F S16x1024 .f32 :=
  transpose S16x1024 [1, 0] (v0V z) transposes_S1024x16_S16x1024_1_0
/-- Each row of 1024 cut into 32 runs of 32. -/
def v2V (z : Vec F S16384x16 .f32) : Vec F S16x32x32 .f32 :=
  shapeCast S16x32x32 (v1V z) shapeCasts_S16x1024_S16x32x32
/-- The run number brought to the front: slab `w` holds, per column `j`, rows `32 w … 32 w + 31` of `z`. -/
def ztV (z : Vec F S16384x16 .f32) : Vec F S32x16x32 .f32 :=
  transpose S32x16x32 [1, 0, 2] (v2V z) transposes_S16x32x32_S32x16x32_1_0_2

/-! ## `-2 e` flattened -/

/-- The constant `-2`, a scalar. -/
def cstV : Vec F S_ .f32 := constant S_ .f32 0xC0000000#32
/-- Broadcast to the shape of `e`. -/
def v4V : Vec F S1000x16 .f32 := broadcastInDim S1000x16 ![] bcast_S_S1000x16 (cstV (F := F))
/-- `-2 e`. -/
def v5V (e : Vec F S1000x16 .f32) : Vec F S1000x16 .f32 := mulf (v4V (F := F)) e
/-- Flattened in row-major order. -/
def e2V (e : Vec F S1000x16 .f32) : Vec F S16000 .f32 := shapeCast S16000 (v5V e) shapeCasts_S1000x16_S16000

/-! ## `e` padded to 1024 rows, transposed; and `-2` times it -/

/-- The integer constant zero, a scalar. -/
def cV : IVec S_ 32 := constantI S_ 32 0#32
/-- Converted to a float: the padding value. -/
def c0V : Vec F S_ .f32 := sitofp .f32 cV
/-- `e` with 24 rows of the padding value appended. -/
def v7V (e : Vec F S1000x16 .f32) : Vec F S1024x16 .f32 :=
  pad S1024x16 ![0, 0] ![24, 0] ![0, 0] e (c0V (F := F)) pads_S1000x16_S1024x16_0240_000 h_S_
/-- Transposed: 16 × 1024. -/
def etV (e : Vec F S1000x16 .f32) : Vec F S16x1024 .f32 :=
  transpose S16x1024 [1, 0] (v7V e) transposes_S1024x16_S16x1024_1_0
/-- The constant `-2` broadcast to 16 × 1024. -/
def v9V : Vec F S16x1024 .f32 := broadcastInDim S16x1024 ![] bcast_S_S16x1024 (cstV (F := F))
/-- `-2` times the padded transpose. -/
def v10V (e : Vec F S1000x16 .f32) : Vec F S16x1024 .f32 := mulf (v9V (F := F)) (etV e)

/-! ## The two results reshaped -/

/-- The pipeline's one row of minima as a vector. -/
def v13V (v12 : Vec F S1x1024 .f32) : Vec F S1024 .f32 := shapeCast S1024 v12 shapeCasts_S1x1024_S1024
/-- The first entry of the result vector … -/
def v15V (v14 : Vec F S16 .f32) : Vec F S1 .f32 := extractStridedSlice S1 ![0] v14 slices_S16_S1_0
/-- … as a scalar. -/
def v16V (v14 : Vec F S16 .f32) : Vec F S_ .f32 := shapeCast S_ (v15V v14) shapeCasts_S1_S_

/-! ## The printed lines of host operations, and what they leave -/

/-- The fifteen host operations that precede the first call, in the printed order. -/
def hostOps : List (HloOp τ sig (Elt F)) :=
  [ StableHlo.unary main_arg0 main_v0 ((extractStridedSlice S1024x16 ![0, 0] · slices_S16384x16_S1024x16_0_0) : (⟨S16384x16, .f32⟩ : BufTy).Contents (Elt F) → (⟨S1024x16, .f32⟩ : BufTy).Contents (Elt F)),
    StableHlo.unary main_v0 main_v1 ((transpose S16x1024 [1, 0] · transposes_S1024x16_S16x1024_1_0) : (⟨S1024x16, .f32⟩ : BufTy).Contents (Elt F) → (⟨S16x1024, .f32⟩ : BufTy).Contents (Elt F)),
    StableHlo.reshape main_v1 main_v2 rfl shapeCasts_S16x1024_S16x32x32,
    StableHlo.unary main_v2 main_v3 ((transpose S32x16x32 [1, 0, 2] · transposes_S16x32x32_S32x16x32_1_0_2) : (⟨S16x32x32, .f32⟩ : BufTy).Contents (Elt F) → (⟨S32x16x32, .f32⟩ : BufTy).Contents (Elt F)),
    StableHlo.nullary main_cst (constant S_ .f32 0xC0000000#32),
    StableHlo.unary main_cst main_v4 (broadcastInDim S1000x16 ![] bcast_S_S1000x16 : (⟨S_, .f32⟩ : BufTy).Contents (Elt F) → (⟨S1000x16, .f32⟩ : BufTy).Contents (Elt F)),
    StableHlo.binary main_v4 main_arg1 main_v5 (mulf : (⟨S1000x16, .f32⟩ : BufTy).Contents (Elt F) → (⟨S1000x16, .f32⟩ : BufTy).Contents (Elt F) → (⟨S1000x16, .f32⟩ : BufTy).Contents (Elt F)),
    StableHlo.reshape main_v5 main_v6 rfl shapeCasts_S1000x16_S16000,
    StableHlo.nullary main_c (constantI S_ 32 0#32),
    StableHlo.TRef.unary (Tx := ⟨S_, .i32⟩) (Ty := ⟨S_, .f32⟩) (.of main_c) main_call0.v0 (sitofp .f32),
    StableHlo.TRef.binary (Ta := ⟨S1000x16, .f32⟩) (Tb := ⟨S_, .f32⟩) (Ty := ⟨S1024x16, .f32⟩) (.of main_arg1) main_call0.v0 main_call0.v1 (fun x v => pad S1024x16 ![0, 0] ![24, 0] ![0, 0] x v pads_S1000x16_S1024x16_0240_000 h_S_),
    StableHlo.unary main_v7 main_v8 ((transpose S16x1024 [1, 0] · transposes_S1024x16_S16x1024_1_0) : (⟨S1024x16, .f32⟩ : BufTy).Contents (Elt F) → (⟨S16x1024, .f32⟩ : BufTy).Contents (Elt F)),
    StableHlo.nullary main_cst_0 (constant S_ .f32 0xC0000000#32),
    StableHlo.unary main_cst_0 main_v9 (broadcastInDim S16x1024 ![] bcast_S_S16x1024 : (⟨S_, .f32⟩ : BufTy).Contents (Elt F) → (⟨S16x1024, .f32⟩ : BufTy).Contents (Elt F)),
    StableHlo.binary main_v9 main_v8 main_v10 (mulf : (⟨S16x1024, .f32⟩ : BufTy).Contents (Elt F) → (⟨S16x1024, .f32⟩ : BufTy).Contents (Elt F) → (⟨S16x1024, .f32⟩ : BufTy).Contents (Elt F)) ]

/-- The reshape between the pipeline and the second call. -/
def op13 : HloOp τ sig (Elt F) := StableHlo.reshape main_v12 main_v13 rfl shapeCasts_S1x1024_S1024
/-- The two operations after the second call. -/
def ops16 : List (HloOp τ sig (Elt F)) :=
  [ StableHlo.unary main_v14 main_v15 ((extractStridedSlice S1 ![0] · slices_S16_S1_0) : (⟨S16, .f32⟩ : BufTy).Contents (Elt F) → (⟨S1, .f32⟩ : BufTy).Contents (Elt F)),
    StableHlo.reshape main_v15 main_v16 rfl shapeCasts_S1_S_ ]

/-- The references the fifteen operations write. -/
def hostW : List (Ref sig .tc) :=
  [main_v0, main_v1, main_v2, main_v3, main_cst, main_v4, main_v5, main_v6, main_c, main_call0_v0, main_v7, main_v8, main_cst_0, main_v9, main_v10]

open StableHlo in
theorem after_hostOps_zt (V : Valuation τ sig (Elt F)) :
    StableHlo.after hostOps V (Proc.devRef .tc main_v3) = ztV (V (Proc.devRef .tc main_arg0)) := by
  unfold hostOps
  after_results_simp
  rfl

open StableHlo in
theorem after_hostOps_e2 (V : Valuation τ sig (Elt F)) :
    StableHlo.after hostOps V (Proc.devRef .tc main_v6) = e2V (V (Proc.devRef .tc main_arg1)) := by
  unfold hostOps
  after_results_simp
  rfl

open StableHlo in
theorem after_hostOps_et (V : Valuation τ sig (Elt F)) :
    StableHlo.after hostOps V (Proc.devRef .tc main_v8) = etV (V (Proc.devRef .tc main_arg1)) := by
  unfold hostOps
  after_results_simp
  rfl

open StableHlo in
theorem after_hostOps_v10 (V : Valuation τ sig (Elt F)) :
    StableHlo.after hostOps V (Proc.devRef .tc main_v10) = v10V (V (Proc.devRef .tc main_arg1)) := by
  unfold hostOps
  after_results_simp
  rfl

/-- Each of the fifteen writes one of the listed references. -/
theorem hostOps_writes :
    (hostOps (F := F)).Forall fun op => op.writes ⊆ (hostW.map (Proc.devRef (τ := τ) .tc)).toFinset := by
  unfold hostOps hostW
  simp only [List.forall_cons, List.Forall, StableHlo.unary_writes, StableHlo.binary_writes, StableHlo.nullary_writes,
    StableHlo.reshape_writes, Finset.singleton_subset_iff, List.mem_toFinset, List.mem_map]
  refine ⟨⟨_, ?_, rfl⟩, ⟨_, ?_, rfl⟩, ⟨_, ?_, rfl⟩, ⟨_, ?_, rfl⟩, ⟨_, ?_, rfl⟩, ⟨_, ?_, rfl⟩, ⟨_, ?_, rfl⟩, ⟨_, ?_, rfl⟩,
    ⟨_, ?_, rfl⟩, ⟨_, ?_, rfl⟩, ⟨_, ?_, rfl⟩, ⟨_, ?_, rfl⟩, ⟨_, ?_, rfl⟩, ⟨_, ?_, rfl⟩, ⟨_, ?_, rfl⟩⟩ <;> decide

/-- The two arguments are not written. -/
theorem after_hostOps_arg0 (V : Valuation τ sig (Elt F)) :
    StableHlo.after hostOps V (Proc.devRef .tc main_arg0) = V (Proc.devRef .tc main_arg0) :=
  StableHlo.after_of_writes_sub hostOps V hostOps_writes (by decide)
theorem after_hostOps_arg1 (V : Valuation τ sig (Elt F)) :
    StableHlo.after hostOps V (Proc.devRef .tc main_arg1) = V (Proc.devRef .tc main_arg1) :=
  StableHlo.after_of_writes_sub hostOps V hostOps_writes (by decide)

open StableHlo in
theorem after_op13 (V : Valuation τ sig (Elt F)) :
    StableHlo.after [op13] V (Proc.devRef .tc main_v13) = v13V (V (Proc.devRef .tc main_v12)) := by
  unfold op13
  after_results_simp
  rfl

open StableHlo in
theorem after_ops16 (V : Valuation τ sig (Elt F)) :
    StableHlo.after ops16 V (Proc.devRef .tc main_v16) = v16V (V (Proc.devRef .tc main_v14)) := by
  unfold ops16
  after_results_simp
  rfl

/-! ## The layout read at an index, for every float instance -/

/-- Slab `w`, column `j`, point `p` is row `32 w + p` of `z` at column `j`. -/
theorem ztV_idx (z : Vec F S16384x16 .f32) (w p : Fin 32) (j : Fin 16) :
    ztV z (ix3 w j p) = z (ix2 ⟨32 * w.val + p.val, by omega⟩ j) := by
  unfold ztV v2V v1V v0V
  refine (transpose_apply (s := S16x32x32) (t := S32x16x32) _ _ _ (ix3 w j p) (ix3 j w p)
    (fun b => match b with | ⟨0, _⟩ => rfl | ⟨1, _⟩ => rfl | ⟨2, _⟩ => rfl)).trans ?_
  refine (shapeCast_apply (s := S16x1024) (t := S16x32x32) _ _ (ix3 j w p) (ix2 j ⟨32 * w.val + p.val, by omega⟩) ?_).trans ?_
  · rw [Shape.rowMajor_val_two, Shape.rowMajor_val_three]
    show j.val * 1024 + (32 * w.val + p.val) = (j.val * 32 + w.val) * 32 + p.val
    omega
  refine (transpose_apply (s := S1024x16) (t := S16x1024) _ _ _ (ix2 j ⟨32 * w.val + p.val, by omega⟩) (ix2 ⟨32 * w.val + p.val, by omega⟩ j)
    (fun b => match b with | ⟨0, _⟩ => rfl | ⟨1, _⟩ => rfl)).trans ?_
  exact extractStridedSlice_apply (s := S16384x16) (t := S1024x16) _ _ _ (ix2 ⟨32 * w.val + p.val, by omega⟩ j) (ix2 ⟨32 * w.val + p.val, by omega⟩ j)
    (fun a => match a with
      | ⟨0, _⟩ => by show 32 * w.val + p.val = 0 + (32 * w.val + p.val); omega
      | ⟨1, _⟩ => by show j.val = 0 + j.val; omega)

/-- The flattened product at position `16 m + j` is the product at `(m, j)`. -/
theorem e2V_idx (e : Vec F S1000x16 .f32) (mm : Fin 1000) (j : Fin 16) :
    e2V e (ix1 ⟨16 * mm.val + j.val, by omega⟩) = v5V e (ix2 mm j) := by
  unfold e2V
  refine shapeCast_apply (s := S1000x16) (t := S16000) _ _ (ix1 ⟨16 * mm.val + j.val, by omega⟩) (ix2 mm j) ?_
  rw [Shape.rowMajor_val_two, Shape.rowMajor_val_one]
  show mm.val * 16 + j.val = 16 * mm.val + j.val
  omega

/-- The padded transpose at `(j, m)`, `m` below 1000, is `e` at `(m, j)`. -/
theorem etV_idx (e : Vec F S1000x16 .f32) (j : Fin 16) (mm : Fin 1000) :
    etV e (ix2 j ⟨mm.val, by omega⟩) = e (ix2 mm j) := by
  unfold etV v7V
  refine (transpose_apply (s := S1024x16) (t := S16x1024) _ _ _ (ix2 j ⟨mm.val, by omega⟩) (ix2 ⟨mm.val, by omega⟩ j)
    (fun b => match b with | ⟨0, _⟩ => rfl | ⟨1, _⟩ => rfl)).trans ?_
  exact pad_apply_of_inside (s := S1000x16) (t := S1024x16) _ _ _ _ _ _ _ (ix2 ⟨mm.val, by omega⟩ j) (ix2 mm j)
    (fun a => match a with
      | ⟨0, _⟩ => by show mm.val = 0 + mm.val * (0 + 1); omega
      | ⟨1, _⟩ => by show j.val = 0 + j.val * (0 + 1); omega)

/-- The row of minima as a vector reads the row. -/
theorem v13V_apply (v12 : Vec F S1x1024 .f32) (mm : Fin 1024) : v13V v12 (ix1 mm) = v12 (ix2 0 mm) := by
  unfold v13V
  refine shapeCast_apply (s := S1x1024) (t := S1024) _ _ (ix1 mm) (ix2 0 mm) ?_
  rw [Shape.rowMajor_val_two, Shape.rowMajor_val_one]
  show 0 * 1024 + mm.val = mm.val
  omega

/-- The scalar result is the first entry of the result vector. -/
theorem v16V_apply (v14 : Vec F S16 .f32) : v16V v14 ix0 = v14 (ix1 0) := by
  unfold v16V v15V
  refine (shapeCast_apply (s := S1) (t := S_) _ _ ix0 (ix1 0) ?_).trans ?_
  · rw [Shape.rowMajor_val_one]
    have h := (S_.rowMajor ix0).isLt
    show 0 = (S_.rowMajor ix0).val
    have h1 : S_.numel = 1 := by decide
    omega
  exact extractStridedSlice_apply (s := S16) (t := S1) _ _ _ (ix1 0) (ix1 0)
    (fun a => match a with | ⟨0, _⟩ => rfl)

/-! ## At the ideal instance: the values over the reals -/

/-- The word `0xC0000000` is the real `-2`. -/
theorem ofBits_neg_two : Ideal.ofBits .f32 0xC0000000#32 = (((-2 : ℝ) : ℝ) : EReal) := by
  simp [Ideal.ofBits, Ideal.ieee, -EReal.coe_mul, -EReal.coe_neg]; norm_num

/-- The padding value is zero. -/
theorem c0V_apply : c0V (F := Ideal) ix0 = 0 := by
  unfold c0V cV
  show (((0#32 : BitVec 32).toInt : ℝ) : EReal) = 0
  simp

section Reading
variable (zr : Fin 16384 → Fin 16 → ℝ) (er : Fin 1000 → Fin 16 → ℝ)
variable {z : Vec Ideal S16384x16 .f32} {e : Vec Ideal S1000x16 .f32}

theorem ztV_apply (hz : ∀ b j, z (ix2 b j) = ((zr b j : ℝ) : EReal)) (w p : Fin 32) (j : Fin 16) :
    ztV z (ix3 w j p) = ((zr (Cert.Proof.Spec.scIdx w p) j : ℝ) : EReal) := by
  rw [ztV_idx]
  exact hz (Cert.Proof.Spec.scIdx w p) j

/-- The broadcast constant reads `-2` everywhere. -/
theorem v4V_apply (i : S1000x16.Idx) : v4V (F := Ideal) i = (((-2 : ℝ) : ℝ) : EReal) := by
  unfold v4V cstV
  rw [broadcastInDim_scalar_apply]
  exact ofBits_neg_two
theorem v9V_apply (i : S16x1024.Idx) : v9V (F := Ideal) i = (((-2 : ℝ) : ℝ) : EReal) := by
  unfold v9V cstV
  rw [broadcastInDim_scalar_apply]
  exact ofBits_neg_two

theorem e2V_apply (he : ∀ mm j, e (ix2 mm j) = ((er mm j : ℝ) : EReal)) (mm : Fin 1000) (j : Fin 16) :
    e2V e (ix1 ⟨16 * mm.val + j.val, by omega⟩) = ((-2 * er mm j : ℝ) : EReal) := by
  rw [e2V_idx]
  show v4V (F := Ideal) (ix2 mm j) * e (ix2 mm j) = _
  rw [v4V_apply, he, ← EReal.coe_mul]

theorem etV_apply (he : ∀ mm j, e (ix2 mm j) = ((er mm j : ℝ) : EReal)) (j : Fin 16) (mm : Fin 1000) :
    etV e (ix2 j ⟨mm.val, by omega⟩) = ((er mm j : ℝ) : EReal) := by
  rw [etV_idx, he]

theorem v10V_apply (he : ∀ mm j, e (ix2 mm j) = ((er mm j : ℝ) : EReal)) (j : Fin 16) (mm : Fin 1000) :
    v10V e (ix2 j ⟨mm.val, by omega⟩) = ((-2 * er mm j : ℝ) : EReal) := by
  show v9V (F := Ideal) (ix2 j ⟨mm.val, by omega⟩) * etV e (ix2 j ⟨mm.val, by omega⟩) = _
  rw [v9V_apply, etV_apply er he, ← EReal.coe_mul]

end Reading

end Cert.Proof.HV

end
-- ==== Proof.S1Val.lean ====
/-
  The values of the first vector-subcore call, as pure functions of the slab of points a tile is handed and of
  the flattened `-2 e`: the sixteen lanes a tile stores for a column (lane `i` the lesser of
  `‖z_p‖² + Σ_j (-2 e_mj) z_pj` at points `p = i` and `p = 16 + i` of the slab), their least element in the
  program's tree order, and what the row of partial minima therefore holds. Where the float instance is the
  extended reals these read as the least of `D` over the slab's 32 points.
-/
import proofs.«209935_g88441966559691_cont_sun_c4_661_34_alg».proof.Proof.Iface
import proofs.«209935_g88441966559691_cont_sun_c4_661_34_alg».proof.Proof.Spec
import Idealize.ShloMosaic.Lib.ValueIdx
import Idealize.ShloMosaic.Lib.ValueLayout

noncomputable section

namespace Cert.Proof.S1

open Cert.KernelIdeal Cert.KernelIdeal.Gen
open Idealize.ShloMosaic Idealize.ShloMosaic.ValueIdx
open Cert.Proof.KI

variable {F : FTy → Type} [FloatOps F] [Named F]

/-! ## The pieces of one column's lanes -/

/-- A loaded `1 × 16` piece of a row of the slab as sixteen lanes. -/
def cast1 (v : Vec F S1x16 .f32) : FVec F S16 .f32 := shapeCast S16 v shapeCasts_S1x16_S16

/-- The sixteen scalars taken off a loaded row of `-2 e`, one per coordinate. -/
def scal (v : Vec F S16 .f32) : Fin 16 → Elt F .f32 :=
  ![k0_pay7 v, k0_pay8 v, k0_pay9 v, k0_pay10 v, k0_pay11 v, k0_pay12 v,
    k0_pay13 (k0_pay6 v), k0_pay14 (k0_pay6 v), k0_pay15 (k0_pay6 v), k0_pay16 (k0_pay6 v), k0_pay17 (k0_pay6 v),
    k0_pay18 (k0_pay6 v), k0_pay19 (k0_pay6 v), k0_pay24 (k0_pay6 v), k0_pay25 (k0_pay6 v), k0_pay26 (k0_pay6 v)]

/-- The squared norm of the first sixteen points, lane by lane, summed in the program's order. -/
def znA (za : Fin 16 → FVec F S16 .f32) : FVec F S16 .f32 :=
  k0_pay2 (za 4) (za 5) (za 6) (za 7) (za 8) (za 9) (za 10) (za 11) (k0_pay60 (za 0) (za 1) (za 2) (za 3))
/-- The squared norm of the second sixteen points but for the last five coordinates. -/
def znB (zb : Fin 16 → FVec F S16 .f32) : FVec F S16 .f32 :=
  k0_pay1 (zb 4) (zb 5) (zb 6) (zb 7) (zb 8) (zb 9) (zb 10) (k0_pay59 (zb 0) (zb 1) (zb 2)) (k0_pay61 (zb 3))
/-- The first twelve terms of `Σ_j s_j za_j`. -/
def accA (za : Fin 16 → FVec F S16 .f32) (s : Fin 16 → Elt F .f32) : FVec F S16 .f32 :=
  k0_pay22 (za 6) (za 7) (za 8) (za 9) (za 10) (za 11) (k0_pay20 (za 0) (za 1) (za 2) (za 3) (za 4) (za 5) (s 0) (s 1) (s 2) (s 3) (s 4) (s 5)) (s 6) (s 7) (s 8) (s 9) (s 10) (s 11)
/-- The first twelve terms of `Σ_j s_j zb_j`. -/
def accB (zb : Fin 16 → FVec F S16 .f32) (s : Fin 16 → Elt F .f32) : FVec F S16 .f32 :=
  k0_pay23 (zb 6) (zb 7) (zb 8) (zb 9) (zb 10) (zb 11) (k0_pay21 (zb 0) (zb 1) (zb 2) (zb 3) (zb 4) (zb 5) (s 0) (s 1) (s 2) (s 3) (s 4) (s 5)) (s 6) (s 7) (s 8) (s 9) (s 10) (s 11)
/-- The second half's lanes: `Σ_j s_j zb_j + Σ_j zb_j²`. -/
def laneB (zb : Fin 16 → FVec F S16 .f32) (s : Fin 16 → Elt F .f32) : FVec F S16 .f32 :=
  k0_pay3 (zb 11) (zb 12) (zb 13) (zb 14) (zb 15) (znB zb) (accB zb s) (s 12) (s 13) (s 14) (s 15)
/-- The sixteen lanes stored for one column: lane `i` is the lesser of the two halves' values at lane `i`. -/
def lane (za zb : Fin 16 → FVec F S16 .f32) (s : Fin 16 → Elt F .f32) : FVec F S16 .f32 :=
  k0_pay4 (za 12) (za 13) (za 14) (za 15) (znA za) (accA za s) (s 12) (s 13) (s 14) (s 15) (laneB zb s)

/-! ## The loads, off the slab and off `-2 e` -/

/-- The piece of row `j` of the slab a load of sixteen lanes from lane `16 h` answers. -/
def rowLd (zt : Vec F S16x32 .f32) (j : Fin 16) (h : Fin 2) : Vec F S1x16 .f32 :=
  fun x => zt (ix2 j ⟨16 * h.val + (x 1).val, by have h1 : (x 1).val < 16 := (x 1).isLt; have := h.isLt; show _ < 32; omega⟩)
/-- The sixteen lanes of row `m` of `-2 e`. -/
def eLd (e2 : Vec F S16000 .f32) (m : Fin 1000) : Vec F S16 .f32 :=
  fun x => e2 (ix1 ⟨16 * m.val + (x 0).val, by have h1 : (x 0).val < 16 := (x 0).isLt; have := m.isLt; show _ < 16000; omega⟩)

/-- The first and the second sixteen points' coordinates as the program holds them. -/
def zA (zt : Vec F S16x32 .f32) : Fin 16 → FVec F S16 .f32 := fun j => cast1 (rowLd zt j 0)
def zB (zt : Vec F S16x32 .f32) : Fin 16 → FVec F S16 .f32 := fun j => cast1 (rowLd zt j 1)

/-- The sixteen lanes the tile stores for column `m`. -/
def laneD (zt : Vec F S16x32 .f32) (e2 : Vec F S16000 .f32) (m : Fin 1000) : FVec F S16 .f32 :=
  lane (zA zt) (zB zt) (scal (eLd e2 m))

/-! ## The least of sixteen lanes, in the program's tree order -/

/-- The least element of sixteen lanes: pairs, then pairs of pairs, and so on. -/
def red16 (v : Vec F S16 .f32) : Elt F .f32 := k0_pay62 v

/-- The row vector whose lane `l` is `ss l`, assembled by compare-and-select against the lane numbers. -/
def rowV (ss : Fin 16 → Elt F .f32) : FVec F S16 .f32 :=
  k0_pay5 (ss 13) (ss 14) (ss 15) (iota .scVector S16 32 [0] iota_S16_d0_w32_scVector)
    (k0_pay129 (ss 1) (ss 2) (ss 3) (ss 4) (ss 5) (ss 6) (ss 7) (ss 8) (ss 9) (ss 10) (ss 11) (ss 12) (iota .scVector S16 32 [0] iota_S16_d0_w32_scVector) (k0_pay128 (ss 0)) 1#32) 13#32

/-- What the tile leaves at column `m` of its row. -/
def part1 (zt : Vec F S16x32 .f32) (e2 : Vec F S16000 .f32) (m : Fin 1000) : Elt F .f32 := red16 (laneD zt e2 m)

/-! ## The tile's post -/

/-- Slab `w` of the transposed points. -/
def slab {α : Type} (zt : S32x16x32.Idx → α) (w : Fin 32) : S16x32.Idx → α := fun x => zt (ix3 w (x 0) (x 1))

/-- Row `w` of the partial minima holds, at each of the first thousand columns, that column's least value. -/
def Post0 {d : Dev nD} (zt : Buf (Elt F) (ztLoc d)) (e2 : Buf (Elt F) (e2Loc d)) (w : Fin 32) (f : Buf (Elt F) (ptLoc d)) : Prop :=
  ∀ m : Fin 1000, f (ix2 w ⟨m.val, by have := m.isLt; omega⟩) = part1 (slab zt w) e2 m

/-! ## Reading the pieces at a lane -/

theorem laneAt0 {α : Type} (v : S16.Idx → α) : extractAt ![0] (extractStridedSlice S1 ![0] v slices_S16_o0_S1) inpos_S1_p0 = v (ix1 0) :=
  congrArg v (funext fun a => match a with | ⟨0, _⟩ => rfl)
theorem laneAt1 {α : Type} (v : S16.Idx → α) : extractAt ![0] (extractStridedSlice S1 ![1] v slices_S16_o1_S1) inpos_S1_p0 = v (ix1 1) :=
  congrArg v (funext fun a => match a with | ⟨0, _⟩ => rfl)
theorem laneAt2 {α : Type} (v : S16.Idx → α) : extractAt ![0] (extractStridedSlice S1 ![2] v slices_S16_o2_S1) inpos_S1_p0 = v (ix1 2) :=
  congrArg v (funext fun a => match a with | ⟨0, _⟩ => rfl)
theorem laneAt3 {α : Type} (v : S16.Idx → α) : extractAt ![0] (extractStridedSlice S1 ![3] v slices_S16_o3_S1) inpos_S1_p0 = v (ix1 3) :=
  congrArg v (funext fun a => match a with | ⟨0, _⟩ => rfl)
theorem laneAt4 {α : Type} (v : S16.Idx → α) : extractAt ![0] (extractStridedSlice S1 ![4] v slices_S16_o4_S1) inpos_S1_p0 = v (ix1 4) :=
  congrArg v (funext fun a => match a with | ⟨0, _⟩ => rfl)
theorem laneAt5 {α : Type} (v : S16.Idx → α) : extractAt ![0] (extractStridedSlice S1 ![5] v slices_S16_o5_S1) inpos_S1_p0 = v (ix1 5) :=
  congrArg v (funext fun a => match a with | ⟨0, _⟩ => rfl)
theorem laneAt6 {α : Type} (v : S16.Idx → α) : extractAt ![0] (extractStridedSlice S1 ![6] v slices_S16_o6_S1) inpos_S1_p0 = v (ix1 6) :=
  congrArg v (funext fun a => match a with | ⟨0, _⟩ => rfl)
theorem laneAt7 {α : Type} (v : S16.Idx → α) : extractAt ![0] (extractStridedSlice S1 ![7] v slices_S16_o7_S1) inpos_S1_p0 = v (ix1 7) :=
  congrArg v (funext fun a => match a with | ⟨0, _⟩ => rfl)
theorem laneAt8 {α : Type} (v : S16.Idx → α) : extractAt ![0] (extractStridedSlice S1 ![8] v slices_S16_o8_S1) inpos_S1_p0 = v (ix1 8) :=
  congrArg v (funext fun a => match a with | ⟨0, _⟩ => rfl)
theorem laneAt9 {α : Type} (v : S16.Idx → α) : extractAt ![0] (extractStridedSlice S1 ![9] v slices_S16_o9_S1) inpos_S1_p0 = v (ix1 9) :=
  congrArg v (funext fun a => match a with | ⟨0, _⟩ => rfl)
theorem laneAt10 {α : Type} (v : S16.Idx → α) : extractAt ![0] (extractStridedSlice S1 ![10] v slices_S16_o10_S1) inpos_S1_p0 = v (ix1 10) :=
  congrArg v (funext fun a => match a with | ⟨0, _⟩ => rfl)
theorem laneAt11 {α : Type} (v : S16.Idx → α) : extractAt ![0] (extractStridedSlice S1 ![11] v slices_S16_o11_S1) inpos_S1_p0 = v (ix1 11) :=
  congrArg v (funext fun a => match a with | ⟨0, _⟩ => rfl)
theorem laneAt12 {α : Type} (v : S16.Idx → α) : extractAt ![0] (extractStridedSlice S1 ![12] v slices_S16_o12_S1) inpos_S1_p0 = v (ix1 12) :=
  congrArg v (funext fun a => match a with | ⟨0, _⟩ => rfl)
theorem laneAt13 {α : Type} (v : S16.Idx → α) : extractAt ![0] (extractStridedSlice S1 ![13] v slices_S16_o13_S1) inpos_S1_p0 = v (ix1 13) :=
  congrArg v (funext fun a => match a with | ⟨0, _⟩ => rfl)
theorem laneAt14 {α : Type} (v : S16.Idx → α) : extractAt ![0] (extractStridedSlice S1 ![14] v slices_S16_o14_S1) inpos_S1_p0 = v (ix1 14) :=
  congrArg v (funext fun a => match a with | ⟨0, _⟩ => rfl)
theorem laneAt15 {α : Type} (v : S16.Idx → α) : extractAt ![0] (extractStridedSlice S1 ![15] v slices_S16_o15_S1) inpos_S1_p0 = v (ix1 15) :=
  congrArg v (funext fun a => match a with | ⟨0, _⟩ => rfl)

/-- A cast row read at lane `i` is the loaded piece there. -/
theorem cast1_apply (v : Vec F S1x16 .f32) (i : Fin 16) : cast1 v (ix1 i) = v (ix2 (0 : Fin 1) i) :=
  shapeCast_1a_a_apply v _ i

/-- The `j`-th scalar taken off a row is its `j`-th element. -/
theorem scal_apply (v : Vec F S16 .f32) (j : Fin 16) : scal v j = v (ix1 j) := by
  have h6 : k0_pay6 v = v := shapeCast_self v _
  have e0 : k0_pay7 v = v (ix1 0) := by unfold k0_pay7; simp only [h6, laneAt0]
  have e1 : k0_pay8 v = v (ix1 1) := by unfold k0_pay8; simp only [h6, laneAt1]
  have e2 : k0_pay9 v = v (ix1 2) := by unfold k0_pay9; simp only [h6, laneAt2]
  have e3 : k0_pay10 v = v (ix1 3) := by unfold k0_pay10; simp only [h6, laneAt3]
  have e4 : k0_pay11 v = v (ix1 4) := by unfold k0_pay11; simp only [h6, laneAt4]
  have e5 : k0_pay12 v = v (ix1 5) := by unfold k0_pay12; simp only [h6, laneAt5]
  have e6 : k0_pay13 (k0_pay6 v) = v (ix1 6) := by unfold k0_pay13; simp only [h6, laneAt6]
  have e7 : k0_pay14 (k0_pay6 v) = v (ix1 7) := by unfold k0_pay14; simp only [h6, laneAt7]
  have e8 : k0_pay15 (k0_pay6 v) = v (ix1 8) := by unfold k0_pay15; simp only [h6, laneAt8]
  have e9 : k0_pay16 (k0_pay6 v) = v (ix1 9) := by unfold k0_pay16; simp only [h6, laneAt9]
  have e10 : k0_pay17 (k0_pay6 v) = v (ix1 10) := by unfold k0_pay17; simp only [h6, laneAt10]
  have e11 : k0_pay18 (k0_pay6 v) = v (ix1 11) := by unfold k0_pay18; simp only [h6, laneAt11]
  have e12 : k0_pay19 (k0_pay6 v) = v (ix1 12) := by unfold k0_pay19; simp only [h6, laneAt12]
  have e13 : k0_pay24 (k0_pay6 v) = v (ix1 13) := by unfold k0_pay24; simp only [h6, laneAt13]
  have e14 : k0_pay25 (k0_pay6 v) = v (ix1 14) := by unfold k0_pay25; simp only [h6, laneAt14]
  have e15 : k0_pay26 (k0_pay6 v) = v (ix1 15) := by unfold k0_pay26; simp only [h6, laneAt15]
  fin_cases j
  exacts [e0, e1, e2, e3, e4, e5, e6, e7, e8, e9, e10, e11, e12, e13, e14, e15]

/-! ## The sixteen printed chains are one function -/

theorem chain0 (v : Vec F S16 .f32) : k0_pay62 v = red16 v := rfl
theorem chain1 (v : Vec F S16 .f32) : k0_pay63 v = red16 v := rfl
theorem chain2 (v : Vec F S16 .f32) : k0_pay64 v = red16 v := rfl
theorem chain3 (v : Vec F S16 .f32) : k0_pay67 (k0_pay65 v) (k0_pay66 v) = red16 v := rfl
theorem chain4 (v : Vec F S16 .f32) : k0_pay71 (k0_pay68 v) (k0_pay69 v) (k0_pay70 v) = red16 v := rfl
theorem chain5 (v : Vec F S16 .f32) : k0_pay75 (k0_pay72 v) (k0_pay73 v) (k0_pay74 v) = red16 v := rfl
theorem chain6 (v : Vec F S16 .f32) : k0_pay80 (k0_pay76 v) (k0_pay77 v) (k0_pay78 v) (k0_pay79 v) = red16 v := rfl
theorem chain7 (v : Vec F S16 .f32) : k0_pay85 (k0_pay81 v) (k0_pay82 v) (k0_pay83 v) (k0_pay84 v) = red16 v := rfl
theorem chain8 (v : Vec F S16 .f32) : k0_pay89 (k0_pay86 v) (k0_pay87 v) (k0_pay88 v) = red16 v := rfl
theorem chain9 (v : Vec F S16 .f32) : k0_pay95 (k0_pay90 v) (k0_pay91 v) (k0_pay92 v) (k0_pay93 v) (k0_pay94 v) = red16 v := rfl
theorem chain10 (v : Vec F S16 .f32) : k0_pay102 (k0_pay96 v) (k0_pay97 v) (k0_pay98 v) (k0_pay99 v) (k0_pay100 v) (k0_pay101 v) = red16 v := rfl
theorem chain11 (v : Vec F S16 .f32) : k0_pay108 (k0_pay103 v) (k0_pay104 v) (k0_pay105 v) (k0_pay106 v) (k0_pay107 v) = red16 v := rfl
theorem chain12 (v : Vec F S16 .f32) : k0_pay114 (k0_pay109 v) (k0_pay110 v) (k0_pay111 v) (k0_pay112 v) (k0_pay113 v) = red16 v := rfl
theorem chain13 (v : Vec F S16 .f32) : k0_pay122 (k0_pay116 v) (k0_pay117 v) (k0_pay118 v) (k0_pay119 v) (k0_pay120 v) (k0_pay121 v) = red16 v := rfl
theorem chain14 (v : Vec F S16 .f32) : k0_pay126 (k0_pay124 v) (k0_pay125 v) = red16 v := rfl
theorem chain15 (v : Vec F S16 .f32) : k0_pay127 v = red16 v := rfl

/-- The least of sixteen lanes as the tree of pairwise minima over the elements. -/
theorem red16_tree (v : Vec F S16 .f32) : red16 v = (Scalar.minimumf (Scalar.minimumf (Scalar.minimumf (Scalar.minimumf (v (ix1 0)) (v (ix1 1))) (Scalar.minimumf (v (ix1 2)) (v (ix1 3)))) (Scalar.minimumf (Scalar.minimumf (v (ix1 4)) (v (ix1 5))) (Scalar.minimumf (v (ix1 6)) (v (ix1 7))))) (Scalar.minimumf (Scalar.minimumf (Scalar.minimumf (v (ix1 8)) (v (ix1 9))) (Scalar.minimumf (v (ix1 10)) (v (ix1 11)))) (Scalar.minimumf (Scalar.minimumf (v (ix1 12)) (v (ix1 13))) (Scalar.minimumf (v (ix1 14)) (v (ix1 15)))))) := by
  have hv : shapeCast S16 v shapeCasts_S16_S16 = v := shapeCast_self v _
  unfold red16 k0_pay62
  simp only [hv, laneAt0, laneAt1, laneAt2, laneAt3, laneAt4, laneAt5, laneAt6, laneAt7, laneAt8, laneAt9, laneAt10, laneAt11, laneAt12, laneAt13, laneAt14, laneAt15]

/-- Lane `l` of the assembled row vector is the `l`-th scalar. -/
theorem rowV_apply (ss : Fin 16 → Elt F .f32) (l : Fin 16) : rowV ss (ix1 l) = ss l := by
  unfold rowV k0_pay5 k0_pay129 k0_pay128
  simp only [shapeCast_self]
  fin_cases l <;> rfl

/-! ## At the ideal instance: the values over the reals -/

/-! ## The reading over the reals -/

open Cert.Proof.Spec

/-- Point `16 h + i` of a slab: lane `i` of half `h`. -/
def pt (h : Fin 2) (i : Fin 16) : Fin 32 := ⟨16 * h.val + i.val, by have := h.isLt; have := i.isLt; omega⟩

/-- At real data, lane `i` of a column is the lesser of the two halves' `‖z‖² + Σ_j s_j z_j`. -/
theorem lane_ideal (za zb : Fin 16 → FVec Ideal S16 .f32) (s : Fin 16 → Elt Ideal .f32) (ra rb rs : Fin 16 → ℝ) (i : S16.Idx)
    (ha : ∀ j, za j i = ((ra j : ℝ) : EReal)) (hb : ∀ j, zb j i = ((rb j : ℝ) : EReal)) (hs : ∀ j, s j = ((rs j : ℝ) : EReal)) :
    lane za zb s i = ((min ((∑ j, ra j * ra j) + ∑ j, rs j * ra j) ((∑ j, rb j * rb j) + ∑ j, rs j * rb j) : ℝ) : EReal) := by
  have sum16 : ∀ f : Fin 16 → ℝ, ∑ j, f j = f 0 + (f 1 + (f 2 + (f 3 + (f 4 + (f 5 + (f 6 + (f 7 + (f 8 + (f 9 + (f 10 + (f 11 + (f 12 + (f 13 + (f 14 + (f 15 + 0))))))))))))))) := fun f => rfl
  rw [sum16, sum16, sum16, sum16]
  unfold lane laneB znA znB accA accB k0_pay1 k0_pay2 k0_pay3 k0_pay4 k0_pay20 k0_pay21 k0_pay22 k0_pay23 k0_pay59 k0_pay60 k0_pay61
  simp only [shapeCast_self, minimumf_apply, addf_apply, mulf_apply, broadcast_apply, ha, hb, hs]
  simp only [← EReal.coe_mul, ← EReal.coe_add]
  rw [← Monotone.map_min EReal.coe_strictMono.monotone]
  congr 1
  congr 1 <;> ring

/-- At the ideal instance the tree of minima is the least element. -/
theorem red16_ideal (v : Vec Ideal S16 .f32) : red16 v = Finset.univ.inf' Finset.univ_nonempty fun i : Fin 16 => v (ix1 i) := by
  rw [red16_tree]
  show (min (min (min (min (v (ix1 0)) (v (ix1 1))) (min (v (ix1 2)) (v (ix1 3)))) (min (min (v (ix1 4)) (v (ix1 5))) (min (v (ix1 6)) (v (ix1 7))))) (min (min (min (v (ix1 8)) (v (ix1 9))) (min (v (ix1 10)) (v (ix1 11)))) (min (min (v (ix1 12)) (v (ix1 13))) (min (v (ix1 14)) (v (ix1 15)))))) = _
  apply le_antisymm
  · apply Finset.le_inf'
    intro i _
    fin_cases i
    exacts [((min_le_left _ _).trans ((min_le_left _ _).trans ((min_le_left _ _).trans (min_le_left _ _)))), ((min_le_left _ _).trans ((min_le_left _ _).trans ((min_le_left _ _).trans (min_le_right _ _)))), ((min_le_left _ _).trans ((min_le_left _ _).trans ((min_le_right _ _).trans (min_le_left _ _)))), ((min_le_left _ _).trans ((min_le_left _ _).trans ((min_le_right _ _).trans (min_le_right _ _)))), ((min_le_left _ _).trans ((min_le_right _ _).trans ((min_le_left _ _).trans (min_le_left _ _)))), ((min_le_left _ _).trans ((min_le_right _ _).trans ((min_le_left _ _).trans (min_le_right _ _)))), ((min_le_left _ _).trans ((min_le_right _ _).trans ((min_le_right _ _).trans (min_le_left _ _)))), ((min_le_left _ _).trans ((min_le_right _ _).trans ((min_le_right _ _).trans (min_le_right _ _)))), ((min_le_right _ _).trans ((min_le_left _ _).trans ((min_le_left _ _).trans (min_le_left _ _)))), ((min_le_right _ _).trans ((min_le_left _ _).trans ((min_le_left _ _).trans (min_le_right _ _)))), ((min_le_right _ _).trans ((min_le_left _ _).trans ((min_le_right _ _).trans (min_le_left _ _)))), ((min_le_right _ _).trans ((min_le_left _ _).trans ((min_le_right _ _).trans (min_le_right _ _)))), ((min_le_right _ _).trans ((min_le_right _ _).trans ((min_le_left _ _).trans (min_le_left _ _)))), ((min_le_right _ _).trans ((min_le_right _ _).trans ((min_le_left _ _).trans (min_le_right _ _)))), ((min_le_right _ _).trans ((min_le_right _ _).trans ((min_le_right _ _).trans (min_le_left _ _)))), ((min_le_right _ _).trans ((min_le_right _ _).trans ((min_le_right _ _).trans (min_le_right _ _))))]
  · have hk : ∀ k : Fin 16, (Finset.univ.inf' Finset.univ_nonempty fun i : Fin 16 => v (ix1 i)) ≤ v (ix1 k) :=
      fun k => Finset.inf'_le _ (Finset.mem_univ k)
    exact (le_min (le_min (le_min (le_min (hk 0) (hk 1)) (le_min (hk 2) (hk 3))) (le_min (le_min (hk 4) (hk 5)) (le_min (hk 6) (hk 7)))) (le_min (le_min (le_min (hk 8) (hk 9)) (le_min (hk 10) (hk 11))) (le_min (le_min (hk 12) (hk 13)) (le_min (hk 14) (hk 15)))))

/-- What the tile's post says over the reals: column `mm` of row `w` is the least `D` over the slab's 32 points. -/
theorem post0_ideal {d : Dev nD} (zr : Fin 16384 → Fin 16 → ℝ) (er : Fin 1000 → Fin 16 → ℝ)
    (zt : Buf (Elt Ideal) (ztLoc d)) (e2 : Buf (Elt Ideal) (e2Loc d))
    (hzt : ∀ (w p : Fin 32) (j : Fin 16), zt (ix3 w j p) = ((zr (scIdx w p) j : ℝ) : EReal))
    (he2 : ∀ (mm : Fin 1000) (j : Fin 16), e2 (ix1 ⟨16 * mm.val + j.val, by have := mm.isLt; have := j.isLt; omega⟩) = ((-2 * er mm j : ℝ) : EReal))
    (w : Fin 32) (f : Buf (Elt Ideal) (ptLoc d)) (h : Post0 (F := Ideal) zt e2 w f) :
    ∀ mm : Fin 1000, f (ix2 w ⟨mm.val, by have := mm.isLt; omega⟩) = ((minSC zr er w mm : ℝ) : EReal) := by
  intro mm
  rw [h mm]
  unfold part1
  rw [red16_ideal]
  have hl : ∀ i : Fin 16, laneD (slab zt w) e2 mm (ix1 i)
      = ((min (D zr er (scIdx w (pt 0 i)) mm) (D zr er (scIdx w (pt 1 i)) mm) : ℝ) : EReal) := by
    intro i
    unfold laneD
    rw [lane_ideal (zA (slab zt w)) (zB (slab zt w)) (scal (eLd e2 mm)) (fun j => zr (scIdx w (pt 0 i)) j)
      (fun j => zr (scIdx w (pt 1 i)) j) (fun j => -2 * er mm j) (ix1 i)]
    · rfl
    · intro j; show cast1 (rowLd (slab zt w) j 0) (ix1 i) = _; rw [cast1_apply]; exact hzt w (pt 0 i) j
    · intro j; show cast1 (rowLd (slab zt w) j 1) (ix1 i) = _; rw [cast1_apply]; exact hzt w (pt 1 i) j
    · intro j; rw [scal_apply]; exact he2 mm j
  simp only [hl]
  unfold minSC
  refine le_antisymm (α := EReal) ?_ ?_
  · obtain ⟨p, -, hp⟩ := Finset.exists_mem_eq_inf' Finset.univ_nonempty (fun p : Fin 32 => D zr er (scIdx w p) mm)
    rw [hp]
    by_cases hlt : p.val < 16
    · have e : pt 0 ⟨p.val, hlt⟩ = p := Fin.ext (by simp [pt])
      refine (Finset.inf'_le _ (Finset.mem_univ (⟨p.val, hlt⟩ : Fin 16))).trans ?_
      rw [e]
      exact EReal.coe_le_coe_iff.mpr (min_le_left _ _)
    · have hlt' : p.val - 16 < 16 := by have := p.isLt; omega
      have e : pt 1 ⟨p.val - 16, hlt'⟩ = p := Fin.ext (by simp [pt]; omega)
      refine (Finset.inf'_le _ (Finset.mem_univ (⟨p.val - 16, hlt'⟩ : Fin 16))).trans ?_
      rw [e]
      exact EReal.coe_le_coe_iff.mpr (min_le_right _ _)
  · apply Finset.le_inf'
    intro i _
    exact EReal.coe_le_coe_iff.mpr (le_min (Finset.inf'_le _ (Finset.mem_univ _)) (Finset.inf'_le _ (Finset.mem_univ _)))

end Cert.Proof.S1

end
-- ==== Proof.TcVal.lean ====
/-
  The value of the matrix unit's pipeline, as pure functions: the carried 8 × 1024 array of running minima after each
  of the fifteen grid points, the row of minima the last point writes, and, over the extended reals, what that row is:
  column m holds the least of D b m over the rows b = 1024 … 16383.
-/
import proofs.«209935_g88441966559691_cont_sun_c4_661_34_alg».proof.Proof.Iface
import proofs.«209935_g88441966559691_cont_sun_c4_661_34_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Proof.TcV

open Cert.KernelIdeal Cert.KernelIdeal.Gen
open Idealize.ShloMosaic
open Idealize.ShloMosaic.ValueIdx
open Cert.Proof.KI

variable {F : FTy → Type} [FloatOps F] [Named F]

/-! ## The pipeline's value, at any float instance -/

/-- The block of z the pipeline's first window shows at grid point t: rows 1024 (t + 1) … 1024 (t + 1) + 1023. -/
def zBlk (z : Vec F S16384x16 .f32) (t : Fin cfg1.grid.N) : Vec F S1024x16 .f32 :=
  ((cfg1.win 0).blk t).view.read (Elt F) z

theorem gridN : cfg1.grid.N = 15 := by decide

/-- The same with the point a natural number (point 0's block past the grid's end; never used there). -/
def zBlkN (z : Vec F S16384x16 .f32) (n : ℕ) : Vec F S1024x16 .f32 :=
  if h : n < cfg1.grid.N then zBlk z ⟨n, h⟩ else zBlk z ⟨0, by decide⟩

theorem zBlkN_val (z : Vec F S16384x16 .f32) (t : Fin cfg1.grid.N) : zBlkN z t.val = zBlk z t := by
  unfold zBlkN; rw [dif_pos t.isLt]

/-- The carried array of running minima after grid point t: point 0 starts from the array of +∞. -/
def accAt (z : Vec F S16384x16 .f32) (v10 : Vec F S16x1024 .f32) : ℕ → Vec F S8x1024 .f32
  | 0 => k1_pay2 (zBlkN z 0) v10 k1_pay1
  | t + 1 => k1_pay2 (zBlkN z (t + 1)) v10 (accAt z v10 t)

/-- What point t leaves, from what it finds: at point 0 the array of +∞ it has just stored, later what point t - 1 left. -/
theorem accAt_step (z : Vec F S16384x16 .f32) (v10 : Vec F S16x1024 .f32) (t : Fin cfg1.grid.N) :
    accAt z v10 t.val = k1_pay2 (zBlk z t) v10 (if t.val = 0 then k1_pay1 else accAt z v10 (t.val - 1)) := by
  rw [← zBlkN_val]
  obtain ⟨n, hn⟩ := t
  cases n with
  | zero => rfl
  | succ n => show k1_pay2 _ _ _ = _; rw [if_neg (Nat.succ_ne_zero n)]; rfl

/-- The row of minima the last grid point writes. -/
def tcRow (z : Vec F S16384x16 .f32) (v10 : Vec F S16x1024 .f32) : Vec F S1x1024 .f32 := k1_pay3 (accAt z v10 14)

/-- The pipeline's second operand (-2 e, padded, transposed) and its result (the row of minima), as locations of device d. -/
abbrev v10Loc (d : Dev nD) : Loc nD τ sig := (SparseCore.T d).loc main_v10
abbrev v12Loc (d : Dev nD) : Loc nD τ sig := (SparseCore.T d).loc main_v12

/-- What the pipeline leaves in its result array, given the contents of its two operands. -/
def PostTC {d : Dev nD} (z : Buf (Elt F) (a0Loc d)) (v10 : Buf (Elt F) (v10Loc d)) (f : Buf (Elt F) (v12Loc d)) : Prop :=
  f = tcRow (F := F) z v10

/-! ## The block at an index -/

/-- The first window's block index at point t is (t + 1, 0). -/
theorem win0_index (t : Fin cfg1.grid.N) : win1_0.index t 0 = t.val + 1 ∧ win1_0.index t 1 = 0 :=
  (by decide +kernel : ∀ t : Fin cfg1.grid.N, win1_0.index t 0 = t.val + 1 ∧ win1_0.index t 1 = 0) t

/-- Entry (p, j) of the block at point t is entry (1024 (t + 1) + p, j) of z. -/
theorem zBlk_apply (z : Vec F S16384x16 .f32) (t : Fin cfg1.grid.N) (p : Fin 1024) (j : Fin 16)
    (hb : 1024 * (t.val + 1) + p.val < 16384) :
    zBlk z t (ix2 p j) = z (ix2 (⟨1024 * (t.val + 1) + p.val, hb⟩ : Fin 16384) j) := by
  show z (((cfg1.win 0).blk t).view.emb (ix2 p j)) = z _
  refine congrArg z (funext fun a => Fin.ext ?_)
  match a with
  | ⟨0, _⟩ =>
    show win1_0.index t 0 * 1024 + 1 * p.val = 1024 * (t.val + 1) + p.val
    rw [(win0_index t).1]; omega
  | ⟨1, _⟩ =>
    show win1_0.index t 1 * 16 + 1 * j.val = j.val
    rw [(win0_index t).2]; omega

/-! ## At the ideal instance: the values over the reals -/

/-! ## The pipeline's value over the extended reals -/

section AtIdeal

open scoped BigOperators

/-- The word 0x7F800000 is +∞. -/
theorem ofBits_inf : Ideal.ofBits .f32 0x7F800000#32 = (⊤ : EReal) := by simp [Ideal.ofBits, Ideal.ieee]

/-- What one row b of a block and one column m of the second operand give: the row's squared norm plus the row times the column. -/
def E (zv : Vec Ideal S1024x16 .f32) (et : Vec Ideal S16x1024 .f32) (b : Fin 1024) (mm : Fin 1024) : EReal :=
  (∑ j : Fin 16, zv (ix2 b j) * zv (ix2 b j)) + ∑ j : Fin 16, zv (ix2 b j) * et (ix2 j mm)

/-- Row 8 g + r of a block. -/
def grow (g : Fin 128) (r : Fin 8) : Fin 1024 := ⟨8 * g.val + r.val, by omega⟩

/-- A minimum-reduction over the leading axis of a 128 × 8 × 1024 array, from +∞: the infimum over that axis. -/
theorem minRed3 (x : FVec Ideal S128x8x1024 .f32) (h : S128x8x1024.Reduces [0] S8x1024) (hφ : FKind.Formats .f32)
    (hacc : (0x7F800000#32 : BitVec FTy.f32.bits) = FKind.minimumf.neutral .f32 hφ) (r : Fin 8) (mm : Fin 1024) :
    multiReduction .minimumf [0] S8x1024 x 0x7F800000#32 h hφ hacc (ix2 r mm)
      = Finset.univ.inf fun g : Fin 128 => x (ix3 g r mm) := by
  refine (multiReduction_minimumf_eq_fold x _ h hφ hacc (ix2 r mm)).trans ?_
  refine (h.fold_filter_drop_single _ _ x (ix2 r mm)).trans ?_
  show (Finset.univ : Finset (Fin 128)).fold min (Ideal.ofBits .f32 0x7F800000#32) (x ∘ h.lift (ix2 r mm)) = _
  rw [ofBits_inf]
  show (Finset.univ : Finset (Fin 128)).inf (x ∘ h.lift (ix2 r mm)) = _
  refine Finset.inf_congr rfl fun g _ => ?_
  show x (h.lift (ix2 r mm) g) = x (ix3 g r mm)
  refine congrArg x (funext fun a => Fin.ext ?_)
  match a with
  | ⟨0, _⟩ => rfl
  | ⟨1, _⟩ => rfl
  | ⟨2, _⟩ => rfl

/-- A minimum-reduction over the leading axis of an 8 × 1024 array, from +∞: the infimum over the eight rows. -/
theorem minRed2 (x : FVec Ideal S8x1024 .f32) (h : S8x1024.Reduces [0] S1024) (hφ : FKind.Formats .f32)
    (hacc : (0x7F800000#32 : BitVec FTy.f32.bits) = FKind.minimumf.neutral .f32 hφ) (mm : Fin 1024) :
    multiReduction .minimumf [0] S1024 x 0x7F800000#32 h hφ hacc (ix1 mm)
      = Finset.univ.inf fun r : Fin 8 => x (ix2 r mm) := by
  refine (multiReduction_minimumf_eq_fold x _ h hφ hacc (ix1 mm)).trans ?_
  refine (h.fold_filter_drop_single _ _ x (ix1 mm)).trans ?_
  show (Finset.univ : Finset (Fin 8)).fold min (Ideal.ofBits .f32 0x7F800000#32) (x ∘ h.lift (ix1 mm)) = _
  rw [ofBits_inf]
  show (Finset.univ : Finset (Fin 8)).inf (x ∘ h.lift (ix1 mm)) = _
  refine Finset.inf_congr rfl fun r _ => ?_
  show x (h.lift (ix1 mm) r) = x (ix2 r mm)
  refine congrArg x (funext fun a => Fin.ext ?_)
  match a with
  | ⟨0, _⟩ => rfl
  | ⟨1, _⟩ => rfl

/-- A sum over the second axis of a 1024 × 16 array. -/
theorem addRed (x : FVec Ideal S1024x16 .f32) (h : S1024x16.Reduces [1] S1024) (hφ : FKind.Formats .f32)
    (hacc : (0x00000000#32 : BitVec FTy.f32.bits) = FKind.add.neutral .f32 hφ) (b : Fin 1024) :
    multiReduction .add [1] S1024 x 0x00000000#32 h hφ hacc (ix1 b) = ∑ j : Fin 16, x (ix2 b j) := by
  refine (Ideal.multiReduction_add_single x _ h hφ hacc (ix1 b)).trans ?_
  refine Finset.sum_congr rfl fun j _ => ?_
  refine congrArg x (funext fun a => Fin.ext ?_)
  match a with
  | ⟨0, _⟩ => rfl
  | ⟨1, _⟩ => rfl

/-! ### The matrix product's operand indices -/

theorem lhs_dot_0 (j : S1024x1024.Idx) (k : dot_S1024x16_S16x1024_S1024x1024_1_0_0_1_n_n.contr.Idx) :
    (dot_S1024x16_S16x1024_S1024x1024_1_0_0_1_n_n.lhsIdx j k 0 : ℕ) = j 0 := by
  simp [DotDims.lhsIdx, dot_S1024x16_S16x1024_S1024x1024_1_0_0_1_n_n]; rfl
theorem lhs_dot_1 (j : S1024x1024.Idx) (k : dot_S1024x16_S16x1024_S1024x1024_1_0_0_1_n_n.contr.Idx) :
    (dot_S1024x16_S16x1024_S1024x1024_1_0_0_1_n_n.lhsIdx j k 1 : ℕ) = k ⟨0, by decide⟩ := by
  simp [DotDims.lhsIdx, dot_S1024x16_S16x1024_S1024x1024_1_0_0_1_n_n]; rfl
theorem rhs_dot_0 (j : S1024x1024.Idx) (k : dot_S1024x16_S16x1024_S1024x1024_1_0_0_1_n_n.contr.Idx) :
    (dot_S1024x16_S16x1024_S1024x1024_1_0_0_1_n_n.rhsIdx j k 0 : ℕ) = k ⟨0, by decide⟩ := by
  simp [DotDims.rhsIdx, dot_S1024x16_S16x1024_S1024x1024_1_0_0_1_n_n]; rfl
theorem rhs_dot_1 (j : S1024x1024.Idx) (k : dot_S1024x16_S16x1024_S1024x1024_1_0_0_1_n_n.contr.Idx) :
    (dot_S1024x16_S16x1024_S1024x1024_1_0_0_1_n_n.rhsIdx j k 1 : ℕ) = j 1 := by
  simp [DotDims.rhsIdx, dot_S1024x16_S16x1024_S1024x1024_1_0_0_1_n_n]; rfl

/-- The matrix product into a zero accumulator at (b, m): the row times the column. -/
theorem matmul_at (zv : FVec Ideal S1024x16 .f32) (et : FVec Ideal S16x1024 .f32) (b : Fin 1024) (mm : Fin 1024) :
    FloatOps.matmul dot_S1024x16_S16x1024_S1024x1024_1_0_0_1_n_n none zv et (constant (F := Ideal) S1024x1024 .f32 0x00000000#32) (ix2 b mm)
      = ∑ j : Fin 16, zv (ix2 b j) * et (ix2 j mm) := by
  refine (Ideal.matmul_constant_zero_apply _ _ zv et (ix2 b mm)).trans ?_
  rw [← Equiv.sum_comp (contrEquiv1 dot_S1024x16_S16x1024_S1024x1024_1_0_0_1_n_n 16 rfl rfl).symm]
  refine Finset.sum_congr rfl fun k _ => ?_
  have hk := contrEquiv1_symm_val dot_S1024x16_S16x1024_S1024x1024_1_0_0_1_n_n 16 rfl rfl k
  refine congrArg₂ (· * ·) (congrArg zv (funext fun a => Fin.ext ?_)) (congrArg et (funext fun a => Fin.ext ?_))
  · match a with
    | ⟨0, _⟩ => exact lhs_dot_0 _ _
    | ⟨1, _⟩ => exact (lhs_dot_1 _ _).trans hk
  · match a with
    | ⟨0, _⟩ => exact (rhs_dot_0 _ _).trans hk
    | ⟨1, _⟩ => exact rhs_dot_1 _ _

/-- The second payload at (r, m): the carried minimum there against the least, over the 128 row groups g, of row 8 g + r's value. -/
theorem pay2_apply (zv : Vec Ideal S1024x16 .f32) (et : Vec Ideal S16x1024 .f32) (acc : Vec Ideal S8x1024 .f32)
    (r : Fin 8) (mm : Fin 1024) :
    k1_pay2 (F := Ideal) zv et acc (ix2 r mm) = min (acc (ix2 r mm)) (Finset.univ.inf fun g : Fin 128 => E zv et (grow g r) mm) := by
  unfold k1_pay2
  dsimp only
  refine (congrFun (shapeCast_self _ _) (ix2 r mm)).trans ?_
  refine congrArg (min (acc (ix2 r mm))) ?_
  refine (minRed3 _ _ _ _ r mm).trans ?_
  refine Finset.inf_congr rfl fun g _ => ?_
  refine (shapeCast_apply _ _ (ix3 g r mm) (ix2 (grow g r) mm) ?_).trans ?_
  · rw [Shape.rowMajor_val_two, Shape.rowMajor_val_three]
    show (8 * g.val + r.val) * 1024 + mm.val = (g.val * 8 + r.val) * 1024 + mm.val
    omega
  refine congrArg₂ (· + ·) ?_ ?_
  · refine (broadcastTo_apply _ _ (ix2 (grow g r) mm) (ix2 (grow g r) (0 : Fin 1)) ?_).trans ?_
    · intro a
      match a with
      | ⟨0, _⟩ => rfl
      | ⟨1, _⟩ => rfl
    refine (shapeCast_apply _ _ (ix2 (grow g r) (0 : Fin 1)) (ix1 (grow g r)) ?_).trans ?_
    · rw [Shape.rowMajor_val_two, Shape.rowMajor_val_one]
      show (grow g r).val = (grow g r).val * 1 + 0
      omega
    exact addRed _ _ _ _ (grow g r)
  · refine Eq.trans ?_ (matmul_at zv et (grow g r) mm)
    refine congrArg (fun e => FloatOps.matmul dot_S1024x16_S16x1024_S1024x1024_1_0_0_1_n_n none zv e (constant (F := Ideal) S1024x1024 .f32 0x00000000#32) (ix2 (grow g r) mm)) ?_
    exact shapeCast_self _ _

/-- The first payload is +∞ everywhere. -/
theorem pay1_apply (i : S8x1024.Idx) : k1_pay1 (F := Ideal) i = (⊤ : EReal) := by
  unfold k1_pay1
  refine (congrFun (shapeCast_self _ _) i).trans ?_
  exact ofBits_inf

/-- The third payload at column m: the least of the eight rows. -/
theorem pay3_apply (acc : Vec Ideal S8x1024 .f32) (mm : Fin 1024) :
    k1_pay3 (F := Ideal) acc (ix2 (0 : Fin 1) mm) = Finset.univ.inf fun r : Fin 8 => acc (ix2 r mm) := by
  unfold k1_pay3
  dsimp only
  refine (shapeCast_a_1a_apply _ _ (0 : Fin 1) mm).trans ?_
  exact minRed2 _ _ _ _ mm

/-- The carried minimum after point t at (r, m): the least, over the points s ≤ t and the row groups g, of row 8 g + r of block s. -/
theorem accAt_apply (z : Vec Ideal S16384x16 .f32) (v10 : Vec Ideal S16x1024 .f32) (t : ℕ) (r : Fin 8) (mm : Fin 1024) :
    accAt (F := Ideal) z v10 t (ix2 r mm)
      = (Finset.range (t + 1)).inf fun s => Finset.univ.inf fun g : Fin 128 => E (zBlkN z s) v10 (grow g r) mm := by
  induction t with
  | zero =>
    show k1_pay2 (F := Ideal) (zBlkN z 0) v10 (k1_pay1 (F := Ideal)) (ix2 r mm) = _
    rw [pay2_apply, pay1_apply, show (0 + 1 : ℕ) = 1 from rfl, Finset.range_one, Finset.inf_singleton]
    exact min_eq_right le_top
  | succ t ih =>
    show k1_pay2 (F := Ideal) (zBlkN z (t + 1)) v10 (accAt z v10 t) (ix2 r mm) = _
    rw [pay2_apply, ih, Finset.range_add_one (n := t + 1), Finset.inf_insert]
    exact inf_comm _ _

/-- The real numbers' sum, read in the extended reals. -/
theorem coe_finsum {ι : Type} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- A column m < 1000 among the 1024 columns. -/
abbrev col (mm : Fin 1000) : Fin 1024 := Fin.castLE (by decide) mm

/-- Over real contents: row 8 g + r of block s against column m is D at row 1024 (s + 1) + 8 g + r of z. -/
theorem E_real (zr : Fin 16384 → Fin 16 → ℝ) (er : Fin 1000 → Fin 16 → ℝ)
    (z : Vec Ideal S16384x16 .f32) (v10 : Vec Ideal S16x1024 .f32)
    (hz : ∀ (b : Fin 16384) (j : Fin 16), z (ix2 b j) = ((zr b j : ℝ) : EReal))
    (hv : ∀ (j : Fin 16) (mm : Fin 1000), v10 (ix2 j (col mm)) = ((-2 * er mm j : ℝ) : EReal))
    (s : ℕ) (hs : s < 15) (g : Fin 128) (r : Fin 8) (mm : Fin 1000) (hb : 1024 * (s + 1) + (8 * g.val + r.val) < 16384) :
    E (zBlkN z s) v10 (grow g r) (col mm)
      = ((Spec.D zr er (⟨1024 * (s + 1) + (8 * g.val + r.val), hb⟩ : Fin 16384) mm : ℝ) : EReal) := by
  have hN : s < cfg1.grid.N := by rw [gridN]; exact hs
  have hblk : ∀ j : Fin 16, zBlkN z s (ix2 (grow g r) j)
      = ((zr (⟨1024 * (s + 1) + (8 * g.val + r.val), hb⟩ : Fin 16384) j : ℝ) : EReal) := by
    intro j
    rw [show zBlkN z s = zBlk z ⟨s, hN⟩ from zBlkN_val z ⟨s, hN⟩, zBlk_apply z ⟨s, hN⟩ (grow g r) j hb]
    exact hz _ j
  unfold E Spec.D
  rw [EReal.coe_add, coe_finsum, coe_finsum]
  refine congrArg₂ (· + ·) (Finset.sum_congr rfl fun j _ => ?_) (Finset.sum_congr rfl fun j _ => ?_)
  · rw [hblk j, EReal.coe_mul]
  · rw [hblk j, hv j mm]
    exact (EReal.coe_mul _ _).symm.trans (congrArg Real.toEReal (mul_comm _ _))

/-- Over real contents the row of minima holds, at each column m < 1000, the least of D b m over the rows b = 1024 … 16383. -/
theorem tcRow_ideal (zr : Fin 16384 → Fin 16 → ℝ) (er : Fin 1000 → Fin 16 → ℝ)
    (z : Vec Ideal S16384x16 .f32) (v10 : Vec Ideal S16x1024 .f32)
    (hz : ∀ (b : Fin 16384) (j : Fin 16), z (ix2 b j) = ((zr b j : ℝ) : EReal))
    (hv : ∀ (j : Fin 16) (mm : Fin 1000), v10 (ix2 j (col mm)) = ((-2 * er mm j : ℝ) : EReal)) (mm : Fin 1000) :
    tcRow (F := Ideal) z v10 (ix2 (0 : Fin 1) (col mm)) = ((Spec.minTC zr er mm : ℝ) : EReal) := by
  unfold tcRow
  rw [pay3_apply]
  have h1 : (Finset.univ.inf fun r : Fin 8 => accAt (F := Ideal) z v10 14 (ix2 r (col mm)))
      = Finset.univ.inf fun r : Fin 8 => (Finset.range (14 + 1)).inf fun s => Finset.univ.inf fun g : Fin 128 =>
          E (zBlkN z s) v10 (grow g r) (col mm) :=
    Finset.inf_congr rfl fun r _ => accAt_apply z v10 14 r (col mm)
  rw [h1]
  unfold Spec.minTC
  apply le_antisymm
  · obtain ⟨b, -, hb⟩ := Finset.exists_mem_eq_inf' Finset.univ_nonempty (fun b : Fin 15360 => Spec.D zr er (Spec.tcIdx b) mm)
    rw [hb]
    have hbl := b.isLt
    have hs : b.val / 1024 < 15 := by omega
    have hrow : 1024 * (b.val / 1024 + 1) + (8 * (b.val % 1024 / 8) + b.val % 8) < 16384 := by omega
    refine (Finset.inf_le (Finset.mem_univ (⟨b.val % 8, by omega⟩ : Fin 8))).trans ?_
    refine (Finset.inf_le (Finset.mem_range.2 (by omega : b.val / 1024 < 14 + 1))).trans ?_
    refine (Finset.inf_le (Finset.mem_univ (⟨b.val % 1024 / 8, by omega⟩ : Fin 128))).trans ?_
    rw [E_real zr er z v10 hz hv (b.val / 1024) hs ⟨b.val % 1024 / 8, by omega⟩ ⟨b.val % 8, by omega⟩ mm hrow]
    refine le_of_eq (congrArg (fun b' : Fin 16384 => ((Spec.D zr er b' mm : ℝ) : EReal)) (Fin.ext ?_))
    show 1024 * (b.val / 1024 + 1) + (8 * (b.val % 1024 / 8) + b.val % 8) = 1024 + b.val
    omega
  · refine Finset.le_inf fun r _ => Finset.le_inf fun s hs => Finset.le_inf fun g _ => ?_
    have hs' : s < 15 := Finset.mem_range.1 hs
    have hg := g.isLt
    have hr := r.isLt
    have hb : 1024 * (s + 1) + (8 * g.val + r.val) < 16384 := by omega
    rw [E_real zr er z v10 hz hv s hs' g r mm hb, EReal.coe_le_coe_iff]
    have hb2 : 1024 * s + (8 * g.val + r.val) < 15360 := by omega
    refine (Finset.inf'_le _ (Finset.mem_univ (⟨1024 * s + (8 * g.val + r.val), hb2⟩ : Fin 15360))).trans (le_of_eq ?_)
    refine congrArg (fun b' : Fin 16384 => Spec.D zr er b' mm) (Fin.ext ?_)
    show 1024 + (1024 * s + (8 * g.val + r.val)) = 1024 * (s + 1) + (8 * g.val + r.val)
    omega

/-- The same of the pipeline's post: with z and -2 e (padded, transposed) real, the result array's column m < 1000 is the
    least of D b m over the rows the matrix unit covers. -/
theorem postTC_ideal {d : Dev nD} (zr : Fin 16384 → Fin 16 → ℝ) (er : Fin 1000 → Fin 16 → ℝ)
    (z : Buf (Elt Ideal) (a0Loc d)) (v10 : Buf (Elt Ideal) (v10Loc d)) (f : Buf (Elt Ideal) (v12Loc d))
    (hz : ∀ (b : Fin 16384) (j : Fin 16), (z : Vec Ideal S16384x16 .f32) (ix2 b j) = ((zr b j : ℝ) : EReal))
    (hv : ∀ (j : Fin 16) (mm : Fin 1000), (v10 : Vec Ideal S16x1024 .f32) (ix2 j (col mm)) = ((-2 * er mm j : ℝ) : EReal))
    (h : PostTC (F := Ideal) z v10 f) :
    ∀ mm : Fin 1000, (f : Vec Ideal S1x1024 .f32) (ix2 (0 : Fin 1) (col mm)) = ((Spec.minTC zr er mm : ℝ) : EReal) := by
  intro mm
  rw [show f = tcRow (F := Ideal) z v10 from h]
  exact tcRow_ideal zr er z v10 hz hv mm

end AtIdeal

end Cert.Proof.TcV

end
-- ==== Proof.S2Val.lean ====
/-
  The value of the second vector-subcore call, as pure functions of the three arrays it reads: the partial minima
  (32 × 1024), the matrix unit's row of minima (1024) and the padded transposed codebook (16 × 1024). Trip `t` of
  its loop reads columns `16 t … 16 t + 15`: the least of the 33 minima per column, the sum of the 16 squares per
  column, and adds their sum into a 16-lane accumulator on the lanes whose column is below 1000. After the loop the
  16 lanes are added up in order and scaled by `1/1000`.
-/
import proofs.«209935_g88441966559691_cont_sun_c4_661_34_alg».proof.Proof.Iface
import proofs.«209935_g88441966559691_cont_sun_c4_661_34_alg».proof.Proof.Spec
import Idealize.ShloMosaic.Lib.ValueIdx
import Idealize.ShloMosaic.PureOps.Ideal.Laws

noncomputable section

namespace Cert.Proof.S2

open Cert.KernelIdeal Cert.KernelIdeal.Gen
open Idealize.ShloMosaic
open Cert.Proof.KI

variable {F : FTy → Type} [FloatOps F] [Named F]

/-- A grid point at which the call's guard holds: evidence for the range facts of the printed offsets. -/
def i0 : grid2.Coords := fun a => ⟨0, by revert a; decide⟩
theorem h0 : k2_cond1 i0 = 1#1 := by decide

/-- The trips of the loop over the 64 groups of 16 columns. -/
abbrev Trip : Type := Fin k2_t1_loop.trips

/-- Sixteen consecutive columns of one row of the partial minima, from the offsets `off`. -/
def ldP (f : Vec F S32x1024 .f32) (off : Fin 2 → ℕ) (inb : ∀ a, off a + S1x16.size a ≤ S32x1024.size a) : Vec F S1x16 .f32 :=
  fun x => f ((Rect.unit (s := S32x1024) off S1x16.size inb).idx x)
/-- Sixteen consecutive entries of the row of minima. -/
def ldT (tc : Vec F S1024 .f32) (off : Fin 1 → ℕ) (inb : ∀ a, off a + S16.size a ≤ S1024.size a) : Vec F S16 .f32 :=
  fun x => tc ((Rect.unit (s := S1024) off S16.size inb).idx x)
/-- Sixteen consecutive columns of one row of the transposed codebook. -/
def ldE (et : Vec F S16x1024 .f32) (off : Fin 2 → ℕ) (inb : ∀ a, off a + S1x16.size a ≤ S16x1024.size a) : Vec F S1x16 .f32 :=
  fun x => et ((Rect.unit (s := S16x1024) off S1x16.size inb).idx x)

variable (f : Vec F S32x1024 .f32) (tc : Vec F S1024 .f32) (et : Vec F S16x1024 .f32)

/-- The least of rows 0 … 8 of the partial minima and of the row of minima, per column of trip `t`. -/
def mv2 (t : Trip) : FVec F S16 .f32 :=
  k2_pay2 (ldP f (k2_off1 t) (k2_off1_inb i0 t h0)) (ldT tc (k2_off2 t) (k2_off2_inb i0 t h0)) (ldP f (k2_off3 t) (k2_off3_inb i0 t h0)) (ldP f (k2_off4 t) (k2_off4_inb i0 t h0)) (ldP f (k2_off5 t) (k2_off5_inb i0 t h0)) (ldP f (k2_off6 t) (k2_off6_inb i0 t h0)) (ldP f (k2_off7 t) (k2_off7_inb i0 t h0)) (ldP f (k2_off8 t) (k2_off8_inb i0 t h0)) (ldP f (k2_off9 t) (k2_off9_inb i0 t h0)) (ldP f (k2_off10 t) (k2_off10_inb i0 t h0))
/-- … and of rows 9 … 18, -/
def mv3 (t : Trip) : FVec F S16 .f32 :=
  k2_pay3 (mv2 f tc t) (ldP f (k2_off11 t) (k2_off11_inb i0 t h0)) (ldP f (k2_off12 t) (k2_off12_inb i0 t h0)) (ldP f (k2_off13 t) (k2_off13_inb i0 t h0)) (ldP f (k2_off14 t) (k2_off14_inb i0 t h0)) (ldP f (k2_off15 t) (k2_off15_inb i0 t h0)) (ldP f (k2_off16 t) (k2_off16_inb i0 t h0)) (ldP f (k2_off17 t) (k2_off17_inb i0 t h0)) (ldP f (k2_off18 t) (k2_off18_inb i0 t h0)) (ldP f (k2_off19 t) (k2_off19_inb i0 t h0)) (ldP f (k2_off20 t) (k2_off20_inb i0 t h0))
/-- … and of rows 19 … 28, -/
def mv4 (t : Trip) : FVec F S16 .f32 :=
  k2_pay4 (mv3 f tc t) (ldP f (k2_off21 t) (k2_off21_inb i0 t h0)) (ldP f (k2_off22 t) (k2_off22_inb i0 t h0)) (ldP f (k2_off23 t) (k2_off23_inb i0 t h0)) (ldP f (k2_off24 t) (k2_off24_inb i0 t h0)) (ldP f (k2_off25 t) (k2_off25_inb i0 t h0)) (ldP f (k2_off26 t) (k2_off26_inb i0 t h0)) (ldP f (k2_off27 t) (k2_off27_inb i0 t h0)) (ldP f (k2_off28 t) (k2_off28_inb i0 t h0)) (ldP f (k2_off29 t) (k2_off29_inb i0 t h0)) (ldP f (k2_off30 t) (k2_off30_inb i0 t h0))
/-- … and of rows 29, 30, 31: the least of all 33. -/
def mv5 (t : Trip) : FVec F S16 .f32 :=
  k2_pay5 (mv4 f tc t) (ldP f (k2_off31 t) (k2_off31_inb i0 t h0)) (ldP f (k2_off32 t) (k2_off32_inb i0 t h0)) (ldP f (k2_off33 t) (k2_off33_inb i0 t h0))

/-- The squares of rows 0, 1, 2 of the codebook, added in order, per column of trip `t`. -/
def en6 (t : Trip) : FVec F S16 .f32 :=
  k2_pay6 (ldE et (k2_off34 t) (k2_off34_inb i0 t h0)) (ldE et (k2_off34 t) (k2_off34_inb i0 t h0)) (ldE et (k2_off35 t) (k2_off35_inb i0 t h0)) (ldE et (k2_off35 t) (k2_off35_inb i0 t h0)) (ldE et (k2_off36 t) (k2_off36_inb i0 t h0)) (ldE et (k2_off36 t) (k2_off36_inb i0 t h0))
/-- Row 3. -/
def x7 (t : Trip) : FVec F S16 .f32 := k2_pay7 (ldE et (k2_off37 t) (k2_off37_inb i0 t h0))
/-- The squares of rows 0 … 7. -/
def en8 (t : Trip) : FVec F S16 .f32 :=
  k2_pay8 (en6 et t) (x7 et t) (ldE et (k2_off37 t) (k2_off37_inb i0 t h0)) (ldE et (k2_off38 t) (k2_off38_inb i0 t h0)) (ldE et (k2_off38 t) (k2_off38_inb i0 t h0)) (ldE et (k2_off39 t) (k2_off39_inb i0 t h0)) (ldE et (k2_off39 t) (k2_off39_inb i0 t h0)) (ldE et (k2_off40 t) (k2_off40_inb i0 t h0)) (ldE et (k2_off40 t) (k2_off40_inb i0 t h0)) (ldE et (k2_off41 t) (k2_off41_inb i0 t h0)) (ldE et (k2_off41 t) (k2_off41_inb i0 t h0))
/-- Row 8. -/
def x9 (t : Trip) : FVec F S16 .f32 := k2_pay9 (ldE et (k2_off42 t) (k2_off42_inb i0 t h0))
/-- The squares of rows 0 … 12. -/
def en10 (t : Trip) : FVec F S16 .f32 :=
  k2_pay10 (en8 et t) (x9 et t) (ldE et (k2_off42 t) (k2_off42_inb i0 t h0)) (ldE et (k2_off43 t) (k2_off43_inb i0 t h0)) (ldE et (k2_off43 t) (k2_off43_inb i0 t h0)) (ldE et (k2_off44 t) (k2_off44_inb i0 t h0)) (ldE et (k2_off44 t) (k2_off44_inb i0 t h0)) (ldE et (k2_off45 t) (k2_off45_inb i0 t h0)) (ldE et (k2_off45 t) (k2_off45_inb i0 t h0)) (ldE et (k2_off46 t) (k2_off46_inb i0 t h0)) (ldE et (k2_off46 t) (k2_off46_inb i0 t h0))
/-- Row 13. -/
def x11 (t : Trip) : FVec F S16 .f32 := k2_pay11 (ldE et (k2_off47 t) (k2_off47_inb i0 t h0))

/-- One trip: the accumulator after trip `t` from the accumulator before it. -/
def stepAt (t : Trip) (acc : FVec F S16 .f32) : FVec F S16 .f32 :=
  k2_pay13 acc (Scf.iv 0#32 1#32 t) (mv5 f tc t) (en10 et t) (x11 et t) (ldE et (k2_off47 t) (k2_off47_inb i0 t h0)) (ldE et (k2_off48 t) (k2_off48_inb i0 t h0)) (ldE et (k2_off48 t) (k2_off48_inb i0 t h0)) (ldE et (k2_off49 t) (k2_off49_inb i0 t h0)) (ldE et (k2_off49 t) (k2_off49_inb i0 t h0))

/-- The accumulator before trip `n`. -/
def saccAt : ℕ → FVec F S16 .f32
  | 0 => k2_pay12
  | n + 1 => if h : n < k2_t1_loop.trips then stepAt f tc et ⟨n, h⟩ (saccAt n) else saccAt n

theorem saccAt_zero : saccAt f tc et 0 = k2_pay12 := rfl
theorem saccAt_succ (t : Trip) : saccAt f tc et (t.val + 1) = stepAt f tc et t (saccAt f tc et t.val) := by
  show (if h : t.val < k2_t1_loop.trips then stepAt f tc et ⟨t.val, h⟩ (saccAt f tc et t.val) else saccAt f tc et t.val) = _
  rw [dif_pos t.isLt]

/-- The vector the call stores and copies out: the 16 lanes added in order, scaled, on every lane. -/
def out2 : FVec F S16 .f32 :=
  k2_pay1 (k2_pay14 (saccAt f tc et k2_t1_loop.trips)) (k2_pay15 (saccAt f tc et k2_t1_loop.trips))

/-- What the call leaves in the result vector, from the contents of the three arrays it reads. -/
def Post2 {d : Dev nD} (f : Buf (Elt F) (ptLoc d)) (tc : Buf (Elt F) (tcLoc d)) (et : Buf (Elt F) (etLoc d))
    (o : Buf (Elt F) (ouLoc d)) : Prop :=
  o = out2 f tc et

/-! ## At the ideal instance: the values over the reals -/

/-! ## The reading over the extended reals -/

section Lanes

open Idealize.ShloMosaic.ValueIdx

theorem rowLt {R C r c : ℕ} (inb : ∀ a, (![r, c] : Fin 2 → ℕ) a + (![1, 16] : Fin 2 → ℕ) a ≤ (![R, C] : Fin 2 → ℕ) a) : r < R := by
  have := inb 0; simp at this; omega
theorem colLt {R C r c : ℕ} (inb : ∀ a, (![r, c] : Fin 2 → ℕ) a + (![1, 16] : Fin 2 → ℕ) a ≤ (![R, C] : Fin 2 → ℕ) a) (k : S16.Idx) :
    c + (k 0).val < C := by
  have := inb 1; have hk := (k 0).isLt; simp at this hk; omega
theorem colLt1 {C c : ℕ} (inb : ∀ a, (![c] : Fin 1 → ℕ) a + (![16] : Fin 1 → ℕ) a ≤ (![C] : Fin 1 → ℕ) a) (k : S16.Idx) :
    c + (k 0).val < C := by
  have := inb 0; have hk := (k 0).isLt; simp at this hk; omega

/-- Lane `k` of the sixteen columns `c … c + 15` of row `r` of the partial minima. -/
theorem ldP_lane (f : Vec F S32x1024 .f32) (r c : ℕ) (inb : ∀ a, (![r, c] : Fin 2 → ℕ) a + S1x16.size a ≤ S32x1024.size a) (k : S16.Idx) :
    shapeCast S16 (ldP f ![r, c] inb) shapeCasts_S1x16_S16 k = f (ix2 ⟨r, rowLt inb⟩ ⟨c + (k 0).val, colLt inb k⟩) := by
  show f ((Rect.unit (s := S32x1024) ![r, c] S1x16.size inb).idx (Shape.reshapeEquiv shapeCasts_S1x16_S16 k)) = _
  congr 1
  funext a
  apply Fin.ext
  rw [LoadRect.idx_apply, Shape.reshapeEquiv_cons_one]
  match a with
  | ⟨0, _⟩ => simp [Rect.unit, ix2]; rfl
  | ⟨1, _⟩ => simp [Rect.unit, ix2, Fin.cons]; rfl

theorem ldE_lane (et : Vec F S16x1024 .f32) (r c : ℕ) (inb : ∀ a, (![r, c] : Fin 2 → ℕ) a + S1x16.size a ≤ S16x1024.size a) (k : S16.Idx) :
    shapeCast S16 (ldE et ![r, c] inb) shapeCasts_S1x16_S16 k = et (ix2 ⟨r, rowLt inb⟩ ⟨c + (k 0).val, colLt inb k⟩) := by
  show et ((Rect.unit (s := S16x1024) ![r, c] S1x16.size inb).idx (Shape.reshapeEquiv shapeCasts_S1x16_S16 k)) = _
  congr 1
  funext a
  apply Fin.ext
  rw [LoadRect.idx_apply, Shape.reshapeEquiv_cons_one]
  match a with
  | ⟨0, _⟩ => simp [Rect.unit, ix2]; rfl
  | ⟨1, _⟩ => simp [Rect.unit, ix2, Fin.cons]; rfl

theorem ldT_lane (tc : Vec F S1024 .f32) (c : ℕ) (inb : ∀ a, (![c] : Fin 1 → ℕ) a + S16.size a ≤ S1024.size a) (k : S16.Idx) :
    shapeCast S16 (ldT tc ![c] inb) shapeCasts_S16_S16 k = tc (ix1 ⟨c + (k 0).val, colLt1 inb k⟩) := by
  show tc ((Rect.unit (s := S1024) ![c] S16.size inb).idx (Shape.reshapeEquiv shapeCasts_S16_S16 k)) = _
  rw [Shape.reshapeEquiv_self]
  congr 1
  funext a
  apply Fin.ext
  rw [LoadRect.idx_apply]
  match a with
  | ⟨0, _⟩ => simp [Rect.unit, ix1]

/-- A load at offsets given in two ways. -/
theorem ldP_congr (f : Vec F S32x1024 .f32) {off off' : Fin 2 → ℕ} (h : off = off') (inb : ∀ a, off a + S1x16.size a ≤ S32x1024.size a) :
    ldP f off inb = ldP f off' (h ▸ inb) := by subst h; rfl
theorem ldT_congr (tc : Vec F S1024 .f32) {off off' : Fin 1 → ℕ} (h : off = off') (inb : ∀ a, off a + S16.size a ≤ S1024.size a) :
    ldT tc off inb = ldT tc off' (h ▸ inb) := by subst h; rfl
theorem ldE_congr (et : Vec F S16x1024 .f32) {off off' : Fin 2 → ℕ} (h : off = off') (inb : ∀ a, off a + S1x16.size a ≤ S16x1024.size a) :
    ldE et off inb = ldE et off' (h ▸ inb) := by subst h; rfl

/-- The lanes of trip `t` whose column is below 1000. -/
def maskAt (t : Trip) : IVec S16 1 :=
  cmpi .slt (addi (broadcast S16 (Scalar.muli (Scf.iv 0#32 1#32 t) 16#32)) (iota .scVector S16 32 [0] iota_S16_d0_w32_scVector))
    (broadcast S16 1000#32)

theorem maskAt_iff (t : Trip) (k : S16.Idx) : maskAt t k = 1#1 ↔ 16 * t.val + (k 0).val < 1000 := by
  have ht : t.val < 64 := Nat.lt_of_lt_of_le t.isLt k2_t1_abs.2.1
  have hk : (k 0).val < 16 := (k 0).isLt
  have h0 : Affine.IsInt 0#32 0 := Affine.ofNat _ (by omega)
  have h1 : Affine.IsInt 1#32 1 := Affine.ofNat _ (by omega)
  have hiv : Affine.IsInt (Scf.iv 0#32 1#32 t.val) (t.val : Int) := Affine.iv h0 h1 t.val (by omega)
  have h16 : Affine.IsInt 16#32 16 := Affine.ofNat _ (by omega)
  have hm : Affine.IsInt (Scalar.muli (Scf.iv 0#32 1#32 t.val) 16#32) (16 * (t.val : Int)) := Affine.muli hiv h16 (by omega)
  have hio : Affine.IsInt (BitVec.ofNat 32 (0 * 16 + (k 0).val)) ((k 0).val : Int) := Affine.ofNat _ (by omega)
  have ha : Affine.IsInt (Scalar.addi (Scalar.muli (Scf.iv 0#32 1#32 t.val) 16#32) (BitVec.ofNat 32 (0 * 16 + (k 0).val)))
      (16 * (t.val : Int) + (k 0).val) := Affine.addi hm hio (by omega)
  have hc : Affine.IsInt 1000#32 1000 := Affine.ofNat _ (by omega)
  show Scalar.cmpi .slt (Scalar.addi (Scalar.muli (Scf.iv 0#32 1#32 t.val) 16#32) (BitVec.ofNat 32 (0 * 16 + (k 0).val))) 1000#32 = 1#1 ↔ _
  constructor
  · intro h; by_contra hn; exact Affine.slt_fails ha hc (by omega) h
  · intro h; exact Affine.slt_holds ha hc (by omega)

end Lanes

section RealHelpers

theorem coe_min (a b : ℝ) : ((min a b : ℝ) : EReal) = min (a : EReal) (b : EReal) := EReal.coe_strictMono.monotone.map_min

/-- A sum over sixteen indices, written out in order. -/
theorem sum16 (g : Fin 16 → ℝ) : ∑ j, g j = g ⟨0, by decide⟩ + g ⟨1, by decide⟩ + g ⟨2, by decide⟩ + g ⟨3, by decide⟩ + g ⟨4, by decide⟩ + g ⟨5, by decide⟩ + g ⟨6, by decide⟩ + g ⟨7, by decide⟩ + g ⟨8, by decide⟩ + g ⟨9, by decide⟩ + g ⟨10, by decide⟩ + g ⟨11, by decide⟩ + g ⟨12, by decide⟩ + g ⟨13, by decide⟩ + g ⟨14, by decide⟩ + g ⟨15, by decide⟩ := by
  simp only [Fin.sum_univ_castSucc, Fin.sum_univ_zero, zero_add]
  rfl

/-- The least of 32 reals and one more, taken in the order the loop takes them. -/
theorem min33 (g : Fin 32 → ℝ) (T : ℝ) :
    min (min (min (min (min (min (min (min (min (min (min (min (min (min (min (min (min (min (min (min (min (min (min (min (min (min (min (min (min (min (min (min (g ⟨0, by decide⟩) T) (g ⟨1, by decide⟩)) (g ⟨2, by decide⟩)) (g ⟨3, by decide⟩)) (g ⟨4, by decide⟩)) (g ⟨5, by decide⟩)) (g ⟨6, by decide⟩)) (g ⟨7, by decide⟩)) (g ⟨8, by decide⟩)) (g ⟨9, by decide⟩)) (g ⟨10, by decide⟩)) (g ⟨11, by decide⟩)) (g ⟨12, by decide⟩)) (g ⟨13, by decide⟩)) (g ⟨14, by decide⟩)) (g ⟨15, by decide⟩)) (g ⟨16, by decide⟩)) (g ⟨17, by decide⟩)) (g ⟨18, by decide⟩)) (g ⟨19, by decide⟩)) (g ⟨20, by decide⟩)) (g ⟨21, by decide⟩)) (g ⟨22, by decide⟩)) (g ⟨23, by decide⟩)) (g ⟨24, by decide⟩)) (g ⟨25, by decide⟩)) (g ⟨26, by decide⟩)) (g ⟨27, by decide⟩)) (g ⟨28, by decide⟩)) (g ⟨29, by decide⟩)) (g ⟨30, by decide⟩)) (g ⟨31, by decide⟩) = min (Finset.univ.inf' Finset.univ_nonempty g) T := by
  apply le_antisymm
  · refine le_min (Finset.le_inf' _ _ fun w _ => ?_) ?_
    · fin_cases w <;> simp only [min_le_iff, le_refl, true_or, or_true]
    · simp only [min_le_iff, le_refl, true_or, or_true]
  · simp only [le_min_iff]
    repeat' constructor
    all_goals first | exact min_le_right _ _ | exact min_le_of_left_le (Finset.inf'_le _ (Finset.mem_univ _))

end RealHelpers

section IdealReading

open Idealize.ShloMosaic.ValueIdx

variable (f : Vec Ideal S32x1024 .f32) (tc : Vec Ideal S1024 .f32) (et : Vec Ideal S16x1024 .f32)
variable (zr : Fin 16384 → Fin 16 → ℝ) (er : Fin 1000 → Fin 16 → ℝ)

/-- The sum of the 16 squares per column of trip `t`. -/
def enAt (t : Trip) : FVec Ideal S16 .f32 :=
  addf (addf (addf (en10 et t)
    (mulf (x11 et t) (shapeCast S16 (ldE et (k2_off47 t) (k2_off47_inb i0 t h0)) shapeCasts_S1x16_S16)))
    (mulf (shapeCast S16 (ldE et (k2_off48 t) (k2_off48_inb i0 t h0)) shapeCasts_S1x16_S16) (shapeCast S16 (ldE et (k2_off48 t) (k2_off48_inb i0 t h0)) shapeCasts_S1x16_S16)))
    (mulf (shapeCast S16 (ldE et (k2_off49 t) (k2_off49_inb i0 t h0)) shapeCasts_S1x16_S16) (shapeCast S16 (ldE et (k2_off49 t) (k2_off49_inb i0 t h0)) shapeCasts_S1x16_S16))

theorem stepAt_apply (t : Trip) (acc : FVec Ideal S16 .f32) (k : S16.Idx) :
    stepAt f tc et t acc k = acc k + Scalar.select (maskAt t k) (mv5 f tc t k + enAt et t k) (Ideal.ofBits .f32 0x00000000#32) := rfl

/-- At a column below 1000 the sum of squares is `‖e_m‖²`. -/
theorem enAt_lane (het : ∀ (j : Fin 16) (c : ℕ) (hc : c < 1000) (hc' : c < 1024), et (ix2 j ⟨c, hc'⟩) = ((er ⟨c, hc⟩ j : ℝ) : EReal))
    (t : Trip) (k : S16.Idx) (h : 16 * t.val + (k 0).val < 1000) :
    enAt et t k = ((Spec.en er ⟨16 * t.val + (k 0).val, h⟩ : ℝ) : EReal) := by
  have het' : ∀ (j : Fin 16) hc', et (ix2 j ⟨16 * t.val + (k 0).val, hc'⟩) = ((er ⟨_, h⟩ j : ℝ) : EReal) :=
    fun j hc' => het j _ h hc'
  unfold enAt en10 x11 en8 x9 en6 x7 k2_pay6 k2_pay7 k2_pay8 k2_pay9 k2_pay10 k2_pay11
  simp only [ldE_congr et (k2_off34_eq t), ldE_congr et (k2_off35_eq t), ldE_congr et (k2_off36_eq t), ldE_congr et (k2_off37_eq t), ldE_congr et (k2_off38_eq t), ldE_congr et (k2_off39_eq t), ldE_congr et (k2_off40_eq t), ldE_congr et (k2_off41_eq t), ldE_congr et (k2_off42_eq t), ldE_congr et (k2_off43_eq t), ldE_congr et (k2_off44_eq t), ldE_congr et (k2_off45_eq t), ldE_congr et (k2_off46_eq t), ldE_congr et (k2_off47_eq t), ldE_congr et (k2_off48_eq t), ldE_congr et (k2_off49_eq t), addf_apply, mulf_apply]
  repeat rw [ldE_lane]
  simp only [het']
  simp only [← EReal.coe_mul, ← EReal.coe_add]
  rw [Spec.en, sum16]

/-- At a column below 1000 the least of the 33 minima is the least over the tiles' and the matrix unit's. -/
theorem mv5_lane (hf : ∀ (w : Fin 32) (c : ℕ) (hc : c < 1000) (hc' : c < 1024), f (ix2 w ⟨c, hc'⟩) = ((Spec.minSC zr er w ⟨c, hc⟩ : ℝ) : EReal))
    (htc : ∀ (c : ℕ) (hc : c < 1000) (hc' : c < 1024), tc (ix1 ⟨c, hc'⟩) = ((Spec.minTC zr er ⟨c, hc⟩ : ℝ) : EReal))
    (t : Trip) (k : S16.Idx) (h : 16 * t.val + (k 0).val < 1000) :
    mv5 f tc t k = ((min (Finset.univ.inf' Finset.univ_nonempty fun w : Fin 32 => Spec.minSC zr er w ⟨16 * t.val + (k 0).val, h⟩)
      (Spec.minTC zr er ⟨16 * t.val + (k 0).val, h⟩) : ℝ) : EReal) := by
  have hf' : ∀ (w : Fin 32) hc', f (ix2 w ⟨16 * t.val + (k 0).val, hc'⟩) = ((Spec.minSC zr er w ⟨_, h⟩ : ℝ) : EReal) :=
    fun w hc' => hf w _ h hc'
  have htc' : ∀ hc', tc (ix1 ⟨16 * t.val + (k 0).val, hc'⟩) = ((Spec.minTC zr er ⟨_, h⟩ : ℝ) : EReal) :=
    fun hc' => htc _ h hc'
  unfold mv5 mv4 mv3 mv2 k2_pay2 k2_pay3 k2_pay4 k2_pay5
  simp only [ldP_congr f (k2_off1_eq t), ldP_congr f (k2_off3_eq t), ldP_congr f (k2_off4_eq t), ldP_congr f (k2_off5_eq t), ldP_congr f (k2_off6_eq t), ldP_congr f (k2_off7_eq t), ldP_congr f (k2_off8_eq t), ldP_congr f (k2_off9_eq t), ldP_congr f (k2_off10_eq t), ldP_congr f (k2_off11_eq t), ldP_congr f (k2_off12_eq t), ldP_congr f (k2_off13_eq t), ldP_congr f (k2_off14_eq t), ldP_congr f (k2_off15_eq t), ldP_congr f (k2_off16_eq t), ldP_congr f (k2_off17_eq t), ldP_congr f (k2_off18_eq t), ldP_congr f (k2_off19_eq t), ldP_congr f (k2_off20_eq t), ldP_congr f (k2_off21_eq t), ldP_congr f (k2_off22_eq t), ldP_congr f (k2_off23_eq t), ldP_congr f (k2_off24_eq t), ldP_congr f (k2_off25_eq t), ldP_congr f (k2_off26_eq t), ldP_congr f (k2_off27_eq t), ldP_congr f (k2_off28_eq t), ldP_congr f (k2_off29_eq t), ldP_congr f (k2_off30_eq t), ldP_congr f (k2_off31_eq t), ldP_congr f (k2_off32_eq t), ldP_congr f (k2_off33_eq t), ldT_congr tc (k2_off2_eq t), minimumf_apply]
  repeat rw [ldP_lane]
  rw [ldT_lane]
  simp only [hf', htc']
  simp only [← coe_min]
  rw [← min33 (fun w : Fin 32 => Spec.minSC zr er w ⟨16 * t.val + (k 0).val, h⟩)]

end IdealReading

section Total

open Idealize.ShloMosaic.ValueIdx

variable (f : Vec Ideal S32x1024 .f32) (tc : Vec Ideal S1024 .f32) (et : Vec Ideal S16x1024 .f32)
variable (zr : Fin 16384 → Fin 16 → ℝ) (er : Fin 1000 → Fin 16 → ℝ)

/-- The term of column `n` of the sum: zero from column 1000 on. -/
def colR (n : ℕ) : ℝ :=
  if h : n < 1000 then
    min (Finset.univ.inf' Finset.univ_nonempty fun w : Fin 32 => Spec.minSC zr er w ⟨n, h⟩) (Spec.minTC zr er ⟨n, h⟩) + Spec.en er ⟨n, h⟩
  else 0

/-- Lane `k` of the accumulator before trip `n`: the terms of the columns `16 g + k`, `g < n`. -/
def laneR (n k : ℕ) : ℝ := ∑ g ∈ Finset.range n, colR zr er (16 * g + k)

theorem trips64 : k2_t1_loop.trips = 64 := by decide

/-- Every lane of the accumulator is a real: the columns past 999 never enter it. -/
theorem saccAt_lane
    (hf : ∀ (w : Fin 32) (c : ℕ) (hc : c < 1000) (hc' : c < 1024), f (ix2 w ⟨c, hc'⟩) = ((Spec.minSC zr er w ⟨c, hc⟩ : ℝ) : EReal))
    (htc : ∀ (c : ℕ) (hc : c < 1000) (hc' : c < 1024), tc (ix1 ⟨c, hc'⟩) = ((Spec.minTC zr er ⟨c, hc⟩ : ℝ) : EReal))
    (het : ∀ (j : Fin 16) (c : ℕ) (hc : c < 1000) (hc' : c < 1024), et (ix2 j ⟨c, hc'⟩) = ((er ⟨c, hc⟩ j : ℝ) : EReal)) :
    ∀ n, n ≤ k2_t1_loop.trips → ∀ k : S16.Idx, saccAt f tc et n k = ((laneR zr er n (k 0).val : ℝ) : EReal) := by
  intro n
  induction n with
  | zero =>
    intro _ k
    show Ideal.ofBits .f32 0x00000000#32 = _
    rw [Ideal.ofBits_zero_f32, laneR, Finset.sum_range_zero, EReal.coe_zero]
  | succ n ih =>
    intro hn k
    have hlt : n < k2_t1_loop.trips := hn
    rw [show saccAt f tc et (n + 1) = stepAt f tc et ⟨n, hlt⟩ (saccAt f tc et n) from saccAt_succ f tc et ⟨n, hlt⟩,
      stepAt_apply, ih (Nat.le_of_lt hlt) k]
    unfold laneR
    rw [Finset.sum_range_succ, EReal.coe_add]
    congr 1
    by_cases h : 16 * n + (k 0).val < 1000
    · rw [(maskAt_iff ⟨n, hlt⟩ k).mpr h, select_one, mv5_lane f tc zr er hf htc ⟨n, hlt⟩ k h, enAt_lane et er het ⟨n, hlt⟩ k h,
        ← EReal.coe_add, colR, dif_pos h]
    · have hm : ¬ maskAt ⟨n, hlt⟩ k = 1#1 := fun hh => h ((maskAt_iff ⟨n, hlt⟩ k).mp hh)
      rw [eq_zero_of_ne_one hm, select_zero, Ideal.ofBits_zero_f32, colR, dif_neg h, EReal.coe_zero]

/-- A sum over `16 m` consecutive indices, in `m` groups of 16. -/
theorem sum_blocks (c : ℕ → ℝ) : ∀ m, ∑ n ∈ Finset.range (16 * m), c n = ∑ g ∈ Finset.range m, ∑ k ∈ Finset.range 16, c (16 * g + k)
  | 0 => by simp
  | m + 1 => by rw [Nat.mul_succ, Finset.sum_range_add, sum_blocks c m,
      Finset.sum_range_succ (fun g => ∑ k ∈ Finset.range 16, c (16 * g + k)) m]

/-- The 16 lanes after the last trip add up to the sum over the 1000 columns. -/
theorem sum_lanes : ∑ k ∈ Finset.range 16, laneR zr er 64 k
    = ∑ mm : Fin 1000, (min (Finset.univ.inf' Finset.univ_nonempty fun w : Fin 32 => Spec.minSC zr er w mm) (Spec.minTC zr er mm) + Spec.en er mm) := by
  unfold laneR
  rw [Finset.sum_comm, ← sum_blocks (colR zr er) 64, show 16 * 64 = 1000 + 24 from rfl, Finset.sum_range_add,
    Finset.sum_eq_zero (s := Finset.range 24) (fun x _ => by rw [colR, dif_neg (by omega)]), add_zero, Finset.sum_range]
  refine Finset.sum_congr rfl fun mm _ => ?_
  rw [colR, dif_pos mm.isLt]

theorem inv_1000 : Named.named (F := Ideal) Cert.KernelIdeal.κ "inv_1000" (φ := .f32) 0x3A83126F#32 = ((1 / 1000 : ℝ) : EReal) :=
  IdealRules.named_const.ideal_named_scalar _ _ _ _ rfl

/-- The stored vector holds the kernel's real number on every lane. -/
theorem out2_ideal
    (hf : ∀ (w : Fin 32) (c : ℕ) (hc : c < 1000) (hc' : c < 1024), f (ix2 w ⟨c, hc'⟩) = ((Spec.minSC zr er w ⟨c, hc⟩ : ℝ) : EReal))
    (htc : ∀ (c : ℕ) (hc : c < 1000) (hc' : c < 1024), tc (ix1 ⟨c, hc'⟩) = ((Spec.minTC zr er ⟨c, hc⟩ : ℝ) : EReal))
    (het : ∀ (j : Fin 16) (c : ℕ) (hc : c < 1000) (hc' : c < 1024), et (ix2 j ⟨c, hc'⟩) = ((er ⟨c, hc⟩ j : ℝ) : EReal))
    (k : S16.Idx) : out2 f tc et k = ((Spec.kerReal zr er : ℝ) : EReal) := by
  have hS : ∀ k : S16.Idx, saccAt f tc et k2_t1_loop.trips k = ((laneR zr er 64 (k 0).val : ℝ) : EReal) := by
    intro k
    have := saccAt_lane f tc et zr er hf htc het k2_t1_loop.trips le_rfl k
    rwa [trips64] at this
  show Scalar.mulf (Scalar.addf (k2_pay14 (saccAt f tc et k2_t1_loop.trips)) (k2_pay15 (saccAt f tc et k2_t1_loop.trips)))
    (Named.named (F := Ideal) Cert.KernelIdeal.κ "inv_1000" (φ := .f32) 0x3A83126F#32) = _
  rw [inv_1000]
  unfold k2_pay14 k2_pay15
  simp only [extractAt, extractStridedSlice, hS, Ideal.scalar_addf_def, Ideal.scalar_mulf_def]
  show (((laneR zr er 64 0 : ℝ) : EReal) + ((laneR zr er 64 1 : ℝ) : EReal) + ((laneR zr er 64 2 : ℝ) : EReal) + ((laneR zr er 64 3 : ℝ) : EReal) + ((laneR zr er 64 4 : ℝ) : EReal) + ((laneR zr er 64 5 : ℝ) : EReal) + ((laneR zr er 64 6 : ℝ) : EReal) + ((laneR zr er 64 7 : ℝ) : EReal) + ((laneR zr er 64 8 : ℝ) : EReal) + ((laneR zr er 64 9 : ℝ) : EReal) + ((laneR zr er 64 10 : ℝ) : EReal) + ((laneR zr er 64 11 : ℝ) : EReal) + ((laneR zr er 64 12 : ℝ) : EReal) + ((laneR zr er 64 13 : ℝ) : EReal) + ((laneR zr er 64 14 : ℝ) : EReal) + ((laneR zr er 64 15 : ℝ) : EReal)) * ((1 / 1000 : ℝ) : EReal) = _
  simp only [← EReal.coe_add, ← EReal.coe_mul]
  rw [Spec.kerReal, ← sum_lanes zr er]
  simp only [Finset.sum_range_succ, Finset.sum_range_zero, zero_add]

end Total

section Statement

open Idealize.ShloMosaic.ValueIdx

/-- With the partial minima, the row of minima and the codebook's entries real at the columns below 1000 (nothing is
    asked of the columns from 1000 on), every lane of the result vector is the kernel's real number. -/
theorem post2_ideal {d : Dev nD} (zr : Fin 16384 → Fin 16 → ℝ) (er : Fin 1000 → Fin 16 → ℝ)
    (f : Buf (Elt Ideal) (ptLoc d)) (tc : Buf (Elt Ideal) (tcLoc d)) (et : Buf (Elt Ideal) (etLoc d)) (o : Buf (Elt Ideal) (ouLoc d))
    (hf : ∀ (w : Fin 32) (mm : Fin 1000), f (ix2 w (Fin.castLE (by decide) mm)) = ((Spec.minSC zr er w mm : ℝ) : EReal))
    (htc : ∀ mm : Fin 1000, tc (ix1 (Fin.castLE (by decide) mm)) = ((Spec.minTC zr er mm : ℝ) : EReal))
    (het : ∀ (j : Fin 16) (mm : Fin 1000), et (ix2 j (Fin.castLE (by decide) mm)) = ((er mm j : ℝ) : EReal))
    (h : Post2 (F := Ideal) f tc et o) : ∀ k : S16.Idx, o k = ((Spec.kerReal zr er : ℝ) : EReal) := by
  intro k
  rw [show o = out2 f tc et from h]
  exact out2_ideal f tc et zr er (fun w c hc _ => hf w ⟨c, hc⟩) (fun c hc _ => htc ⟨c, hc⟩) (fun j c hc _ => het j ⟨c, hc⟩) k

end Statement

end Cert.Proof.S2

end
-- ==== Proof.Vals0.lean ====
/-
  The stages wired together: the contents of the three host-computed operands as functions of the launch memory, what
  each tile of the first call leaves in its row (the least of the distances over its 32 points), what the
  pipeline leaves (the least over the remaining rows, read through the reshape), and what the second call leaves
  (the masked sum over the 1000 columns, scaled) of whatever the first two left.
-/
import proofs.«209935_g88441966559691_cont_sun_c4_661_34_alg».proof.Proof.Iface
import proofs.«209935_g88441966559691_cont_sun_c4_661_34_alg».proof.Proof.HostVal
import proofs.«209935_g88441966559691_cont_sun_c4_661_34_alg».proof.Proof.S1Val
import proofs.«209935_g88441966559691_cont_sun_c4_661_34_alg».proof.Proof.TcVal
import proofs.«209935_g88441966559691_cont_sun_c4_661_34_alg».proof.Proof.S2Val

noncomputable section

namespace Cert.Proof.Rn

open Cert.KernelIdeal Cert.KernelIdeal.Gen
open Cert.Proof.KI
open Idealize.ShloMosaic
open Idealize.SL.Sem

variable {F : FTy → Type} [FloatOps F] [Named F]

variable (m : (ℓ : Loc nD τ sig) → Buf (Elt F) ℓ)

/-- What tile `w` of the first call leaves in row `w`, over the launch memory. -/
def post0 (d : Dev nD) (w : Fin 32) (f : Buf (Elt F) (ptLoc d)) : Prop :=
  Cert.Proof.S1.Post0 (d := d) (Cert.Proof.HV.ztV (m (a0Loc d))) (Cert.Proof.HV.e2V (m (a1Loc d))) w f
/-- What the pipeline leaves, read through the reshape of its 1 × 1024 row to 1024. -/
def postTC (d : Dev nD) (tc : Buf (Elt F) (tcLoc d)) : Prop :=
  ∃ f12 : Buf (Elt F) (Cert.Proof.TcV.v12Loc d),
    Cert.Proof.TcV.PostTC (d := d) (m (a0Loc d)) (Cert.Proof.HV.v10V (m (a1Loc d))) f12 ∧ tc = Cert.Proof.HV.v13V f12
/-- What the second call leaves, of whatever the first call and the pipeline left. -/
def post2 (d : Dev nD) (o : Buf (Elt F) (ouLoc d)) : Prop :=
  ∃ (f : Buf (Elt F) (ptLoc d)) (tc : Buf (Elt F) (tcLoc d)), (∀ w, post0 m d w f) ∧ postTC m d tc
    ∧ Cert.Proof.S2.Post2 (d := d) f tc (Cert.Proof.HV.etV (m (a1Loc d))) o

def X : Vals F where
  zt d := Cert.Proof.HV.ztV (m (a0Loc d))
  e2 d := Cert.Proof.HV.e2V (m (a1Loc d))
  et d := Cert.Proof.HV.etV (m (a1Loc d))
  post0 := post0 m
  postTC := postTC m
  post2 := post2 m

end Cert.Proof.Rn

end
-- ==== Proof.SpecLaws.lean ====
/-
  The real-number algebra that joins the two readings of the claim (Spec.lean): the squared distance
  `‖z_b - e_m‖²` is `D b m + ‖e_m‖²`, a term that does not depend on `b` leaves a minimum over `b`,
  the 16384 rows are the 32 × 32 slab rows `32 w + p` together with the 15360 rows `1024 + t`, and a
  quotient by 1000 is the product with `1/1000`.
-/
import proofs.«209935_g88441966559691_cont_sun_c4_661_34_alg».proof.Proof.Spec

noncomputable section

namespace Cert.Proof.Ref

open Cert.Proof.Spec

/-- `‖z_b - e_m‖² = ‖z_b‖² - 2 ⟨e_m, z_b⟩ + ‖e_m‖²`, column by column. -/
theorem sqdist_eq (zr : Fin 16384 → Fin 16 → ℝ) (er : Fin 1000 → Fin 16 → ℝ) (b : Fin 16384) (mm : Fin 1000) :
    (∑ j, (zr b j - er mm j) * (zr b j - er mm j)) = D zr er b mm + en er mm := by
  unfold D en
  rw [← Finset.sum_add_distrib, ← Finset.sum_add_distrib]
  exact Finset.sum_congr rfl fun j _ => by ring

/-- The least value of `f + c` over a nonempty finite set is the least value of `f`, plus `c`. -/
theorem inf'_add_const {ι : Type} (s : Finset ι) (hs : s.Nonempty) (f : ι → ℝ) (c : ℝ) :
    (s.inf' hs fun i => f i + c) = s.inf' hs f + c := by
  apply le_antisymm
  · rw [← sub_le_iff_le_add]
    refine Finset.le_inf' _ _ fun i hi => ?_
    have := Finset.inf'_le (fun i => f i + c) hi
    linarith
  · refine Finset.le_inf' _ _ fun i hi => ?_
    have := Finset.inf'_le f hi
    linarith

/-- Every row is a slab row `32 w + p` (below 1024) or a row `1024 + t`. -/
theorem row_cases (b : Fin 16384) : (∃ w p, b = scIdx w p) ∨ (∃ t, b = tcIdx t) := by
  by_cases h : b.val < 1024
  · refine Or.inl ⟨⟨b.val / 32, by omega⟩, ⟨b.val % 32, by omega⟩, Fin.ext ?_⟩
    show b.val = 32 * (b.val / 32) + b.val % 32
    omega
  · refine Or.inr ⟨⟨b.val - 1024, by omega⟩, Fin.ext ?_⟩
    show b.val = 1024 + (b.val - 1024)
    omega

/-- The least value over all rows is the lesser of the least over the slab rows, taken tile by tile, and the
    least over the remaining rows. -/
theorem inf'_rows (f : Fin 16384 → ℝ) :
    min (Finset.univ.inf' Finset.univ_nonempty fun w : Fin 32 =>
          Finset.univ.inf' Finset.univ_nonempty fun p : Fin 32 => f (scIdx w p))
        (Finset.univ.inf' Finset.univ_nonempty fun t : Fin 15360 => f (tcIdx t))
      = Finset.univ.inf' Finset.univ_nonempty f := by
  apply le_antisymm
  · refine Finset.le_inf' _ _ fun b _ => ?_
    rcases row_cases b with ⟨w, p, rfl⟩ | ⟨t, rfl⟩
    · exact (min_le_left _ _).trans
        ((Finset.inf'_le (fun w : Fin 32 => Finset.univ.inf' Finset.univ_nonempty fun p : Fin 32 => f (scIdx w p))
            (Finset.mem_univ w)).trans
          (Finset.inf'_le (fun p : Fin 32 => f (scIdx w p)) (Finset.mem_univ p)))
    · exact (min_le_right _ _).trans (Finset.inf'_le (fun t : Fin 15360 => f (tcIdx t)) (Finset.mem_univ t))
  · exact le_min
      (Finset.le_inf' _ _ fun w _ => Finset.le_inf' _ _ fun p _ => Finset.inf'_le f (Finset.mem_univ _))
      (Finset.le_inf' _ _ fun t _ => Finset.inf'_le f (Finset.mem_univ _))

/-- The kernel's formula and the reference's are one real number. -/
theorem kerReal_eq_refReal (zr : Fin 16384 → Fin 16 → ℝ) (er : Fin 1000 → Fin 16 → ℝ) :
    kerReal zr er = refReal zr er := by
  unfold kerReal refReal minSC minTC
  refine (congrArg (· * (1 / 1000 : ℝ)) (Finset.sum_congr rfl fun mm _ => ?_)).trans (div_eq_mul_one_div _ _).symm
  have h1 : (fun b : Fin 16384 => ∑ j, (zr b j - er mm j) * (zr b j - er mm j))
      = fun b => D zr er b mm + en er mm := funext fun b => sqdist_eq zr er b mm
  rw [h1, inf'_add_const, ← inf'_rows (fun b => D zr er b mm)]

end Cert.Proof.Ref

end
-- ==== Proof.Bridge.lean ====
/-
  The whole value over the reals: with z and e real, what the second call leaves (of whatever the first call's tiles
  and the matrix unit's pipeline left) is, on every lane, the kernel's real formula, which is the reference's mean of
  least squared distances; the program's scalar result is lane 0.
-/
import proofs.«209935_g88441966559691_cont_sun_c4_661_34_alg».proof.Proof.Vals0
import proofs.«209935_g88441966559691_cont_sun_c4_661_34_alg».proof.Proof.HostVal
import proofs.«209935_g88441966559691_cont_sun_c4_661_34_alg».proof.Proof.S1Val
import proofs.«209935_g88441966559691_cont_sun_c4_661_34_alg».proof.Proof.TcVal
import proofs.«209935_g88441966559691_cont_sun_c4_661_34_alg».proof.Proof.S2Val
import proofs.«209935_g88441966559691_cont_sun_c4_661_34_alg».proof.Proof.Spec
import proofs.«209935_g88441966559691_cont_sun_c4_661_34_alg».proof.Proof.SpecLaws

noncomputable section

namespace Cert.Proof.Br

open Cert.KernelIdeal Cert.KernelIdeal.Gen
open Cert.Proof.KI
open Idealize.ShloMosaic
open Idealize.ShloMosaic.ValueIdx
open Cert.Proof.Spec

/-- With z and e real in the launch memory, the scalar the program returns is the reference's real number. -/
theorem result_real (m : (ℓ : Loc nD τ sig) → Buf (Elt Ideal) ℓ)
    (zr : Fin 16384 → Fin 16 → ℝ) (er : Fin 1000 → Fin 16 → ℝ)
    (hz : ∀ (d : Dev nD) (b : Fin 16384) (j : Fin 16), (m (a0Loc d) : Vec Ideal S16384x16 .f32) (ValueIdx.ix2 b j) = ((zr b j : ℝ) : EReal))
    (he : ∀ (d : Dev nD) (mm : Fin 1000) (j : Fin 16), (m (a1Loc d) : Vec Ideal S1000x16 .f32) (ValueIdx.ix2 mm j) = ((er mm j : ℝ) : EReal))
    (d : Dev nD) (o : Buf (Elt Ideal) (ouLoc d)) (h : Cert.Proof.Rn.post2 (F := Ideal) m d o) :
    Cert.Proof.HV.v16V (F := Ideal) o = fun _ => ((Cert.Proof.Spec.refReal zr er : ℝ) : EReal) := by
  obtain ⟨f, tc, hf, ⟨f12, hTC, htc⟩, hS⟩ := h
  -- the 32 rows of partial minima
  have hrows : ∀ (w : Fin 32) (mm : Fin 1000),
      (f : Vec Ideal S32x1024 .f32) (ix2 w ⟨mm.val, by have := mm.isLt; omega⟩) = ((minSC zr er w mm : ℝ) : EReal) := fun w =>
    Cert.Proof.S1.post0_ideal zr er (Cert.Proof.HV.ztV (m (a0Loc d))) (Cert.Proof.HV.e2V (m (a1Loc d)))
      (Cert.Proof.HV.ztV_apply zr (hz d)) (Cert.Proof.HV.e2V_apply er (he d)) w f (hf w)
  -- the pipeline's row, through the reshape
  have hpipe : ∀ mm : Fin 1000,
      (f12 : Vec Ideal S1x1024 .f32) (ix2 (0 : Fin 1) (Cert.Proof.TcV.col mm)) = ((minTC zr er mm : ℝ) : EReal) :=
    Cert.Proof.TcV.postTC_ideal zr er (m (a0Loc d)) (Cert.Proof.HV.v10V (m (a1Loc d))) f12 (hz d)
      (fun j mm => Cert.Proof.HV.v10V_apply er (he d) j mm) hTC
  have htcv : ∀ mm : Fin 1000,
      (tc : Vec Ideal S1024 .f32) (ix1 ⟨mm.val, by have := mm.isLt; omega⟩) = ((minTC zr er mm : ℝ) : EReal) := by
    intro mm
    rw [htc, Cert.Proof.HV.v13V_apply]
    exact hpipe mm
  -- the second call
  have hall := Cert.Proof.S2.post2_ideal zr er f tc (Cert.Proof.HV.etV (m (a1Loc d))) o hrows htcv
    (fun j mm => Cert.Proof.HV.etV_apply er (he d) j mm) hS
  funext i
  obtain rfl : i = ix0 := eq_ix0 i
  rw [Cert.Proof.HV.v16V_apply]
  exact (hall (ix1 0)).trans (congrArg Real.toEReal (Cert.Proof.Ref.kerReal_eq_refReal zr er))

end Cert.Proof.Br

end
-- ==== Proof.Launch.lean ====
/-
  The launch: the three-part launch element (the handshakes' rounds, the pipeline's staging cells' rounds, the
  transfer counters) dealt to the launch theorem, and the program's run from the two tile obligations, the
  TensorCore thread's proof and the reading of the final memory.
-/
import proofs.«209935_g88441966559691_cont_sun_c4_661_34_alg».proof.Proof.Iface

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-! ## The launch element -/

/-- The handshakes' cells at their launch tokens, the pipeline's cells at theirs, the counters at one. -/
def u₀ (tcU₀ : UP) : UU := (initOf (K (F := F)).hsCells (K (F := F)).hsToks, (tcU₀, 1))

theorem bigSep_emp' {I : Type} (s : Finset I) : (bigSep s fun _ => iprop(emp)) = (iprop(emp) : sProp 𝕄) := bigSep_emp_const s

variable [FloatOps F] [Named F]

/-- The element splits into its three parts; the pipeline's part funds each device's staging cells; the kernels'
    proofs consume nothing of the launch's. -/
theorem hu₀ (X : Vals F) (tcU₀ : UP) (tcGhost : Dev nD → sProp 𝕄)
    (tcFund : (BI.own ((EP (F := F)) tcU₀) : sProp 𝕄) ⊢ iprop(|==> bigSep Finset.univ fun d : Dev nD => tcGhost d)) :
    (ownU (u₀ (F := F) tcU₀) : sProp 𝕄)
      ⊢ |={Set.univ}=> iprop(BI.own (EH (initOf (K (F := F)).hsCells (K (F := F)).hsToks)) ∗ (bigSep Finset.univ fun d : Dev nD => tcGhost d)
        ∗ bigSep Finset.univ fun thr : Thread nD τ => bigSep Finset.univ fun q : Fin 2 => (P X).x q thr) := by
  unfold u₀
  iintro Hu
  ihave H := (ownU_pair _ _) $$ Hu
  icases H with ⟨HH, HR⟩
  ihave HR' := (own_pair_emb (embR : Emb (UP × Counters) 𝕄) tcU₀ (1 : Counters)) $$ HR
  icases HR' with ⟨HP, -⟩
  ihave HP' := (Entails.of_eq (show (BI.own (((Emb.inl : Emb UP (UP × Counters)).trans (embR : Emb (UP × Counters) 𝕄)) tcU₀) : sProp 𝕄)
    = BI.own ((EP (F := F)) tcU₀) from rfl)) $$ HP
  imod (tcFund) $$ HP' with HG
  imodintro
  isplitl [HH]; · iexact HH
  isplitl [HG]; · iexact HG
  unfold P; dsimp only
  rw [show (bigSep Finset.univ fun _ : Thread nD τ => bigSep Finset.univ fun _ : Fin 2 => (iprop(emp) : sProp 𝕄)) = iprop(emp) from by
    rw [bigSep_congr fun _ _ => bigSep_emp' _, bigSep_emp']]
  iempintro

/-! ## The program's run -/

/-- Every weakly fair execution of the device's 35 threads terminates, nothing faulting, in a state of which `Q'`
    holds: from the two tile obligations, the TensorCore thread's proof and the reading of the final memory. -/
theorem run_main [∀ e, Nonempty (Elt F e)] (X : Vals F) (m : (ℓ : Loc nD τ sig) → Buf (Elt F) ℓ) (ρ : Dev nD → PrngReg)
    (ht0 : (K (F := F)).TileObl (D (F := F)) 𝒱 (P X) v₀ 0) (ht1 : (K (F := F)).TileObl (D (F := F)) 𝒱 (P X) v₀ 1)
    (tcU₀ : UP) (tcGhost : Dev nD → sProp 𝕄)
    (tcFund : (BI.own ((EP (F := F)) tcU₀) : sProp 𝕄) ⊢ iprop(|==> bigSep Finset.univ fun d : Dev nD => tcGhost d))
    (FIN : Dev nD → sProp 𝕄)
    (hmain : ∀ (κ : GSem nD τ sig → ℕ) (d : Dev nD),
      iprop((K (F := F)).ctx EH (P X) κ ∗ (K (F := F)).tcSt EH d 0 ∗ (K (F := F)).tcRes m ρ d ∗ tcGhost d)
        ⊢ wp frame (wpE ((K (F := F)).defs (D (F := F))) 𝒱 (SparseCore.T d) none) Set.univ (main d) fun _ => iprop((K (F := F)).tcSt EH d 2 ∗ FIN d))
    (fq : Dev nD → Phys nD τ sig (Elt F) → Prop) (hfin : ∀ d s', iprop(FIN d ∗ SI s') ⊢ (⌜fq d s'⌝ : sProp 𝕄))
    (Q' : PUnit × MemSt nD τ sig (Elt F) → Prop) (hQ : ∀ s', (∀ d, fq d s') → Q' (⟨⟩, s'.mem)) :
    θ_run (Cert.KernelIdeal.defs (F := F)) (Cert.KernelIdeal.threads (F := F)) ⟨m, fun _ => 0, ρ⟩ Q' :=
  SparseCore.Cfg.θ_run_sc (K := K (F := F)) (D := D (F := F)) (𝒱 := 𝒱) (EH := EH) (P := P X) facts v₀
    (fun q hq => match q with | 0 => nomatch hq | 1 => nomatch hq)
    (fun q _ => match q with | 0 => ht0 | 1 => ht1)
    (fun q _ => SparseCore.Cfg.VecSplit.of_plain (vecSplit X q))
    m ρ main tcGhost FIN (u₀ (F := F) tcU₀) (sep_elim_left.trans (hu₀ X tcU₀ tcGhost tcFund)) hmain fq hfin Q' hQ

end Cert.Proof.KI

end
-- ==== Proof.Local.lean ====
/-
  What the first call's tile `w` is required to leave speaks of row `w` of the partial minima only: two contents of
  the array that agree on that row satisfy it together.
-/
import proofs.«209935_g88441966559691_cont_sun_c4_661_34_alg».proof.Proof.Iface
import proofs.«209935_g88441966559691_cont_sun_c4_661_34_alg».proof.Proof.S1Val

noncomputable section

namespace Cert.Proof.Lc

open Cert.KernelIdeal
open Idealize.ShloMosaic Idealize.ShloMosaic.ValueIdx
open Cert.Proof.KI

variable {F : FTy → Type} [FloatOps F] [Named F]

/-- Column `m` of row `w` lies in row `w`: the `w`-th of the 32 parts along the first axis. -/
theorem mem_pRowSet (w : Fin 32) (m : Fin 1024) : (ix2 w m : S32x1024.Idx) ∈ pRowSet w := by
  refine Rect.mem_set_unit.mpr fun a => ?_
  match a with
  | ⟨0, _⟩ =>
    show w.val * (32 / 32) ≤ w.val ∧ w.val < w.val * (32 / 32) + 32 / 32
    omega
  | ⟨1, _⟩ =>
    show 0 * 1024 ≤ m.val ∧ m.val < 0 * 1024 + 1024
    omega

/-- The tile's post reads the array on its own row only. -/
theorem post0_local {d : Dev nD} (zt : Buf (Elt F) (ztLoc d)) (e2 : Buf (Elt F) (e2Loc d)) (w : Fin 32)
    (f g : Buf (Elt F) (ptLoc d)) (h : ∀ x ∈ pRowSet w, f x = g x) :
    Cert.Proof.S1.Post0 zt e2 w f → Cert.Proof.S1.Post0 zt e2 w g :=
  fun hf m => (h _ (mem_pRowSet w _)).symm.trans (hf m)

end Cert.Proof.Lc

end
-- ==== Proof.S2Body.lean ====
/-
  The body of the second vector-subcore call on one tile at a symbolic place: the tile at coordinates (0, 0) copies
  the partial minima, the dense row of minima and the padded transposed table into its scratch, folds 64 trips of a
  carried 16-lane accumulator over them, adds the lanes, scales, and copies the 16-lane result out; every other tile
  does nothing. From it, the launch theorem's obligation for that call.
-/
import proofs.«209935_g88441966559691_cont_sun_c4_661_34_alg».proof.Proof.Iface
import proofs.«209935_g88441966559691_cont_sun_c4_661_34_alg».proof.Proof.S2Val

noncomputable section

namespace Cert.Proof.S2B

open Cert.KernelIdeal Cert.KernelIdeal.Gen
open Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type} [FloatOps F] [Named F]

local notation "𝕄" => MT nD τ sig (HIx 2) (Elt F) ℕ UU ℕ

-- the kernel's memrefs, spelt as the body table passes them
local notation "pW" => (Memref.whole Cert.KernelIdeal.main_v11_scv : Memref Cert.KernelIdeal.sig Kind.scVector Space.hbm Cert.KernelIdeal.S32x1024 EltTy.f32)
local notation "tW" => (Memref.whole Cert.KernelIdeal.main_v13_scv : Memref Cert.KernelIdeal.sig Kind.scVector Space.hbm Cert.KernelIdeal.S1024 EltTy.f32)
local notation "eW" => (Memref.whole Cert.KernelIdeal.main_v8_scv : Memref Cert.KernelIdeal.sig Kind.scVector Space.hbm Cert.KernelIdeal.S16x1024 EltTy.f32)
local notation "oW" => (Memref.whole Cert.KernelIdeal.main_v14_scv : Memref Cert.KernelIdeal.sig Kind.scVector Space.hbm Cert.KernelIdeal.S16 EltTy.f32)
local notation "sP" => (Memref.whole Cert.KernelIdeal.cc2_scratch0 : Memref Cert.KernelIdeal.sig Kind.scVector Space.vmem Cert.KernelIdeal.S32x1024 EltTy.f32)
local notation "sT" => (Memref.whole Cert.KernelIdeal.cc2_scratch1 : Memref Cert.KernelIdeal.sig Kind.scVector Space.vmem Cert.KernelIdeal.S1024 EltTy.f32)
local notation "sE" => (Memref.whole Cert.KernelIdeal.cc2_scratch2 : Memref Cert.KernelIdeal.sig Kind.scVector Space.vmem Cert.KernelIdeal.S16x1024 EltTy.f32)
local notation "sO" => (Memref.whole Cert.KernelIdeal.cc2_scratch3 : Memref Cert.KernelIdeal.sig Kind.scVector Space.vmem Cert.KernelIdeal.S16 EltTy.f32)

section Tile

variable (X : Vals F) (d : Dev nD) (L : grid2.Coords)

abbrev cV (L : grid2.Coords) : Fin τ.nSC := (L 0).castLE hcore2
abbrev jV (L : grid2.Coords) : Fin τ.nSub := (L 1).castLE hsub2
abbrev thr (d : Dev nD) (L : grid2.Coords) : Thread nD τ := V d (cV L) (jV L)

abbrev cell0 (d : Dev nD) (L : grid2.Coords) : GSem nD τ sig := (thr d L, .dma cc2_scoped0.sem)
abbrev cell1 (d : Dev nD) (L : grid2.Coords) : GSem nD τ sig := (thr d L, .dma cc2_scoped1.sem)
abbrev cell2 (d : Dev nD) (L : grid2.Coords) : GSem nD τ sig := (thr d L, .dma cc2_scoped2.sem)
abbrev cell3 (d : Dev nD) (L : grid2.Coords) : GSem nD τ sig := (thr d L, .dma cc2_scoped3.sem)

omit [FloatOps F] [Named F] in
theorem cell_ne {a b : DmaSem sig} (h : a ≠ b) : ((thr d L, SemLoc.dma a) : GSem nD τ sig) ≠ (thr d L, SemLoc.dma b) :=
  fun e => h (SemLoc.dma.inj (Prod.mk.inj e).2)

omit [FloatOps F] [Named F] in
theorem ownSems0_V :
    (ownSems0 (thr d L) : sProp 𝕄)
      = iprop(semVal (cell0 d L) 0 ∗ semVal (cell1 d L) 0 ∗ semVal (cell2 d L) 0 ∗ semVal (cell3 d L) 0
          ∗ bigSep (((((ownCells (thr d L)).erase (cell0 d L)).erase (cell1 d L)).erase (cell2 d L)).erase (cell3 d L))
              fun g => semVal g 0) := by
  unfold SparseCore.Cfg.ownSems0
  rw [SparseCore.bigSep_erase' ((mem_ownCells (g := cell0 d L)).mpr ⟨rfl, by
      show (SemLoc.dma cc2_scoped0.sem : SemLoc sig).isScoped .scVector = true; decide⟩),
    SparseCore.bigSep_erase' (Finset.mem_erase.mpr ⟨cell_ne d L (by decide),
      (mem_ownCells (g := cell1 d L)).mpr ⟨rfl, by show (SemLoc.dma cc2_scoped1.sem : SemLoc sig).isScoped .scVector = true; decide⟩⟩),
    SparseCore.bigSep_erase' (Finset.mem_erase.mpr ⟨cell_ne d L (by decide),
      Finset.mem_erase.mpr ⟨cell_ne d L (by decide),
      (mem_ownCells (g := cell2 d L)).mpr ⟨rfl, by show (SemLoc.dma cc2_scoped2.sem : SemLoc sig).isScoped .scVector = true; decide⟩⟩⟩),
    SparseCore.bigSep_erase' (Finset.mem_erase.mpr ⟨cell_ne d L (by decide),
      Finset.mem_erase.mpr ⟨cell_ne d L (by decide),
      Finset.mem_erase.mpr ⟨cell_ne d L (by decide),
      (mem_ownCells (g := cell3 d L)).mpr ⟨rfl, by show (SemLoc.dma cc2_scoped3.sem : SemLoc sig).isScoped .scVector = true; decide⟩⟩⟩⟩)]

abbrev pr (L : grid2.Coords) : Proc τ := Proc.scVector (cV L) (jV L)

omit [FloatOps F] [Named F] in
/-- The four scratch buffers are among the subcore's own: they are them, at some contents, and the rest. -/
theorem ownBufs_V :
    (ownBufs (thr d L) : sProp 𝕄)
      = iprop((∃ f, (thr d L).loc cc2_scratch0 ↦{fullShare} f) ∗ (∃ f, (thr d L).loc cc2_scratch1 ↦{fullShare} f)
          ∗ (∃ f, (thr d L).loc cc2_scratch2 ↦{fullShare} f) ∗ (∃ f, (thr d L).loc cc2_scratch3 ↦{fullShare} f)
          ∗ bigSep (((((ownRefs (τ := τ) (.scVector (cV L) (jV L))).erase ((pr L).devRef cc2_scratch0)).erase
              ((pr L).devRef cc2_scratch1)).erase ((pr L).devRef cc2_scratch2)).erase ((pr L).devRef cc2_scratch3))
              fun b => iprop(∃ f, ((d, b) : Loc nD τ sig) ↦{fullShare} f)) := by
  unfold SparseCore.Cfg.ownBufs
  refine (SparseCore.bigSep_erase' (SparseCore.Cfg.mem_ownRefs_of_owner (p := pr L)
    (b := (pr L).devRef cc2_scratch0) rfl)).trans ?_
  rw [SparseCore.bigSep_erase' (Finset.mem_erase.mpr ⟨fun e => absurd (Proc.devRef_injective _ e) (show (cc2_scratch1 : Ref sig .scVector) ≠ cc2_scratch0 by decide),
    SparseCore.Cfg.mem_ownRefs_of_owner (p := pr L) (b := (pr L).devRef cc2_scratch1) rfl⟩),
    SparseCore.bigSep_erase' (Finset.mem_erase.mpr ⟨fun e => absurd (Proc.devRef_injective _ e) (show (cc2_scratch2 : Ref sig .scVector) ≠ cc2_scratch1 by decide),
      Finset.mem_erase.mpr ⟨fun e => absurd (Proc.devRef_injective _ e) (show (cc2_scratch2 : Ref sig .scVector) ≠ cc2_scratch0 by decide),
    SparseCore.Cfg.mem_ownRefs_of_owner (p := pr L) (b := (pr L).devRef cc2_scratch2) rfl⟩⟩),
    SparseCore.bigSep_erase' (Finset.mem_erase.mpr ⟨fun e => absurd (Proc.devRef_injective _ e) (show (cc2_scratch3 : Ref sig .scVector) ≠ cc2_scratch2 by decide),
      Finset.mem_erase.mpr ⟨fun e => absurd (Proc.devRef_injective _ e) (show (cc2_scratch3 : Ref sig .scVector) ≠ cc2_scratch1 by decide),
      Finset.mem_erase.mpr ⟨fun e => absurd (Proc.devRef_injective _ e) (show (cc2_scratch3 : Ref sig .scVector) ≠ cc2_scratch0 by decide),
    SparseCore.Cfg.mem_ownRefs_of_owner (p := pr L) (b := (pr L).devRef cc2_scratch3) rfl⟩⟩⟩)]

omit [FloatOps F] [Named F] in
/-- The arrays as the tile's memrefs address them are the TensorCore's arrays. -/
theorem pts_p (f : Buf (Elt F) (ptLoc d)) :
    ((pW).view.loc (thr d L) ↦[(pW).view.set]{fullShare} f : sProp 𝕄) = ptLoc d ↦{fullShare} f := by
  simp only [Memref.view_whole, View.set_whole]
omit [FloatOps F] [Named F] in
theorem pts_t (f : Buf (Elt F) (tcLoc d)) :
    ((tW).view.loc (thr d L) ↦[(tW).view.set]{fullShare} f : sProp 𝕄) = tcLoc d ↦{fullShare} f := by
  simp only [Memref.view_whole, View.set_whole]
omit [FloatOps F] [Named F] in
theorem pts_e (f : Buf (Elt F) (etLoc d)) :
    ((eW).view.loc (thr d L) ↦[(eW).view.set]{fullShare} f : sProp 𝕄) = etLoc d ↦{fullShare} f := by
  simp only [Memref.view_whole, View.set_whole]
omit [FloatOps F] [Named F] in
theorem pts_o (f : Buf (Elt F) (ouLoc d)) :
    ((oW).view.loc (thr d L) ↦[(oW).view.set]{fullShare} f : sProp 𝕄) = ouLoc d ↦{fullShare} f := by
  simp only [Memref.view_whole, View.set_whole]
omit [FloatOps F] [Named F] in
theorem pts_sP (f : Buf (Elt F) ((thr d L).loc cc2_scratch0)) :
    ((sP).view.loc (thr d L) ↦[(sP).view.set]{fullShare} f : sProp 𝕄) = (thr d L).loc cc2_scratch0 ↦{fullShare} f := by
  simp only [Memref.view_whole, View.set_whole]
omit [FloatOps F] [Named F] in
theorem pts_sT (f : Buf (Elt F) ((thr d L).loc cc2_scratch1)) :
    ((sT).view.loc (thr d L) ↦[(sT).view.set]{fullShare} f : sProp 𝕄) = (thr d L).loc cc2_scratch1 ↦{fullShare} f := by
  simp only [Memref.view_whole, View.set_whole]
omit [FloatOps F] [Named F] in
theorem pts_sE (f : Buf (Elt F) ((thr d L).loc cc2_scratch2)) :
    ((sE).view.loc (thr d L) ↦[(sE).view.set]{fullShare} f : sProp 𝕄) = (thr d L).loc cc2_scratch2 ↦{fullShare} f := by
  simp only [Memref.view_whole, View.set_whole]
omit [FloatOps F] [Named F] in
theorem pts_sO (f : Buf (Elt F) ((thr d L).loc cc2_scratch3)) :
    ((sO).view.loc (thr d L) ↦[(sO).view.set]{fullShare} f : sProp 𝕄) = (thr d L).loc cc2_scratch3 ↦{fullShare} f := by
  simp only [Memref.view_whole, View.set_whole]

/-- Before trip `k`: the three scratch copies at contents that read as the three arrays, the carried accumulator the
    fold of the first `k` trips over those arrays. -/
def inv (f : Vec F S32x1024 .f32) (tc : Vec F S1024 .f32) (et : Vec F S16x1024 .f32) (k : ℕ) (acc : FVec F S16 .f32) : sProp 𝕄 :=
  iprop(∃ (g0 : Buf (Elt F) ((thr d L).loc cc2_scratch0)) (g1 : Buf (Elt F) ((thr d L).loc cc2_scratch1))
      (g2 : Buf (Elt F) ((thr d L).loc cc2_scratch2)),
    ((sP).view.loc (thr d L) ↦[(sP).view.set]{fullShare} g0) ∗ ((sT).view.loc (thr d L) ↦[(sT).view.set]{fullShare} g1)
    ∗ ((sE).view.loc (thr d L) ↦[(sE).view.set]{fullShare} g2)
    ∗ ⌜(sP).view.read (Elt F) g0 = f⌝ ∗ ⌜(sT).view.read (Elt F) g1 = tc⌝ ∗ ⌜(sE).view.read (Elt F) g2 = et⌝
    ∗ ⌜acc = Cert.Proof.S2.saccAt f tc et k⌝)

/-- One trip: 33 loads of 16 minima, 32 loads of 16 table entries, and the accumulator's next value is the fold's. -/
theorem region (hL : k2_cond1 L = 1#1) (f : Vec F S32x1024 .f32) (tc : Vec F S1024 .f32) (et : Vec F S16x1024 .f32)
    (k : Fin k2_t1_loop.trips) (acc : FVec F S16 .f32) :
    inv d L f tc et k.val acc
      ⊢ wp frame (wpE (defs₀ (F := F)) 𝒱₀ (thr d L) none) Set.univ
          (k2_t1_body L pW (Memref.isWhole_whole _) tW (Memref.isWhole_whole _) eW (Memref.isWhole_whole _) oW (Memref.isWhole_whole _)
            sP (Memref.isWhole_whole _) sT (Memref.isWhole_whole _) sE (Memref.isWhole_whole _) sO (Memref.isWhole_whole _)
            cc2_scoped0 cc2_scoped1 cc2_scoped2 cc2_scoped3 hL k acc)
          (inv d L f tc et (k.val + 1)) := by
  sl_unfold [k2_t1_body]
  rw [k2_part1_eq_skeleton, k2_part2_eq_skeleton, k2_part3_eq_skeleton, k2_part4_eq_skeleton, k2_part5_eq_skeleton, k2_part6_eq_skeleton]
  unfold inv
  iintro ⟨%g0, %g1, %g2, H0, H1, H2, %e0, %e1, %e2, %hacc⟩
  sl_exec
  sl_step
  iexists g0, g1, g2
  isplitl [H0]; · iexact H0
  isplitl [H1]; · iexact H1
  isplitl [H2]; · iexact H2
  isplitr; · ipureintro; exact e0
  isplitr; · ipureintro; exact e1
  isplitr; · ipureintro; exact e2
  ipureintro
  subst hacc e0 e1 e2
  rw [Cert.Proof.S2.saccAt_succ]
  rfl

omit [FloatOps F] [Named F] in
/-- The rectangle of all 16 lanes places each lane at itself. -/
theorem emb_all16 (x : (Rect.unit (s := S16) ![0] S16.size inb_S16_S16_0).shape.Idx) :
    (Rect.unit (s := S16) ![0] S16.size inb_S16_S16_0).emb x = x := by
  funext a; apply Fin.ext
  show (![0] : Fin 1 → ℕ) a + 1 * (x a : ℕ) = x a
  have : (![0] : Fin 1 → ℕ) a = 0 := by fin_cases a; rfl
  omega

omit [FloatOps F] [Named F] in
/-- The result scratch after the store of all 16 lanes reads as what was stored. -/
theorem read_store_all16 (g : Buf (Elt F) ((thr d L).loc cc2_scratch3)) (w : S16.Idx → Elt F .f32) :
    (sO).view.read (Elt F) ((sO).view.writes (Elt F) g [⟨Rect.unit (s := S16) ![0] S16.size inb_S16_S16_0, w⟩]) = w := by
  funext y
  have h := View.read_writes_cons_emb (sO).view g (Rect.unit (s := S16) ![0] S16.size inb_S16_S16_0) w [] y
  rwa [emb_all16] at h

theorem tile_body (hX : ∀ d f tc o, (∀ w, X.post0 d w f) → X.postTC d tc → Cert.Proof.S2.Post2 f tc (X.et d) o → X.post2 d o)
    (hL : k2_cond1 L = 1#1) (O : CellTallies nD τ sig (HIx 2)) (W : Waits sig (HIx 2)) (hO : ∀ g, O g none = 0) :
    iprop(levAts (K (F := F)).L (K (F := F)).lev ∗ emp ∗ go1 X d
        ∗ scopedBufs (thr d L) ∗ scopedSems0 (thr d L) ∗ owes (thr d L) O W)
      ⊢ wp frame (wpE (defs₀ (F := F)) 𝒱₀ (thr d L) none) Set.univ
          (cc2__sc_stage2 L pW (Memref.isWhole_whole _) tW (Memref.isWhole_whole _) eW (Memref.isWhole_whole _) oW (Memref.isWhole_whole _)
            sP (Memref.isWhole_whole _) sT (Memref.isWhole_whole _) sE (Memref.isWhole_whole _) sO (Memref.isWhole_whole _) cc2_scoped0 cc2_scoped1 cc2_scoped2 cc2_scoped3)
          fun _ => iprop(td1 X d ∗ scopedBufs (thr d L) ∗ scopedSems0 (thr d L)
            ∗ ∃ W', ⌜∀ p ∈ W', p ∈ W ∨ p.2 = none⌝ ∗ owes (thr d L) O W') := by
  sl_unfold [cc2__sc_stage2, cc2__sc_stage2_skel]
  rw [k2_part7_eq_skeleton]
  rw [(K (F := F)).scopedBufs_V facts d (cV L) (jV L), SparseCore.Cfg.scopedSems0_V (Val := Elt F) d (cV L) (jV L), ownSems0_V, ownBufs_V]
  unfold go1 td1
  iintro ⟨#Hlv, -, ⟨%f, %tc, %hf, %htc, Hp, Ht, He, %o0, Ho⟩, ⟨⟨%g0, Hs0⟩, ⟨%g1, Hs1⟩, ⟨%g2, Hs2⟩, ⟨%g3, Hs3⟩, Hbufs⟩, ⟨Hsem0, Hsem1, Hsem2, Hsem3, Hsems⟩, HO⟩
  ihave Hmw := ((K (F := F)).mayWaits_none (thr := thr d L) hO) $$ Hlv
  ihave Hp' := (Entails.of_eq (pts_p (F := F) d L _).symm) $$ Hp
  ihave Ht' := (Entails.of_eq (pts_t (F := F) d L _).symm) $$ Ht
  ihave He' := (Entails.of_eq (pts_e (F := F) d L _).symm) $$ He
  ihave Ho' := (Entails.of_eq (pts_o (F := F) d L _).symm) $$ Ho
  ihave Hs0' := (Entails.of_eq (pts_sP (F := F) d L _).symm) $$ Hs0
  ihave Hs1' := (Entails.of_eq (pts_sT (F := F) d L _).symm) $$ Hs1
  ihave Hs2' := (Entails.of_eq (pts_sE (F := F) d L _).symm) $$ Hs2
  ihave Hs3' := (Entails.of_eq (pts_sO (F := F) d L _).symm) $$ Hs3
  -- the three copies in, each waited at once
  sl_exec
  -- the 64 trips
  sl_for (inv d L f tc (X.et d)) $$ [Hs0' Hs1' Hs2']
  case region =>
    intro k acc
    exact region d L hL f tc (X.et d) k acc
  · unfold inv
    iexists _, _, _
    isplitl [Hs0']; · iexact Hs0'
    isplitl [Hs1']; · iexact Hs1'
    isplitl [Hs2']; · iexact Hs2'
    isplitr; · ipureintro; exact View.read_writes_whole _ _ _
    isplitr; · ipureintro; exact View.read_writes_whole _ _ _
    isplitr; · ipureintro; exact View.read_writes_whole _ _ _
    ipureintro
    rfl
  iintro %acc HI
  unfold inv
  icases HI with ⟨%g0', %g1', %g2', H0, H1, H2, -, -, -, %hacc⟩
  -- the lanes added, scaled, stored, copied out
  sl_exec
  sl_step
  isplitl [Hp' Ht' He' Ho']
  · isplitl [Hp']; · iexists _; iapply (Entails.of_eq (pts_p (F := F) d L _)); iexact Hp'
    isplitl [Ht']; · iexists _; iapply (Entails.of_eq (pts_t (F := F) d L _)); iexact Ht'
    isplitl [He']; · iapply (Entails.of_eq (pts_e (F := F) d L _)); iexact He'
    iexists _; isplitr
    on_goal 2 => (iapply (Entails.of_eq (pts_o (F := F) d L _)); iexact Ho')
    ipureintro
    refine hX d f tc _ hf htc ?_
    show _ = Cert.Proof.S2.out2 f tc (X.et d)
    subst hacc
    refine (View.read_writes_whole (oW).view o0 _).trans ?_
    sl_unfold_run_names
    exact read_store_all16 d L g3 _
  isplitl [H0 H1 H2 Hs3' Hbufs]
  · isplitl [H0]; · iexists _; iapply (Entails.of_eq (pts_sP (F := F) d L _)); iexact H0
    isplitl [H1]; · iexists _; iapply (Entails.of_eq (pts_sT (F := F) d L _)); iexact H1
    isplitl [H2]; · iexists _; iapply (Entails.of_eq (pts_sE (F := F) d L _)); iexact H2
    isplitl [Hs3']; · iexists _; iapply (Entails.of_eq (pts_sO (F := F) d L _)); iexact Hs3'
    iexact Hbufs
  isplitl [Hsem0 Hsem1 Hsem2 Hsem3 Hsems]
  · isplitl [Hsem0]; · iexact Hsem0
    isplitl [Hsem1]; · iexact Hsem1
    isplitl [Hsem2]; · iexact Hsem2
    isplitl [Hsem3]; · iexact Hsem3
    iexact Hsems
  iexists _; isplitr
  on_goal 2 => iexact HO
  ipureintro; intro p hp
  rcases Finset.mem_insert.mp hp with rfl | hp
  · exact .inr rfl
  rcases Finset.mem_insert.mp hp with rfl | hp
  · exact .inr rfl
  rcases Finset.mem_insert.mp hp with rfl | hp
  · exact .inr rfl
  rcases Finset.mem_insert.mp hp with rfl | hp
  · exact .inr rfl
  · exact .inl hp

theorem tile_idle (hL : ¬ k2_cond1 L = 1#1) (O : CellTallies nD τ sig (HIx 2)) (W : Waits sig (HIx 2)) :
    (iprop(levAts (K (F := F)).L (K (F := F)).lev ∗ emp ∗ emp
        ∗ scopedBufs (thr d L) ∗ scopedSems0 (thr d L) ∗ owes (thr d L) O W) : sProp 𝕄)
      ⊢ wp frame (wpE (defs₀ (F := F)) 𝒱₀ (thr d L) none) Set.univ
          (cc2__sc_stage2 L pW (Memref.isWhole_whole _) tW (Memref.isWhole_whole _) eW (Memref.isWhole_whole _) oW (Memref.isWhole_whole _)
            sP (Memref.isWhole_whole _) sT (Memref.isWhole_whole _) sE (Memref.isWhole_whole _) sO (Memref.isWhole_whole _) cc2_scoped0 cc2_scoped1 cc2_scoped2 cc2_scoped3)
          fun _ => iprop(emp ∗ scopedBufs (thr d L) ∗ scopedSems0 (thr d L)
            ∗ ∃ W', ⌜∀ p ∈ W', p ∈ W ∨ p.2 = none⌝ ∗ owes (thr d L) O W') := by
  sl_unfold [cc2__sc_stage2, cc2__sc_stage2_skel]
  iintro ⟨-, -, Hst, Hsb, Hss, HO⟩
  sl_exec
  sl_step
  isplitl [Hst]; · iexact Hst
  isplitl [Hsb]; · iexact Hsb
  isplitl [Hss]; · iexact Hss
  iexists W; isplitr
  · ipureintro; exact fun p hp => .inl hp
  · iexact HO

end Tile

/-! ## The launch theorem's obligation -/

def coordsV (c : Fin (grid2.bound 0)) (s : Fin (grid2.bound 1)) : grid2.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 2 ⟨⟩
      = SparseCore.onTile hcore2 hsub2 (fun c s => cc2__sc_stage2 (coordsV c s)
          pW (Memref.isWhole_whole _) tW (Memref.isWhole_whole _) eW (Memref.isWhole_whole _) oW (Memref.isWhole_whole _)
          sP (Memref.isWhole_whole _) sT (Memref.isWhole_whole _) sE (Memref.isWhole_whole _) sO (Memref.isWhole_whole _)
          cc2_scoped0 cc2_scoped1 cc2_scoped2 cc2_scoped3) ⟨⟩ c s := rfl

/-- The call's guard holds exactly on the tile at coordinates (0, 0). -/
theorem cond_iff : ∀ (c : Fin (grid2.bound 0)) (s : Fin (grid2.bound 1)), k2_cond1 (coordsV c s) = 1#1 ↔ (c.val = 0 ∧ s.val = 0) := by
  decide

omit [FloatOps F] [Named F] in
theorem obl_post {t : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl1 (X : Vals F) (hX : ∀ d f tc o, (∀ w, X.post0 d w f) → X.postTC d tc → Cert.Proof.S2.Post2 f tc (X.et d) o → X.post2 d o) :
    (K (F := F)).TileObl (D (F := F)) 𝒱 (P X) v₀ 1 := by
  intro d c i O W hO _ _
  simp only [show (P X).ox = fun _ _ => 0 from rfl, add_zero]
  change _ ⊢ wp _ _ _ (Pipeline.liftProg (defs₀ (F := F) (.scVector ((K (F := F)).core 1 c) ((K (F := F)).sub 1 i)) 2 ⟨⟩)) _
  refine BI.Entails.trans ?_ (Pipeline.wp_liftProg (D (F := F)) (Pipeline.defs_kernel pcfgs defs₀) 𝒱₀ _ Set.univ none _ _)
  have hc : ((K (F := F)).core 1 c).val < grid2.bound 0 ∧ ((K (F := F)).sub 1 i).val < grid2.bound 1 := ⟨c.isLt, i.isLt⟩
  rw [defs₀_vector]; simp only [SparseCore.onTile, hc, and_self, ↓reduceDIte]
  show iprop(_ ∗ emp ∗ (if c.val = 0 ∧ i.val = 0 then go1 X d else iprop(emp)) ∗ _) ⊢ wp _ _ _ _ (fun _ => iprop((if c.val = 0 ∧ i.val = 0 then td1 X d else iprop(emp)) ∗ _))
  by_cases h : c.val = 0 ∧ i.val = 0
  · rw [if_pos h, if_pos h]
    exact (tile_body X d (coordsV ⟨_, hc.1⟩ ⟨_, hc.2⟩) hX ((cond_iff _ _).mpr h) O W hO).trans (wp_mono frame _ _ fun _ => obl_post)
  · rw [if_neg h, if_neg h]
    exact (tile_idle d (coordsV ⟨_, hc.1⟩ ⟨_, hc.2⟩) (fun e => h ((cond_iff _ _).mp e)) O W).trans (wp_mono frame _ _ fun _ => obl_post)

end Cert.Proof.S2B
end
-- ==== Proof.TcBlocks.lean ====
/-
  The two windows of the matrix unit's pipeline whose block is their whole array (the second operand and the row of
  minima: index map constantly zero): a block read off the array is the array, and the array after the run is what
  the one write-back, at the last grid point, wrote.
-/
import proofs.«209935_g88441966559691_cont_sun_c4_661_34_alg».proof.Proof.Iface
import Idealize.ShloMosaic.Lib.Pipeline.Value

noncomputable section

namespace Cert.Proof.TcB

open Cert.KernelIdeal Cert.KernelIdeal.Gen
open Cert.Proof.KI
open Idealize.ShloMosaic Idealize.ShloMosaic.TcCoe
open Idealize.ShloMosaic.SparseCore.Cfg (HIx)
open Idealize.SL Idealize.SL.Sem

variable {F : FTy → Type} [FloatOps F] [Named F]

/-- The second operand's block index is (0, 0) at every point. -/
theorem index1_zero (t : Fin cfg1.N) : (fun a => win1_1.index t a * main_v10.ty.shape.size a) = fun _ => 0 :=
  funext fun a => by fin_cases a <;> rfl

/-- The result's block index is (0, 0) at every point. -/
theorem index2_zero (t : Fin cfg1.N) : (fun a => win1_2.index t a * main_v12.ty.shape.size a) = fun _ => 0 :=
  funext fun a => by fin_cases a <;> rfl

/-- The second operand's block at any point, read off the array, is the array. -/
theorem vBlk_eq (v : Vec F S16x1024 .f32) (t : Fin cfg1.N) : ((cfg1.win 1).blk t).view.read (Elt F) v = v :=
  Memref.read_access_unit_zero (Elt F) main_v10 (index1_zero t) (fun a => by rw [congrFun (index1_zero t) a]; simp) v

/-- The result's block at any point, read off the array, is the array. -/
theorem rBlk_eq (r : Vec F S1x1024 .f32) (t : Fin cfg1.N) : ((cfg1.win 2).blk t).view.read (Elt F) r = r :=
  Memref.read_access_unit_zero (Elt F) main_v12 (index2_zero t) (fun a => by rw [congrFun (index2_zero t) a]; simp) r

/-- The result's block at any point covers the whole array. -/
theorem mem_rBlk (t : Fin cfg1.N) (i : S1x1024.Idx) : i ∈ ((cfg1.win 2).blk t).view.set := by
  show i ∈ ((View.whole main_v12).slice (win1_2.rect t)).set
  rw [View.set_slice_whole]
  exact View.mem_set_unit_zero (index2_zero t) _ i

/-- Only the last point writes the result back: the array after the run holds what the body left there. -/
theorem arrAt2_eq_of {c : Dev nD} (dat : Pipeline.Dat τ (Elt F) (HIx 2) ℕ UU ℕ cfg1 c) (r : Vec F S1x1024 .f32)
    (t₁ : Fin cfg1.N) (ht₁ : t₁.val = 14) (h : dat.after 2 t₁ = r) : dat.arrAt 2 cfg1.N = r := by
  refine dat.arrAt_eq_of_cover 2 r (fun t hf => ?_) (fun i => ⟨t₁, (flush1_2 t₁).mpr (by rw [ht₁]), mem_rBlk t₁ i⟩)
  have hN : cfg1.N = 15 := N_1
  have h14 : t.val = 14 := by have := (flush1_2 t).mp hf; have := t.isLt; omega
  obtain rfl : t = t₁ := Fin.ext (h14.trans ht₁.symm)
  show dat.after 2 t = _
  rw [h]
  exact (rBlk_eq r t).symm

theorem arrAt2_eq {c : Dev nD} (dat : Pipeline.Dat τ (Elt F) (HIx 2) ℕ UU ℕ cfg1 c) (r : Vec F S1x1024 .f32)
    (h : dat.after 2 ⟨14, by decide⟩ = r) : dat.arrAt 2 cfg1.N = r :=
  arrAt2_eq_of dat r ⟨14, by decide⟩ rfl h

end Cert.Proof.TcB

end
-- ==== Proof.TcRegion.lean ====
/-
  The TensorCore pipeline between the two SparseCore calls, as the TensorCore thread runs it inside the whole program.
  Grid of 15 points; at point t the body reads the first operand's window at that point (its rows 1024 (t + 1) to 1024 (t + 2) - 1, 16 wide) and the whole second
  operand (16 × 1024), and keeps in a scratch of 8 × 1024 the running minimum, over the groups of 8 rows met so far, of
  the squared norms plus the products: reset to +∞ at the first point, updated at every point, and at the last point
  its minimum over the 8 rows is stored into the result's block (1 × 1024), written back there only.
  Here: the body at a point in its three control cases, the proof data (the scratch carried between points holds the
  accumulator after each point), the body obligation, the region's record around the thread state (what the TensorCore
  owes between the calls, the three arrays), the staging cells' ghost state from the launch element, and the region's
  triple under the whole program's body table.
-/
import proofs.«209935_g88441966559691_cont_sun_c4_661_34_alg».proof.Proof.Iface
import proofs.«209935_g88441966559691_cont_sun_c4_661_34_alg».proof.Proof.TcVal
import proofs.«209935_g88441966559691_cont_sun_c4_661_34_alg».proof.Proof.TcBlocks
import Idealize.ShloMosaic.Lib.Pipeline.Frame
import Idealize.ShloMosaic.Lib.Pipeline.FrameBody
import Idealize.ShloMosaic.Lib.Pipeline.Value

set_option maxRecDepth 16384

noncomputable section

namespace Cert.Proof.TcR

open Cert.KernelIdeal Cert.KernelIdeal.Gen
open Cert.Proof.KI
open Cert.Proof.TcV (zBlk accAt accAt_step tcRow v10Loc v12Loc)

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 2) (Elt F) ℕ UU ℕ

/-! ## The two conditions of the body, from the grid coordinates -/

/-- The first branch's condition: the point is the grid's first. -/
abbrev condFirst (i : grid1.Coords) : Prop :=
  (Scalar.cmpi .ne (Scalar.extui (Scalar.cmpi .eq (BitVec.ofNat 32 (i 0).val) 0#32)) 0#32) = 1#1
/-- The second branch's condition: the point is the grid's last. -/
abbrev condLast (i : grid1.Coords) : Prop := k1_cond2 i = 1#1

theorem hcondFirst : ∀ t : Fin cfg1.N, condFirst (grid1.coords t) ↔ t.val = 0 :=
  (by decide +kernel : ∀ t : Fin grid1.N, condFirst (grid1.coords t) ↔ t.val = 0)
theorem hcondLast : ∀ t : Fin cfg1.N, condLast (grid1.coords t) ↔ t.val = 14 :=
  (by decide +kernel : ∀ t : Fin grid1.N, condLast (grid1.coords t) ↔ t.val = 14)

/-! ## Whole-buffer loads and stores -/

theorem zero2 : (![0, 0] : Fin 2 → Nat) = fun _ => 0 := by funext a; fin_cases a <;> rfl

/-- A load of the whole shape reads the contents. -/
theorem readAt_full {κ : Kind} {sp : Space} {S : Shape} {e : EltTy} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f := by
  rw [View.readAt_eq_ld]; exact View.ld_unit_zero h inb _

/-- A store of the whole shape, last, leaves its payload. -/
theorem read_writes_full {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ fun y => ⟨_, List.mem_cons_self, View.mem_set_unit_zero h inb y⟩).trans
    (View.canon_cons_unit_zero h inb w L)

/-! ## The body at a point, case by case -/

section Runs

variable (c : Dev nD) (i : grid1.Coords)
  (arg1 : Memref sig .tc .vmem S1024x16 .f32) (harg1 : arg1.IsWhole) (arg2 : Memref sig .tc .vmem S16x1024 .f32) (harg2 : arg2.IsWhole)
  (arg3 : Memref sig .tc .vmem S1x1024 .f32) (harg3 : arg3.IsWhole) (arg4 : Memref sig .tc .vmem S8x1024 .f32) (harg4 : arg4.IsWhole)
  (x0 : Vec F S1024x16 .f32) (x1 : Vec F S16x1024 .f32) (xo : Vec F S1x1024 .f32) (xs : Vec F S8x1024 .f32)

set_option maxHeartbeats 1000000 in
/-- A point that is neither the first nor the last: the accumulator is updated, the result's buffer untouched. -/
theorem run_mid (h1 : ¬condFirst i) (h2 : ¬condLast i) (E : Set ℕ) (Kont : PUnit → sProp 𝕄) :
    iprop(owns (c : Thread nD τ) arg1 fullShare x0 ∗ owns (c : Thread nD τ) arg2 fullShare x1 ∗ owns (c : Thread nD τ) arg3 fullShare xo
        ∗ owns (c : Thread nD τ) arg4 fullShare xs
        ∗ (iprop(owns (c : Thread nD τ) arg1 fullShare x0 ∗ owns (c : Thread nD τ) arg2 fullShare x1 ∗ owns (c : Thread nD τ) arg3 fullShare xo
            ∗ owns (c : Thread nD τ) arg4 fullShare (k1_pay2 x0 x1 xs)) -∗ Kont ⟨⟩))
      ⊢ wp frame (wpE (defs₀ (F := F)) 𝒱₀ c none) E (cc1__tc_dense i arg1 harg1 arg2 harg2 arg3 harg3 arg4 harg4) Kont := by
  simp only [cc1__tc_dense_eq_skeleton]; unfold cc1__tc_dense_skel
  unfold owns
  iintro ⟨⟨%f0, %hf0, H0⟩, ⟨%f1, %hf1, H1⟩, ⟨%f2, %hf2, H2⟩, ⟨%fs, %hfs, HS⟩, Hk⟩
  obtain rfl := harg1.eq_unread hf0; obtain rfl := harg2.eq_unread hf1; obtain rfl := harg3.eq_unread hf2; obtain rfl := harg4.eq_unread hfs
  sl_exec (disch := first | exact h1 | exact h2)
  sl_step
  iapply Hk
  simp only [readAt_full (F := F) arg1.view _ zero2, readAt_full (F := F) arg2.view _ zero2, readAt_full (F := F) arg4.view _ zero2, hf0, hf1, hfs]
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  iexists _; isplitr; swap; · iexact HS
  ipureintro; exact read_writes_full (F := F) arg4.view _ zero2 _ _ _

set_option maxHeartbeats 1000000 in
/-- The first point: the accumulator is reset, then updated. -/
theorem run_first (h1 : condFirst i) (h2 : ¬condLast i) (E : Set ℕ) (Kont : PUnit → sProp 𝕄) :
    iprop(owns (c : Thread nD τ) arg1 fullShare x0 ∗ owns (c : Thread nD τ) arg2 fullShare x1 ∗ owns (c : Thread nD τ) arg3 fullShare xo
        ∗ owns (c : Thread nD τ) arg4 fullShare xs
        ∗ (iprop(owns (c : Thread nD τ) arg1 fullShare x0 ∗ owns (c : Thread nD τ) arg2 fullShare x1 ∗ owns (c : Thread nD τ) arg3 fullShare xo
            ∗ owns (c : Thread nD τ) arg4 fullShare (k1_pay2 x0 x1 (k1_pay1 (F := F)))) -∗ Kont ⟨⟩))
      ⊢ wp frame (wpE (defs₀ (F := F)) 𝒱₀ c none) E (cc1__tc_dense i arg1 harg1 arg2 harg2 arg3 harg3 arg4 harg4) Kont := by
  simp only [cc1__tc_dense_eq_skeleton]; unfold cc1__tc_dense_skel
  unfold owns
  iintro ⟨⟨%f0, %hf0, H0⟩, ⟨%f1, %hf1, H1⟩, ⟨%f2, %hf2, H2⟩, ⟨%fs, %hfs, HS⟩, Hk⟩
  obtain rfl := harg1.eq_unread hf0; obtain rfl := harg2.eq_unread hf1; obtain rfl := harg3.eq_unread hf2; obtain rfl := harg4.eq_unread hfs
  sl_exec (disch := first | exact h1 | exact h2)
  sl_step
  iapply Hk
  unfold run_first.sl.v14 run_first.sl.HS_1
  simp only [readAt_full (F := F) arg1.view _ zero2, readAt_full (F := F) arg2.view _ zero2, readAt_full (F := F) arg4.view _ zero2, View.readCov_unit_zero arg4.view zero2, hf0, hf1, hfs]
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  iexists _; isplitr; swap; · iexact HS
  ipureintro; exact read_writes_full (F := F) arg4.view _ zero2 _ _ _

set_option maxHeartbeats 1000000 in
/-- The last point: the accumulator is updated and its minimum over the rows stored into the result's buffer. -/
theorem run_last (h1 : ¬condFirst i) (h2 : condLast i) (E : Set ℕ) (Kont : PUnit → sProp 𝕄) :
    iprop(owns (c : Thread nD τ) arg1 fullShare x0 ∗ owns (c : Thread nD τ) arg2 fullShare x1 ∗ owns (c : Thread nD τ) arg3 fullShare xo
        ∗ owns (c : Thread nD τ) arg4 fullShare xs
        ∗ (iprop(owns (c : Thread nD τ) arg1 fullShare x0 ∗ owns (c : Thread nD τ) arg2 fullShare x1
            ∗ owns (c : Thread nD τ) arg3 fullShare (k1_pay3 (k1_pay2 x0 x1 xs))
            ∗ owns (c : Thread nD τ) arg4 fullShare (k1_pay2 x0 x1 xs)) -∗ Kont ⟨⟩))
      ⊢ wp frame (wpE (defs₀ (F := F)) 𝒱₀ c none) E (cc1__tc_dense i arg1 harg1 arg2 harg2 arg3 harg3 arg4 harg4) Kont := by
  simp only [cc1__tc_dense_eq_skeleton]; unfold cc1__tc_dense_skel
  unfold owns
  iintro ⟨⟨%f0, %hf0, H0⟩, ⟨%f1, %hf1, H1⟩, ⟨%f2, %hf2, H2⟩, ⟨%fs, %hfs, HS⟩, Hk⟩
  obtain rfl := harg1.eq_unread hf0; obtain rfl := harg2.eq_unread hf1; obtain rfl := harg3.eq_unread hf2; obtain rfl := harg4.eq_unread hfs
  sl_exec (disch := first | exact h1 | exact h2)
  sl_step
  iapply Hk
  unfold run_last.sl.v22 run_last.sl.HS_1
  simp only [readAt_full (F := F) arg1.view _ zero2, readAt_full (F := F) arg2.view _ zero2, readAt_full (F := F) arg4.view _ zero2, View.readCov_unit_zero arg4.view zero2, hf0, hf1, hfs]
  isplitl [H0]; · iexists _; isplitr; · ipureintro; exact hf0
                  iexact H0
  isplitl [H1]; · iexists _; isplitr; · ipureintro; exact hf1
                  iexact H1
  isplitl [H2]; · iexists _; isplitr; swap; · iexact H2
                  ipureintro; exact read_writes_full (F := F) arg3.view _ zero2 _ _ _
  iexists _; isplitr; swap; · iexact HS
  ipureintro; exact read_writes_full (F := F) arg4.view _ zero2 _ _ _

end Runs

/-! ## The proof data -/

/-- The second operand through its (whole-array) block. -/
def vBlk (v : Vec F S16x1024 .f32) (t : Fin cfg1.N) : Vec F S16x1024 .f32 := ((cfg1.win 1).blk t).view.read (Elt F) v

variable (z : (d : Dev nD) → Buf (Elt F) (a0Loc d)) (v10 : (d : Dev nD) → Buf (Elt F) (v10Loc d)) (f₀ : (d : Dev nD) → Buf (Elt F) (v12Loc d))

/-- The carried scratch between points: before the first point at anything, after point n at the accumulator. -/
def PhiT (c : Dev nD) : ℕ → sProp 𝕄
  | 0 => Pipeline.scopedRest spec1 c
  | n + 1 => owns (c : Thread nD τ) (Memref.whole cc1_scratch0) fullShare (accAt (F := F) (z c) (v10 c) n)

theorem PhiT_succ (c : Dev nD) (n : ℕ) :
    PhiT z v10 c (n + 1) = owns (c : Thread nD τ) (Memref.whole cc1_scratch0) fullShare (accAt (F := F) (z c) (v10 c) n) := rfl
theorem PhiT_pos (c : Dev nD) (n : ℕ) (h : n ≠ 0) :
    PhiT z v10 c n = owns (c : Thread nD τ) (Memref.whole cc1_scratch0) fullShare (accAt (F := F) (z c) (v10 c) (n - 1)) := by
  cases n with
  | zero => exact absurd rfl h
  | succ n => rfl

/-- The recorded pairs of the TensorCore stay at or below the first call's band. -/
def recB (c : Dev nD) : Set (SemLoc sig × HIx 2) := {p | (K (F := F)).lev (SparseCore.T c, p.1) p.2 ≤ 8}

def dats (_ : Fin 1) (c : Dev nD) : Dat τ (Elt F) (HIx 2) ℕ UU ℕ cfg1 c where
  A w := match w with
    | ⟨0, _⟩ => z c
    | ⟨1, _⟩ => v10 c
    | ⟨2, _⟩ => f₀ c
  after w t := match w with
    | ⟨0, _⟩ => zBlk (F := F) (z c) t
    | ⟨1, _⟩ => vBlk (F := F) (v10 c) t
    | ⟨2, _⟩ => tcRow (F := F) (z c) (v10 c)
  Φ t := PhiT z v10 c t.val
  q _ := fullShare
  owed _ := (K (F := F)).Otc c 1
  recorded _ := recB (F := F) c

theorem after_0 (c : Dev nD) (t : Fin cfg1.N) : (dats z v10 f₀ 0 c).after 0 t = zBlk (F := F) (z c) t := by dsimp only [dats]
theorem after_1 (c : Dev nD) (t : Fin cfg1.N) : (dats z v10 f₀ 0 c).after 1 t = vBlk (F := F) (v10 c) t := by dsimp only [dats]
theorem after_2 (c : Dev nD) (t : Fin cfg1.N) : (dats z v10 f₀ 0 c).after 2 t = tcRow (F := F) (z c) (v10 c) := by dsimp only [dats]

/-- The first operand's current buffer holds its block: it is fetched at every point. -/
theorem before_0 (c : Dev nD) (t : Fin cfg1.N) (d) : (dats z v10 f₀ 0 c).before 0 t d = zBlk (F := F) (z c) t := by
  unfold Dat.before; rw [if_pos (fetch1_0 t)]; rfl

/-- The second operand's buffer holds the whole operand at every point, fetched there or not. -/
theorem before_1 (c : Dev nD) (t : Fin cfg1.N) (d) : (dats z v10 f₀ 0 c).before 1 t d = vBlk (F := F) (v10 c) t :=
  ((dats z v10 f₀ 0 c).before_in_eq_fetched 1 rfl (fun _ => rfl) (fun _ _ _ => rfl) (fun t => by rw [after_1]; rfl) t d).trans rfl

/-- The pipeline has no prefetched table. -/
abbrev adm : (p : Fin 1) → (pcfgs (F := F) p).Adm := fun p => (cfgs p).toPCfg_adm

/-! ## The body obligation -/

/-- The result's window is idle wherever the point is not the last, -/
theorem idle2_of_not_last : ∀ t : Fin cfg1.N, ¬condLast (grid1.coords t) → cfg1.idle 2 (grid1.coords t) = true := by decide +kernel
/-- live at the last, -/
theorem live2_of_last : ∀ t : Fin cfg1.N, condLast (grid1.coords t) → cfg1.idle 2 (grid1.coords t) = false := by decide +kernel
/-- and written back there only. -/
theorem noFlush2 (t : Fin cfg1.N) (h : t.val ≠ 14) : (cfg1.win 2).flush t = false := by
  cases hf : (cfg1.win 2).flush t
  · rfl
  · exfalso; have h1 := (flush1_2 t).mp hf; have h2 : t.val < 15 := lt_of_lt_of_eq t.isLt N_1; omega

abbrev ι₀ : HIx 2 := none

variable (hvBlk : ∀ (v : Vec F S16x1024 .f32) (t : Fin cfg1.N), vBlk v t = v)

/-- What the body is called with at point t, the windows one by one, -/
def bodyPre (c : Dev nD) (t : Fin cfg1.N) : sProp 𝕄 :=
  iprop((dats z v10 f₀ 0 c).Φ t.castSucc ∗ (dats z v10 f₀ 0 c).owesAt ι₀ t.castSucc
    ∗ (∃ d, owns (c : Thread nD τ) (st1_0 t) fullShare ((dats z v10 f₀ 0 c).before 0 t d))
    ∗ (∃ d, owns (c : Thread nD τ) (st1_1 t) fullShare ((dats z v10 f₀ 0 c).before 1 t d))
    ∗ (∃ d, owns (c : Thread nD τ) (st1_2 t) fullShare ((dats z v10 f₀ 0 c).before 2 t d)))

/-- and what it returns. -/
def bodyPost (c : Dev nD) (t : Fin cfg1.N) : sProp 𝕄 :=
  iprop((dats z v10 f₀ 0 c).Φ t.succ ∗ (dats z v10 f₀ 0 c).owesAt ι₀ t.succ
    ∗ (dats z v10 f₀ 0 c).leavesExact 0 t
    ∗ (dats z v10 f₀ 0 c).leavesExact 1 t
    ∗ (dats z v10 f₀ 0 c).leavesExact 2 t)

include hvBlk in
set_option maxHeartbeats 2000000 in
theorem sound_body (c : Dev nD) (t : Fin cfg1.N) :
    bodyPre z v10 f₀ c t ⊢ wp frame (wpE (defs₀ (F := F)) 𝒱₀ c none) Set.univ (bodyAt1 t) (fun _ => bodyPost z v10 f₀ c t) := by
  unfold bodyPre bodyPost bodyAt1
  simp only [before_0, before_1]
  rw [show (dats z v10 f₀ 0 c).owesAt ι₀ t.succ = (dats z v10 f₀ 0 c).owesAt ι₀ t.castSucc from rfl]
  rw [show (dats z v10 f₀ 0 c).leavesExact 0 t = owns (c : Thread nD τ) (st1_0 t) fullShare ((dats z v10 f₀ 0 c).after 0 t) from rfl, after_0]
  rw [show (dats z v10 f₀ 0 c).leavesExact 1 t = owns (c : Thread nD τ) (st1_1 t) fullShare ((dats z v10 f₀ 0 c).after 1 t) from rfl, after_1]
  rw [show (dats z v10 f₀ 0 c).Φ t.succ = PhiT z v10 c (t.val + 1) from rfl, PhiT_succ, accAt_step, hvBlk]
  rw [show (dats z v10 f₀ 0 c).Φ t.castSucc = PhiT z v10 c t.val from rfl]
  have hN : t.val < 15 := lt_of_lt_of_eq t.isLt N_1
  by_cases hF : t.val = 0
  · have hL : t.val ≠ 14 := by omega
    have c1 : condFirst (grid1.coords t) := (hcondFirst t).mpr hF
    have c2 : ¬condLast (grid1.coords t) := fun h => hL ((hcondLast t).mp h)
    rw [Dat.leavesExact_idle _ 2 t (idle2_of_not_last t c2) (noFlush2 t hL)]
    rw [show PhiT z v10 c t.val = Pipeline.scopedRest spec1 c from by rw [hF]; rfl, scopedRest1_eq, if_pos hF]
    iintro ⟨⟨%fs, HS⟩, Ho, ⟨%d0, H0⟩, ⟨%d1, H1⟩, ⟨%d2, H2⟩⟩
    iapply (run_first c (grid1.coords t) _ _ _ _ _ _ _ _ (zBlk (z c) t) (v10 c) _ fs c1 c2 Set.univ _)
    isplitl [H0]; · iexact H0
    isplitl [H1]; · iexact H1
    isplitl [H2]; · iexact H2
    isplitl [HS]
    · rw [owns_whole_eq]; iexists fs; isplitr; · ipureintro; rfl
      iexact HS
    iintro ⟨H0, H1, H2, HS⟩
    isplitl [HS]; · iexact HS
    isplitl [Ho]; · iexact Ho
    isplitl [H0]; · iexact H0
    isplitl [H1]; · iexact H1
    iexists _; iexact H2
  · rw [PhiT_pos z v10 c t.val hF, if_neg hF]
    by_cases hL : t.val = 14
    · have c1 : ¬condFirst (grid1.coords t) := fun h => hF ((hcondFirst t).mp h)
      have c2 : condLast (grid1.coords t) := (hcondLast t).mpr hL
      have e : tcRow (F := F) (z c) (v10 c) = k1_pay3 (k1_pay2 (zBlk (z c) t) (v10 c) (accAt (z c) (v10 c) (t.val - 1))) := by
        have h := accAt_step (F := F) (z c) (v10 c) t
        rw [if_neg hF] at h
        unfold Cert.Proof.TcV.tcRow; rw [← hL, h]
      rw [show (dats z v10 f₀ 0 c).leavesExact 2 t = owns (c : Thread nD τ) (st1_2 t) fullShare ((dats z v10 f₀ 0 c).after 2 t) from by
        unfold Dat.leavesExact; rw [live2_of_last t c2], after_2, e]
      iintro ⟨HS, Ho, ⟨%d0, H0⟩, ⟨%d1, H1⟩, ⟨%d2, H2⟩⟩
      iapply (run_last c (grid1.coords t) _ _ _ _ _ _ _ _ (zBlk (z c) t) (v10 c) _ _ c1 c2 Set.univ _)
      isplitl [H0]; · iexact H0
      isplitl [H1]; · iexact H1
      isplitl [H2]; · iexact H2
      isplitl [HS]; · iexact HS
      iintro ⟨H0, H1, H2, HS⟩
      isplitl [HS]; · iexact HS
      isplitl [Ho]; · iexact Ho
      isplitl [H0]; · iexact H0
      isplitl [H1]; · iexact H1
      iexact H2
    · have c1 : ¬condFirst (grid1.coords t) := fun h => hF ((hcondFirst t).mp h)
      have c2 : ¬condLast (grid1.coords t) := fun h => hL ((hcondLast t).mp h)
      rw [Dat.leavesExact_idle _ 2 t (idle2_of_not_last t c2) (noFlush2 t hL)]
      iintro ⟨HS, Ho, ⟨%d0, H0⟩, ⟨%d1, H1⟩, ⟨%d2, H2⟩⟩
      iapply (run_mid c (grid1.coords t) _ _ _ _ _ _ _ _ (zBlk (z c) t) (v10 c) _ _ c1 c2 Set.univ _)
      isplitl [H0]; · iexact H0
      isplitl [H1]; · iexact H1
      isplitl [H2]; · iexact H2
      isplitl [HS]; · iexact HS
      iintro ⟨H0, H1, H2, HS⟩
      isplitl [HS]; · iexact HS
      isplitl [Ho]; · iexact Ho
      isplitl [H0]; · iexact H0
      isplitl [H1]; · iexact H1
      iexists _; iexact H2

include hvBlk in
/-- The library's body obligation, at every point. -/
theorem body_obligation (c : Dev nD) : BodyObligation (dats z v10 f₀ 0 c) (defs₀ (F := F)) 𝒱₀ ι₀ Set.univ := fun t => by
  rw [bigSep_W1, bigSep_W1]
  exact sound_body z v10 f₀ hvBlk c t

/-! ## The region: the pipeline's layout, the body obligation, and the thread state around it -/

theorem share_full (c : Dev nD) : ∀ w, (dats z v10 f₀ 0 c).share w = fullShare := (dats z v10 f₀ 0 c).share_full fun _ => rfl

/-- What the TensorCore owes between the two SparseCore calls, its recorded pairs within the first call's band. -/
def owesT (c : Dev nD) : sProp 𝕄 :=
  iprop(∃ W, ⌜(K (F := F)).WBelow (SparseCore.T c) W (8 * 1)⌝ ∗ owes (SparseCore.T c) ((K (F := F)).Otc c 1) W)

/-- What the TensorCore owes before the second call has no unit at the kernels' own index. -/
theorem Otc_none (d : Dev nD) (g : GSem nD τ sig) : (K (F := F)).Otc d 1 g none = 0 := by
  by_contra h
  have h' := SparseCore.Cfg.lev_of_Otc_pos (K := K (F := F)) (Nat.pos_of_ne_zero h)
  rw [SparseCore.Cfg.lev_none] at h'; omega

theorem wbelow_of_bound (c : Dev nD) (W : Waits sig (HIx 2))
    (h : (↑W : Set (SemLoc sig × HIx 2)) ⊆ recB (F := F) c ∪ cfg1.waitPairs none) : (K (F := F)).WBelow (SparseCore.T c) W (8 * 1) := by
  intro p hp
  rcases h hp with h1 | ⟨w, s, rfl⟩
  · exact h1
  · rw [SparseCore.Cfg.lev_none]; omega

theorem bound_of_wbelow (c : Dev nD) (W : Waits sig (HIx 2)) (h : (K (F := F)).WBelow (SparseCore.T c) W (8 * 1)) :
    (↑W : Set (SemLoc sig × HIx 2)) ⊆ recB (F := F) c ∪ cfg1.waitPairs none :=
  fun p hp => Or.inl (h p hp)

set_option backward.isDefEq.respectTransparency.types false in
/-- The region's record: entered with what the TensorCore owes and the three arrays, left with the same and the result's
    array at the row of minima. -/
def reg : Pipeline.RegionSeg (pcfgs (F := F)) adm (dats z v10 f₀) ι₀ defs₀ 𝒱₀ (K (F := F)).L (K (F := F)).lev 0 where
  win := launch1.win.to₀
  block_pos := launch1.block_pos
  stage_whole := launch1.stage_whole
  K := PEmpty
  osem := fun k => k.elim
  ho := Pipeline.OwnSemFacts.none _
  hbody c := (body_obligation z v10 f₀ hvBlk c).loose
  hwaits c := Pipeline.cellsWaits_intro cfgs (dats z v10 f₀) ι₀ 0 c fun w s t => (K (F := F)).mayWait_none _ (Otc_none c)
  pre c := iprop(owesT (F := F) c ∗ (a0Loc c ↦{fullShare} z c) ∗ (v10Loc c ↦{fullShare} v10 c) ∗ (v12Loc c ↦{fullShare} f₀ c))
  post c := iprop(owesT (F := F) c ∗ (a0Loc c ↦{fullShare} z c) ∗ (v10Loc c ↦{fullShare} v10 c) ∗ (v12Loc c ↦{fullShare} tcRow (F := F) (z c) (v10 c)))
  X c := iprop(emp)
  Y c := iprop(emp)
  Z c := iprop(emp)
  hentry c := by
    rw [Pipeline.arrays_eq cfgs (dats z v10 f₀) 0 c launch1.arr_whole (share_full z v10 f₀ c), bigSep_W1]
    unfold owesT
    iintro ⟨⟨HO, Ha, Hv, Hr⟩, -, -⟩
    imodintro
    isplitl [Ha Hv Hr]
    · isplitl [Ha]; · iexact Ha
      isplitl [Hv]; · iexact Hv
      iexact Hr
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact bound_of_wbelow c W hW
      iexact HO
    isplitl <;> iempintro
  hin c := by
    rw [show (dats z v10 f₀ 0 c).Φ 0 = Pipeline.scopedRest spec1 c from rfl]
    iintro ⟨-, -, Hr⟩; iexact Hr
  hout c := by
    have e : (dats z v10 f₀ 0 c).Φ (Fin.last cfg1.N) = PhiT z v10 c (14 + 1) := by
      show PhiT z v10 c (Fin.last cfg1.N).val = _
      rw [Fin.val_last, show cfg1.N = 14 + 1 from N_1]
    rw [e, PhiT_succ, scopedRest1_eq, owns_whole_eq, Pipeline.ownSems0_none]
    iintro ⟨%f, -, H⟩
    isplitr; · iempintro
    isplitr; · iempintro
    iexists f; iexact H
  hexit c := by
    have e2 : (dats z v10 f₀ 0 c).arrAt 2 (Pipeline.pin (pcfgs (F := F)) adm 0).N = tcRow (F := F) (z c) (v10 c) :=
      Cert.Proof.TcB.arrAt2_eq (dats z v10 f₀ 0 c) _ (after_2 z v10 f₀ c _)
    rw [Pipeline.arrays_eq cfgs (dats z v10 f₀) 0 c launch1.arr_whole (share_full z v10 f₀ c), bigSep_W1,
      (dats z v10 f₀ 0 c).arrAt_in 0 rfl, (dats z v10 f₀ 0 c).arrAt_in 1 rfl, e2]
    unfold owesT
    iintro ⟨⟨Ha, Hv, Hr⟩, HO, -, -⟩
    imodintro
    isplitl [HO]
    · unfold Pipeline.Dat.owesAt Pipeline.owesWithin
      icases HO with ⟨%W, %hW, HO⟩; iexists W; isplitr; · ipureintro; exact wbelow_of_bound c W hW
      iexact HO
    isplitl [Ha]; · iexact Ha
    isplitl [Hv]; · iexact Hv
    iexact Hr

/-! ## The staging cells' ghost state, and the region as the TensorCore thread runs it -/

/-- The launch element of the pipeline's staging cells. -/
def tcU₀ : UP := initOf (Pipeline.cells cfgs cellOf_inj) (Pipeline.launchToks cfgs cellOf_inj)

/-- What a device's TensorCore holds of the staging cells' ghost state from the launch to the region. -/
def tcGhost (d : Dev nD) : sProp 𝕄 :=
  iprop(Pipeline.cellsGhost cfgs (EP (F := F)) 0 d ∗ Pipeline.toksInit cfgs (EP (F := F)) 0 d)

theorem tcFund : (BI.own ((EP (F := F)) tcU₀) : sProp 𝕄) ⊢ |==> bigSep Finset.univ fun d : Dev nD => tcGhost (F := F) d := by
  have e1 : (bigSep Finset.univ fun c : Dev nD => bigSep Finset.univ fun p : Fin 1 => (Pipeline.cellsGhost cfgs (EP (F := F)) p c : sProp 𝕄))
      = bigSep Finset.univ fun c : Dev nD => Pipeline.cellsGhost cfgs (EP (F := F)) 0 c :=
    bigSep_congr fun c _ => bigSep_univ_of_subsingleton (0 : Fin 1)
  have e2 : (bigSep Finset.univ fun c : Dev nD => bigSep Finset.univ fun p : Fin 1 => (Pipeline.toksInit cfgs (EP (F := F)) p c : sProp 𝕄))
      = bigSep Finset.univ fun c : Dev nD => Pipeline.toksInit cfgs (EP (F := F)) 0 c :=
    bigSep_congr fun c _ => bigSep_univ_of_subsingleton (0 : Fin 1)
  have h := Pipeline.fund_ghost cfgs (EP (F := F)) cellOf_inj
  rw [e1, e2, ← bigSep_sep'] at h
  exact h

/-- The region's entry under the pipeline's table is @main's line under the whole program's. -/
theorem enter (d : Dev nD) (Φ : PUnit → sProp 𝕄) :
    wp frame (wpE (D (F := F)) 𝒱 (SparseCore.T d) none) Set.univ (Prog.op (.customCall (Pipeline.entry (0 : Fin 1)) ()) .ret) Φ
      ⊢ wp frame (wpE ((K (F := F)).defs (D (F := F))) 𝒱 (SparseCore.T d) none) Set.univ
          (Prog.lift (.customCall (SparseCore.inner (Pipeline.entry 0)) ())) Φ :=
  (K (F := F)).wp_liftProg (D (F := F)) 𝒱 (SparseCore.T d) Set.univ none (Prog.op (.customCall (Pipeline.entry (0 : Fin 1)) ()) .ret) Φ

set_option backward.isDefEq.respectTransparency.types false in
set_option maxHeartbeats 1000000 in
/-- THE REGION between the two SparseCore calls: from what the TensorCore holds after the first call, the staging
    cells' ghost state and the three arrays, the pipeline runs and leaves the same with the result's array at the row
    of minima over the rows it was handed. -/
theorem tcRegion (X : Vals F) (κ : GSem nD τ sig → ℕ) (d : Dev nD)
    (z : (d : Dev nD) → Buf (Elt F) (a0Loc d)) (v10 : (d : Dev nD) → Buf (Elt F) (v10Loc d)) (f₀ : (d : Dev nD) → Buf (Elt F) (v12Loc d)) :
    iprop((K (F := F)).ctx EH (P X) κ ∗ (K (F := F)).tcSt EH d 1 ∗ tcGhost d ∗ boundary (SparseCore.T d)
        ∗ (a0Loc d ↦{fullShare} z d) ∗ (v10Loc d ↦{fullShare} v10 d) ∗ (v12Loc d ↦{fullShare} f₀ d))
      ⊢ wp frame (wpE ((K (F := F)).defs (D (F := F))) 𝒱 (SparseCore.T d) none) Set.univ
          (Prog.lift (.customCall (SparseCore.inner (Pipeline.entry 0)) ())) fun _ =>
          iprop((K (F := F)).tcSt EH d 1 ∗ boundary (SparseCore.T d)
            ∗ (a0Loc d ↦{fullShare} z d) ∗ (v10Loc d ↦{fullShare} v10 d)
            ∗ ∃ f, ⌜Cert.Proof.TcV.PostTC (z d) (v10 d) f⌝ ∗ (v12Loc d ↦{fullShare} f)) := by
  unfold SparseCore.Cfg.tcSt tcGhost
  iintro ⟨#Hctx, ⟨HO, Hrest⟩, ⟨Hcg, Htk⟩, Hbd, Ha, Hv, Hr⟩
  ihave Hlev := (SparseCore.Cfg.ctx_levAts κ) $$ Hctx
  iapply (enter d _)
  iapply (Pipeline.RegionSeg.wp (pcfgs (F := F)) adm (dats z v10 f₀) ι₀ cellOf_inj (EP (F := F)) defs₀ 𝒱₀ (K (F := F)).L (K (F := F)).lev
    (reg z v10 f₀ (fun v t => Cert.Proof.TcB.vBlk_eq v t)) d none (fun u hu => nomatch hu) .ret _)
  isplitl [Hrest]
  · iintro ⟨Hbd, Hpost⟩
    iapply (le_wp_ret _ _)
    unfold reg owesT
    icases Hpost with ⟨HO, Ha, Hv, Hr⟩
    isplitl [HO Hrest]
    · isplitl [HO]; · iexact HO
      iexact Hrest
    isplitl [Hbd]; · iexact Hbd
    isplitl [Ha]; · iexact Ha
    isplitl [Hv]; · iexact Hv
    iexists (tcRow (F := F) (z d) (v10 d)); isplitr; · ipureintro; rfl
    iexact Hr
  isplitl [Hbd]; · iexact Hbd
  isplitl [HO Ha Hv Hr]
  · unfold reg owesT
    isplitl [HO]; · iexact HO
    isplitl [Ha]; · iexact Ha
    isplitl [Hv]; · iexact Hv
    iexact Hr
  isplitl [Hlev]; · iexact Hlev
  isplitl [Hcg]; · iexact Hcg
  iexact Htk

end Cert.Proof.TcR

end
-- ==== Proof.Main.lean ====
/-
  @main on the TensorCore of one device: the host operations that compute the operands of the first call, the
  first call on every tile (each handed its slab of the transposed points, a read share of the scaled codebook and
  its row of the partial minima), the TensorCore pipeline, the second call on the one working tile, and the final
  slice; in the shape the launch theorem takes.
-/
import proofs.«209935_g88441966559691_cont_sun_c4_661_34_alg».proof.Proof.Iface
import Idealize.ShloMosaic.Lib.Pipeline.Frame
import proofs.«209935_g88441966559691_cont_sun_c4_661_34_alg».proof.Proof.HostVal
import proofs.«209935_g88441966559691_cont_sun_c4_661_34_alg».proof.Proof.TcRegion

noncomputable section

namespace Cert.Proof.Mn

open Cert.KernelIdeal Cert.KernelIdeal.Gen
open Cert.Proof.KI
open Cert.Proof.HV (hostOps op13 ops16)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.StableHlo (held held_split held_sdiff_result wp_hlo_within)
open Idealize.ShloMosaic.Tactic

variable {F : FTy → Type} [FloatOps F] [Named F]

local notation "𝕄" => MT nD τ sig (HIx 2) (Elt F) ℕ UU ℕ

/-! ## The tiles' pieces, regrouped -/

/-- Tile `(c, i)` ↦ slab `2 i + c` is a bijection of the 2 × 16 tiles with the 32 slabs. -/
def widE : Fin 2 × Fin 16 ≃ Fin 32 where
  toFun p := wid p.1 p.2
  invFun w := (⟨w.val % 2, Nat.mod_lt _ (by decide)⟩, ⟨w.val / 2, by omega⟩)
  left_inv := fun ⟨c, i⟩ => by
    apply Prod.ext <;> apply Fin.ext <;> simp only [wid] <;> omega
  right_inv := fun w => by apply Fin.ext; simp only [wid]; omega

theorem regroup (Φ : Fin 32 → sProp 𝕄) :
    (bigSep Finset.univ Φ) = bigSep Finset.univ fun c : Fin 2 => bigSep Finset.univ fun i : Fin 16 => Φ (wid c i) := by
  rw [bigSep_univ_equiv widE Φ, bigSep_univ_prod]; rfl

variable (X : Vals F)

theorem st0_eq (d : Dev nD) :
    (bigSep Finset.univ fun c : Fin ((K (F := F)).nCore 0) => (P X).st 0 d c) = bigSep Finset.univ fun w : Fin 32 => go0 X d w := by
  rw [regroup (go0 X d)]; rfl
theorem dn0_eq (d : Dev nD) :
    (bigSep Finset.univ fun c : Fin ((K (F := F)).nCore 0) => (P X).dn 0 d c) = bigSep Finset.univ fun w : Fin 32 => td0 X d w := by
  rw [regroup (td0 X d)]; rfl

theorem zRows_disjoint : ∀ i ∈ (Finset.univ : Finset (Fin 32)), ∀ j ∈ (Finset.univ : Finset (Fin 32)), i ≠ j → Disjoint (zRowSet i) (zRowSet j) :=
  fun _ _ _ _ h => Rect.part_disjoint hdivZ h
theorem zRows_cover : (Finset.univ : Finset (Fin 32)).biUnion zRowSet = Finset.univ := Rect.biUnion_part hdivZ
theorem pRows_disjoint : ∀ i ∈ (Finset.univ : Finset (Fin 32)), ∀ j ∈ (Finset.univ : Finset (Fin 32)), i ≠ j → Disjoint (pRowSet i) (pRowSet j) :=
  fun _ _ _ _ h => Rect.part_disjoint hdivP h
theorem pRows_cover : (Finset.univ : Finset (Fin 32)).biUnion pRowSet = Finset.univ := Rect.biUnion_part hdivP

theorem zt_rows (d : Dev nD) (f : Buf (Elt F) (ztLoc d)) :
    (ztLoc d ↦{fullShare} f : sProp 𝕄) = bigSep Finset.univ fun w : Fin 32 => ztLoc d ↦[zRowSet w]{fullShare} f := by
  rw [← pointsTo_biUnion Finset.univ (ℓ := ztLoc d) zRowSet zRows_disjoint, zRows_cover]; try rfl
theorem pt_rows (d : Dev nD) (f : Buf (Elt F) (ptLoc d)) :
    (ptLoc d ↦{fullShare} f : sProp 𝕄) = bigSep Finset.univ fun w : Fin 32 => ptLoc d ↦[pRowSet w]{fullShare} f := by
  rw [← pointsTo_biUnion Finset.univ (ℓ := ptLoc d) pRowSet pRows_disjoint, pRows_cover]; try rfl

/-- What the first call is handed: from the three arrays whole, every tile's piece; a remainder of the share of the
    scaled codebook stays behind. -/
theorem present0 (d : Dev nD) (f : Buf (Elt F) (ptLoc d)) :
    iprop((ztLoc d ↦{fullShare} X.zt d) ∗ (e2Loc d ↦{fullShare} X.e2 d) ∗ (ptLoc d ↦{fullShare} f))
      ⊢ (iprop((e2Loc d ↦{shareDrop fullShare 32} X.e2 d) ∗ bigSep Finset.univ fun c : Fin ((K (F := F)).nCore 0) => (P X).st 0 d c) : sProp 𝕄) := by
  rw [st0_eq]
  unfold go0
  rw [bigSep_sep', bigSep_sep', zt_rows, pt_rows]
  iintro ⟨Hz, He, Hp⟩
  ihave He' := (pointsTo_toks_split (ℓ := e2Loc d) (S := Finset.univ) (f := X.e2 d) fullShare 32) $$ He
  icases He' with ⟨Hd, Ht⟩
  isplitl [Hd]; · iexact Hd
  isplitl [Hz]; · iexact Hz
  isplitl [Ht]; · iexact Ht
  have hp : (bigSep Finset.univ fun w : Fin 32 => (ptLoc d ↦[pRowSet w]{fullShare} f : sProp 𝕄))
      ⊢ bigSep Finset.univ fun w : Fin 32 => iprop(∃ f, ptLoc d ↦[pRowSet w]{fullShare} f) :=
    bigSep_mono fun w _ => show (ptLoc d ↦[pRowSet w]{fullShare} f : sProp 𝕄) ⊢ iprop(∃ f, ptLoc d ↦[pRowSet w]{fullShare} f) from by
      iintro H; iexists f; iexact H
  iapply hp; iexact Hp

/-- What the first call hands back: the slabs and the shares rejoin; the rows of the partial minima, each at contents
    satisfying its tile's post, join into one array every row of which satisfies its post. -/
theorem back0 (hloc0 : ∀ d w (f g : Buf (Elt F) (ptLoc d)), (∀ x ∈ pRowSet w, f x = g x) → X.post0 d w f → X.post0 d w g) (d : Dev nD) :
    (iprop((e2Loc d ↦{shareDrop fullShare 32} X.e2 d) ∗ bigSep Finset.univ fun c : Fin ((K (F := F)).nCore 0) => (P X).dn 0 d c) : sProp 𝕄)
      ⊢ iprop((ztLoc d ↦{fullShare} X.zt d) ∗ (e2Loc d ↦{fullShare} X.e2 d) ∗ ∃ f, ⌜∀ w, X.post0 d w f⌝ ∗ ptLoc d ↦{fullShare} f) := by
  rw [dn0_eq]
  unfold td0
  rw [bigSep_sep', bigSep_sep', zt_rows]
  iintro ⟨Hd, Hz, Ht, Hp⟩
  isplitl [Hz]; · iexact Hz
  isplitl [Hd Ht]
  · iapply (pointsTo_toks_join (ℓ := e2Loc d) (S := Finset.univ) (f := X.e2 d) fullShare 32)
    isplitl [Hd]; · iexact Hd
    iexact Ht
  ihave Hp' := (bigSep_exists_pi Finset.univ (fun (w : Fin 32) (f : Buf (Elt F) (ptLoc d)) => iprop(⌜X.post0 d w f⌝ ∗ ptLoc d ↦[pRowSet w]{fullShare} f))) $$ Hp
  icases Hp' with ⟨%fs, Hp⟩
  ihave Hp' := (bigSep_pure_sep Finset.univ (fun w : Fin 32 => X.post0 d w (fs w)) (fun w : Fin 32 => (ptLoc d ↦[pRowSet w]{fullShare} fs w : sProp 𝕄))) $$ Hp
  icases Hp' with ⟨%hpost, Hp⟩
  ihave Hj := (pointsTo_biUnion_join Finset.univ pRowSet fs (fs 0) pRows_disjoint) $$ Hp
  icases Hj with ⟨%g, %hg, Hg⟩
  rw [pRows_cover]
  iexists g
  isplitr
  · ipureintro
    exact fun w => hloc0 d w (fs w) g (fun x hx => (hg w (Finset.mem_univ w) x hx).symm) (hpost w (Finset.mem_univ w))
  iexact Hg

/-! ## @main's host operations, as lines -/

/-- A TensorCore reference as a device buffer. -/
abbrev r (b : Ref sig .tc) : DevRef τ sig := Proc.devRef .tc b

/-- @main is: the host line, the first call, the pipeline, the reshape, the second call, the final line. -/
theorem main_eq (d : Dev nD) :
    main (F := F) d = (StableHlo.seq hostOps >>= fun _ => (K (F := F)).run d 0 >>= fun _ =>
      Prog.lift (.customCall (SparseCore.inner (Pipeline.entry 0)) ()) >>= fun _ =>
      StableHlo.seq [op13] >>= fun _ => (K (F := F)).run d 1 >>= fun _ => StableHlo.seq ops16 >>= fun _ => pure ⟨⟩) := rfl

/-- Each host operation touches TensorCore references only, and determines its result. -/
theorem hostOps_tc : (hostOps : List (HloOp τ sig (Elt F))).Forall fun op => op.bufs ⊆ StableHlo.tcRefs τ sig :=
  ⟨StableHlo.unary_bufs_sub .., StableHlo.unary_bufs_sub .., StableHlo.reshape_bufs_sub .., StableHlo.unary_bufs_sub ..,
    StableHlo.nullary_bufs_sub .., StableHlo.unary_bufs_sub .., StableHlo.binary_bufs_sub .., StableHlo.reshape_bufs_sub ..,
    StableHlo.nullary_bufs_sub .., StableHlo.unary_bufs_sub .., StableHlo.binary_bufs_sub .., StableHlo.unary_bufs_sub ..,
    StableHlo.nullary_bufs_sub .., StableHlo.unary_bufs_sub .., StableHlo.binary_bufs_sub ..⟩
theorem ops16_tc : (ops16 : List (HloOp τ sig (Elt F))).Forall fun op => op.bufs ⊆ StableHlo.tcRefs τ sig :=
  ⟨StableHlo.unary_bufs_sub .., StableHlo.reshape_bufs_sub ..⟩
theorem op13_tc : (op13 (F := F)).bufs ⊆ StableHlo.tcRefs τ sig := StableHlo.reshape_bufs_sub ..

/-! ## The unscoped buffers as one held set -/

/-- The TensorCore's unscoped buffers: @main's twenty-four arrays. -/
abbrev UC : Finset (DevRef τ sig) := Pipeline.ucRefs τ sig

theorem uc_mem (b : Ref sig .tc) (h : (r b).isScoped = false := by rfl) : r b ∈ UC :=
  Finset.mem_filter.mpr ⟨StableHlo.devRef_mem_tcRefs b, fun h' => Bool.false_ne_true (h.symm.trans h')⟩

theorem hostOps_sub : ∀ op ∈ (hostOps : List (HloOp τ sig (Elt F))), op.bufs ⊆ UC :=
  fun op hop => Pipeline.sub_ucRefs op ((List.forall_iff_forall_mem.mp hostOps_tc) op hop)
theorem ops16_sub : ∀ op ∈ (ops16 : List (HloOp τ sig (Elt F))), op.bufs ⊆ UC :=
  fun op hop => Pipeline.sub_ucRefs op ((List.forall_iff_forall_mem.mp ops16_tc) op hop)
theorem op13_sub : ∀ op ∈ ([op13] : List (HloOp τ sig (Elt F))), op.bufs ⊆ UC :=
  fun op hop => by rw [List.mem_singleton.mp hop]; exact Pipeline.sub_ucRefs _ op13_tc
theorem hostOps_fresh : ∀ op ∈ (hostOps : List (HloOp τ sig (Elt F))), op.fresh = ∅ := by
  intro _ h; (repeat (cases h with | head => rfl | tail _ h => ?_)); exact nomatch h
theorem ops16_fresh : ∀ op ∈ (ops16 : List (HloOp τ sig (Elt F))), op.fresh = ∅ := by
  intro _ h; (repeat (cases h with | head => rfl | tail _ h => ?_)); exact nomatch h
theorem op13_fresh : ∀ op ∈ ([op13] : List (HloOp τ sig (Elt F))), op.fresh = ∅ := by
  intro _ h; (repeat (cases h with | head => rfl | tail _ h => ?_)); exact nomatch h

theorem held3 (c : Thread nD τ) {a b e : DevRef τ sig} (hab : a ≠ b) (hae : a ≠ e) (hbe : b ≠ e) (W : Valuation τ sig (Elt F)) :
    (held c {a, b, e} W : sProp 𝕄) = iprop(((c.1, a) ↦{fullShare} W a) ∗ ((c.1, b) ↦{fullShare} W b) ∗ (c.1, e) ↦{fullShare} W e) := by
  unfold held
  rw [SparseCore.bigSep_insert' (by simp [hab, hae]), SparseCore.bigSep_insert' (by simp [hbe]), bigSep_singleton]
theorem held4 (c : Thread nD τ) {a b e g : DevRef τ sig} (hab : a ≠ b) (hae : a ≠ e) (hag : a ≠ g) (hbe : b ≠ e) (hbg : b ≠ g) (heg : e ≠ g)
    (W : Valuation τ sig (Elt F)) :
    (held c {a, b, e, g} W : sProp 𝕄)
      = iprop(((c.1, a) ↦{fullShare} W a) ∗ ((c.1, b) ↦{fullShare} W b) ∗ ((c.1, e) ↦{fullShare} W e) ∗ (c.1, g) ↦{fullShare} W g) := by
  unfold held
  rw [SparseCore.bigSep_insert' (by simp [hab, hae, hag]), SparseCore.bigSep_insert' (by simp [hbe, hbg]), SparseCore.bigSep_insert' (by simp [heg]), bigSep_singleton]

/-! ## The second call's operands: the one working tile's -/

theorem bigSep_emp' {I : Type} (s : Finset I) : (bigSep s fun _ => iprop(emp)) = (iprop(emp) : sProp 𝕄) := bigSep_emp_const s

theorem bigSep_one (A : sProp 𝕄) :
    (bigSep (Finset.univ : Finset (Fin 2)) fun c => bigSep (Finset.univ : Finset (Fin 16)) fun i =>
      if c.val = 0 ∧ i.val = 0 then A else iprop(emp)) = A := by
  rw [← bigSep_univ_prod (fun p : Fin 2 × Fin 16 => if p.1.val = 0 ∧ p.2.val = 0 then A else iprop(emp)),
    bigSep_erase (Finset.mem_univ ((0 : Fin 2), (0 : Fin 16))),
    bigSep_congr (Ψ := fun _ => (iprop(emp) : sProp 𝕄)) (fun p hp => if_neg fun h => Finset.ne_of_mem_erase hp (Prod.ext (Fin.ext h.1) (Fin.ext h.2))),
    bigSep_emp', if_pos ⟨rfl, rfl⟩]
  exact BI.equiv_iff.mp sep_emp

theorem st1_eq (d : Dev nD) : (bigSep Finset.univ fun c : Fin ((K (F := F)).nCore 1) => (P X).st 1 d c) = go1 X d :=
  bigSep_one (go1 X d)
theorem dn1_eq (d : Dev nD) : (bigSep Finset.univ fun c : Fin ((K (F := F)).nCore 1) => (P X).dn 1 d c) = td1 X d :=
  bigSep_one (td1 X d)

/-! ## Buffers taken out of the held set and put back -/

theorem take3 (c : Thread nD τ) {A : Finset (DevRef τ sig)} {a b e : DevRef τ sig} (ha : a ∈ A) (hb : b ∈ A) (he : e ∈ A)
    (hab : a ≠ b) (hae : a ≠ e) (hbe : b ≠ e) (W : Valuation τ sig (Elt F)) :
    (held c A W : sProp 𝕄)
      = iprop((((c.1, a) ↦{fullShare} W a) ∗ ((c.1, b) ↦{fullShare} W b) ∗ (c.1, e) ↦{fullShare} W e) ∗ held c (A \ {a, b, e}) W) := by
  rw [StableHlo.held_sub_split c (show ({a, b, e} : Finset (DevRef τ sig)) ⊆ A from by
        intro x hx; simp only [Finset.mem_insert, Finset.mem_singleton] at hx; rcases hx with rfl | rfl | rfl <;> assumption) W,
      held3 c hab hae hbe W]
theorem put3 (c : Thread nD τ) {A : Finset (DevRef τ sig)} {a b e : DevRef τ sig} (ha : a ∈ A) (hb : b ∈ A) (he : e ∈ A)
    (hab : a ≠ b) (hae : a ≠ e) (hbe : b ≠ e) (W W' : Valuation τ sig (Elt F))
    (h : ∀ x, x ∉ ({a, b, e} : Finset (DevRef τ sig)) → W' x = W x) :
    iprop((((c.1, a) ↦{fullShare} W' a) ∗ ((c.1, b) ↦{fullShare} W' b) ∗ (c.1, e) ↦{fullShare} W' e) ∗ held c (A \ {a, b, e}) W)
      = (held c A W' : sProp 𝕄) := by
  rw [take3 c ha hb he hab hae hbe W', StableHlo.held_congr c (V := W') (V' := W) (fun x hx => h x (Finset.mem_sdiff.mp hx).2)]
theorem take4 (c : Thread nD τ) {A : Finset (DevRef τ sig)} {a b e g : DevRef τ sig} (ha : a ∈ A) (hb : b ∈ A) (he : e ∈ A) (hg : g ∈ A)
    (hab : a ≠ b) (hae : a ≠ e) (hag : a ≠ g) (hbe : b ≠ e) (hbg : b ≠ g) (heg : e ≠ g) (W : Valuation τ sig (Elt F)) :
    (held c A W : sProp 𝕄)
      = iprop((((c.1, a) ↦{fullShare} W a) ∗ ((c.1, b) ↦{fullShare} W b) ∗ ((c.1, e) ↦{fullShare} W e) ∗ (c.1, g) ↦{fullShare} W g)
          ∗ held c (A \ {a, b, e, g}) W) := by
  rw [StableHlo.held_sub_split c (show ({a, b, e, g} : Finset (DevRef τ sig)) ⊆ A from by
        intro x hx; simp only [Finset.mem_insert, Finset.mem_singleton] at hx; rcases hx with rfl | rfl | rfl | rfl <;> assumption) W,
      held4 c hab hae hag hbe hbg heg W]
theorem put4 (c : Thread nD τ) {A : Finset (DevRef τ sig)} {a b e g : DevRef τ sig} (ha : a ∈ A) (hb : b ∈ A) (he : e ∈ A) (hg : g ∈ A)
    (hab : a ≠ b) (hae : a ≠ e) (hag : a ≠ g) (hbe : b ≠ e) (hbg : b ≠ g) (heg : e ≠ g) (W W' : Valuation τ sig (Elt F))
    (h : ∀ x, x ∉ ({a, b, e, g} : Finset (DevRef τ sig)) → W' x = W x) :
    iprop((((c.1, a) ↦{fullShare} W' a) ∗ ((c.1, b) ↦{fullShare} W' b) ∗ ((c.1, e) ↦{fullShare} W' e) ∗ (c.1, g) ↦{fullShare} W' g)
          ∗ held c (A \ {a, b, e, g}) W)
      = (held c A W' : sProp 𝕄) := by
  rw [take4 c ha hb he hg hab hae hag hbe hbg heg W', StableHlo.held_congr c (V := W') (V' := W) (fun x hx => h x (Finset.mem_sdiff.mp hx).2)]

theorem ne_r {x y : Ref sig .tc} (h : x ≠ y := by decide) : r x ≠ r y := StableHlo.devRef_ne_of_ne h

/-! ## @main on the TensorCore -/

section Main

variable (m : (ℓ : Loc nD τ sig) → Buf (Elt F) ℓ) (ρ : Dev nD → PrngReg)

abbrev a2Loc (d : Dev nD) : Loc nD τ sig := (SparseCore.T d).loc main_arg2
abbrev v10Loc (d : Dev nD) : Loc nD τ sig := (SparseCore.T d).loc main_v10
abbrev v12Loc (d : Dev nD) : Loc nD τ sig := (SparseCore.T d).loc main_v12
abbrev v16Loc (d : Dev nD) : Loc nD τ sig := (SparseCore.T d).loc main_v16

/-- The launch contents of device `d`'s buffers, and the contents after the host line. -/
abbrev W0 (d : Dev nD) : Valuation τ sig (Elt F) := fun b => m (d, b)
abbrev Wh (d : Dev nD) : Valuation τ sig (Elt F) := StableHlo.after hostOps (W0 m d)

variable (d : Dev nD)

/-- The buffers of the first call, of the pipeline, of the second call, and of the claim. -/
abbrev B0 : Finset (DevRef τ sig) := {r main_v3, r main_v6, r main_v11}
abbrev B1 : Finset (DevRef τ sig) := {r main_arg0, r main_v10, r main_v12}
abbrev B2 : Finset (DevRef τ sig) := {r main_v11, r main_v13, r main_v8, r main_v14}
abbrev B3 : Finset (DevRef τ sig) := {r main_arg0, r main_arg1, r main_arg2, r main_v16}

theorem take_call0 (W : Valuation τ sig (Elt F)) :
    (held (SparseCore.T d) UC W : sProp 𝕄)
      = iprop(((ztLoc d ↦{fullShare} W (r main_v3)) ∗ (e2Loc d ↦{fullShare} W (r main_v6)) ∗ (ptLoc d ↦{fullShare} W (r main_v11)))
          ∗ held (SparseCore.T d) (UC \ B0) W) :=
  take3 (SparseCore.T d) (uc_mem main_v3) (uc_mem main_v6) (uc_mem main_v11) ne_r ne_r ne_r W
theorem put_call0 (W W' : Valuation τ sig (Elt F)) (h : ∀ x, x ∉ (B0 : Finset (DevRef τ sig)) → W' x = W x) :
    iprop(((ztLoc d ↦{fullShare} W' (r main_v3)) ∗ (e2Loc d ↦{fullShare} W' (r main_v6)) ∗ (ptLoc d ↦{fullShare} W' (r main_v11)))
          ∗ held (SparseCore.T d) (UC \ B0) W)
      = (held (SparseCore.T d) UC W' : sProp 𝕄) :=
  put3 (SparseCore.T d) (uc_mem main_v3) (uc_mem main_v6) (uc_mem main_v11) ne_r ne_r ne_r W W' h
theorem take_reg (W : Valuation τ sig (Elt F)) :
    (held (SparseCore.T d) UC W : sProp 𝕄)
      = iprop(((a0Loc d ↦{fullShare} W (r main_arg0)) ∗ (v10Loc d ↦{fullShare} W (r main_v10)) ∗ (v12Loc d ↦{fullShare} W (r main_v12)))
          ∗ held (SparseCore.T d) (UC \ B1) W) :=
  take3 (SparseCore.T d) (uc_mem main_arg0) (uc_mem main_v10) (uc_mem main_v12) ne_r ne_r ne_r W
theorem put_reg (W W' : Valuation τ sig (Elt F)) (h : ∀ x, x ∉ (B1 : Finset (DevRef τ sig)) → W' x = W x) :
    iprop(((a0Loc d ↦{fullShare} W' (r main_arg0)) ∗ (v10Loc d ↦{fullShare} W' (r main_v10)) ∗ (v12Loc d ↦{fullShare} W' (r main_v12)))
          ∗ held (SparseCore.T d) (UC \ B1) W)
      = (held (SparseCore.T d) UC W' : sProp 𝕄) :=
  put3 (SparseCore.T d) (uc_mem main_arg0) (uc_mem main_v10) (uc_mem main_v12) ne_r ne_r ne_r W W' h
theorem take_call1 (W : Valuation τ sig (Elt F)) :
    (held (SparseCore.T d) UC W : sProp 𝕄)
      = iprop(((ptLoc d ↦{fullShare} W (r main_v11)) ∗ (tcLoc d ↦{fullShare} W (r main_v13)) ∗ (etLoc d ↦{fullShare} W (r main_v8))
            ∗ (ouLoc d ↦{fullShare} W (r main_v14)))
          ∗ held (SparseCore.T d) (UC \ B2) W) :=
  take4 (SparseCore.T d) (uc_mem main_v11) (uc_mem main_v13) (uc_mem main_v8) (uc_mem main_v14) ne_r ne_r ne_r ne_r ne_r ne_r W
theorem put_call1 (W W' : Valuation τ sig (Elt F)) (h : ∀ x, x ∉ (B2 : Finset (DevRef τ sig)) → W' x = W x) :
    iprop(((ptLoc d ↦{fullShare} W' (r main_v11)) ∗ (tcLoc d ↦{fullShare} W' (r main_v13)) ∗ (etLoc d ↦{fullShare} W' (r main_v8))
            ∗ (ouLoc d ↦{fullShare} W' (r main_v14)))
          ∗ held (SparseCore.T d) (UC \ B2) W)
      = (held (SparseCore.T d) UC W' : sProp 𝕄) :=
  put4 (SparseCore.T d) (uc_mem main_v11) (uc_mem main_v13) (uc_mem main_v8) (uc_mem main_v14) ne_r ne_r ne_r ne_r ne_r ne_r W W' h
theorem take_fin (W : Valuation τ sig (Elt F)) :
    (held (SparseCore.T d) UC W : sProp 𝕄)
      = iprop(((a0Loc d ↦{fullShare} W (r main_arg0)) ∗ (a1Loc d ↦{fullShare} W (r main_arg1)) ∗ (a2Loc d ↦{fullShare} W (r main_arg2))
            ∗ (v16Loc d ↦{fullShare} W (r main_v16)))
          ∗ held (SparseCore.T d) (UC \ B3) W) :=
  take4 (SparseCore.T d) (uc_mem main_arg0) (uc_mem main_arg1) (uc_mem main_arg2) (uc_mem main_v16) ne_r ne_r ne_r ne_r ne_r ne_r W

end Main

section Calls

variable (m : (ℓ : Loc nD τ sig) → Buf (Elt F) ℓ) (d : Dev nD)

/-! ## What the host lines leave -/

theorem Wh_zt : Wh m d (r main_v3) = HV.ztV (m (a0Loc d)) := HV.after_hostOps_zt (W0 m d)
theorem Wh_e2 : Wh m d (r main_v6) = HV.e2V (m (a1Loc d)) := HV.after_hostOps_e2 (W0 m d)
theorem Wh_et : Wh m d (r main_v8) = HV.etV (m (a1Loc d)) := HV.after_hostOps_et (W0 m d)
theorem Wh_v10 : Wh m d (r main_v10) = HV.v10V (m (a1Loc d)) := HV.after_hostOps_v10 (W0 m d)
theorem Wh_a0 : Wh m d (r main_arg0) = m (a0Loc d) := HV.after_hostOps_arg0 (W0 m d)
theorem Wh_a1 : Wh m d (r main_arg1) = m (a1Loc d) := HV.after_hostOps_arg1 (W0 m d)
theorem Wh_a2 : Wh m d (r main_arg2) = m (a2Loc d) :=
  StableHlo.after_of_writes_sub hostOps (W0 m d) HV.hostOps_writes (by decide)

/-- The reshape writes `main_v13` only; the final line `main_v15` and `main_v16` only. -/
theorem after13_ne (W : Valuation τ sig (Elt F)) {b : DevRef τ sig} (hb : b ≠ r main_v13) : StableHlo.after [op13] W b = W b :=
  StableHlo.after_of_forall_not_mem [op13] W fun op hop => by
    rw [List.mem_singleton.mp hop]; unfold HV.op13; rw [StableHlo.reshape_writes]
    exact fun h => hb (Finset.mem_singleton.mp h)
theorem after16_ne (W : Valuation τ sig (Elt F)) {b : DevRef τ sig} (h15 : b ≠ r main_v15) (h16 : b ≠ r main_v16) :
    StableHlo.after ops16 W b = W b :=
  StableHlo.after_of_forall_not_mem ops16 W fun op hop => by
    unfold HV.ops16 at hop
    rcases List.mem_cons.mp hop with rfl | hop
    · rw [StableHlo.unary_writes]; exact fun h => h15 (Finset.mem_singleton.mp h)
    · rw [List.mem_singleton.mp hop, StableHlo.reshape_writes]; exact fun h => h16 (Finset.mem_singleton.mp h)

/-! ## The two calls and the pipeline, over the held set -/

/-- Before the first call: the three operands leave the held set and are dealt to the tiles. -/
theorem call0_pre (W : Valuation τ sig (Elt F)) (hz : W (r main_v3) = X.zt d) (he : W (r main_v6) = X.e2 d) :
    (held (SparseCore.T d) UC W : sProp 𝕄)
      ⊢ iprop((e2Loc d ↦{shareDrop fullShare 32} X.e2 d) ∗ (bigSep Finset.univ fun c : Fin ((K (F := F)).nCore 0) => (P X).st 0 d c)
          ∗ held (SparseCore.T d) (UC \ B0) W) := by
  rw [take_call0 d W, hz, he]
  iintro ⟨⟨Hz, He, Hp⟩, Hrest⟩
  ihave H := (present0 X d (W (r main_v11))) $$ [Hz He Hp]
  · isplitl [Hz]; · iexact Hz
    isplitl [He]; · iexact He
    iexact Hp
  icases H with ⟨Hd, Hst⟩
  isplitl [Hd]; · iexact Hd
  isplitl [Hst]; · iexact Hst
  iexact Hrest

/-- After it: they come back, the partial minima at contents every row of which satisfies its tile's post. -/
theorem call0_post (hloc0 : ∀ d w (f g : Buf (Elt F) (ptLoc d)), (∀ x ∈ pRowSet w, f x = g x) → X.post0 d w f → X.post0 d w g)
    (W : Valuation τ sig (Elt F)) (hz : W (r main_v3) = X.zt d) (he : W (r main_v6) = X.e2 d) :
    (iprop((e2Loc d ↦{shareDrop fullShare 32} X.e2 d) ∗ (bigSep Finset.univ fun c : Fin ((K (F := F)).nCore 0) => (P X).dn 0 d c)
          ∗ held (SparseCore.T d) (UC \ B0) W) : sProp 𝕄)
      ⊢ iprop(∃ g : Buf (Elt F) (ptLoc d), ⌜∀ w, X.post0 d w g⌝ ∗ held (SparseCore.T d) UC (Function.update W (r main_v11) g)) := by
  iintro ⟨Hd, Hdn, Hrest⟩
  ihave H := (back0 X hloc0 d) $$ [Hd Hdn]
  · isplitl [Hd] <;> iassumption
  icases H with ⟨Hz, He, %g, %hg, Hp⟩
  iexists g
  isplitr; · ipureintro; exact hg
  rw [← put_call0 d W (Function.update W (r main_v11) g)
      (fun x hx => Function.update_of_ne (fun e => hx (by rw [e]; simp)) _ _),
    Function.update_self, Function.update_of_ne (ne_r (x := main_v3) (y := main_v11)), Function.update_of_ne (ne_r (x := main_v6) (y := main_v11)), hz, he]
  isplitl [Hz He Hp]
  · isplitl [Hz]; · iexact Hz
    isplitl [He]; · iexact He
    iexact Hp
  iexact Hrest

/-- After the pipeline: its three arrays go back, the row of minima at what it left. -/
theorem reg_post (W : Valuation τ sig (Elt F)) (f : Buf (Elt F) (v12Loc d)) :
    (iprop(((a0Loc d ↦{fullShare} W (r main_arg0)) ∗ (v10Loc d ↦{fullShare} W (r main_v10)) ∗ (v12Loc d ↦{fullShare} f))
          ∗ held (SparseCore.T d) (UC \ B1) W) : sProp 𝕄)
      ⊢ held (SparseCore.T d) UC (Function.update W (r main_v12) f) := by
  rw [← put_reg d W (Function.update W (r main_v12) f)
      (fun x hx => Function.update_of_ne (fun e => hx (by rw [e]; simp)) _ _),
    Function.update_self, Function.update_of_ne (ne_r (x := main_arg0) (y := main_v12)), Function.update_of_ne (ne_r (x := main_v10) (y := main_v12))]

/-- Before the second call: the working tile's four arrays, the partial minima and the row of minima at their posts. -/
theorem call1_pre (W : Valuation τ sig (Elt F)) (h0 : ∀ w, X.post0 d w (W (r main_v11))) (hT : X.postTC d (W (r main_v13)))
    (he : W (r main_v8) = X.et d) :
    (held (SparseCore.T d) UC W : sProp 𝕄)
      ⊢ iprop((bigSep Finset.univ fun c : Fin ((K (F := F)).nCore 1) => (P X).st 1 d c) ∗ held (SparseCore.T d) (UC \ B2) W) := by
  rw [take_call1 d W, st1_eq, he]
  unfold go1
  iintro ⟨⟨Hp, Ht, He, Ho⟩, Hrest⟩
  isplitr [Hrest]
  · iexists (W (r main_v11)); iexists (W (r main_v13))
    isplitr; · ipureintro; exact h0
    isplitr; · ipureintro; exact hT
    isplitl [Hp]; · iexact Hp
    isplitl [Ht]; · iexact Ht
    isplitl [He]; · iexact He
    iexists _; iexact Ho
  iexact Hrest

/-- After it: they come back, the result vector at its post. -/
theorem call1_post (W : Valuation τ sig (Elt F)) (he : W (r main_v8) = X.et d) :
    (iprop((bigSep Finset.univ fun c : Fin ((K (F := F)).nCore 1) => (P X).dn 1 d c) ∗ held (SparseCore.T d) (UC \ B2) W) : sProp 𝕄)
      ⊢ iprop(∃ (f : Buf (Elt F) (ptLoc d)) (t : Buf (Elt F) (tcLoc d)) (o : Buf (Elt F) (ouLoc d)), ⌜X.post2 d o⌝ ∗
          held (SparseCore.T d) UC (Function.update (Function.update (Function.update W (r main_v11) f) (r main_v13) t) (r main_v14) o)) := by
  rw [dn1_eq]; unfold td1
  iintro ⟨⟨⟨%f, Hp⟩, ⟨%t, Ht⟩, He, %o, %ho, Ho⟩, Hrest⟩
  iexists f; iexists t; iexists o
  isplitr; · ipureintro; exact ho
  have n13 : r main_v11 ≠ r main_v13 := ne_r
  have n14 : r main_v11 ≠ r main_v14 := ne_r
  have n34 : r main_v13 ≠ r main_v14 := ne_r
  have n81 : r main_v8 ≠ r main_v11 := ne_r
  have n83 : r main_v8 ≠ r main_v13 := ne_r
  have n84 : r main_v8 ≠ r main_v14 := ne_r
  rw [← put_call1 d W (Function.update (Function.update (Function.update W (r main_v11) f) (r main_v13) t) (r main_v14) o)
      (fun x hx => by
        have h1 : x ≠ r main_v11 := fun e => hx (by rw [e]; simp)
        have h3 : x ≠ r main_v13 := fun e => hx (by rw [e]; simp)
        have h4 : x ≠ r main_v14 := fun e => hx (by rw [e]; simp)
        rw [Function.update_of_ne h4, Function.update_of_ne h3, Function.update_of_ne h1]),
    Function.update_self, Function.update_of_ne n34, Function.update_self, Function.update_of_ne n14, Function.update_of_ne n13, Function.update_self,
    Function.update_of_ne n84, Function.update_of_ne n83, Function.update_of_ne n81, he]
  isplitl [Hp Ht He Ho]
  · isplitl [Hp]; · iexact Hp
    isplitl [Ht]; · iexact Ht
    isplitl [He]; · iexact He
    iexact Ho
  iexact Hrest

/-- A buffer none of the later steps writes is, at the end, as the host line left it. -/
theorem keep (W : Valuation τ sig (Elt F)) (g f' : Buf (Elt F) (ptLoc d)) (f : Buf (Elt F) (v12Loc d)) (t' : Buf (Elt F) (tcLoc d))
    (o : Buf (Elt F) (ouLoc d)) {b : Ref sig .tc} (h11 : b ≠ main_v11) (h12 : b ≠ main_v12) (h13 : b ≠ main_v13) (h14 : b ≠ main_v14)
    (h15 : b ≠ main_v15) (h16 : b ≠ main_v16) :
    StableHlo.after ops16 (Function.update (Function.update (Function.update
      (StableHlo.after [op13] (Function.update (Function.update W (r main_v11) g) (r main_v12) f)) (r main_v11) f') (r main_v13) t') (r main_v14) o) (r b)
      = W (r b) := by
  rw [after16_ne _ (ne_r h15) (ne_r h16), Function.update_of_ne (ne_r h14), Function.update_of_ne (ne_r h13), Function.update_of_ne (ne_r h11),
    after13_ne _ (ne_r h13), Function.update_of_ne (ne_r h12), Function.update_of_ne (ne_r h11)]

end Calls

section Hmain

variable (m : (ℓ : Loc nD τ sig) → Buf (Elt F) ℓ) (ρ : Dev nD → PrngReg)
-- The pipeline's ghost state on a device, and what the pipeline leaves in its row of minima: the pipeline's module says what they are.
variable (tcGhost : Dev nD → sProp (MT nD τ sig (HIx 2) (Elt F) ℕ UU ℕ))
variable (PostTC : (d : Dev nD) → Buf (Elt F) (a0Loc d) → Buf (Elt F) (v10Loc d) → Buf (Elt F) (v12Loc d) → Prop)

/-- What @main leaves the claim: the three arguments at their launch contents, and the result at the first entry of a
    result vector that satisfies the second call's post. -/
def FIN (d : Dev nD) : sProp 𝕄 :=
  iprop((a0Loc d ↦{fullShare} m (a0Loc d)) ∗ (a1Loc d ↦{fullShare} m (a1Loc d)) ∗ (a2Loc d ↦{fullShare} m (a2Loc d))
    ∗ ∃ v : Buf (Elt F) (v16Loc d), ⌜∃ o : Buf (Elt F) (ouLoc d), X.post2 d o ∧ v = HV.v16V o⌝ ∗ v16Loc d ↦{fullShare} v)

theorem fin_of (d : Dev nD) (W : Valuation τ sig (Elt F)) (h0 : W (r main_arg0) = m (a0Loc d)) (h1 : W (r main_arg1) = m (a1Loc d))
    (h2 : W (r main_arg2) = m (a2Loc d)) (o : Buf (Elt F) (ouLoc d)) (ho : X.post2 d o) (hv : W (r main_v16) = HV.v16V o) :
    (held (SparseCore.T d) UC W : sProp 𝕄) ⊢ FIN X m d := by
  rw [take_fin d W, h0, h1, h2, hv]; unfold FIN
  iintro ⟨⟨H0, H1, H2, Hv⟩, -⟩
  isplitl [H0]; · iexact H0
  isplitl [H1]; · iexact H1
  isplitl [H2]; · iexact H2
  iexists (HV.v16V o)
  isplitr; · ipureintro; exact ⟨o, ho, rfl⟩
  iexact Hv

set_option backward.isDefEq.respectTransparency.types false in
/-- @main on device `d`'s TensorCore: the host line; the first call, every tile handed its pieces; the pipeline; the reshape;
    the second call on the one working tile; the final slice. The arguments are kept. -/
theorem hmain
    (hloc0 : ∀ d w (f g : Buf (Elt F) (ptLoc d)), (∀ x ∈ pRowSet w, f x = g x) → X.post0 d w f → X.post0 d w g)
    (hzt : ∀ d, X.zt d = HV.ztV (m (a0Loc d))) (he2 : ∀ d, X.e2 d = HV.e2V (m (a1Loc d))) (het : ∀ d, X.et d = HV.etV (m (a1Loc d)))
    (hregion : ∀ (κ : GSem nD τ sig → ℕ) (d : Dev nD)
      (z : (d : Dev nD) → Buf (Elt F) (a0Loc d)) (v10 : (d : Dev nD) → Buf (Elt F) (v10Loc d)) (f₀ : (d : Dev nD) → Buf (Elt F) (v12Loc d)),
      iprop((K (F := F)).ctx EH (P X) κ ∗ (K (F := F)).tcSt EH d 1 ∗ tcGhost d ∗ boundary (SparseCore.T d)
          ∗ (a0Loc d ↦{fullShare} z d) ∗ (v10Loc d ↦{fullShare} v10 d) ∗ (v12Loc d ↦{fullShare} f₀ d))
        ⊢ wp frame (wpE ((K (F := F)).defs (D (F := F))) 𝒱 (SparseCore.T d) none) Set.univ
            (Prog.lift (.customCall (SparseCore.inner (Pipeline.entry 0)) ())) fun _ =>
            iprop((K (F := F)).tcSt EH d 1 ∗ boundary (SparseCore.T d)
              ∗ (a0Loc d ↦{fullShare} z d) ∗ (v10Loc d ↦{fullShare} v10 d) ∗ ∃ f, ⌜PostTC d (z d) (v10 d) f⌝ ∗ (v12Loc d ↦{fullShare} f)))
    (hTC : ∀ d (f : Buf (Elt F) (v12Loc d)), PostTC d (m (a0Loc d)) (HV.v10V (m (a1Loc d))) f → X.postTC d (HV.v13V f))
    (κ : GSem nD τ sig → ℕ) (d : Dev nD) :
    iprop((K (F := F)).ctx EH (P X) κ ∗ (K (F := F)).tcSt EH d 0 ∗ (K (F := F)).tcRes m ρ d ∗ tcGhost d)
      ⊢ wp frame (wpE ((K (F := F)).defs (D (F := F))) 𝒱 (SparseCore.T d) none) Set.univ (main d)
          fun _ => iprop((K (F := F)).tcSt EH d 2 ∗ FIN X m d) := by
  have ez : Wh m d (r main_v3) = X.zt d := (Wh_zt m d).trans (hzt d).symm
  have ee : Wh m d (r main_v6) = X.e2 d := (Wh_e2 m d).trans (he2 d).symm
  unfold SparseCore.Cfg.tcRes
  rw [show (unscopedBufs d (fun b => m ((SparseCore.T d).loc b)) : sProp 𝕄) = held (SparseCore.T d) UC (W0 m d)
        from Pipeline.unscopedBufs_held d (W0 m d), main_eq]
  iintro ⟨#Hctx, Hst, ⟨Hb, Hheld, -, -⟩, Hg⟩
  -- the host line
  iapply (StableHlo.wp_seq (defs := (K (F := F)).defs (D (F := F))) 𝒱 none Set.univ d UC _ hostOps hostOps_sub hostOps_fresh (W0 m d)) $$ [Hb Hheld]
  · isplitl [Hb] <;> iassumption
  iintro ⟨Hb, Hheld⟩
  -- the first call
  ihave H0 := (call0_pre X d (Wh m d) ez ee) $$ Hheld
  icases H0 with ⟨Hdrop, Hst0, Hrest⟩
  rw [wp_bind]
  iapply ((K (F := F)).wp_run (D (F := F)) 𝒱 (EH := EH) (P := P X) κ d 0)
  isplitr; · iexact Hctx
  isplitl [Hst]; · iexact Hst
  isplitl [Hst0]; · iexact Hst0
  iintro ⟨Hst, Hdn⟩
  ihave H0 := (call0_post X d hloc0 (Wh m d) ez ee) $$ [Hdrop Hdn Hrest]
  · isplitl [Hdrop]; · iexact Hdrop
    isplitl [Hdn] <;> iassumption
  icases H0 with ⟨%g, %hg, Hheld⟩
  -- the pipeline
  ihave H1 := (Entails.of_eq (take_reg d (Function.update (Wh m d) (r main_v11) g))) $$ Hheld
  icases H1 with ⟨⟨Ha, Hv10, Hv12⟩, Hrest⟩
  rw [wp_bind]
  iapply (wp_wand_r frame _ Set.univ)
  isplitl [Hst Hg Hb Ha Hv10 Hv12]
  · iapply (hregion κ d (fun _ => Function.update (Wh m d) (r main_v11) g (r main_arg0))
      (fun _ => Function.update (Wh m d) (r main_v11) g (r main_v10)) (fun _ => Function.update (Wh m d) (r main_v11) g (r main_v12)))
    isplitr; · iexact Hctx
    isplitl [Hst]; · iexact Hst
    isplitl [Hg]; · iexact Hg
    isplitl [Hb]; · iexact Hb
    isplitl [Ha]; · iexact Ha
    isplitl [Hv10]; · iexact Hv10
    iexact Hv12
  iintro %_ ⟨Hst, Hb, Ha, Hv10, %f, %hf, Hv12⟩
  ihave Hheld := (reg_post d (Function.update (Wh m d) (r main_v11) g) f) $$ [Ha Hv10 Hv12 Hrest]
  · isplitl [Ha Hv10 Hv12]
    · isplitl [Ha]; · iexact Ha
      isplitl [Hv10]; · iexact Hv10
      iexact Hv12
    iexact Hrest
  -- the reshape
  iapply (StableHlo.wp_seq (defs := (K (F := F)).defs (D (F := F))) 𝒱 none Set.univ d UC _ [op13] op13_sub op13_fresh
    (Function.update (Function.update (Wh m d) (r main_v11) g) (r main_v12) f)) $$ [Hb Hheld]
  · isplitl [Hb] <;> iassumption
  iintro ⟨Hb, Hheld⟩
  -- what the second call finds
  have n11_12 : r main_v11 ≠ r main_v12 := ne_r
  have n11_13 : r main_v11 ≠ r main_v13 := ne_r
  have e11 : StableHlo.after [op13] (Function.update (Function.update (Wh m d) (r main_v11) g) (r main_v12) f) (r main_v11) = g := by
    rw [after13_ne _ n11_13, Function.update_of_ne n11_12, Function.update_self]
  have e13 : StableHlo.after [op13] (Function.update (Function.update (Wh m d) (r main_v11) g) (r main_v12) f) (r main_v13) = HV.v13V f := by
    rw [HV.after_op13, Function.update_self]
  have e8 : StableHlo.after [op13] (Function.update (Function.update (Wh m d) (r main_v11) g) (r main_v12) f) (r main_v8) = X.et d := by
    rw [after13_ne _ (ne_r (x := main_v8) (y := main_v13)), Function.update_of_ne (ne_r (x := main_v8) (y := main_v12)),
      Function.update_of_ne (ne_r (x := main_v8) (y := main_v11)), Wh_et, het d]
  have hpre : PostTC d (m (a0Loc d)) (HV.v10V (m (a1Loc d))) f := by
    have := hf
    rw [Function.update_of_ne (ne_r (x := main_arg0) (y := main_v11)), Function.update_of_ne (ne_r (x := main_v10) (y := main_v11)), Wh_a0, Wh_v10] at this
    exact this
  -- the second call
  ihave H1 := (call1_pre X d _ (by rw [e11]; exact hg) (by rw [e13]; exact hTC d f hpre) e8) $$ Hheld
  icases H1 with ⟨Hst1, Hrest⟩
  rw [wp_bind]
  iapply ((K (F := F)).wp_run (D (F := F)) 𝒱 (EH := EH) (P := P X) κ d 1)
  isplitr; · iexact Hctx
  isplitl [Hst]; · iexact Hst
  isplitl [Hst1]; · iexact Hst1
  iintro ⟨Hst, Hdn⟩
  ihave H1 := (call1_post X d _ e8) $$ [Hdn Hrest]
  · isplitl [Hdn] <;> iassumption
  icases H1 with ⟨%f', %t', %o, %ho, Hheld⟩
  -- the final line
  iapply (StableHlo.wp_seq (defs := (K (F := F)).defs (D (F := F))) 𝒱 none Set.univ d UC _ ops16 ops16_sub ops16_fresh _) $$ [Hb Hheld]
  · isplitl [Hb] <;> iassumption
  iintro ⟨Hb, Hheld⟩
  rw [wp_pure]; imodintro
  isplitl [Hst]; · iexact Hst
  iapply (fin_of X m d (StableHlo.after ops16 (Function.update (Function.update (Function.update
      (StableHlo.after [op13] (Function.update (Function.update (Wh m d) (r main_v11) g) (r main_v12) f)) (r main_v11) f') (r main_v13) t') (r main_v14) o))
    (by rw [keep d (Wh m d) g f' f t' o (b := main_arg0) (by decide) (by decide) (by decide) (by decide) (by decide) (by decide)]; exact Wh_a0 m d)
    (by rw [keep d (Wh m d) g f' f t' o (b := main_arg1) (by decide) (by decide) (by decide) (by decide) (by decide) (by decide)]; exact Wh_a1 m d)
    (by rw [keep d (Wh m d) g f' f t' o (b := main_arg2) (by decide) (by decide) (by decide) (by decide) (by decide) (by decide)]; exact Wh_a2 m d)
    o ho (by rw [HV.after_ops16, Function.update_self]))
  iexact Hheld

/-- What the final memory says of the claim: the arguments unchanged, the result the first entry of a result vector that
    satisfies the second call's post. -/
def fq (d : Dev nD) (s' : Phys nD τ sig (Elt F)) : Prop :=
  s'.mem.mem (a0Loc d) = m (a0Loc d) ∧ s'.mem.mem (a1Loc d) = m (a1Loc d) ∧ s'.mem.mem (a2Loc d) = m (a2Loc d)
    ∧ ∃ o : Buf (Elt F) (ouLoc d), X.post2 d o ∧ s'.mem.mem (v16Loc d) = HV.v16V o

theorem hfin (d : Dev nD) (s' : Phys nD τ sig (Elt F)) : iprop(FIN X m d ∗ SI s') ⊢ (⌜fq X m d s'⌝ : sProp 𝕄) := by
  unfold FIN
  iintro ⟨⟨H0, H1, H2, %v, %hv, Hv⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI H2]
  · isplitl [HSI] <;> iassumption
  icases H with ⟨%h2, HSI, -⟩
  ihave H := (SI_pointsTo_agree (st := s') (ℓ := v16Loc d) (I := Finset.univ) (q := fullShare) (f := v)) $$ [HSI Hv]
  · isplitl [HSI] <;> iassumption
  icases H with %h3
  ipureintro
  obtain ⟨o, ho, rfl⟩ := hv
  exact ⟨funext fun i => h0 i (Finset.mem_univ i), funext fun i => h1 i (Finset.mem_univ i), funext fun i => h2 i (Finset.mem_univ i),
    o, ho, funext fun i => h3 i (Finset.mem_univ i)⟩

end Hmain

/-! ## The same at the pipeline's own ghost state and post -/

section HmainTc

variable (m : (ℓ : Loc nD τ sig) → Buf (Elt F) ℓ) (ρ : Dev nD → PrngReg)

/-- `hmain` with the pipeline's region rule put in: its staging cells' ghost state on the device, its result the row of
    minima as a function of its two operands. -/
theorem hmainTc
    (hloc0 : ∀ d w (f g : Buf (Elt F) (ptLoc d)), (∀ x ∈ pRowSet w, f x = g x) → X.post0 d w f → X.post0 d w g)
    (hzt : ∀ d, X.zt d = HV.ztV (m (a0Loc d))) (he2 : ∀ d, X.e2 d = HV.e2V (m (a1Loc d))) (het : ∀ d, X.et d = HV.etV (m (a1Loc d)))
    (hTC : ∀ d (f : Buf (Elt F) (v12Loc d)), Cert.Proof.TcV.PostTC (d := d) (m (a0Loc d)) (HV.v10V (m (a1Loc d))) f → X.postTC d (HV.v13V f))
    (κ : GSem nD τ sig → ℕ) (d : Dev nD) :
    iprop((K (F := F)).ctx EH (P X) κ ∗ (K (F := F)).tcSt EH d 0 ∗ (K (F := F)).tcRes m ρ d ∗ Cert.Proof.TcR.tcGhost d)
      ⊢ wp frame (wpE ((K (F := F)).defs (D (F := F))) 𝒱 (SparseCore.T d) none) Set.univ (main d)
          fun _ => iprop((K (F := F)).tcSt EH d 2 ∗ FIN X m d) :=
  hmain X m ρ Cert.Proof.TcR.tcGhost (fun d z v f => Cert.Proof.TcV.PostTC (d := d) z v f) hloc0 hzt he2 het
    (fun κ d z v10 f₀ => Cert.Proof.TcR.tcRegion X κ d z v10 f₀) hTC κ d

end HmainTc

end Cert.Proof.Mn

end
-- ==== Proof.S1Aux.lean ====
/-
  How the loads of the first vector-subcore call read the scratch buffers: a load of sixteen lanes through a
  unit-stride rectangle is the buffer's contents at the rectangle's offset plus the lane, so the pieces the value
  functions are stated over are what the loads answer; and the tile's slab of the transposed points read through
  the sliced and squeezed view.
-/
import proofs.«209935_g88441966559691_cont_sun_c4_661_34_alg».proof.Proof.Iface
import proofs.«209935_g88441966559691_cont_sun_c4_661_34_alg».proof.Proof.S1Val

noncomputable section

namespace Cert.Proof.S1A

open Cert.KernelIdeal Cert.KernelIdeal.Gen
open Idealize.ShloMosaic Idealize.ShloMosaic.ValueIdx
open Cert.Proof.KI Cert.Proof.S1

variable {F : FTy → Type} [FloatOps F] [Named F]

/-! ## Loads of sixteen lanes -/

/-- A load of row `j` of the slab from lane `16 h`. -/
theorem rowLd_readAt {κ : Kind} {sp : Space} (m : Memref sig κ sp S16x32 .f32) (f : m.view.ty.Contents (Elt F)) (j : Fin 16) (h : Fin 2)
    (inb : ∀ a, (![j.val, 16 * h.val] : Fin 2 → ℕ) a + S1x16.size a ≤ S16x32.size a) :
    m.view.readAt (Elt F) (Rect.unit (s := S16x32) ![j.val, 16 * h.val] S1x16.size inb).toLoadRect f = rowLd (m.view.read (Elt F) f) j h := by
  funext x
  show m.view.read (Elt F) f _ = m.view.read (Elt F) f _
  congr 1
  funext a
  match a with
  | ⟨0, _⟩ => exact Fin.ext (by have h0 : (x 0).val < 1 := (x 0).isLt; show j.val + 1 * (x 0).val = j.val; omega)
  | ⟨1, _⟩ => exact Fin.ext (by show 16 * h.val + 1 * (x 1).val = 16 * h.val + (x 1).val; omega)

/-! The same at each literal offset, as the program prints the thirty-two loads. -/

theorem rowLd_readAt_0_0 {κ : Kind} {sp : Space} (m : Memref sig κ sp S16x32 .f32) (f : m.view.ty.Contents (Elt F))
    (inb : ∀ a, (![0, 0] : Fin 2 → ℕ) a + S1x16.size a ≤ S16x32.size a) :
    m.view.readAt (Elt F) (Rect.unit (s := S16x32) ![0, 0] S1x16.size inb).toLoadRect f = rowLd (m.view.read (Elt F) f) 0 0 :=
  rowLd_readAt m f 0 0 inb
theorem rowLd_readAt_0_16 {κ : Kind} {sp : Space} (m : Memref sig κ sp S16x32 .f32) (f : m.view.ty.Contents (Elt F))
    (inb : ∀ a, (![0, 16] : Fin 2 → ℕ) a + S1x16.size a ≤ S16x32.size a) :
    m.view.readAt (Elt F) (Rect.unit (s := S16x32) ![0, 16] S1x16.size inb).toLoadRect f = rowLd (m.view.read (Elt F) f) 0 1 :=
  rowLd_readAt m f 0 1 inb
theorem rowLd_readAt_1_0 {κ : Kind} {sp : Space} (m : Memref sig κ sp S16x32 .f32) (f : m.view.ty.Contents (Elt F))
    (inb : ∀ a, (![1, 0] : Fin 2 → ℕ) a + S1x16.size a ≤ S16x32.size a) :
    m.view.readAt (Elt F) (Rect.unit (s := S16x32) ![1, 0] S1x16.size inb).toLoadRect f = rowLd (m.view.read (Elt F) f) 1 0 :=
  rowLd_readAt m f 1 0 inb
theorem rowLd_readAt_1_16 {κ : Kind} {sp : Space} (m : Memref sig κ sp S16x32 .f32) (f : m.view.ty.Contents (Elt F))
    (inb : ∀ a, (![1, 16] : Fin 2 → ℕ) a + S1x16.size a ≤ S16x32.size a) :
    m.view.readAt (Elt F) (Rect.unit (s := S16x32) ![1, 16] S1x16.size inb).toLoadRect f = rowLd (m.view.read (Elt F) f) 1 1 :=
  rowLd_readAt m f 1 1 inb
theorem rowLd_readAt_2_0 {κ : Kind} {sp : Space} (m : Memref sig κ sp S16x32 .f32) (f : m.view.ty.Contents (Elt F))
    (inb : ∀ a, (![2, 0] : Fin 2 → ℕ) a + S1x16.size a ≤ S16x32.size a) :
    m.view.readAt (Elt F) (Rect.unit (s := S16x32) ![2, 0] S1x16.size inb).toLoadRect f = rowLd (m.view.read (Elt F) f) 2 0 :=
  rowLd_readAt m f 2 0 inb
theorem rowLd_readAt_2_16 {κ : Kind} {sp : Space} (m : Memref sig κ sp S16x32 .f32) (f : m.view.ty.Contents (Elt F))
    (inb : ∀ a, (![2, 16] : Fin 2 → ℕ) a + S1x16.size a ≤ S16x32.size a) :
    m.view.readAt (Elt F) (Rect.unit (s := S16x32) ![2, 16] S1x16.size inb).toLoadRect f = rowLd (m.view.read (Elt F) f) 2 1 :=
  rowLd_readAt m f 2 1 inb
theorem rowLd_readAt_3_0 {κ : Kind} {sp : Space} (m : Memref sig κ sp S16x32 .f32) (f : m.view.ty.Contents (Elt F))
    (inb : ∀ a, (![3, 0] : Fin 2 → ℕ) a + S1x16.size a ≤ S16x32.size a) :
    m.view.readAt (Elt F) (Rect.unit (s := S16x32) ![3, 0] S1x16.size inb).toLoadRect f = rowLd (m.view.read (Elt F) f) 3 0 :=
  rowLd_readAt m f 3 0 inb
theorem rowLd_readAt_3_16 {κ : Kind} {sp : Space} (m : Memref sig κ sp S16x32 .f32) (f : m.view.ty.Contents (Elt F))
    (inb : ∀ a, (![3, 16] : Fin 2 → ℕ) a + S1x16.size a ≤ S16x32.size a) :
    m.view.readAt (Elt F) (Rect.unit (s := S16x32) ![3, 16] S1x16.size inb).toLoadRect f = rowLd (m.view.read (Elt F) f) 3 1 :=
  rowLd_readAt m f 3 1 inb
theorem rowLd_readAt_4_0 {κ : Kind} {sp : Space} (m : Memref sig κ sp S16x32 .f32) (f : m.view.ty.Contents (Elt F))
    (inb : ∀ a, (![4, 0] : Fin 2 → ℕ) a + S1x16.size a ≤ S16x32.size a) :
    m.view.readAt (Elt F) (Rect.unit (s := S16x32) ![4, 0] S1x16.size inb).toLoadRect f = rowLd (m.view.read (Elt F) f) 4 0 :=
  rowLd_readAt m f 4 0 inb
theorem rowLd_readAt_4_16 {κ : Kind} {sp : Space} (m : Memref sig κ sp S16x32 .f32) (f : m.view.ty.Contents (Elt F))
    (inb : ∀ a, (![4, 16] : Fin 2 → ℕ) a + S1x16.size a ≤ S16x32.size a) :
    m.view.readAt (Elt F) (Rect.unit (s := S16x32) ![4, 16] S1x16.size inb).toLoadRect f = rowLd (m.view.read (Elt F) f) 4 1 :=
  rowLd_readAt m f 4 1 inb
theorem rowLd_readAt_5_0 {κ : Kind} {sp : Space} (m : Memref sig κ sp S16x32 .f32) (f : m.view.ty.Contents (Elt F))
    (inb : ∀ a, (![5, 0] : Fin 2 → ℕ) a + S1x16.size a ≤ S16x32.size a) :
    m.view.readAt (Elt F) (Rect.unit (s := S16x32) ![5, 0] S1x16.size inb).toLoadRect f = rowLd (m.view.read (Elt F) f) 5 0 :=
  rowLd_readAt m f 5 0 inb
theorem rowLd_readAt_5_16 {κ : Kind} {sp : Space} (m : Memref sig κ sp S16x32 .f32) (f : m.view.ty.Contents (Elt F))
    (inb : ∀ a, (![5, 16] : Fin 2 → ℕ) a + S1x16.size a ≤ S16x32.size a) :
    m.view.readAt (Elt F) (Rect.unit (s := S16x32) ![5, 16] S1x16.size inb).toLoadRect f = rowLd (m.view.read (Elt F) f) 5 1 :=
  rowLd_readAt m f 5 1 inb
theorem rowLd_readAt_6_0 {κ : Kind} {sp : Space} (m : Memref sig κ sp S16x32 .f32) (f : m.view.ty.Contents (Elt F))
    (inb : ∀ a, (![6, 0] : Fin 2 → ℕ) a + S1x16.size a ≤ S16x32.size a) :
    m.view.readAt (Elt F) (Rect.unit (s := S16x32) ![6, 0] S1x16.size inb).toLoadRect f = rowLd (m.view.read (Elt F) f) 6 0 :=
  rowLd_readAt m f 6 0 inb
theorem rowLd_readAt_6_16 {κ : Kind} {sp : Space} (m : Memref sig κ sp S16x32 .f32) (f : m.view.ty.Contents (Elt F))
    (inb : ∀ a, (![6, 16] : Fin 2 → ℕ) a + S1x16.size a ≤ S16x32.size a) :
    m.view.readAt (Elt F) (Rect.unit (s := S16x32) ![6, 16] S1x16.size inb).toLoadRect f = rowLd (m.view.read (Elt F) f) 6 1 :=
  rowLd_readAt m f 6 1 inb
theorem rowLd_readAt_7_0 {κ : Kind} {sp : Space} (m : Memref sig κ sp S16x32 .f32) (f : m.view.ty.Contents (Elt F))
    (inb : ∀ a, (![7, 0] : Fin 2 → ℕ) a + S1x16.size a ≤ S16x32.size a) :
    m.view.readAt (Elt F) (Rect.unit (s := S16x32) ![7, 0] S1x16.size inb).toLoadRect f = rowLd (m.view.read (Elt F) f) 7 0 :=
  rowLd_readAt m f 7 0 inb
theorem rowLd_readAt_7_16 {κ : Kind} {sp : Space} (m : Memref sig κ sp S16x32 .f32) (f : m.view.ty.Contents (Elt F))
    (inb : ∀ a, (![7, 16] : Fin 2 → ℕ) a + S1x16.size a ≤ S16x32.size a) :
    m.view.readAt (Elt F) (Rect.unit (s := S16x32) ![7, 16] S1x16.size inb).toLoadRect f = rowLd (m.view.read (Elt F) f) 7 1 :=
  rowLd_readAt m f 7 1 inb
theorem rowLd_readAt_8_0 {κ : Kind} {sp : Space} (m : Memref sig κ sp S16x32 .f32) (f : m.view.ty.Contents (Elt F))
    (inb : ∀ a, (![8, 0] : Fin 2 → ℕ) a + S1x16.size a ≤ S16x32.size a) :
    m.view.readAt (Elt F) (Rect.unit (s := S16x32) ![8, 0] S1x16.size inb).toLoadRect f = rowLd (m.view.read (Elt F) f) 8 0 :=
  rowLd_readAt m f 8 0 inb
theorem rowLd_readAt_8_16 {κ : Kind} {sp : Space} (m : Memref sig κ sp S16x32 .f32) (f : m.view.ty.Contents (Elt F))
    (inb : ∀ a, (![8, 16] : Fin 2 → ℕ) a + S1x16.size a ≤ S16x32.size a) :
    m.view.readAt (Elt F) (Rect.unit (s := S16x32) ![8, 16] S1x16.size inb).toLoadRect f = rowLd (m.view.read (Elt F) f) 8 1 :=
  rowLd_readAt m f 8 1 inb
theorem rowLd_readAt_9_0 {κ : Kind} {sp : Space} (m : Memref sig κ sp S16x32 .f32) (f : m.view.ty.Contents (Elt F))
    (inb : ∀ a, (![9, 0] : Fin 2 → ℕ) a + S1x16.size a ≤ S16x32.size a) :
    m.view.readAt (Elt F) (Rect.unit (s := S16x32) ![9, 0] S1x16.size inb).toLoadRect f = rowLd (m.view.read (Elt F) f) 9 0 :=
  rowLd_readAt m f 9 0 inb
theorem rowLd_readAt_9_16 {κ : Kind} {sp : Space} (m : Memref sig κ sp S16x32 .f32) (f : m.view.ty.Contents (Elt F))
    (inb : ∀ a, (![9, 16] : Fin 2 → ℕ) a + S1x16.size a ≤ S16x32.size a) :
    m.view.readAt (Elt F) (Rect.unit (s := S16x32) ![9, 16] S1x16.size inb).toLoadRect f = rowLd (m.view.read (Elt F) f) 9 1 :=
  rowLd_readAt m f 9 1 inb
theorem rowLd_readAt_10_0 {κ : Kind} {sp : Space} (m : Memref sig κ sp S16x32 .f32) (f : m.view.ty.Contents (Elt F))
    (inb : ∀ a, (![10, 0] : Fin 2 → ℕ) a + S1x16.size a ≤ S16x32.size a) :
    m.view.readAt (Elt F) (Rect.unit (s := S16x32) ![10, 0] S1x16.size inb).toLoadRect f = rowLd (m.view.read (Elt F) f) 10 0 :=
  rowLd_readAt m f 10 0 inb
theorem rowLd_readAt_10_16 {κ : Kind} {sp : Space} (m : Memref sig κ sp S16x32 .f32) (f : m.view.ty.Contents (Elt F))
    (inb : ∀ a, (![10, 16] : Fin 2 → ℕ) a + S1x16.size a ≤ S16x32.size a) :
    m.view.readAt (Elt F) (Rect.unit (s := S16x32) ![10, 16] S1x16.size inb).toLoadRect f = rowLd (m.view.read (Elt F) f) 10 1 :=
  rowLd_readAt m f 10 1 inb
theorem rowLd_readAt_11_0 {κ : Kind} {sp : Space} (m : Memref sig κ sp S16x32 .f32) (f : m.view.ty.Contents (Elt F))
    (inb : ∀ a, (![11, 0] : Fin 2 → ℕ) a + S1x16.size a ≤ S16x32.size a) :
    m.view.readAt (Elt F) (Rect.unit (s := S16x32) ![11, 0] S1x16.size inb).toLoadRect f = rowLd (m.view.read (Elt F) f) 11 0 :=
  rowLd_readAt m f 11 0 inb
theorem rowLd_readAt_11_16 {κ : Kind} {sp : Space} (m : Memref sig κ sp S16x32 .f32) (f : m.view.ty.Contents (Elt F))
    (inb : ∀ a, (![11, 16] : Fin 2 → ℕ) a + S1x16.size a ≤ S16x32.size a) :
    m.view.readAt (Elt F) (Rect.unit (s := S16x32) ![11, 16] S1x16.size inb).toLoadRect f = rowLd (m.view.read (Elt F) f) 11 1 :=
  rowLd_readAt m f 11 1 inb
theorem rowLd_readAt_12_0 {κ : Kind} {sp : Space} (m : Memref sig κ sp S16x32 .f32) (f : m.view.ty.Contents (Elt F))
    (inb : ∀ a, (![12, 0] : Fin 2 → ℕ) a + S1x16.size a ≤ S16x32.size a) :
    m.view.readAt (Elt F) (Rect.unit (s := S16x32) ![12, 0] S1x16.size inb).toLoadRect f = rowLd (m.view.read (Elt F) f) 12 0 :=
  rowLd_readAt m f 12 0 inb
theorem rowLd_readAt_12_16 {κ : Kind} {sp : Space} (m : Memref sig κ sp S16x32 .f32) (f : m.view.ty.Contents (Elt F))
    (inb : ∀ a, (![12, 16] : Fin 2 → ℕ) a + S1x16.size a ≤ S16x32.size a) :
    m.view.readAt (Elt F) (Rect.unit (s := S16x32) ![12, 16] S1x16.size inb).toLoadRect f = rowLd (m.view.read (Elt F) f) 12 1 :=
  rowLd_readAt m f 12 1 inb
theorem rowLd_readAt_13_0 {κ : Kind} {sp : Space} (m : Memref sig κ sp S16x32 .f32) (f : m.view.ty.Contents (Elt F))
    (inb : ∀ a, (![13, 0] : Fin 2 → ℕ) a + S1x16.size a ≤ S16x32.size a) :
    m.view.readAt (Elt F) (Rect.unit (s := S16x32) ![13, 0] S1x16.size inb).toLoadRect f = rowLd (m.view.read (Elt F) f) 13 0 :=
  rowLd_readAt m f 13 0 inb
theorem rowLd_readAt_13_16 {κ : Kind} {sp : Space} (m : Memref sig κ sp S16x32 .f32) (f : m.view.ty.Contents (Elt F))
    (inb : ∀ a, (![13, 16] : Fin 2 → ℕ) a + S1x16.size a ≤ S16x32.size a) :
    m.view.readAt (Elt F) (Rect.unit (s := S16x32) ![13, 16] S1x16.size inb).toLoadRect f = rowLd (m.view.read (Elt F) f) 13 1 :=
  rowLd_readAt m f 13 1 inb
theorem rowLd_readAt_14_0 {κ : Kind} {sp : Space} (m : Memref sig κ sp S16x32 .f32) (f : m.view.ty.Contents (Elt F))
    (inb : ∀ a, (![14, 0] : Fin 2 → ℕ) a + S1x16.size a ≤ S16x32.size a) :
    m.view.readAt (Elt F) (Rect.unit (s := S16x32) ![14, 0] S1x16.size inb).toLoadRect f = rowLd (m.view.read (Elt F) f) 14 0 :=
  rowLd_readAt m f 14 0 inb
theorem rowLd_readAt_14_16 {κ : Kind} {sp : Space} (m : Memref sig κ sp S16x32 .f32) (f : m.view.ty.Contents (Elt F))
    (inb : ∀ a, (![14, 16] : Fin 2 → ℕ) a + S1x16.size a ≤ S16x32.size a) :
    m.view.readAt (Elt F) (Rect.unit (s := S16x32) ![14, 16] S1x16.size inb).toLoadRect f = rowLd (m.view.read (Elt F) f) 14 1 :=
  rowLd_readAt m f 14 1 inb
theorem rowLd_readAt_15_0 {κ : Kind} {sp : Space} (m : Memref sig κ sp S16x32 .f32) (f : m.view.ty.Contents (Elt F))
    (inb : ∀ a, (![15, 0] : Fin 2 → ℕ) a + S1x16.size a ≤ S16x32.size a) :
    m.view.readAt (Elt F) (Rect.unit (s := S16x32) ![15, 0] S1x16.size inb).toLoadRect f = rowLd (m.view.read (Elt F) f) 15 0 :=
  rowLd_readAt m f 15 0 inb
theorem rowLd_readAt_15_16 {κ : Kind} {sp : Space} (m : Memref sig κ sp S16x32 .f32) (f : m.view.ty.Contents (Elt F))
    (inb : ∀ a, (![15, 16] : Fin 2 → ℕ) a + S1x16.size a ≤ S16x32.size a) :
    m.view.readAt (Elt F) (Rect.unit (s := S16x32) ![15, 16] S1x16.size inb).toLoadRect f = rowLd (m.view.read (Elt F) f) 15 1 :=
  rowLd_readAt m f 15 1 inb

/-- A load of sixteen lanes of a rank-one buffer of `n` words at offset `o`: the contents at `o + lane`. -/
theorem readAt16 {κ : Kind} {sp : Space} {n : ℕ} (m : Memref sig κ sp ⟨1, ![n]⟩ .f32) (f : m.view.ty.Contents (Elt F))
    (off : Fin 1 → ℕ) (inb : ∀ a, off a + S16.size a ≤ (⟨1, ![n]⟩ : Shape).size a) (o : ℕ) (ho : off 0 = o) :
    m.view.readAt (Elt F) (Rect.unit (s := ⟨1, ![n]⟩) off S16.size inb).toLoadRect f
      = fun x => m.view.read (Elt F) f (ix1 ⟨o + (x 0).val, by
          have h0 : (x 0).val < 16 := (x 0).isLt
          have h1 : off 0 + 16 ≤ n := inb 0
          omega⟩) := by
  funext x
  show m.view.read (Elt F) f _ = m.view.read (Elt F) f _
  congr 1
  funext a
  match a with
  | ⟨0, _⟩ => exact Fin.ext (by show off 0 + 1 * (x 0).val = o + (x 0).val; omega)

theorem t1_lt (c : Fin k0_t1_loop.trips) : c.val < 10 := lt_of_lt_of_le c.isLt k0_t1_abs.2.1
theorem t2_lt (k : Fin k0_t2_loop.trips) : k.val < 100 := lt_of_lt_of_le k.isLt k0_t2_abs.2.1
theorem t3_lt (k : Fin k0_t3_loop.trips) : k.val < 100 := lt_of_lt_of_le k.isLt k0_t3_abs.2.1
theorem t4_lt (g : Fin k0_t4_loop.trips) : g.val < 64 := lt_of_lt_of_le g.isLt k0_t4_abs.2.1

/-- Column `100 c + k`: row `k` of chunk `c`. -/
def col (c : Fin k0_t1_loop.trips) (k : Fin k0_t2_loop.trips) : Fin 1000 :=
  ⟨100 * c.val + k.val, by have := t1_lt c; have := t2_lt k; omega⟩

/-- The load of row `k` of chunk `c` of `-2 e`. -/
theorem eLd_readAt {κ : Kind} {sp : Space} (m : Memref sig κ sp S16000 .f32) (f : m.view.ty.Contents (Elt F))
    (c : Fin k0_t1_loop.trips) (k : Fin k0_t2_loop.trips) (inb : ∀ a, (k0_off2 c k) a + S16.size a ≤ S16000.size a) :
    m.view.readAt (Elt F) (Rect.unit (s := S16000) (k0_off2 c k) S16.size inb).toLoadRect f = eLd (m.view.read (Elt F) f) (col c k) := by
  rw [readAt16 m f (k0_off2 c k) inb (16 * (col c k).val) (by rw [k0_off2_eq]; show 1600 * c.val + 16 * k.val = 16 * (100 * c.val + k.val); omega)]
  rfl

/-- The load of row `16 g + l` of the lanes' buffer in the reduction's trip `g`. -/
theorem minsLd_readAt {κ : Kind} {sp : Space} (m : Memref sig κ sp S16384 .f32) (f : m.view.ty.Contents (Elt F))
    (g : Fin k0_t4_loop.trips) (l : Fin 16) (inb : ∀ a, (k0_off7 g (BitVec.ofNat 32 l.val)) a + S16.size a ≤ S16384.size a) :
    m.view.readAt (Elt F) (Rect.unit (s := S16384) (k0_off7 g (BitVec.ofNat 32 l.val)) S16.size inb).toLoadRect f
      = fun x => m.view.read (Elt F) f (ix1 ⟨256 * g.val + 16 * l.val + (x 0).val, by
          have h0 : (x 0).val < 16 := (x 0).isLt
          have := t4_lt g; have := l.isLt
          show _ < 16384; omega⟩) :=
  readAt16 m f _ inb _ (by rw [k0_off7_eq]; rfl)

/-! ## The tile's slab through the sliced and squeezed view -/

theorem wL_lt (L : grid0.Coords) : 2 * (L 1).val + (L 0).val < 32 := by
  have h0 : (L 0).val < 2 := (L 0).isLt
  have h1 : (L 1).val < 16 := (L 1).isLt
  omega

/-- The slab of the transposed points the tile at grid coordinates `L` copies in, read through the sliced and
    squeezed view of the whole array: slab `2 L₁ + L₀`. -/
theorem slab_read (L : grid0.Coords)
    (f : (Memref.whole main_v3_scv : Memref sig .scVector .hbm S32x16x32 .f32).view.ty.Contents (Elt F)) :
    (((Memref.whole main_v3_scv : Memref sig .scVector .hbm S32x16x32 .f32).slice
        (Rect.unit (s := S32x16x32) (k0_off1 L) S1x16x32.size (k0_off1_inb L)) (fun _ => rfl)).squeeze S16x32 squeezes_S1x16x32_S16x32).view.read (Elt F) f
      = slab f ⟨2 * (L 1).val + (L 0).val, wL_lt L⟩ := by
  funext x
  rw [View.read_apply, cast_eq]
  show f _ = f _
  congr 1
  have hx : Shape.reshapeEquiv squeezes_S1x16x32_S16x32.numel_eq x = ix3 (⟨0, Nat.one_pos⟩ : Fin 1) (x 0) (x 1) := by
    conv_lhs => rw [eq_ix2 x]
    exact reshapeEquiv_ix2_1ab _ (x 0) (x 1)
  have e1 : k0_off1 L = ![2 * (L 1).val + (L 0).val, 0, 0] := k0_off1_eq L
  funext a
  refine Fin.ext ?_
  show ((Rect.unit (s := S32x16x32) (k0_off1 L) S1x16x32.size (k0_off1_inb L)).emb (Shape.reshapeEquiv squeezes_S1x16x32_S16x32.numel_eq x) a).val = _
  rw [Rect.emb_apply, hx]
  match a with
  | ⟨0, _⟩ => show k0_off1 L 0 + 1 * 0 = 2 * (L 1).val + (L 0).val; rw [e1]; rfl
  | ⟨1, _⟩ => show k0_off1 L 1 + 1 * (x 0).val = (x 0).val; rw [e1]; show 0 + 1 * (x 0).val = (x 0).val; omega
  | ⟨2, _⟩ => show k0_off1 L 2 + 1 * (x 1).val = (x 1).val; rw [e1]; show 0 + 1 * (x 1).val = (x 1).val; omega

/-! ## The tile's row of the partial minima from what the last copy leaves -/

/-- Writing the row buffer `pay` through the sliced and squeezed view of row `2 L₁ + L₀` of the partial minima
    leaves column `m` of that row at `pay m`; so the tile's post holds once `pay` holds each column's least value. -/
theorem post0_of (d : Dev nD) (L : grid0.Coords) (zt : Buf (Elt F) (ztLoc d)) (e2 : Buf (Elt F) (e2Loc d))
    (fp : Buf (Elt F) (ptLoc d)) (pay : S1024.Idx → Elt F .f32)
    (hpay : ∀ m : Fin 1000, pay (ix1 ⟨m.val, by have := m.isLt; omega⟩) = part1 (slab zt ⟨2 * (L 1).val + (L 0).val, wL_lt L⟩) e2 m) :
    Post0 zt e2 ⟨2 * (L 1).val + (L 0).val, wL_lt L⟩
      ((((Memref.whole main_v11_scv : Memref sig .scVector .hbm S32x1024 .f32).slice
          (Rect.unit (s := S32x1024) (k0_off9 L) S1x1024.size (k0_off9_inb L)) (fun _ => rfl)).squeeze S1024 squeezes_S1x1024_S1024).view.writes
        (Elt F) fp [⟨Rect.whole S1024, pay⟩]) := by
  intro m
  rw [← hpay m]
  have hx : Shape.reshapeEquiv squeezes_S1x1024_S1024.numel_eq (ix1 (⟨m.val, by have := m.isLt; omega⟩ : Fin 1024))
      = ix2 (⟨0, Nat.one_pos⟩ : Fin 1) (⟨m.val, by have := m.isLt; omega⟩ : Fin 1024) :=
    Shape.reshapeEquiv_eq_of_rowMajor _ (by
      rw [Shape.rowMajor_val_two, Shape.rowMajor_val_one]
      show 0 * 1024 + m.val = m.val
      omega)
  have e9 : k0_off9 L = ![2 * (L 1).val + (L 0).val, 0] := k0_off9_eq L
  have hemb : (((((Memref.whole main_v11_scv : Memref sig .scVector .hbm S32x1024 .f32).slice
          (Rect.unit (s := S32x1024) (k0_off9 L) S1x1024.size (k0_off9_inb L)) (fun _ => rfl)).squeeze S1024 squeezes_S1x1024_S1024).view.slice
        (Rect.whole S1024)).emb (ix1 (⟨m.val, by have := m.isLt; omega⟩ : Fin 1024)) : S32x1024.Idx)
      = ix2 (⟨2 * (L 1).val + (L 0).val, wL_lt L⟩ : Fin 32) (⟨m.val, by have := m.isLt; omega⟩ : Fin 1024) := by
    funext a
    refine Fin.ext ?_
    show ((Rect.unit (s := S32x1024) (k0_off9 L) S1x1024.size (k0_off9_inb L)).emb
      (Shape.reshapeEquiv squeezes_S1x1024_S1024.numel_eq ((Rect.whole S1024).emb (ix1 (⟨m.val, by have := m.isLt; omega⟩ : Fin 1024)))) a).val = _
    rw [Rect.emb_whole_apply, Rect.emb_apply, hx]
    match a with
    | ⟨0, _⟩ => show k0_off9 L 0 + 1 * 0 = 2 * (L 1).val + (L 0).val; rw [e9]; rfl
    | ⟨1, _⟩ => show k0_off9 L 1 + 1 * m.val = m.val; rw [e9]; show 0 + 1 * m.val = m.val; omega
  rw [View.writes_singleton, ← hemb, View.write_emb_of_mem _ _ (Finset.mem_univ _), cast_eq]

end Cert.Proof.S1A

end
-- ==== Proof.S1Red.lean ====
/-
  The last loop of the first vector-subcore call: sixty-four trips, trip `g` reducing the sixteen columns
  `16 g … 16 g + 15`. Each column's sixteen lanes are loaded from the lanes' buffer and reduced to their least
  element by the tree of pairwise minima; the sixteen results are assembled into one row vector, lane `l` the
  result of column `16 g + l`, and stored at words `16 g … 16 g + 15` of the row buffer. The invariant: the
  lanes' buffer is unchanged, and every column of an earlier group holds the least of its sixteen lanes.
-/
import proofs.«209935_g88441966559691_cont_sun_c4_661_34_alg».proof.Proof.Iface
import proofs.«209935_g88441966559691_cont_sun_c4_661_34_alg».proof.Proof.S1Val
import proofs.«209935_g88441966559691_cont_sun_c4_661_34_alg».proof.Proof.S1Aux

noncomputable section

namespace Cert.Proof.S1R

open Cert.KernelIdeal Cert.KernelIdeal.Gen
open Cert.Proof.KI Cert.Proof.S1 Cert.Proof.S1A

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type} [FloatOps F] [Named F]

local notation "𝕄" => MT nD τ sig (HIx 2) (Elt F) ℕ UU ℕ

local notation "ztW" => (Memref.whole Cert.KernelIdeal.main_v3_scv : Memref Cert.KernelIdeal.sig Kind.scVector Space.hbm Cert.KernelIdeal.S32x16x32 EltTy.f32)
local notation "e2W" => (Memref.whole Cert.KernelIdeal.main_v6_scv : Memref Cert.KernelIdeal.sig Kind.scVector Space.hbm Cert.KernelIdeal.S16000 EltTy.f32)
local notation "ptW" => (Memref.whole Cert.KernelIdeal.main_v11_scv : Memref Cert.KernelIdeal.sig Kind.scVector Space.hbm Cert.KernelIdeal.S32x1024 EltTy.f32)
local notation "sZ" => (Memref.whole Cert.KernelIdeal.cc0_scratch0 : Memref Cert.KernelIdeal.sig Kind.scVector Space.vmem Cert.KernelIdeal.S16x32 EltTy.f32)
local notation "sE" => (Memref.whole Cert.KernelIdeal.cc0_scratch1 : Memref Cert.KernelIdeal.sig Kind.scVector Space.vmem Cert.KernelIdeal.S16000 EltTy.f32)
local notation "sM" => (Memref.whole Cert.KernelIdeal.cc0_scratch2 : Memref Cert.KernelIdeal.sig Kind.scVector Space.vmem Cert.KernelIdeal.S16384 EltTy.f32)
local notation "sR" => (Memref.whole Cert.KernelIdeal.cc0_scratch3 : Memref Cert.KernelIdeal.sig Kind.scVector Space.vmem Cert.KernelIdeal.S1024 EltTy.f32)
local notation "sS" => (Memref.whole Cert.KernelIdeal.cc0_scratch4 : Memref Cert.KernelIdeal.sig Kind.scVector Space.smem Cert.KernelIdeal.S1600 EltTy.f32)

/-- The tile's core and subcore numbers. -/
abbrev cV (L : grid0.Coords) : Fin τ.nSC := (L 0).castLE hcore0
abbrev jV (L : grid0.Coords) : Fin τ.nSub := (L 1).castLE hsub0

theorem col_lt (m : Fin 1024) (x : S16.Idx) : 16 * m.val + (x 0).val < 16384 := by
  have h0 : (x 0).val < 16 := (x 0).isLt
  have := m.isLt
  omega

/-- Before group `g` of sixteen columns is reduced: the lanes' buffer is as it was, and every column of an earlier
    group holds the least of its sixteen lanes. -/
def invR (d : Dev nD) (L : grid0.Coords) (f7 : Buf (Elt F) ((V d (cV L) (jV L)).loc cc0_scratch2)) (g : Nat) (_ : PUnit) : sProp 𝕄 :=
  iprop(((sM).view.loc (V d (cV L) (jV L)) ↦{fullShare} f7)
    ∗ ∃ r, ((sR).view.loc (V d (cV L) (jV L)) ↦{fullShare} r)
      ∗ ⌜∀ m : Fin 1024, m.val < 16 * g →
          (sR).view.read (Elt F) r (ix1 m) = red16 (fun x => (sM).view.read (Elt F) f7 (ix1 ⟨16 * m.val + (x 0).val, col_lt m x⟩))⌝)

set_option maxRecDepth 65536 in
/-- One trip: the sixteen loads, the sixteen reductions, the assembled row stored; columns below `16 g` are not
    touched, and column `16 g + l` receives lane `l` of the stored row, the least of its own sixteen lanes. -/
theorem t4_trip (d : Dev nD) (L : grid0.Coords) (f7 : Buf (Elt F) ((V d (cV L) (jV L)).loc cc0_scratch2)) (g : Fin k0_t4_loop.trips) (acc : PUnit) :
    invR (F := F) d L f7 g.val acc ⊢ wp frame (wpE (defs₀ (F := F)) 𝒱₀ (V d (cV L) (jV L)) none) Set.univ
      (k0_t4_body (F := F) L ztW (Memref.isWhole_whole _) e2W (Memref.isWhole_whole _) ptW (Memref.isWhole_whole _)
        sZ (Memref.isWhole_whole _) sE (Memref.isWhole_whole _) sM (Memref.isWhole_whole _) sR (Memref.isWhole_whole _) sS (Memref.isWhole_whole _)
        cc0_scoped0 cc0_scoped1 cc0_scoped2 g acc)
      (invR (F := F) d L f7 (g.val + 1)) := by
  unfold k0_t4_body
  simp only [k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
  unfold invR
  iintro ⟨Hm, ⟨%r, Hr, %hr⟩⟩
  sl_exec
  sl_step
  isplitl [Hm]
  · iexact Hm
  iexists _
  isplitl [Hr]
  · iexact Hr
  ipureintro
  intro m hm
  have hg := t4_lt g
  have e8 : k0_off8 g 0 = 16 * g.val := by rw [k0_off8_eq]; rfl
  by_cases hlo : m.val < 16 * g.val
  · -- an earlier group's column: the store does not reach it
    rw [View.read_writes_apply_of_forall_not_mem]
    · exact hr m hlo
    · intro p hp
      rw [List.mem_singleton] at hp
      subst hp
      intro hmem
      have h0 := (Rect.mem_set_unit (s := S1024) (off := k0_off8 g) (size := S16.size) (inb := k0_off8_inb g) (i := (ix1 m : S1024.Idx))).mp hmem (0 : Fin 1)
      rw [e8] at h0
      have h1 : 16 * g.val ≤ m.val := h0.1
      omega
  · -- a column of this group: lane `m - 16 g` of the stored row
    have hl : m.val - 16 * g.val < 16 := by omega
    have hy : (ix1 m : S1024.Idx) = (Rect.unit (s := S1024) (k0_off8 g) S16.size (k0_off8_inb g)).emb (ix1 (⟨m.val - 16 * g.val, hl⟩ : Fin 16)) := by
      funext a
      match a with
      | ⟨0, _⟩ =>
        refine Fin.ext ?_
        rw [Rect.emb_apply]
        show m.val = k0_off8 g 0 + 1 * (m.val - 16 * g.val)
        rw [e8]
        omega
    rw [hy, View.read_writes_cons_emb]
    sl_unfold_run_names
    show rowV (fun l : Fin 16 => red16 ((sM).view.readAt (Elt F) (Rect.unit (s := S16384) (k0_off7 g (BitVec.ofNat 32 l.val)) S16.size (k0_off7_inb g l)).toLoadRect f7)) (ix1 (⟨m.val - 16 * g.val, hl⟩ : Fin 16)) = _
    rw [rowV_apply, minsLd_readAt]
    congr 1
    funext x
    congr 2
    refine Fin.ext ?_
    show 256 * g.val + 16 * (m.val - 16 * g.val) + (x 0).val = 16 * m.val + (x 0).val
    omega

end Cert.Proof.S1R

end
-- ==== Proof.S1Dist.lean ====
/-
  One trip of the first vector-subcore call's distance loop, at a symbolic tile, chunk and column: sixteen scalars of
  the chunk's row of `-2 e` are read off the scalar memory, the sixteen lanes of the column are computed from them and
  the slab's registers and stored as row `100 c + mm` of the lanes' scratch; the rows before it keep their lanes.
-/
import proofs.«209935_g88441966559691_cont_sun_c4_661_34_alg».proof.Proof.Iface
import proofs.«209935_g88441966559691_cont_sun_c4_661_34_alg».proof.Proof.S1Val
import proofs.«209935_g88441966559691_cont_sun_c4_661_34_alg».proof.Proof.S1Aux

noncomputable section

namespace Cert.Proof.S1D

open Cert.KernelIdeal Cert.KernelIdeal.Gen
open Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic
open Idealize.ShloMosaic.ValueIdx

variable {F : FTy → Type} [FloatOps F] [Named F]

local notation "𝕄" => MT nD τ sig (HIx 2) (Elt F) ℕ UU ℕ

-- the kernel's memrefs, spelt as the body table passes them
local notation "ztW" => (Memref.whole Cert.KernelIdeal.main_v3_scv : Memref Cert.KernelIdeal.sig Kind.scVector Space.hbm Cert.KernelIdeal.S32x16x32 EltTy.f32)
local notation "e2W" => (Memref.whole Cert.KernelIdeal.main_v6_scv : Memref Cert.KernelIdeal.sig Kind.scVector Space.hbm Cert.KernelIdeal.S16000 EltTy.f32)
local notation "ptW" => (Memref.whole Cert.KernelIdeal.main_v11_scv : Memref Cert.KernelIdeal.sig Kind.scVector Space.hbm Cert.KernelIdeal.S32x1024 EltTy.f32)
local notation "sZ" => (Memref.whole Cert.KernelIdeal.cc0_scratch0 : Memref Cert.KernelIdeal.sig Kind.scVector Space.vmem Cert.KernelIdeal.S16x32 EltTy.f32)
local notation "sE" => (Memref.whole Cert.KernelIdeal.cc0_scratch1 : Memref Cert.KernelIdeal.sig Kind.scVector Space.vmem Cert.KernelIdeal.S16000 EltTy.f32)
local notation "sM" => (Memref.whole Cert.KernelIdeal.cc0_scratch2 : Memref Cert.KernelIdeal.sig Kind.scVector Space.vmem Cert.KernelIdeal.S16384 EltTy.f32)
local notation "sR" => (Memref.whole Cert.KernelIdeal.cc0_scratch3 : Memref Cert.KernelIdeal.sig Kind.scVector Space.vmem Cert.KernelIdeal.S1024 EltTy.f32)
local notation "sS" => (Memref.whole Cert.KernelIdeal.cc0_scratch4 : Memref Cert.KernelIdeal.sig Kind.scVector Space.smem Cert.KernelIdeal.S1600 EltTy.f32)

section Tile

variable (d : Dev nD) (L : grid0.Coords)

abbrev cV (L : grid0.Coords) : Fin τ.nSC := (L 0).castLE hcore0
abbrev jV (L : grid0.Coords) : Fin τ.nSub := (L 1).castLE hsub0

/-- Before column `mm` of chunk `c`: the scalar memory at its fixed contents, and the rows below `100 c + mm` of the lanes'
    scratch hold the lanes `G` names. -/
def invD (G : Fin 1000 → FVec F S16 .f32) (c : ℕ) (fS : Buf (Elt F) ((sS).view.loc (V d (cV L) (jV L)))) (mm : ℕ) (_ : PUnit) : sProp 𝕄 :=
  iprop(((sS).view.loc (V d (cV L) (jV L)) ↦{fullShare} fS)
    ∗ ∃ fM, ((sM).view.loc (V d (cV L) (jV L)) ↦{fullShare} fM)
      ∗ ⌜∀ m : Fin 1000, m.val < 100 * c + mm → ∀ l : Fin 16,
          (sM).view.read (Elt F) fM (ix1 ⟨16 * m.val + l.val, by have := m.isLt; have := l.isLt; omega⟩) = G m (ix1 l)⌝)

omit [FloatOps F] [Named F] in
/-- A load of one word of a rank-one buffer at offset `o`: the contents at `o`. -/
theorem read1 {κ : Kind} {sp : Space} {n : ℕ} (m : Memref sig κ sp ⟨1, ![n]⟩ .f32) (f : m.view.ty.Contents (Elt F))
    (off : Fin 1 → ℕ) (inb : ∀ a, off a + S1.size a ≤ (⟨1, ![n]⟩ : Shape).size a)
    (x : (Rect.unit (s := ⟨1, ![n]⟩) off S1.size inb).toLoadRect.shape.Idx) (o : ℕ) (ho : off 0 = o) (hlt : o < n) :
    m.view.readAt (Elt F) (Rect.unit (s := ⟨1, ![n]⟩) off S1.size inb).toLoadRect f x = m.view.read (Elt F) f (ix1 ⟨o, hlt⟩) := by
  show m.view.read (Elt F) f _ = m.view.read (Elt F) f _
  congr 1
  funext a
  match a with
  | ⟨0, _⟩ => exact Fin.ext (by have h0 : (x 0).val < 1 := (x 0).isLt; show off 0 + 1 * (x 0).val = o; omega)

omit [FloatOps F] [Named F] in
/-- The offset of the trip's scalar `r + 1`. -/
theorem off5 (mm : Fin k0_t3_loop.trips) (r : Fin 15) (w : BitVec 32) (hw : w = BitVec.ofNat 32 (1 + r.val)) :
    k0_off5 mm w 0 = 16 * mm.val + (r.val + 1) := by
  subst hw; rw [k0_off5_eq]; show 16 * mm.val + r.val + 1 = _; omega

/-- The column the trip works on. -/
abbrev colD (c : Fin k0_t1_loop.trips) (mm : Fin k0_t3_loop.trips) : Fin 1000 :=
  ⟨100 * c.val + mm.val, by have := S1A.t1_lt c; have := S1A.t3_lt mm; omega⟩

omit [FloatOps F] [Named F] in
/-- The trip's scalar 0 is coordinate 0 of the column's row of `-2 e`. -/
theorem rd0_eq (e2 : Vec F S16000 .f32) (c : Fin k0_t1_loop.trips) (fS : Buf (Elt F) ((sS).view.loc (V d (cV L) (jV L))))
    (hS : ∀ (k' : Fin 100) (j : Fin 16),
      (sS).view.read (Elt F) fS (ix1 ⟨16 * k'.val + j.val, by have := k'.isLt; have := j.isLt; omega⟩)
        = S1.scal (S1.eLd e2 ⟨100 * c.val + k'.val, by have := S1A.t1_lt c; have := k'.isLt; omega⟩) j)
    (mm : Fin k0_t3_loop.trips) (inb : ∀ a, (k0_off4 mm) a + S1.size a ≤ S1600.size a)
    (x : (Rect.unit (s := S1600) (k0_off4 mm) S1.size inb).toLoadRect.shape.Idx) :
    (sS).view.readAt (Elt F) (Rect.unit (s := S1600) (k0_off4 mm) S1.size inb).toLoadRect fS x
      = S1.scal (S1.eLd e2 (colD c mm)) 0 := by
  have hmm := S1A.t3_lt mm
  rw [read1 (sS) fS (k0_off4 mm) inb x (16 * mm.val + 0) (by rw [k0_off4_eq]; rfl) (by omega)]
  exact hS ⟨mm.val, hmm⟩ 0

omit [FloatOps F] [Named F] in
/-- The trip's scalar `j` is coordinate `j` of the column's row of `-2 e`. -/
theorem rd_eq (e2 : Vec F S16000 .f32) (c : Fin k0_t1_loop.trips) (fS : Buf (Elt F) ((sS).view.loc (V d (cV L) (jV L))))
    (hS : ∀ (k' : Fin 100) (j : Fin 16),
      (sS).view.read (Elt F) fS (ix1 ⟨16 * k'.val + j.val, by have := k'.isLt; have := j.isLt; omega⟩)
        = S1.scal (S1.eLd e2 ⟨100 * c.val + k'.val, by have := S1A.t1_lt c; have := k'.isLt; omega⟩) j)
    (mm : Fin k0_t3_loop.trips) (w : BitVec 32) (inb : ∀ a, (k0_off5 mm w) a + S1.size a ≤ S1600.size a)
    (x : (Rect.unit (s := S1600) (k0_off5 mm w) S1.size inb).toLoadRect.shape.Idx) (j : ℕ) (hj : j < 16)
    (hoff : k0_off5 mm w 0 = 16 * mm.val + j) :
    (sS).view.readAt (Elt F) (Rect.unit (s := S1600) (k0_off5 mm w) S1.size inb).toLoadRect fS x
      = S1.scal (S1.eLd e2 (colD c mm)) ⟨j, hj⟩ := by
  have hmm := S1A.t3_lt mm
  rw [read1 (sS) fS (k0_off5 mm w) inb x (16 * mm.val + j) hoff (by omega)]
  exact hS ⟨mm.val, hmm⟩ ⟨j, hj⟩

omit [Named F] in
/-- The trip's stored lanes, as the column's lanes over the sixteen scalars read. -/
theorem lane_eq (za zb : Fin 16 → FVec F S16 .f32) (s0 s1 s2 s3 s4 s5 s6 s7 s8 s9 s10 s11 s12 s13 s14 s15 : Elt F .f32) :
    k0_pay4 (za 12) (za 13) (za 14) (za 15) (S1.znA za)
        (k0_pay22 (za 6) (za 7) (za 8) (za 9) (za 10) (za 11) (k0_pay20 (za 0) (za 1) (za 2) (za 3) (za 4) (za 5) s0 s1 s2 s3 s4 s5) s6 s7 s8 s9 s10 s11)
        s12 s13 s14 s15
        (k0_pay3 (zb 11) (zb 12) (zb 13) (zb 14) (zb 15) (S1.znB zb)
          (k0_pay23 (zb 6) (zb 7) (zb 8) (zb 9) (zb 10) (zb 11) (k0_pay21 (zb 0) (zb 1) (zb 2) (zb 3) (zb 4) (zb 5) s0 s1 s2 s3 s4 s5) s6 s7 s8 s9 s10 s11)
          s12 s13 s14 s15)
      = S1.lane za zb ![s0, s1, s2, s3, s4, s5, s6, s7, s8, s9, s10, s11, s12, s13, s14, s15] := rfl

theorem t3_trip (e2 : Vec F S16000 .f32) (G : Fin 1000 → FVec F S16 .f32) (za zb : Fin 16 → FVec F S16 .f32)
    (c : Fin k0_t1_loop.trips) (fS : Buf (Elt F) ((sS).view.loc (V d (cV L) (jV L))))
    (hS : ∀ (k' : Fin 100) (j : Fin 16),
      (sS).view.read (Elt F) fS (ix1 ⟨16 * k'.val + j.val, by have := k'.isLt; have := j.isLt; omega⟩)
        = S1.scal (S1.eLd e2 ⟨100 * c.val + k'.val, by have := S1A.t1_lt c; have := k'.isLt; omega⟩) j)
    (hG : ∀ mm : Fin 100, G ⟨100 * c.val + mm.val, by have := S1A.t1_lt c; have := mm.isLt; omega⟩
        = S1.lane za zb (S1.scal (S1.eLd e2 ⟨100 * c.val + mm.val, by have := S1A.t1_lt c; have := mm.isLt; omega⟩)))
    (mm : Fin k0_t3_loop.trips) (acc : PUnit) :
    invD d L G c.val fS mm.val acc
      ⊢ wp frame (wpE (defs₀ (F := F)) 𝒱₀ (V d (cV L) (jV L)) none) Set.univ
          (k0_t3_body (F := F) L ztW (Memref.isWhole_whole _) e2W (Memref.isWhole_whole _) ptW (Memref.isWhole_whole _)
            sZ (Memref.isWhole_whole _) sE (Memref.isWhole_whole _) sM (Memref.isWhole_whole _) sR (Memref.isWhole_whole _) sS (Memref.isWhole_whole _)
            cc0_scoped0 cc0_scoped1 cc0_scoped2 c
            (za 0) (za 1) (za 2) (za 3) (za 4) (za 5) (za 6) (za 7) (za 8) (za 9) (za 10) (za 11) (za 12) (za 13) (za 14) (za 15)
            (zb 0) (zb 1) (zb 2) (zb 3) (zb 4) (zb 5) (zb 6) (zb 7) (zb 8) (zb 9) (zb 10) (zb 11) (zb 12) (zb 13) (zb 14) (zb 15)
            (S1.znB zb) (S1.znA za) mm acc)
          (invD d L G c.val fS (mm.val + 1)) := by
  sl_unfold [k0_t3_body]
  rw [k0_part3_eq_skeleton, k0_part4_eq_skeleton]
  unfold invD
  iintro ⟨Hs, ⟨%fM, Hm, %hM⟩⟩
  sl_exec
  sl_step
  isplitl [Hs]; · iexact Hs
  iexists _; isplitl [Hm]; · iexact Hm
  ipureintro
  sl_unfold_run_names
  intro m hm l
  have hc := S1A.t1_lt c
  have hmm := S1A.t3_lt mm
  have hoff : k0_off6 c mm 0 = 1600 * c.val + 16 * mm.val := by rw [k0_off6_eq]; rfl
  by_cases hlt : m.val < 100 * c.val + mm.val
  · -- a row stored before this trip: the store leaves it alone
    rw [View.read_writes_apply_of_forall_not_mem]
    · exact hM m hlt l
    · intro p hp
      rw [List.mem_singleton] at hp; subst hp
      rw [Rect.mem_set_unit]; intro h
      have h0 : k0_off6 c mm 0 ≤ 16 * m.val + l.val := (h 0).1
      rw [hoff] at h0
      omega
  · -- the row this trip stores
    have hm' : m = colD c mm := Fin.ext (by show m.val = 100 * c.val + mm.val; omega)
    subst hm'
    have hix : (ix1 (⟨16 * (colD c mm).val + l.val, by have := l.isLt; show 16 * (100 * c.val + mm.val) + l.val < 16384; omega⟩ : Fin 16384) : S16384.Idx)
        = (Rect.unit (s := S16384) (k0_off6 c mm) S16.size (k0_off6_inb c mm)).emb (ix1 l) := by
      funext a
      match a with
      | ⟨0, _⟩ => exact Fin.ext (by show 16 * (100 * c.val + mm.val) + l.val = k0_off6 c mm 0 + 1 * l.val; rw [hoff]; omega)
    rw [hix, View.read_writes_cons_emb]
    refine (congrFun (lane_eq za zb _ _ _ _ _ _ _ _ _ _ _ _ _ _ _ _) (ix1 l)).trans ?_
    rw [hG ⟨mm.val, hmm⟩]
    refine congrFun (congrArg (S1.lane za zb) ?_) (ix1 l)
    funext j
    fin_cases j
    · exact rd0_eq d L e2 c fS hS mm _ _
    · exact rd_eq d L e2 c fS hS mm 1#32 _ _ 1 (by decide) (off5 mm ⟨0, by decide⟩ 1#32 rfl)
    · exact rd_eq d L e2 c fS hS mm 2#32 _ _ 2 (by decide) (off5 mm ⟨1, by decide⟩ 2#32 rfl)
    · exact rd_eq d L e2 c fS hS mm 3#32 _ _ 3 (by decide) (off5 mm ⟨2, by decide⟩ 3#32 rfl)
    · exact rd_eq d L e2 c fS hS mm 4#32 _ _ 4 (by decide) (off5 mm ⟨3, by decide⟩ 4#32 rfl)
    · exact rd_eq d L e2 c fS hS mm 5#32 _ _ 5 (by decide) (off5 mm ⟨4, by decide⟩ 5#32 rfl)
    · exact rd_eq d L e2 c fS hS mm 6#32 _ _ 6 (by decide) (off5 mm ⟨5, by decide⟩ 6#32 rfl)
    · exact rd_eq d L e2 c fS hS mm 7#32 _ _ 7 (by decide) (off5 mm ⟨6, by decide⟩ 7#32 rfl)
    · exact rd_eq d L e2 c fS hS mm 8#32 _ _ 8 (by decide) (off5 mm ⟨7, by decide⟩ 8#32 rfl)
    · exact rd_eq d L e2 c fS hS mm 9#32 _ _ 9 (by decide) (off5 mm ⟨8, by decide⟩ 9#32 rfl)
    · exact rd_eq d L e2 c fS hS mm 10#32 _ _ 10 (by decide) (off5 mm ⟨9, by decide⟩ 10#32 rfl)
    · exact rd_eq d L e2 c fS hS mm 11#32 _ _ 11 (by decide) (off5 mm ⟨10, by decide⟩ 11#32 rfl)
    · exact rd_eq d L e2 c fS hS mm 12#32 _ _ 12 (by decide) (off5 mm ⟨11, by decide⟩ 12#32 rfl)
    · exact rd_eq d L e2 c fS hS mm 13#32 _ _ 13 (by decide) (off5 mm ⟨12, by decide⟩ 13#32 rfl)
    · exact rd_eq d L e2 c fS hS mm 14#32 _ _ 14 (by decide) (off5 mm ⟨13, by decide⟩ 14#32 rfl)
    · exact rd_eq d L e2 c fS hS mm 15#32 _ _ 15 (by decide) (off5 mm ⟨14, by decide⟩ 15#32 rfl)

end Tile
end Cert.Proof.S1D
end
-- ==== Proof.S1Body.lean ====
/-
  The first vector-subcore call at one tile. The tile fetches its slab of the transposed points and the whole of the
  flattened `-2 e`; for each of ten chunks of a hundred columns it spreads the chunk's rows of `-2 e` over its scalar
  memory and stores, per column, sixteen lanes: lane by lane the lesser of `Σ_j s_j za_j + Σ_j za_j²` and
  `Σ_j s_j zb_j + Σ_j zb_j²` over the two halves of the slab; then it reduces each column's sixteen lanes to their
  least element and copies the row of least elements into its row of the partial minima. Each loop goes through by an
  invariant that carries the values: the columns done so far hold their lanes, the rows spread so far hold their
  scalars, the columns reduced so far hold their least element. From the run of the body follows the launch
  theorem's obligation for the call.
-/
import proofs.«209935_g88441966559691_cont_sun_c4_661_34_alg».proof.Proof.Iface
import proofs.«209935_g88441966559691_cont_sun_c4_661_34_alg».proof.Proof.S1Val
import proofs.«209935_g88441966559691_cont_sun_c4_661_34_alg».proof.Proof.S1Aux
import proofs.«209935_g88441966559691_cont_sun_c4_661_34_alg».proof.Proof.S1Red
import proofs.«209935_g88441966559691_cont_sun_c4_661_34_alg».proof.Proof.S1Dist

noncomputable section

namespace Cert.Proof.S1B

open Cert.KernelIdeal Cert.KernelIdeal.Gen
open Cert.Proof.KI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic
open Idealize.ShloMosaic.ValueIdx

variable {F : FTy → Type} [FloatOps F] [Named F]

local notation "𝕄" => MT nD τ sig (HIx 2) (Elt F) ℕ UU ℕ

/-! ## The kernel's memrefs, spelt as the body table passes them -/

local notation "ztW" => (Memref.whole Cert.KernelIdeal.main_v3_scv : Memref Cert.KernelIdeal.sig Kind.scVector Space.hbm Cert.KernelIdeal.S32x16x32 EltTy.f32)
local notation "e2W" => (Memref.whole Cert.KernelIdeal.main_v6_scv : Memref Cert.KernelIdeal.sig Kind.scVector Space.hbm Cert.KernelIdeal.S16000 EltTy.f32)
local notation "ptW" => (Memref.whole Cert.KernelIdeal.main_v11_scv : Memref Cert.KernelIdeal.sig Kind.scVector Space.hbm Cert.KernelIdeal.S32x1024 EltTy.f32)
local notation "sZ" => (Memref.whole Cert.KernelIdeal.cc0_scratch0 : Memref Cert.KernelIdeal.sig Kind.scVector Space.vmem Cert.KernelIdeal.S16x32 EltTy.f32)
local notation "sE" => (Memref.whole Cert.KernelIdeal.cc0_scratch1 : Memref Cert.KernelIdeal.sig Kind.scVector Space.vmem Cert.KernelIdeal.S16000 EltTy.f32)
local notation "sM" => (Memref.whole Cert.KernelIdeal.cc0_scratch2 : Memref Cert.KernelIdeal.sig Kind.scVector Space.vmem Cert.KernelIdeal.S16384 EltTy.f32)
local notation "sR" => (Memref.whole Cert.KernelIdeal.cc0_scratch3 : Memref Cert.KernelIdeal.sig Kind.scVector Space.vmem Cert.KernelIdeal.S1024 EltTy.f32)
local notation "sS" => (Memref.whole Cert.KernelIdeal.cc0_scratch4 : Memref Cert.KernelIdeal.sig Kind.scVector Space.smem Cert.KernelIdeal.S1600 EltTy.f32)

section Tile

variable (X : Vals F) (d : Dev nD) (L : grid0.Coords)

abbrev cV (L : grid0.Coords) : Fin τ.nSC := (L 0).castLE hcore0
abbrev jV (L : grid0.Coords) : Fin τ.nSub := (L 1).castLE hsub0
/-- The tile's thread. -/
abbrev thr : Thread nD τ := V d (cV L) (jV L)

theorem wL_lt : 2 * (L 1).val + (L 0).val < 32 := by
  have h0 : (L 0).val < 2 := (L 0).isLt
  have h1 : (L 1).val < 16 := (L 1).isLt
  omega
/-- The slab the tile at coordinates `L` works on. -/
def wL : Fin 32 := ⟨2 * (L 1).val + (L 0).val, wL_lt L⟩

/-- The tile's slab of `zt` and its row of the partial minima, as the kernel slices them. -/
abbrev zRect : Rect S32x16x32 := Rect.unit (s := S32x16x32) (k0_off1 L) S1x16x32.size (k0_off1_inb L)
abbrev pRect : Rect S32x1024 := Rect.unit (s := S32x1024) (k0_off9 L) S1x1024.size (k0_off9_inb L)
abbrev zSl : Memref sig .scVector .hbm S16x32 .f32 := ((ztW).slice (zRect L) (fun _ => rfl)).squeeze S16x32 squeezes_S1x16x32_S16x32
abbrev pSl : Memref sig .scVector .hbm S1024 .f32 := ((ptW).slice (pRect L) (fun _ => rfl)).squeeze S1024 squeezes_S1x1024_S1024

omit [FloatOps F] [Named F] in
theorem zRect_eq : zRect L = zRow (wL L) := by
  unfold zRect zRow Rect.part Rect.block
  congr 1 <;> funext a
  · rw [k0_off1_eq]
    match a with
    | 0 => simp [Shape.partIx, Shape.partSize, wL]
    | 1 => simp [Shape.partIx, Shape.partSize]
    | 2 => simp [Shape.partIx, Shape.partSize]
  · match a with
    | 0 => simp [Shape.partSize]
    | 1 => simp [Shape.partSize]
    | 2 => simp [Shape.partSize]
omit [FloatOps F] [Named F] in
theorem pRect_eq : pRect L = pRow (wL L) := by
  unfold pRect pRow Rect.part Rect.block
  congr 1 <;> funext a
  · rw [k0_off9_eq]
    match a with
    | 0 => simp [Shape.partIx, Shape.partSize, wL]
    | 1 => simp [Shape.partIx, Shape.partSize]
  · match a with
    | 0 => simp [Shape.partSize]
    | 1 => simp [Shape.partSize]

omit [FloatOps F] [Named F] in
theorem set_zSl : (zSl L).view.set = zRowSet (wL L) := by
  show (((ztW).view.slice (zRect L)).reshape S16x32 squeezes_S1x16x32_S16x32.numel_eq).set = (zRow (wL L)).set
  rw [View.set_reshape]
  show ((View.whole (main_v3_scv : Ref sig .scVector)).slice (zRect L)).set = _
  rw [View.set_slice, zRect_eq]; exact Finset.map_refl
omit [FloatOps F] [Named F] in
theorem set_pSl : (pSl L).view.set = pRowSet (wL L) := by
  show (((ptW).view.slice (pRect L)).reshape S1024 squeezes_S1x1024_S1024.numel_eq).set = (pRow (wL L)).set
  rw [View.set_reshape]
  show ((View.whole (main_v11_scv : Ref sig .scVector)).slice (pRect L)).set = _
  rw [View.set_slice, pRect_eq]; exact Finset.map_refl

omit [FloatOps F] [Named F] in
theorem pts_zSl (f : Buf (Elt F) (ztLoc d)) :
    ((zSl L).view.loc (V d (cV L) (jV L)) ↦[(zSl L).view.set]{fullShare} f : sProp 𝕄) = ztLoc d ↦[zRowSet (wL L)]{fullShare} f := by
  rw [set_zSl]
omit [FloatOps F] [Named F] in
theorem pts_pSl (f : Buf (Elt F) (ptLoc d)) :
    ((pSl L).view.loc (V d (cV L) (jV L)) ↦[(pSl L).view.set]{fullShare} f : sProp 𝕄) = ptLoc d ↦[pRowSet (wL L)]{fullShare} f := by
  rw [set_pSl]
omit [FloatOps F] [Named F] in
theorem pts_e2 (q : PosShare TreeShare) (f : Buf (Elt F) (e2Loc d)) :
    ((e2W).view.loc (V d (cV L) (jV L)) ↦{q} f : sProp 𝕄) = e2Loc d ↦{q} f := by
  simp only [Memref.view_whole, View.set_whole]

abbrev c0cell : GSem nD τ sig := ((V d (cV L) (jV L)), SemLoc.dma cc0_scoped0.sem)
abbrev c1cell : GSem nD τ sig := ((V d (cV L) (jV L)), SemLoc.dma cc0_scoped1.sem)
abbrev c2cell : GSem nD τ sig := ((V d (cV L) (jV L)), SemLoc.dma cc0_scoped2.sem)

omit [FloatOps F] [Named F] in
theorem ownSems0_V :
    (ownSems0 (V d (cV L) (jV L)) : sProp 𝕄)
      = iprop(semVal (c0cell d L) 0 ∗ semVal (c1cell d L) 0 ∗ semVal (c2cell d L) 0
          ∗ bigSep ((((ownCells (V d (cV L) (jV L))).erase (c0cell d L)).erase (c1cell d L)).erase (c2cell d L)) fun g => semVal g 0) := by
  unfold SparseCore.Cfg.ownSems0
  rw [SparseCore.bigSep_erase' ((mem_ownCells (g := c0cell d L)).mpr ⟨rfl, by show (SemLoc.dma cc0_scoped0.sem : SemLoc sig).isScoped .scVector = true; decide⟩),
    SparseCore.bigSep_erase' (Finset.mem_erase.mpr ⟨by simp [c1cell, c0cell]; decide, (mem_ownCells (g := c1cell d L)).mpr ⟨rfl, by show (SemLoc.dma cc0_scoped1.sem : SemLoc sig).isScoped .scVector = true; decide⟩⟩),
    SparseCore.bigSep_erase' (Finset.mem_erase.mpr ⟨by simp [c2cell, c1cell]; decide, Finset.mem_erase.mpr ⟨by simp [c2cell, c0cell]; decide, (mem_ownCells (g := c2cell d L)).mpr ⟨rfl, by show (SemLoc.dma cc0_scoped2.sem : SemLoc sig).isScoped .scVector = true; decide⟩⟩⟩)]

omit [FloatOps F] [Named F] in
/-- The five scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f)
          ∗ bigSep ((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4))
              fun b => iprop(∃ f, ((d, b) : Loc nD τ sig) ↦{fullShare} f)) := by
  unfold SparseCore.Cfg.ownBufs
  refine (SparseCore.bigSep_erase' (SparseCore.Cfg.mem_ownRefs_of_owner (p := (Proc.scVector (cV L) (jV L))) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := (Proc.scVector (cV L) (jV L))) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := (Proc.scVector (cV L) (jV L))) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := (Proc.scVector (cV L) (jV L))) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := (Proc.scVector (cV L) (jV L))) (b := (Proc.scVector (cV L) (jV L)).devRef cc0_scratch4) rfl⟩⟩⟩⟩)]

omit [FloatOps F] [Named F] in
theorem pts_z (f : Buf (Elt F) ((V d (cV L) (jV L)).loc cc0_scratch0)) :
    ((sZ).view.loc (V d (cV L) (jV L)) ↦{fullShare} f : sProp 𝕄) = (V d (cV L) (jV L)).loc cc0_scratch0 ↦{fullShare} f := rfl

omit [FloatOps F] [Named F] in
theorem pts_e (f : Buf (Elt F) ((V d (cV L) (jV L)).loc cc0_scratch1)) :
    ((sE).view.loc (V d (cV L) (jV L)) ↦{fullShare} f : sProp 𝕄) = (V d (cV L) (jV L)).loc cc0_scratch1 ↦{fullShare} f := rfl

omit [FloatOps F] [Named F] in
theorem pts_m (f : Buf (Elt F) ((V d (cV L) (jV L)).loc cc0_scratch2)) :
    ((sM).view.loc (V d (cV L) (jV L)) ↦{fullShare} f : sProp 𝕄) = (V d (cV L) (jV L)).loc cc0_scratch2 ↦{fullShare} f := rfl

omit [FloatOps F] [Named F] in
theorem pts_r (f : Buf (Elt F) ((V d (cV L) (jV L)).loc cc0_scratch3)) :
    ((sR).view.loc (V d (cV L) (jV L)) ↦{fullShare} f : sProp 𝕄) = (V d (cV L) (jV L)).loc cc0_scratch3 ↦{fullShare} f := rfl

omit [FloatOps F] [Named F] in
theorem pts_s (f : Buf (Elt F) ((V d (cV L) (jV L)).loc cc0_scratch4)) :
    ((sS).view.loc (V d (cV L) (jV L)) ↦{fullShare} f : sProp 𝕄) = (V d (cV L) (jV L)).loc cc0_scratch4 ↦{fullShare} f := rfl

/-! ## The values the buffers hold, and the loops' invariants -/

/-- The tile's slab of points and the flattened `-2 e`, as the value functions read them. -/
abbrev slV : Vec F S16x32 .f32 := S1.slab (X.zt d) (wL L)
abbrev e2V : Vec F S16000 .f32 := X.e2 d

/-- What the two fetches leave in the slab's and the rows' scratch. -/
def fZ0 : Buf (Elt F) ((sZ).view.loc (V d (cV L) (jV L))) := (zSl L).view.read (Elt F) (X.zt d)
def fE0 : Buf (Elt F) ((sE).view.loc (V d (cV L) (jV L))) := (e2W).view.read (Elt F) (X.e2 d)

/-- Columns below `n` of the lanes' scratch hold their sixteen lanes. -/
def Mdone (fM : Buf (Elt F) ((sM).view.loc (V d (cV L) (jV L)))) (n : Nat) : Prop :=
  ∀ m : Fin 1000, m.val < n → ∀ l : Fin 16,
    (sM).view.read (Elt F) fM (ix1 ⟨16 * m.val + l.val, by have := m.isLt; have := l.isLt; omega⟩) = S1.laneD (slV X d L) (e2V X d) m (ix1 l)

/-- Rows below `k` of chunk `c` of `-2 e` are spread over the scalar memory. -/
def Sdone (c : Nat) (hc : c < 10) (fS : Buf (Elt F) ((sS).view.loc (V d (cV L) (jV L)))) (k : Nat) : Prop :=
  ∀ k' : Fin 100, k'.val < k → ∀ j : Fin 16,
    (sS).view.read (Elt F) fS (ix1 ⟨16 * k'.val + j.val, by have := k'.isLt; have := j.isLt; omega⟩)
      = S1.scal (S1.eLd (e2V X d) ⟨100 * c + k'.val, by have := k'.isLt; omega⟩) j

/-- Before chunk `c` of the ten chunks of columns. -/
def inv1 (c : Nat) (_ : PUnit) : sProp 𝕄 :=
  iprop(((sZ).view.loc (V d (cV L) (jV L)) ↦{fullShare} fZ0 X d L)
    ∗ ((sE).view.loc (V d (cV L) (jV L)) ↦{fullShare} fE0 X d L)
    ∗ (∃ fM, ((sM).view.loc (V d (cV L) (jV L)) ↦{fullShare} fM) ∗ ⌜Mdone X d L fM (100 * c)⌝)
    ∗ (∃ fS, (sS).view.loc (V d (cV L) (jV L)) ↦{fullShare} fS))

/-- Before row `k` of the chunk's hundred rows of `-2 e` is spread over the scalar memory. -/
def inv2 (c : Nat) (hc : c < 10) (k : Nat) (_ : PUnit) : sProp 𝕄 :=
  iprop(((sE).view.loc (V d (cV L) (jV L)) ↦{fullShare} fE0 X d L)
    ∗ (∃ fS, ((sS).view.loc (V d (cV L) (jV L)) ↦{fullShare} fS) ∗ ⌜Sdone X d L c hc fS k⌝))

omit [FloatOps F] [Named F] in
theorem trips1 : k0_t1_loop.trips = 10 := by decide
omit [FloatOps F] [Named F] in
theorem trips2 : k0_t2_loop.trips = 100 := by decide
omit [FloatOps F] [Named F] in
theorem trips3 : k0_t3_loop.trips = 100 := by decide
omit [FloatOps F] [Named F] in
theorem trips4 : k0_t4_loop.trips = 64 := by decide

/-! ## One trip of the spreading loop: sixteen single-word stores -/

omit [FloatOps F] [Named F] in
theorem off3_at (k : Fin k0_t2_loop.trips) (J : Fin 16) : k0_off3 k (BitVec.ofNat 32 J.val) 0 = 16 * k.val + J.val := by
  rw [k0_off3_eq k J]; rfl

/-- The store of word `J` of trip `k`. -/
abbrev P3 (k : Fin k0_t2_loop.trips) (vv : Fin 16 → Elt F .f32)
    (inb : ∀ J : Fin 16, ∀ a, (k0_off3 k (BitVec.ofNat 32 J.val)) a + S1.size a ≤ S1600.size a) (J : Fin 16) : View.Piece (Elt F) S1600 .f32 :=
  ⟨Rect.unit (s := S1600) (k0_off3 k (BitVec.ofNat 32 J.val)) S1.size (inb J), fun _ => vv J⟩

/-- The trip's stores, the last first. -/
abbrev PL3 (k : Fin k0_t2_loop.trips) (vv : Fin 16 → Elt F .f32)
    (inb : ∀ J : Fin 16, ∀ a, (k0_off3 k (BitVec.ofNat 32 J.val)) a + S1.size a ≤ S1600.size a) : List (View.Piece (Elt F) S1600 .f32) :=
  [P3 k vv inb 15, P3 k vv inb 14, P3 k vv inb 13, P3 k vv inb 12, P3 k vv inb 11, P3 k vv inb 10, P3 k vv inb 9, P3 k vv inb 8, P3 k vv inb 7, P3 k vv inb 6, P3 k vv inb 5, P3 k vv inb 4, P3 k vv inb 3, P3 k vv inb 2, P3 k vv inb 1, P3 k vv inb 0]

omit [FloatOps F] [Named F] in
theorem mem_PL3 {k : Fin k0_t2_loop.trips} {vv : Fin 16 → Elt F .f32} {inb} {p : View.Piece (Elt F) S1600 .f32} (hp : p ∈ PL3 k vv inb) :
    ∃ J : Fin 16, p = P3 k vv inb J := by
  simp only [PL3, List.mem_cons, List.not_mem_nil, or_false] at hp
  rcases hp with rfl | rfl | rfl | rfl | rfl | rfl | rfl | rfl | rfl | rfl | rfl | rfl | rfl | rfl | rfl | rfl
  · exact ⟨15, rfl⟩
  · exact ⟨14, rfl⟩
  · exact ⟨13, rfl⟩
  · exact ⟨12, rfl⟩
  · exact ⟨11, rfl⟩
  · exact ⟨10, rfl⟩
  · exact ⟨9, rfl⟩
  · exact ⟨8, rfl⟩
  · exact ⟨7, rfl⟩
  · exact ⟨6, rfl⟩
  · exact ⟨5, rfl⟩
  · exact ⟨4, rfl⟩
  · exact ⟨3, rfl⟩
  · exact ⟨2, rfl⟩
  · exact ⟨1, rfl⟩
  · exact ⟨0, rfl⟩

omit [FloatOps F] [Named F] in
theorem P3_mem (k : Fin k0_t2_loop.trips) (vv : Fin 16 → Elt F .f32) (inb) (J : Fin 16) : P3 k vv inb J ∈ PL3 k vv inb := by
  fin_cases J <;> simp [PL3]

omit [FloatOps F] [Named F] in
theorem P3_mem_set (k : Fin k0_t2_loop.trips) (vv : Fin 16 → Elt F .f32) (inb) (J : Fin 16) (y : S1600.Idx) :
    y ∈ (P3 k vv inb J).1.set ↔ (y 0).val = 16 * k.val + J.val := by
  rw [Rect.mem_set_unit]
  constructor
  · intro h; have h0 := h 0; rw [off3_at] at h0
    have : S1.size 0 = 1 := rfl
    omega
  · intro h a
    obtain rfl : a = 0 := Subsingleton.elim _ _
    rw [off3_at]
    have : S1.size 0 = 1 := rfl
    omega

omit [FloatOps F] [Named F] in
/-- What the scalar memory holds after the trip: words outside the trip's sixteen keep their contents, word `J` of
    the sixteen holds the value stored there. -/
theorem sfill (k : Fin k0_t2_loop.trips) (hk : k.val < 100) (vv : Fin 16 → Elt F .f32) (inb)
    (v : View sig .scVector .smem S1600 .f32) (fS : v.ty.Contents (Elt F)) :
    (∀ y : S1600.Idx, ((y 0).val < 16 * k.val ∨ 16 * k.val + 16 ≤ (y 0).val) →
        v.read (Elt F) (v.writes (Elt F) fS (PL3 k vv inb)) y = v.read (Elt F) fS y)
    ∧ (∀ J : Fin 16, v.read (Elt F) (v.writes (Elt F) fS (PL3 k vv inb)) (ix1 ⟨16 * k.val + J.val, by have := J.isLt; omega⟩) = vv J) := by
  constructor
  · intro y hy
    refine View.read_writes_apply_of_forall_not_mem v fS y _ fun p hp => ?_
    obtain ⟨J, rfl⟩ := mem_PL3 hp
    rw [P3_mem_set]; have := J.isLt; omega
  · intro J
    have hJ := J.isLt
    refine (View.read_writes_apply_of_pieces v fS (fun y => vv ⟨(y 0).val % 16, Nat.mod_lt _ (by omega)⟩) _ (fun p hp x => ?_) _ ⟨P3 k vv inb J, P3_mem k vv inb J, ?_⟩).trans ?_
    · obtain ⟨J', rfl⟩ := mem_PL3 hp
      show vv J' = vv _
      congr 1; apply Fin.ext
      show J'.val = ((P3 k vv inb J').1.emb x 0).val % 16
      rw [Rect.emb_apply]
      show J'.val = (k0_off3 k (BitVec.ofNat 32 J'.val) 0 + 1 * (x 0).val) % 16
      rw [off3_at]
      have hx : (x 0).val < 1 := (x 0).isLt
      have := J'.isLt
      omega
    · rw [P3_mem_set]
    · show vv _ = vv J
      congr 1; apply Fin.ext
      show (16 * k.val + J.val) % 16 = J.val
      omega

/-- The trip of the columns' loop with the thirty-two loaded rows and the two sums of squares as separate values. -/
theorem t3_regs (e2 : Vec F S16000 .f32) (G : Fin 1000 → FVec F S16 .f32)
    (a0 a1 a2 a3 a4 a5 a6 a7 a8 a9 a10 a11 a12 a13 a14 a15 b0 b1 b2 b3 b4 b5 b6 b7 b8 b9 b10 b11 b12 b13 b14 b15 vB vA : FVec F S16 .f32)
    (c : Fin k0_t1_loop.trips) (fS : Buf (Elt F) ((sS).view.loc (V d (cV L) (jV L))))
    (hS : ∀ (k' : Fin 100) (j : Fin 16),
      (sS).view.read (Elt F) fS (ix1 ⟨16 * k'.val + j.val, by have := k'.isLt; have := j.isLt; omega⟩)
        = S1.scal (S1.eLd e2 ⟨100 * c.val + k'.val, by have := S1A.t1_lt c; have := k'.isLt; omega⟩) j)
    (hB : vB = S1.znB ![b0, b1, b2, b3, b4, b5, b6, b7, b8, b9, b10, b11, b12, b13, b14, b15]) (hA : vA = S1.znA ![a0, a1, a2, a3, a4, a5, a6, a7, a8, a9, a10, a11, a12, a13, a14, a15])
    (hG : ∀ mm : Fin 100, G ⟨100 * c.val + mm.val, by have := S1A.t1_lt c; have := mm.isLt; omega⟩
        = S1.lane ![a0, a1, a2, a3, a4, a5, a6, a7, a8, a9, a10, a11, a12, a13, a14, a15] ![b0, b1, b2, b3, b4, b5, b6, b7, b8, b9, b10, b11, b12, b13, b14, b15] (S1.scal (S1.eLd e2 ⟨100 * c.val + mm.val, by have := S1A.t1_lt c; have := mm.isLt; omega⟩)))
    (mm : Fin k0_t3_loop.trips) (acc : PUnit) :
    S1D.invD (F := F) d L G c.val fS mm.val acc
      ⊢ wp frame (wpE (defs₀ (F := F)) 𝒱₀ (V d (cV L) (jV L)) none) Set.univ
          (k0_t3_body (F := F) L ztW (Memref.isWhole_whole _) e2W (Memref.isWhole_whole _) ptW (Memref.isWhole_whole _)
            sZ (Memref.isWhole_whole _) sE (Memref.isWhole_whole _) sM (Memref.isWhole_whole _) sR (Memref.isWhole_whole _) sS (Memref.isWhole_whole _)
            cc0_scoped0 cc0_scoped1 cc0_scoped2 c a0 a1 a2 a3 a4 a5 a6 a7 a8 a9 a10 a11 a12 a13 a14 a15 b0 b1 b2 b3 b4 b5 b6 b7 b8 b9 b10 b11 b12 b13 b14 b15 vB vA mm acc)
          (S1D.invD (F := F) d L G c.val fS (mm.val + 1)) := by
  subst hB hA
  exact S1D.t3_trip (F := F) d L e2 G ![a0, a1, a2, a3, a4, a5, a6, a7, a8, a9, a10, a11, a12, a13, a14, a15] ![b0, b1, b2, b3, b4, b5, b6, b7, b8, b9, b10, b11, b12, b13, b14, b15] c fS hS hG mm acc

/-- The kernel function at the tile's coordinates, over the arrays and scratch the body table passes. -/
abbrev prog : Prog (TpuEff nD τ sig (Elt F) Λ₀ (.scVector (cV L) (jV L))) PUnit :=
  cc0__sc_stage1 (F := F) L ztW (Memref.isWhole_whole _) e2W (Memref.isWhole_whole _) ptW (Memref.isWhole_whole _)
    sZ (Memref.isWhole_whole _) sE (Memref.isWhole_whole _) sM (Memref.isWhole_whole _) sR (Memref.isWhole_whole _) sS (Memref.isWhole_whole _)
    cc0_scoped0 cc0_scoped1 cc0_scoped2

/-- The stage on the tile at coordinates `L`: from its slab of the points, a read share of `-2 e`, its row of the partial
    minima at any contents, its scratch and its semaphores at zero, to the same with the row satisfying the tile's post. -/
theorem tile_body (hX : ∀ d w f, S1.Post0 (X.zt d) (X.e2 d) w f → X.post0 d w f) (hF : (K (F := F)).Facts) (O : CellTallies nD τ sig (HIx 2)) (W : Waits sig (HIx 2)) (hO : ∀ g, O g none = 0) :
    iprop(levAts (K (F := F)).L (K (F := F)).lev ∗ emp ∗ go0 X d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (prog (F := F) L)
          fun _ => iprop(td0 X d (wL L) ∗ scopedBufs (V d (cV L) (jV L)) ∗ scopedSems0 (V d (cV L) (jV L))
            ∗ ∃ W', ⌜∀ p ∈ W', p ∈ W ∨ p.2 = none⌝ ∗ owes (V d (cV L) (jV L)) O W') := by
  unfold prog
  simp only [cc0__sc_stage1_eq_skeleton]; unfold cc0__sc_stage1_skel
  rw [(K (F := F)).scopedBufs_V hF d (cV L) (jV L), SparseCore.Cfg.scopedSems0_V (Val := Elt F) d (cV L) (jV L), ownSems0_V, ownBufs_V]
  unfold go0
  iintro ⟨#Hlv, -, ⟨Hz, He, %fp, Hp⟩, ⟨⟨%fz, Hsz⟩, ⟨%fe, Hse⟩, ⟨%fm, Hsm⟩, ⟨%fr, Hsr⟩, ⟨%fs, Hss⟩, Hbufs⟩, ⟨Hsem0, Hsem1, Hsem2, Hsems⟩, HO⟩
  ihave Hmw := ((K (F := F)).mayWaits_none (thr := (V d (cV L) (jV L))) hO) $$ Hlv
  ihave Hz' := (Entails.of_eq (pts_zSl (F := F) d L _).symm) $$ Hz
  ihave Hp' := (Entails.of_eq (pts_pSl (F := F) d L _).symm) $$ Hp
  ihave He' := (Entails.of_eq (pts_e2 (F := F) d L _ _).symm) $$ He
  ihave Hsz' := (Entails.of_eq (pts_z (F := F) d L _).symm) $$ Hsz
  ihave Hse' := (Entails.of_eq (pts_e (F := F) d L _).symm) $$ Hse
  ihave Hsm' := (Entails.of_eq (pts_m (F := F) d L _).symm) $$ Hsm
  ihave Hsr' := (Entails.of_eq (pts_r (F := F) d L _).symm) $$ Hsr
  ihave Hss' := (Entails.of_eq (pts_s (F := F) d L _).symm) $$ Hss
  sl_exec
  have e0 : View.write (Elt F) (sZ).view fz (tile_body.sl.dma0 X d L) Finset.univ = fZ0 X d L := by
    unfold tile_body.sl.dma0; exact View.write_whole_univ _ _ _
  have e1 : View.write (Elt F) (sE).view fe (tile_body.sl.dma0_1 X d) Finset.univ = fE0 X d L := by
    unfold tile_body.sl.dma0_1; exact View.write_whole_univ _ _ _
  rw [e0, e1]
  sl_for (inv1 (F := F) X d L) $$ [Hsz' Hse' Hsm' Hss']
  case region =>
    intro c _
    have hc : c.val < 10 := trips1 ▸ c.isLt
    unfold inv1
    iintro ⟨Hz, He, ⟨%fM, Hm, %hM⟩, ⟨%fS, Hs⟩⟩
    sl_exec
    sl_for (inv2 (F := F) X d L c.val hc) $$ [He Hs]
    case region =>
      intro k _
      have hk : k.val < 100 := trips2 ▸ k.isLt
      unfold inv2
      iintro ⟨He, ⟨%fS, Hs, %hS⟩⟩
      sl_exec
      sl_step
      isplitl [He]; · iexact He
      iexists _; isplitl [Hs]; · iexact Hs
      ipureintro
      have h168 : ((sE).view.readAt (Elt F) (Rect.unit (s := S16000) (k0_off2 c k) S16.size (k0_off2_inb c k)).toLoadRect (fE0 X d L))
          = S1.eLd (e2V X d) ⟨100 * c.val + k.val, by omega⟩ := S1A.eLd_readAt (sE) (fE0 X d L) c k _
      have hfill := sfill (F := F) k hk (S1.scal ((sE).view.readAt (Elt F) (Rect.unit (s := S16000) (k0_off2 c k) S16.size (k0_off2_inb c k)).toLoadRect (fE0 X d L))) (fun J => k0_off3_inb k J) (sS).view fS
      intro k' hk' j
      by_cases hlt : k'.val < k.val
      · exact (hfill.1 _ (Or.inl (by show 16 * k'.val + j.val < 16 * k.val; have := j.isLt; omega))).trans (hS k' hlt j)
      · have hk'k : k'.val = k.val := by omega
        obtain rfl : k' = ⟨k.val, hk⟩ := Fin.ext hk'k
        exact (hfill.2 j).trans (by rw [h168])
    · unfold inv2
      isplitl [He]; · iexact He
      iexists _; isplitl [Hs]; · iexact Hs
      ipureintro; intro k' hk'; exact absurd hk' (Nat.not_lt_zero _)
    iintro %_ HI
    unfold inv2
    icases HI with ⟨He, ⟨%fS', Hs, %hS⟩⟩
    sl_exec
    have hZ0 : (sZ).view.read (Elt F) (fZ0 X d L) = slV X d L := S1A.slab_read L (X.zt d)
    have hS100 : ∀ (k' : Fin 100) (j : Fin 16),
        (sS).view.read (Elt F) fS' (ix1 ⟨16 * k'.val + j.val, by have := k'.isLt; have := j.isLt; omega⟩)
          = S1.scal (S1.eLd (e2V X d) ⟨100 * c.val + k'.val, by have := S1A.t1_lt c; have := k'.isLt; omega⟩) j := fun k' j =>
      hS k' (by have h : Scf.trips k0_t2_loop.lb k0_t2_loop.ub k0_t2_loop.st = 100 := by decide
                have := k'.isLt; omega) j
    sl_for (S1D.invD (F := F) d L (S1.laneD (slV X d L) (e2V X d)) c.val fS') $$ [Hs Hm]
    case region =>
      intro mm acc
      refine t3_regs (F := F) d L (e2V X d) _ _ _ _ _ _ _ _ _ _ _ _ _ _ _ _ _ _ _ _ _ _ _ _ _ _ _ _ _ _ _ _ _ _ _ c fS' hS100 ?_ ?_ ?_ mm acc
      · rfl
      · rfl
      · intro mm'
        show S1.lane (S1.zA (slV X d L)) (S1.zB (slV X d L)) _ = S1.lane _ _ _
        congr 1
        · funext j; fin_cases j
          · show S1.cast1 (S1.rowLd (slV X d L) 0 0) = S1.cast1 ((sZ).view.readAt (Elt F) (Rect.unit (s := S16x32) ![0, 0] S1x16.size _).toLoadRect (fZ0 X d L))
            rw [S1A.rowLd_readAt_0_0 (sZ) (fZ0 X d L), hZ0]
          · show S1.cast1 (S1.rowLd (slV X d L) 1 0) = S1.cast1 ((sZ).view.readAt (Elt F) (Rect.unit (s := S16x32) ![1, 0] S1x16.size _).toLoadRect (fZ0 X d L))
            rw [S1A.rowLd_readAt_1_0 (sZ) (fZ0 X d L), hZ0]
          · show S1.cast1 (S1.rowLd (slV X d L) 2 0) = S1.cast1 ((sZ).view.readAt (Elt F) (Rect.unit (s := S16x32) ![2, 0] S1x16.size _).toLoadRect (fZ0 X d L))
            rw [S1A.rowLd_readAt_2_0 (sZ) (fZ0 X d L), hZ0]
          · show S1.cast1 (S1.rowLd (slV X d L) 3 0) = S1.cast1 ((sZ).view.readAt (Elt F) (Rect.unit (s := S16x32) ![3, 0] S1x16.size _).toLoadRect (fZ0 X d L))
            rw [S1A.rowLd_readAt_3_0 (sZ) (fZ0 X d L), hZ0]
          · show S1.cast1 (S1.rowLd (slV X d L) 4 0) = S1.cast1 ((sZ).view.readAt (Elt F) (Rect.unit (s := S16x32) ![4, 0] S1x16.size _).toLoadRect (fZ0 X d L))
            rw [S1A.rowLd_readAt_4_0 (sZ) (fZ0 X d L), hZ0]
          · show S1.cast1 (S1.rowLd (slV X d L) 5 0) = S1.cast1 ((sZ).view.readAt (Elt F) (Rect.unit (s := S16x32) ![5, 0] S1x16.size _).toLoadRect (fZ0 X d L))
            rw [S1A.rowLd_readAt_5_0 (sZ) (fZ0 X d L), hZ0]
          · show S1.cast1 (S1.rowLd (slV X d L) 6 0) = S1.cast1 ((sZ).view.readAt (Elt F) (Rect.unit (s := S16x32) ![6, 0] S1x16.size _).toLoadRect (fZ0 X d L))
            rw [S1A.rowLd_readAt_6_0 (sZ) (fZ0 X d L), hZ0]
          · show S1.cast1 (S1.rowLd (slV X d L) 7 0) = S1.cast1 ((sZ).view.readAt (Elt F) (Rect.unit (s := S16x32) ![7, 0] S1x16.size _).toLoadRect (fZ0 X d L))
            rw [S1A.rowLd_readAt_7_0 (sZ) (fZ0 X d L), hZ0]
          · show S1.cast1 (S1.rowLd (slV X d L) 8 0) = S1.cast1 ((sZ).view.readAt (Elt F) (Rect.unit (s := S16x32) ![8, 0] S1x16.size _).toLoadRect (fZ0 X d L))
            rw [S1A.rowLd_readAt_8_0 (sZ) (fZ0 X d L), hZ0]
          · show S1.cast1 (S1.rowLd (slV X d L) 9 0) = S1.cast1 ((sZ).view.readAt (Elt F) (Rect.unit (s := S16x32) ![9, 0] S1x16.size _).toLoadRect (fZ0 X d L))
            rw [S1A.rowLd_readAt_9_0 (sZ) (fZ0 X d L), hZ0]
          · show S1.cast1 (S1.rowLd (slV X d L) 10 0) = S1.cast1 ((sZ).view.readAt (Elt F) (Rect.unit (s := S16x32) ![10, 0] S1x16.size _).toLoadRect (fZ0 X d L))
            rw [S1A.rowLd_readAt_10_0 (sZ) (fZ0 X d L), hZ0]
          · show S1.cast1 (S1.rowLd (slV X d L) 11 0) = S1.cast1 ((sZ).view.readAt (Elt F) (Rect.unit (s := S16x32) ![11, 0] S1x16.size _).toLoadRect (fZ0 X d L))
            rw [S1A.rowLd_readAt_11_0 (sZ) (fZ0 X d L), hZ0]
          · show S1.cast1 (S1.rowLd (slV X d L) 12 0) = S1.cast1 ((sZ).view.readAt (Elt F) (Rect.unit (s := S16x32) ![12, 0] S1x16.size _).toLoadRect (fZ0 X d L))
            rw [S1A.rowLd_readAt_12_0 (sZ) (fZ0 X d L), hZ0]
          · show S1.cast1 (S1.rowLd (slV X d L) 13 0) = S1.cast1 ((sZ).view.readAt (Elt F) (Rect.unit (s := S16x32) ![13, 0] S1x16.size _).toLoadRect (fZ0 X d L))
            rw [S1A.rowLd_readAt_13_0 (sZ) (fZ0 X d L), hZ0]
          · show S1.cast1 (S1.rowLd (slV X d L) 14 0) = S1.cast1 ((sZ).view.readAt (Elt F) (Rect.unit (s := S16x32) ![14, 0] S1x16.size _).toLoadRect (fZ0 X d L))
            rw [S1A.rowLd_readAt_14_0 (sZ) (fZ0 X d L), hZ0]
          · show S1.cast1 (S1.rowLd (slV X d L) 15 0) = S1.cast1 ((sZ).view.readAt (Elt F) (Rect.unit (s := S16x32) ![15, 0] S1x16.size _).toLoadRect (fZ0 X d L))
            rw [S1A.rowLd_readAt_15_0 (sZ) (fZ0 X d L), hZ0]
        · funext j; fin_cases j
          · show S1.cast1 (S1.rowLd (slV X d L) 0 1) = S1.cast1 ((sZ).view.readAt (Elt F) (Rect.unit (s := S16x32) ![0, 16] S1x16.size _).toLoadRect (fZ0 X d L))
            rw [S1A.rowLd_readAt_0_16 (sZ) (fZ0 X d L), hZ0]
          · show S1.cast1 (S1.rowLd (slV X d L) 1 1) = S1.cast1 ((sZ).view.readAt (Elt F) (Rect.unit (s := S16x32) ![1, 16] S1x16.size _).toLoadRect (fZ0 X d L))
            rw [S1A.rowLd_readAt_1_16 (sZ) (fZ0 X d L), hZ0]
          · show S1.cast1 (S1.rowLd (slV X d L) 2 1) = S1.cast1 ((sZ).view.readAt (Elt F) (Rect.unit (s := S16x32) ![2, 16] S1x16.size _).toLoadRect (fZ0 X d L))
            rw [S1A.rowLd_readAt_2_16 (sZ) (fZ0 X d L), hZ0]
          · show S1.cast1 (S1.rowLd (slV X d L) 3 1) = S1.cast1 ((sZ).view.readAt (Elt F) (Rect.unit (s := S16x32) ![3, 16] S1x16.size _).toLoadRect (fZ0 X d L))
            rw [S1A.rowLd_readAt_3_16 (sZ) (fZ0 X d L), hZ0]
          · show S1.cast1 (S1.rowLd (slV X d L) 4 1) = S1.cast1 ((sZ).view.readAt (Elt F) (Rect.unit (s := S16x32) ![4, 16] S1x16.size _).toLoadRect (fZ0 X d L))
            rw [S1A.rowLd_readAt_4_16 (sZ) (fZ0 X d L), hZ0]
          · show S1.cast1 (S1.rowLd (slV X d L) 5 1) = S1.cast1 ((sZ).view.readAt (Elt F) (Rect.unit (s := S16x32) ![5, 16] S1x16.size _).toLoadRect (fZ0 X d L))
            rw [S1A.rowLd_readAt_5_16 (sZ) (fZ0 X d L), hZ0]
          · show S1.cast1 (S1.rowLd (slV X d L) 6 1) = S1.cast1 ((sZ).view.readAt (Elt F) (Rect.unit (s := S16x32) ![6, 16] S1x16.size _).toLoadRect (fZ0 X d L))
            rw [S1A.rowLd_readAt_6_16 (sZ) (fZ0 X d L), hZ0]
          · show S1.cast1 (S1.rowLd (slV X d L) 7 1) = S1.cast1 ((sZ).view.readAt (Elt F) (Rect.unit (s := S16x32) ![7, 16] S1x16.size _).toLoadRect (fZ0 X d L))
            rw [S1A.rowLd_readAt_7_16 (sZ) (fZ0 X d L), hZ0]
          · show S1.cast1 (S1.rowLd (slV X d L) 8 1) = S1.cast1 ((sZ).view.readAt (Elt F) (Rect.unit (s := S16x32) ![8, 16] S1x16.size _).toLoadRect (fZ0 X d L))
            rw [S1A.rowLd_readAt_8_16 (sZ) (fZ0 X d L), hZ0]
          · show S1.cast1 (S1.rowLd (slV X d L) 9 1) = S1.cast1 ((sZ).view.readAt (Elt F) (Rect.unit (s := S16x32) ![9, 16] S1x16.size _).toLoadRect (fZ0 X d L))
            rw [S1A.rowLd_readAt_9_16 (sZ) (fZ0 X d L), hZ0]
          · show S1.cast1 (S1.rowLd (slV X d L) 10 1) = S1.cast1 ((sZ).view.readAt (Elt F) (Rect.unit (s := S16x32) ![10, 16] S1x16.size _).toLoadRect (fZ0 X d L))
            rw [S1A.rowLd_readAt_10_16 (sZ) (fZ0 X d L), hZ0]
          · show S1.cast1 (S1.rowLd (slV X d L) 11 1) = S1.cast1 ((sZ).view.readAt (Elt F) (Rect.unit (s := S16x32) ![11, 16] S1x16.size _).toLoadRect (fZ0 X d L))
            rw [S1A.rowLd_readAt_11_16 (sZ) (fZ0 X d L), hZ0]
          · show S1.cast1 (S1.rowLd (slV X d L) 12 1) = S1.cast1 ((sZ).view.readAt (Elt F) (Rect.unit (s := S16x32) ![12, 16] S1x16.size _).toLoadRect (fZ0 X d L))
            rw [S1A.rowLd_readAt_12_16 (sZ) (fZ0 X d L), hZ0]
          · show S1.cast1 (S1.rowLd (slV X d L) 13 1) = S1.cast1 ((sZ).view.readAt (Elt F) (Rect.unit (s := S16x32) ![13, 16] S1x16.size _).toLoadRect (fZ0 X d L))
            rw [S1A.rowLd_readAt_13_16 (sZ) (fZ0 X d L), hZ0]
          · show S1.cast1 (S1.rowLd (slV X d L) 14 1) = S1.cast1 ((sZ).view.readAt (Elt F) (Rect.unit (s := S16x32) ![14, 16] S1x16.size _).toLoadRect (fZ0 X d L))
            rw [S1A.rowLd_readAt_14_16 (sZ) (fZ0 X d L), hZ0]
          · show S1.cast1 (S1.rowLd (slV X d L) 15 1) = S1.cast1 ((sZ).view.readAt (Elt F) (Rect.unit (s := S16x32) ![15, 16] S1x16.size _).toLoadRect (fZ0 X d L))
            rw [S1A.rowLd_readAt_15_16 (sZ) (fZ0 X d L), hZ0]
    · unfold S1D.invD
      isplitl [Hs]; · iexact Hs
      iexists _; isplitl [Hm]; · iexact Hm
      ipureintro; exact hM
    iintro %_ HI
    unfold S1D.invD
    icases HI with ⟨Hs, ⟨%fM', Hm, %hM'⟩⟩
    sl_exec
    sl_step
    isplitl [Hz]; · iexact Hz
    isplitl [He]; · iexact He
    isplitl [Hm]
    · iexists _; isplitl [Hm]; · iexact Hm
      ipureintro
      intro m hm
      exact hM' m (by have h3 : Scf.trips k0_t3_loop.lb k0_t3_loop.ub k0_t3_loop.st = 100 := by decide
                      omega)
    iexists _; iexact Hs
  · unfold inv1
    isplitl [Hsz']; · iexact Hsz'
    isplitl [Hse']; · iexact Hse'
    isplitl [Hsm']
    · iexists _; isplitl [Hsm']; · iexact Hsm'
      ipureintro; intro m hm; exact absurd hm (by omega)
    iexists _; iexact Hss'
  iintro %_ HI
  unfold inv1
  icases HI with ⟨Hsz, Hse, ⟨%fM, Hm, %hM⟩, ⟨%fS, Hs⟩⟩
  sl_for (S1R.invR (F := F) d L fM) $$ [Hm Hsr']
  case region =>
    intro g acc
    exact S1R.t4_trip (F := F) d L fM g acc
  · unfold S1R.invR
    isplitl [Hm]; · iexact Hm
    iexists _; isplitl [Hsr']; · iexact Hsr'
    ipureintro; intro m hm; exact absurd hm (by omega)
  iintro %_ HI
  unfold S1R.invR
  icases HI with ⟨Hm, ⟨%fR, Hr, %hR⟩⟩
  sl_exec
  sl_step
  have hM1000 : Mdone X d L fM 1000 := by
    have h : Scf.trips k0_t1_loop.lb k0_t1_loop.ub k0_t1_loop.st = 10 := by decide
    rw [h] at hM; exact hM
  isplitl [Hz' He' Hp']
  · unfold td0
    isplitl [Hz']; · iapply (Entails.of_eq (pts_zSl (F := F) d L _)); iexact Hz'
    isplitl [He']; · iapply (Entails.of_eq (pts_e2 (F := F) d L _ _)); iexact He'
    iexists ((pSl L).view.writes (Elt F) fp [⟨Rect.whole S1024, tile_body.sl.dma0_2 d L fR⟩]); isplitr
    · ipureintro; refine hX d (wL L) _ ?_
      refine S1A.post0_of d L (X.zt d) (X.e2 d) fp _ (fun m => ?_)
      have hR' : ∀ m : Fin 1024, (sR).view.read (Elt F) fR (ix1 m)
          = S1.red16 (fun x => (sM).view.read (Elt F) fM (ix1 ⟨16 * m.val + (x 0).val, S1R.col_lt m x⟩)) := fun m =>
        hR m (by have h : Scf.trips k0_t4_loop.lb k0_t4_loop.ub k0_t4_loop.st = 64 := by decide
                 have := m.isLt; omega)
      show (sR).view.read (Elt F) fR (ix1 ⟨m.val, _⟩) = S1.part1 (slV X d L) (e2V X d) m
      rw [hR' ⟨m.val, by have := m.isLt; omega⟩]
      show S1.red16 _ = S1.red16 (S1.laneD (slV X d L) (e2V X d) m)
      congr 1; funext x
      obtain ⟨l, rfl⟩ : ∃ l : Fin 16, x = ix1 l := ⟨x 0, eq_ix1 x⟩
      exact hM1000 m m.isLt l
    · iapply (Entails.of_eq (pts_pSl (F := F) d L _)); iexact Hp'
  isplitl [Hsz Hse Hm Hr Hs Hbufs]
  · isplitl [Hsz]; · iexists _; iexact Hsz
    isplitl [Hse]; · iexists _; iexact Hse
    isplitl [Hm]; · iexists _; iexact Hm
    isplitl [Hr]; · iexists _; iexact Hr
    isplitl [Hs]; · iexists _; iexact Hs
    iexact Hbufs
  isplitl [Hsem0 Hsem1 Hsem2 Hsems]
  · isplitl [Hsem0]; · iexact Hsem0
    isplitl [Hsem1]; · iexact Hsem1
    isplitl [Hsem2]; · iexact Hsem2
    iexact Hsems
  iexists _; isplitr; rotate_left
  · iexact HO
  · ipureintro; intro p hp
    rcases Finset.mem_insert.mp hp with hp | hp
    · exact Or.inr (show p.2 = none by rw [hp]; rfl)
    rcases Finset.mem_insert.mp hp with hp | hp
    · exact Or.inr (show p.2 = none by rw [hp]; rfl)
    rcases Finset.mem_insert.mp hp with hp | hp
    · exact Or.inr (show p.2 = none by rw [hp]; rfl)
    exact .inl hp

end Tile

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_stage1 (F := F) (coordsV c s)
          ztW (Memref.isWhole_whole _) e2W (Memref.isWhole_whole _) ptW (Memref.isWhole_whole _)
          sZ (Memref.isWhole_whole _) sE (Memref.isWhole_whole _) sM (Memref.isWhole_whole _) sR (Memref.isWhole_whole _) sS (Memref.isWhole_whole _)
          cc0_scoped0 cc0_scoped1 cc0_scoped2) ⟨⟩ c s := rfl

omit [FloatOps F] [Named F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- `TileObl` at call 0: every tile of the grid runs the stage on its own slab. -/
theorem tileObl0 (X : Vals F) (hX : ∀ d w f, Cert.Proof.S1.Post0 (X.zt d) (X.e2 d) w f → X.post0 d w f) :
    (K (F := F)).TileObl (D (F := F)) 𝒱 (P X) v₀ 0 := by
  intro d c i O W hO _ _
  -- this kernel owes nothing for a protocol of its own
  simp only [show (P X).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body X d (coordsV ⟨_, hc.1⟩ ⟨_, hc.2⟩) hX facts O W hO).trans (wp_mono frame _ _ fun _ => obl_post)

end Cert.Proof.S1B
end
-- ==== Proof.Run.lean ====
/-
  The program's run: every weakly fair execution of the device's 35 threads terminates, nothing faulting, with the
  three arguments as they were and the result the first entry of a vector that satisfies the second call's
  post — the launch theorem fed the two calls' tile obligations, the pipeline's region, the TensorCore thread's
  proof and the reading of the final memory, at the stages' values as functions of the launch memory.
-/
import proofs.«209935_g88441966559691_cont_sun_c4_661_34_alg».proof.Proof.Launch
import proofs.«209935_g88441966559691_cont_sun_c4_661_34_alg».proof.Proof.Vals0
import proofs.«209935_g88441966559691_cont_sun_c4_661_34_alg».proof.Proof.Local
import proofs.«209935_g88441966559691_cont_sun_c4_661_34_alg».proof.Proof.S2Body
import proofs.«209935_g88441966559691_cont_sun_c4_661_34_alg».proof.Proof.TcRegion
import proofs.«209935_g88441966559691_cont_sun_c4_661_34_alg».proof.Proof.Main
import proofs.«209935_g88441966559691_cont_sun_c4_661_34_alg».proof.Proof.S1Body

noncomputable section

namespace Cert.Proof.Rn

open Cert.KernelIdeal Cert.KernelIdeal.Gen
open Cert.Proof.KI

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- What the run's post says of one device's final memory: the result is the first entry of a result vector that
    satisfies the second call's post, and the three arguments are as they were. -/
def Qd (m : (ℓ : Loc nD τ sig) → Buf (Elt F) ℓ) (c : Dev nD) (μ : (ℓ : Loc nD τ sig) → Buf (Elt F) ℓ) : Prop :=
  (∃ o : Buf (Elt F) (ouLoc c), post2 m c o ∧ μ ((c.tc : Thread nD τ).loc main_v16) = Cert.Proof.HV.v16V o)
    ∧ μ ((c.tc : Thread nD τ).loc main_arg0) = m ((c.tc : Thread nD τ).loc main_arg0)
    ∧ μ ((c.tc : Thread nD τ).loc main_arg1) = m ((c.tc : Thread nD τ).loc main_arg1)
    ∧ μ ((c.tc : Thread nD τ).loc main_arg2) = m ((c.tc : Thread nD τ).loc main_arg2)

/-- The run, from the first call's tile obligation. -/
theorem run_of [∀ e, Nonempty (Elt F e)]
    (tileObl0 : ∀ (X : Vals F) (hX : ∀ d w f, Cert.Proof.S1.Post0 (X.zt d) (X.e2 d) w f → X.post0 d w f),
      (K (F := F)).TileObl (D (F := F)) 𝒱 (P X) v₀ 0)
    (m : (ℓ : Loc nD τ sig) → Buf (Elt F) ℓ) (ρ : Dev nD → PrngReg) :
    θ_run (Cert.KernelIdeal.defs (F := F)) (Cert.KernelIdeal.threads (F := F)) ⟨m, fun _ => 0, ρ⟩
      (fun r => ∀ c : Dev nD, Qd m c r.2.mem) :=
  Cert.Proof.KI.run_main (X m) m ρ
    (tileObl0 (X m) (fun d w f h => h))
    (Cert.Proof.S2B.tileObl1 (X m) (fun d f tc o h0 hT h2 => ⟨f, tc, h0, hT, h2⟩))
    Cert.Proof.TcR.tcU₀ Cert.Proof.TcR.tcGhost Cert.Proof.TcR.tcFund (Cert.Proof.Mn.FIN (X m) m)
    (Cert.Proof.Mn.hmainTc (X m) m ρ
      (fun d w f g h => Cert.Proof.Lc.post0_local _ _ w f g h)
      (fun _ => rfl) (fun _ => rfl) (fun _ => rfl)
      (fun d f h => ⟨f, h, rfl⟩))
    (Cert.Proof.Mn.fq (X m) m) (Cert.Proof.Mn.hfin (X m) m)
    (fun r => ∀ c : Dev nD, Qd m c r.2.mem)
    (fun s' h c => by
      obtain ⟨h0, h1, h2, o, ho, hv⟩ := h c
      exact ⟨⟨o, ho, hv⟩, h0, h1, h2⟩)

/-- The run. -/
theorem run [∀ e, Nonempty (Elt F e)] (m : (ℓ : Loc nD τ sig) → Buf (Elt F) ℓ) (ρ : Dev nD → PrngReg) :
    θ_run (Cert.KernelIdeal.defs (F := F)) (Cert.KernelIdeal.threads (F := F)) ⟨m, fun _ => 0, ρ⟩
      (fun r => ∀ c : Dev nD, Qd m c r.2.mem) :=
  run_of Cert.Proof.S1B.tileObl0 m ρ

end Cert.Proof.Rn

end
-- ==== Proof.IfaceW.lean ====
/-
  What every module of this proof shares: the program as the SparseCore launch theorem reads it (two vector-subcore
  calls around one TensorCore pipeline), the launch facts, and the ghost state: the handshakes' rounds, the
  pipeline's staging cells' rounds, and the transfer counters the tiles' local copies use.
-/
import proofs.«209935_g88441966559691_cont_sun_c4_661_34_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«209935_g88441966559691_cont_sun_c4_661_34_alg».proof.Proof.Gen.Kernel
import proofs.«209935_g88441966559691_cont_sun_c4_661_34_alg».proof.Proof.Gen.Kernel.Skeleton
import proofs.«209935_g88441966559691_cont_sun_c4_661_34_alg».proof.Proof.Gen.Kernel.Launch
import proofs.«209935_g88441966559691_cont_sun_c4_661_34_alg».proof.Proof.Gen.Kernel.Points

noncomputable section

namespace Cert.Proof.KIW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 2 := sc (F := F)
theorem nCore_eq (q : Fin 2) : (K (F := F)).nCore q = 2 := by fin_cases q <;> rfl
theorem nSub_eq (q : Fin 2) : (K (F := F)).nSub q = 16 := by fin_cases q <;> rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := UR sig nD τ
abbrev UU : Type := UH × (UP × Counters)

abbrev 𝕄F (F : FTy → Type) : Type := MT nD τ sig (HIx 2) (Elt F) ℕ UU ℕ

/-- The handshakes' rounds: the left factor. -/
abbrev EH : Emb UH (𝕄F F) := embL
/-- The pipeline's staging cells' rounds: the left of the right factor. -/
def EP : Emb UP (𝕄F F) := (Emb.inl : Emb UP (UP × Counters)).trans embR

instance EP_landsIn : (EP : Emb UP (𝕄F F)).LandsIn (upEmb : UEmb _ (𝕄F F)) := by unfold EP; infer_instance

end Cert.Proof.KIW

namespace Cert.Proof.KIW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

local notation "𝕄" => MT nD τ sig (HIx 2) (Elt F) ℕ UU ℕ

/-! ## The arrays the three calls touch, as locations of device `d` -/

/-- The two arguments `z` and `e`. -/
abbrev a0Loc (d : Dev nD) : Loc nD τ sig := (SparseCore.T d).loc main_arg0
abbrev a1Loc (d : Dev nD) : Loc nD τ sig := (SparseCore.T d).loc main_arg1
/-- The first 1024 rows of `z`, transposed and cut into 32 slabs of 16 × 32; `-2 e` flattened; the padded `e` transposed. -/
abbrev ztLoc (d : Dev nD) : Loc nD τ sig := (SparseCore.T d).loc main_v3
abbrev e2Loc (d : Dev nD) : Loc nD τ sig := (SparseCore.T d).loc main_v6
abbrev etLoc (d : Dev nD) : Loc nD τ sig := (SparseCore.T d).loc main_v8
/-- The tiles' partial minima (32 × 1024), the TensorCore's row of minima (1024), the result vector (16). -/
abbrev ptLoc (d : Dev nD) : Loc nD τ sig := (SparseCore.T d).loc main_v11
abbrev tcLoc (d : Dev nD) : Loc nD τ sig := (SparseCore.T d).loc main_v13
abbrev ouLoc (d : Dev nD) : Loc nD τ sig := (SparseCore.T d).loc main_v14

/-! ## The slab of `zt` and the row of the partial minima that tile `w` is handed -/

theorem hdivZ : 32 ∣ S32x16x32.size 0 := ⟨1, rfl⟩
theorem hdivP : 32 ∣ S32x1024.size 0 := ⟨1, rfl⟩
abbrev zRow (w : Fin 32) : Rect S32x16x32 := Rect.part (s := S32x16x32) (a₀ := 0) hdivZ w
abbrev pRow (w : Fin 32) : Rect S32x1024 := Rect.part (s := S32x1024) (a₀ := 0) hdivP w
abbrev zRowSet (w : Fin 32) : Finset S32x16x32.Idx := (zRow w).set
abbrev pRowSet (w : Fin 32) : Finset S32x1024.Idx := (pRow w).set

/-- Tile `(c, i)` works on slab `2 i + c`. -/
def wid (c : Fin 2) (i : Fin 16) : Fin 32 := ⟨2 * i.val + c.val, by omega⟩

/-! ## What the proof's parts agree on: the three host-computed operands and what each call leaves -/

/-- The contents of the host-computed operands when the calls start, and what each call's result satisfies: stated
    abstractly here; the stages' modules say what they are. -/
structure Vals (F : FTy → Type) where
  zt : (d : Dev nD) → Buf (Elt F) (ztLoc d)
  e2 : (d : Dev nD) → Buf (Elt F) (e2Loc d)
  et : (d : Dev nD) → Buf (Elt F) (etLoc d)
  /-- what tile `w` leaves in row `w` of the partial minima (a statement about that row only) -/
  post0 : (d : Dev nD) → Fin 32 → Buf (Elt F) (ptLoc d) → Prop
  /-- what the TensorCore pipeline leaves in its row of minima -/
  postTC : (d : Dev nD) → Buf (Elt F) (tcLoc d) → Prop
  /-- what the second call leaves in the result vector -/
  post2 : (d : Dev nD) → Buf (Elt F) (ouLoc d) → Prop

variable (X : Vals F)

/-- Call 0, tile on slab `w`: its slab of `zt`, a read share of `e2`, row `w` of the partial minima at any contents; -/
def go0 (d : Dev nD) (w : Fin 32) : sProp 𝕄 :=
  iprop((ztLoc d ↦[zRowSet w]{fullShare} X.zt d) ∗ (e2Loc d ↦{shareTok fullShare 32 w} X.e2 d) ∗ ∃ f, ptLoc d ↦[pRowSet w]{fullShare} f)
/-- back: the same, the row at contents satisfying the tile's post. -/
def td0 (d : Dev nD) (w : Fin 32) : sProp 𝕄 :=
  iprop((ztLoc d ↦[zRowSet w]{fullShare} X.zt d) ∗ (e2Loc d ↦{shareTok fullShare 32 w} X.e2 d) ∗ ∃ f, ⌜X.post0 d w f⌝ ∗ ptLoc d ↦[pRowSet w]{fullShare} f)
/-- Call 1, the one tile that works: the partial minima (every row at its post), the TensorCore's row, `et`, the result vector; -/
def go1 (d : Dev nD) : sProp 𝕄 :=
  iprop(∃ f tc, ⌜∀ w, X.post0 d w f⌝ ∗ ⌜X.postTC d tc⌝ ∗ (ptLoc d ↦{fullShare} f) ∗ (tcLoc d ↦{fullShare} tc) ∗ (etLoc d ↦{fullShare} X.et d) ∗ ∃ o, ouLoc d ↦{fullShare} o)
/-- back: the three operands at some contents, `et` kept, the result vector at its post. -/
def td1 (d : Dev nD) : sProp 𝕄 :=
  iprop((∃ f, ptLoc d ↦{fullShare} f) ∗ (∃ tc, tcLoc d ↦{fullShare} tc) ∗ (etLoc d ↦{fullShare} X.et d) ∗ ∃ o, ⌜X.post2 d o⌝ ∗ ouLoc d ↦{fullShare} o)

def goP (q : Fin 2) (d : Dev nD) (c : Fin ((K (F := F)).nCore q)) (i : Fin ((K (F := F)).nSub q)) : sProp 𝕄 :=
  match q with
  | 0 => go0 X d (wid (Fin.cast (nCore_eq 0) c) (Fin.cast (nSub_eq 0) i))
  | 1 => if c.val = 0 ∧ i.val = 0 then go1 X d else iprop(emp)
def tdP (q : Fin 2) (d : Dev nD) (c : Fin ((K (F := F)).nCore q)) (i : Fin ((K (F := F)).nSub q)) : sProp 𝕄 :=
  match q with
  | 0 => td0 X d (wid (Fin.cast (nCore_eq 0) c) (Fin.cast (nSub_eq 0) i))
  | 1 => if c.val = 0 ∧ i.val = 0 then td1 X d else iprop(emp)

/-- The handshakes' payloads: a SparseCore is handed exactly its tiles' pieces, so the split among the tiles is the identity. -/
def P : (K (F := F)).Pay (nD := nD) (Val := Elt F) (Name := ℕ) (U := UU) where
  st := fun q d c => bigSep Finset.univ fun i => goP X q d c i
  dn := fun q d c => bigSep Finset.univ fun i => tdP X q d c i
  go := goP X
  td := tdP X
  x := fun _ _ => iprop(emp)

instance goP_storable (q : Fin 2) (d : Dev nD) (c : Fin ((K (F := F)).nCore q)) (i : Fin ((K (F := F)).nSub q)) :
    BI.Storable (upEmb : UEmb _ 𝕄) (goP X q d c i) := by
  match q with
  | 0 => unfold goP go0; infer_instance
  | 1 => unfold goP go1; dsimp only; split <;> infer_instance
instance tdP_storable (q : Fin 2) (d : Dev nD) (c : Fin ((K (F := F)).nCore q)) (i : Fin ((K (F := F)).nSub q)) :
    BI.Storable (upEmb : UEmb _ 𝕄) (tdP X q d c i) := by
  match q with
  | 0 => unfold tdP td0; infer_instance
  | 1 => unfold tdP td1; dsimp only; split <;> infer_instance

instance P_storable : (P X).IsStorable where
  st q d c := by unfold P; dsimp only; infer_instance
  dn q d c := by unfold P; dsimp only; infer_instance
  go q d c i := by unfold P; dsimp only; infer_instance
  td q d c i := by unfold P; dsimp only; infer_instance

/-- The split of a SparseCore's operands among its tiles, and the gathering back: nothing to do. -/
theorem vecSplit (q : Fin 2) : (K (F := F)).VecSplit' (P X) q := by
  intro d c
  show (bigSep Finset.univ fun i => goP X q d c i) ⊢ |={Set.univ}=> iprop((bigSep Finset.univ fun i => goP X q d c i)
    ∗ ((bigSep Finset.univ fun i => tdP X q d c i) -∗ bigSep Finset.univ fun i => tdP X q d c i))
  iintro H; imodintro
  isplitl [H]; · iexact H
  iintro H; iexact H

end Cert.Proof.KIW

end
-- ==== Proof.LaunchW.lean ====
/-
  The launch: the three-part launch element (the handshakes' rounds, the pipeline's staging cells' rounds, the
  transfer counters) dealt to the launch theorem, and the program's run from the two tile obligations, the
  TensorCore thread's proof and the reading of the final memory.
-/
import proofs.«209935_g88441966559691_cont_sun_c4_661_34_alg».proof.Proof.IfaceW

noncomputable section

namespace Cert.Proof.KIW

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-! ## The launch element -/

/-- The handshakes' cells at their launch tokens, the pipeline's cells at theirs, the counters at one. -/
def u₀ (tcU₀ : UP) : UU := (initOf (K (F := F)).hsCells (K (F := F)).hsToks, (tcU₀, 1))

theorem bigSep_emp' {I : Type} (s : Finset I) : (bigSep s fun _ => iprop(emp)) = (iprop(emp) : sProp 𝕄) := bigSep_emp_const s

variable [FloatOps F]

/-- The element splits into its three parts; the pipeline's part funds each device's staging cells; the kernels'
    proofs consume nothing of the launch's. -/
theorem hu₀ (X : Vals F) (tcU₀ : UP) (tcGhost : Dev nD → sProp 𝕄)
    (tcFund : (BI.own ((EP (F := F)) tcU₀) : sProp 𝕄) ⊢ iprop(|==> bigSep Finset.univ fun d : Dev nD => tcGhost d)) :
    (ownU (u₀ (F := F) tcU₀) : sProp 𝕄)
      ⊢ |={Set.univ}=> iprop(BI.own (EH (initOf (K (F := F)).hsCells (K (F := F)).hsToks)) ∗ (bigSep Finset.univ fun d : Dev nD => tcGhost d)
        ∗ bigSep Finset.univ fun thr : Thread nD τ => bigSep Finset.univ fun q : Fin 2 => (P X).x q thr) := by
  unfold u₀
  iintro Hu
  ihave H := (ownU_pair _ _) $$ Hu
  icases H with ⟨HH, HR⟩
  ihave HR' := (own_pair_emb (embR : Emb (UP × Counters) 𝕄) tcU₀ (1 : Counters)) $$ HR
  icases HR' with ⟨HP, -⟩
  ihave HP' := (Entails.of_eq (show (BI.own (((Emb.inl : Emb UP (UP × Counters)).trans (embR : Emb (UP × Counters) 𝕄)) tcU₀) : sProp 𝕄)
    = BI.own ((EP (F := F)) tcU₀) from rfl)) $$ HP
  imod (tcFund) $$ HP' with HG
  imodintro
  isplitl [HH]; · iexact HH
  isplitl [HG]; · iexact HG
  unfold P; dsimp only
  rw [show (bigSep Finset.univ fun _ : Thread nD τ => bigSep Finset.univ fun _ : Fin 2 => (iprop(emp) : sProp 𝕄)) = iprop(emp) from by
    rw [bigSep_congr fun _ _ => bigSep_emp' _, bigSep_emp']]
  iempintro

/-! ## The program's run -/

/-- Every weakly fair execution of the device's 35 threads terminates, nothing faulting, in a state of which `Q'`
    holds: from the two tile obligations, the TensorCore thread's proof and the reading of the final memory. -/
theorem run_main [∀ e, Nonempty (Elt F e)] (X : Vals F) (m : (ℓ : Loc nD τ sig) → Buf (Elt F) ℓ) (ρ : Dev nD → PrngReg)
    (ht0 : (K (F := F)).TileObl (D (F := F)) 𝒱 (P X) v₀ 0) (ht1 : (K (F := F)).TileObl (D (F := F)) 𝒱 (P X) v₀ 1)
    (tcU₀ : UP) (tcGhost : Dev nD → sProp 𝕄)
    (tcFund : (BI.own ((EP (F := F)) tcU₀) : sProp 𝕄) ⊢ iprop(|==> bigSep Finset.univ fun d : Dev nD => tcGhost d))
    (FIN : Dev nD → sProp 𝕄)
    (hmain : ∀ (κ : GSem nD τ sig → ℕ) (d : Dev nD),
      iprop((K (F := F)).ctx EH (P X) κ ∗ (K (F := F)).tcSt EH d 0 ∗ (K (F := F)).tcRes m ρ d ∗ tcGhost d)
        ⊢ wp frame (wpE ((K (F := F)).defs (D (F := F))) 𝒱 (SparseCore.T d) none) Set.univ (main d) fun _ => iprop((K (F := F)).tcSt EH d 2 ∗ FIN d))
    (fq : Dev nD → Phys nD τ sig (Elt F) → Prop) (hfin : ∀ d s', iprop(FIN d ∗ SI s') ⊢ (⌜fq d s'⌝ : sProp 𝕄))
    (Q' : PUnit × MemSt nD τ sig (Elt F) → Prop) (hQ : ∀ s', (∀ d, fq d s') → Q' (⟨⟩, s'.mem)) :
    θ_run (Cert.Kernel.defs (F := F)) (Cert.Kernel.threads (F := F)) ⟨m, fun _ => 0, ρ⟩ Q' :=
  SparseCore.Cfg.θ_run_sc (K := K (F := F)) (D := D (F := F)) (𝒱 := 𝒱) (EH := EH) (P := P X) facts v₀
    (fun q hq => match q with | 0 => nomatch hq | 1 => nomatch hq)
    (fun q _ => match q with | 0 => ht0 | 1 => ht1)
    (fun q _ => SparseCore.Cfg.VecSplit.of_plain (vecSplit X q))
    m ρ main tcGhost FIN (u₀ (F := F) tcU₀) (sep_elim_left.trans (hu₀ X tcU₀ tcGhost tcFund)) hmain fq hfin Q' hQ

end Cert.Proof.KIW

end
-- ==== Proof.HostValW.lean ====
/-
  The contents of the operands the host computes before and between the three calls, as pure functions of the two
  arguments: the first 1024 rows of `z` transposed and cut into 32 slabs of 16 × 32, `-2 e` flattened, `e` padded to 1024
  rows and transposed, and `-2` times that; then the two reshapes of results. Each is the composition of the printed
  operations in the printed order, and is what the printed line of host operations leaves in its buffer. Then what each
  reads at an index: for every float instance where only the layout is involved, and below the marked line over the reals.
-/
import proofs.«209935_g88441966559691_cont_sun_c4_661_34_alg».proof.Proof.IfaceW
import Idealize.ShloMosaic.Lib.KernelVsHost
import Idealize.ShloMosaic.Lib.IdealHost

noncomputable section

namespace Cert.Proof.HVW

open Cert.Kernel
open Cert.Kernel.Facts₀
open Idealize.ShloMosaic
open Idealize.ShloMosaic.ValueIdx

variable {F : FTy → Type} [FloatOps F]

/-! ## The slabs of `z`: slice, transpose, reshape, transpose -/

/-- The first 1024 rows of `z`. -/
def v0V (z : Vec F S16384x16 .f32) : Vec F S1024x16 .f32 :=
  extractStridedSlice S1024x16 ![0, 0] z slices_S16384x16_S1024x16_0_0
/-- Transposed: 16 × 1024. -/
def v1V (z : Vec F S16384x16 .f32) : Vec F S16x1024 .f32 :=
  transpose S16x1024 [1, 0] (v0V z) transposes_S1024x16_S16x1024_1_0
/-- Each row of 1024 cut into 32 runs of 32. -/
def v2V (z : Vec F S16384x16 .f32) : Vec F S16x32x32 .f32 :=
  shapeCast S16x32x32 (v1V z) shapeCasts_S16x1024_S16x32x32
/-- The run number brought to the front: slab `w` holds, per column `j`, rows `32 w … 32 w + 31` of `z`. -/
def ztV (z : Vec F S16384x16 .f32) : Vec F S32x16x32 .f32 :=
  transpose S32x16x32 [1, 0, 2] (v2V z) transposes_S16x32x32_S32x16x32_1_0_2

/-! ## `-2 e` flattened -/

/-- The constant `-2`, a scalar. -/
def cstV : Vec F S_ .f32 := constant S_ .f32 0xC0000000#32
/-- Broadcast to the shape of `e`. -/
def v4V : Vec F S1000x16 .f32 := broadcastInDim S1000x16 ![] bcast_S_S1000x16 (cstV (F := F))
/-- `-2 e`. -/
def v5V (e : Vec F S1000x16 .f32) : Vec F S1000x16 .f32 := mulf (v4V (F := F)) e
/-- Flattened in row-major order. -/
def e2V (e : Vec F S1000x16 .f32) : Vec F S16000 .f32 := shapeCast S16000 (v5V e) shapeCasts_S1000x16_S16000

/-! ## `e` padded to 1024 rows, transposed; and `-2` times it -/

/-- The integer constant zero, a scalar. -/
def cV : IVec S_ 32 := constantI S_ 32 0#32
/-- Converted to a float: the padding value. -/
def c0V : Vec F S_ .f32 := sitofp .f32 cV
/-- `e` with 24 rows of the padding value appended. -/
def v7V (e : Vec F S1000x16 .f32) : Vec F S1024x16 .f32 :=
  pad S1024x16 ![0, 0] ![24, 0] ![0, 0] e (c0V (F := F)) pads_S1000x16_S1024x16_0240_000 h_S_
/-- Transposed: 16 × 1024. -/
def etV (e : Vec F S1000x16 .f32) : Vec F S16x1024 .f32 :=
  transpose S16x1024 [1, 0] (v7V e) transposes_S1024x16_S16x1024_1_0
/-- The constant `-2` broadcast to 16 × 1024. -/
def v9V : Vec F S16x1024 .f32 := broadcastInDim S16x1024 ![] bcast_S_S16x1024 (cstV (F := F))
/-- `-2` times the padded transpose. -/
def v10V (e : Vec F S1000x16 .f32) : Vec F S16x1024 .f32 := mulf (v9V (F := F)) (etV e)

/-! ## The two results reshaped -/

/-- The pipeline's one row of minima as a vector. -/
def v13V (v12 : Vec F S1x1024 .f32) : Vec F S1024 .f32 := shapeCast S1024 v12 shapeCasts_S1x1024_S1024
/-- The first entry of the result vector … -/
def v15V (v14 : Vec F S16 .f32) : Vec F S1 .f32 := extractStridedSlice S1 ![0] v14 slices_S16_S1_0
/-- … as a scalar. -/
def v16V (v14 : Vec F S16 .f32) : Vec F S_ .f32 := shapeCast S_ (v15V v14) shapeCasts_S1_S_

/-! ## The printed lines of host operations, and what they leave -/

/-- The fifteen host operations that precede the first call, in the printed order. -/
def hostOps : List (HloOp τ sig (Elt F)) :=
  [ StableHlo.unary main_arg0 main_v0 ((extractStridedSlice S1024x16 ![0, 0] · slices_S16384x16_S1024x16_0_0) : (⟨S16384x16, .f32⟩ : BufTy).Contents (Elt F) → (⟨S1024x16, .f32⟩ : BufTy).Contents (Elt F)),
    StableHlo.unary main_v0 main_v1 ((transpose S16x1024 [1, 0] · transposes_S1024x16_S16x1024_1_0) : (⟨S1024x16, .f32⟩ : BufTy).Contents (Elt F) → (⟨S16x1024, .f32⟩ : BufTy).Contents (Elt F)),
    StableHlo.reshape main_v1 main_v2 rfl shapeCasts_S16x1024_S16x32x32,
    StableHlo.unary main_v2 main_v3 ((transpose S32x16x32 [1, 0, 2] · transposes_S16x32x32_S32x16x32_1_0_2) : (⟨S16x32x32, .f32⟩ : BufTy).Contents (Elt F) → (⟨S32x16x32, .f32⟩ : BufTy).Contents (Elt F)),
    StableHlo.nullary main_cst (constant S_ .f32 0xC0000000#32),
    StableHlo.unary main_cst main_v4 (broadcastInDim S1000x16 ![] bcast_S_S1000x16 : (⟨S_, .f32⟩ : BufTy).Contents (Elt F) → (⟨S1000x16, .f32⟩ : BufTy).Contents (Elt F)),
    StableHlo.binary main_v4 main_arg1 main_v5 (mulf : (⟨S1000x16, .f32⟩ : BufTy).Contents (Elt F) → (⟨S1000x16, .f32⟩ : BufTy).Contents (Elt F) → (⟨S1000x16, .f32⟩ : BufTy).Contents (Elt F)),
    StableHlo.reshape main_v5 main_v6 rfl shapeCasts_S1000x16_S16000,
    StableHlo.nullary main_c (constantI S_ 32 0#32),
    StableHlo.TRef.unary (Tx := ⟨S_, .i32⟩) (Ty := ⟨S_, .f32⟩) (.of main_c) main_call0.v0 (sitofp .f32),
    StableHlo.TRef.binary (Ta := ⟨S1000x16, .f32⟩) (Tb := ⟨S_, .f32⟩) (Ty := ⟨S1024x16, .f32⟩) (.of main_arg1) main_call0.v0 main_call0.v1 (fun x v => pad S1024x16 ![0, 0] ![24, 0] ![0, 0] x v pads_S1000x16_S1024x16_0240_000 h_S_),
    StableHlo.unary main_v7 main_v8 ((transpose S16x1024 [1, 0] · transposes_S1024x16_S16x1024_1_0) : (⟨S1024x16, .f32⟩ : BufTy).Contents (Elt F) → (⟨S16x1024, .f32⟩ : BufTy).Contents (Elt F)),
    StableHlo.nullary main_cst_0 (constant S_ .f32 0xC0000000#32),
    StableHlo.unary main_cst_0 main_v9 (broadcastInDim S16x1024 ![] bcast_S_S16x1024 : (⟨S_, .f32⟩ : BufTy).Contents (Elt F) → (⟨S16x1024, .f32⟩ : BufTy).Contents (Elt F)),
    StableHlo.binary main_v9 main_v8 main_v10 (mulf : (⟨S16x1024, .f32⟩ : BufTy).Contents (Elt F) → (⟨S16x1024, .f32⟩ : BufTy).Contents (Elt F) → (⟨S16x1024, .f32⟩ : BufTy).Contents (Elt F)) ]

/-- The reshape between the pipeline and the second call. -/
def op13 : HloOp τ sig (Elt F) := StableHlo.reshape main_v12 main_v13 rfl shapeCasts_S1x1024_S1024
/-- The two operations after the second call. -/
def ops16 : List (HloOp τ sig (Elt F)) :=
  [ StableHlo.unary main_v14 main_v15 ((extractStridedSlice S1 ![0] · slices_S16_S1_0) : (⟨S16, .f32⟩ : BufTy).Contents (Elt F) → (⟨S1, .f32⟩ : BufTy).Contents (Elt F)),
    StableHlo.reshape main_v15 main_v16 rfl shapeCasts_S1_S_ ]

/-- The references the fifteen operations write. -/
def hostW : List (Ref sig .tc) :=
  [main_v0, main_v1, main_v2, main_v3, main_cst, main_v4, main_v5, main_v6, main_c, main_call0_v0, main_v7, main_v8, main_cst_0, main_v9, main_v10]

open StableHlo in
theorem after_hostOps_zt (V : Valuation τ sig (Elt F)) :
    StableHlo.after hostOps V (Proc.devRef .tc main_v3) = ztV (V (Proc.devRef .tc main_arg0)) := by
  unfold hostOps
  after_results_simp
  rfl

open StableHlo in
theorem after_hostOps_e2 (V : Valuation τ sig (Elt F)) :
    StableHlo.after hostOps V (Proc.devRef .tc main_v6) = e2V (V (Proc.devRef .tc main_arg1)) := by
  unfold hostOps
  after_results_simp
  rfl

open StableHlo in
theorem after_hostOps_et (V : Valuation τ sig (Elt F)) :
    StableHlo.after hostOps V (Proc.devRef .tc main_v8) = etV (V (Proc.devRef .tc main_arg1)) := by
  unfold hostOps
  after_results_simp
  rfl

open StableHlo in
theorem after_hostOps_v10 (V : Valuation τ sig (Elt F)) :
    StableHlo.after hostOps V (Proc.devRef .tc main_v10) = v10V (V (Proc.devRef .tc main_arg1)) := by
  unfold hostOps
  after_results_simp
  rfl

/-- Each of the fifteen writes one of the listed references. -/
theorem hostOps_writes :
    (hostOps (F := F)).Forall fun op => op.writes ⊆ (hostW.map (Proc.devRef (τ := τ) .tc)).toFinset := by
  unfold hostOps hostW
  simp only [List.forall_cons, List.Forall, StableHlo.unary_writes, StableHlo.binary_writes, StableHlo.nullary_writes,
    StableHlo.reshape_writes, Finset.singleton_subset_iff, List.mem_toFinset, List.mem_map]
  refine ⟨⟨_, ?_, rfl⟩, ⟨_, ?_, rfl⟩, ⟨_, ?_, rfl⟩, ⟨_, ?_, rfl⟩, ⟨_, ?_, rfl⟩, ⟨_, ?_, rfl⟩, ⟨_, ?_, rfl⟩, ⟨_, ?_, rfl⟩,
    ⟨_, ?_, rfl⟩, ⟨_, ?_, rfl⟩, ⟨_, ?_, rfl⟩, ⟨_, ?_, rfl⟩, ⟨_, ?_, rfl⟩, ⟨_, ?_, rfl⟩, ⟨_, ?_, rfl⟩⟩ <;> decide

/-- The two arguments are not written. -/
theorem after_hostOps_arg0 (V : Valuation τ sig (Elt F)) :
    StableHlo.after hostOps V (Proc.devRef .tc main_arg0) = V (Proc.devRef .tc main_arg0) :=
  StableHlo.after_of_writes_sub hostOps V hostOps_writes (by decide)
theorem after_hostOps_arg1 (V : Valuation τ sig (Elt F)) :
    StableHlo.after hostOps V (Proc.devRef .tc main_arg1) = V (Proc.devRef .tc main_arg1) :=
  StableHlo.after_of_writes_sub hostOps V hostOps_writes (by decide)

open StableHlo in
theorem after_op13 (V : Valuation τ sig (Elt F)) :
    StableHlo.after [op13] V (Proc.devRef .tc main_v13) = v13V (V (Proc.devRef .tc main_v12)) := by
  unfold op13
  after_results_simp
  rfl

open StableHlo in
theorem after_ops16 (V : Valuation τ sig (Elt F)) :
    StableHlo.after ops16 V (Proc.devRef .tc main_v16) = v16V (V (Proc.devRef .tc main_v14)) := by
  unfold ops16
  after_results_simp
  rfl

/-! ## The layout read at an index, for every float instance -/

/-- Slab `w`, column `j`, point `p` is row `32 w + p` of `z` at column `j`. -/
theorem ztV_idx (z : Vec F S16384x16 .f32) (w p : Fin 32) (j : Fin 16) :
    ztV z (ix3 w j p) = z (ix2 ⟨32 * w.val + p.val, by omega⟩ j) := by
  unfold ztV v2V v1V v0V
  refine (transpose_apply (s := S16x32x32) (t := S32x16x32) _ _ _ (ix3 w j p) (ix3 j w p)
    (fun b => match b with | ⟨0, _⟩ => rfl | ⟨1, _⟩ => rfl | ⟨2, _⟩ => rfl)).trans ?_
  refine (shapeCast_apply (s := S16x1024) (t := S16x32x32) _ _ (ix3 j w p) (ix2 j ⟨32 * w.val + p.val, by omega⟩) ?_).trans ?_
  · rw [Shape.rowMajor_val_two, Shape.rowMajor_val_three]
    show j.val * 1024 + (32 * w.val + p.val) = (j.val * 32 + w.val) * 32 + p.val
    omega
  refine (transpose_apply (s := S1024x16) (t := S16x1024) _ _ _ (ix2 j ⟨32 * w.val + p.val, by omega⟩) (ix2 ⟨32 * w.val + p.val, by omega⟩ j)
    (fun b => match b with | ⟨0, _⟩ => rfl | ⟨1, _⟩ => rfl)).trans ?_
  exact extractStridedSlice_apply (s := S16384x16) (t := S1024x16) _ _ _ (ix2 ⟨32 * w.val + p.val, by omega⟩ j) (ix2 ⟨32 * w.val + p.val, by omega⟩ j)
    (fun a => match a with
      | ⟨0, _⟩ => by show 32 * w.val + p.val = 0 + (32 * w.val + p.val); omega
      | ⟨1, _⟩ => by show j.val = 0 + j.val; omega)

/-- The flattened product at position `16 m + j` is the product at `(m, j)`. -/
theorem e2V_idx (e : Vec F S1000x16 .f32) (mm : Fin 1000) (j : Fin 16) :
    e2V e (ix1 ⟨16 * mm.val + j.val, by omega⟩) = v5V e (ix2 mm j) := by
  unfold e2V
  refine shapeCast_apply (s := S1000x16) (t := S16000) _ _ (ix1 ⟨16 * mm.val + j.val, by omega⟩) (ix2 mm j) ?_
  rw [Shape.rowMajor_val_two, Shape.rowMajor_val_one]
  show mm.val * 16 + j.val = 16 * mm.val + j.val
  omega

/-- The padded transpose at `(j, m)`, `m` below 1000, is `e` at `(m, j)`. -/
theorem etV_idx (e : Vec F S1000x16 .f32) (j : Fin 16) (mm : Fin 1000) :
    etV e (ix2 j ⟨mm.val, by omega⟩) = e (ix2 mm j) := by
  unfold etV v7V
  refine (transpose_apply (s := S1024x16) (t := S16x1024) _ _ _ (ix2 j ⟨mm.val, by omega⟩) (ix2 ⟨mm.val, by omega⟩ j)
    (fun b => match b with | ⟨0, _⟩ => rfl | ⟨1, _⟩ => rfl)).trans ?_
  exact pad_apply_of_inside (s := S1000x16) (t := S1024x16) _ _ _ _ _ _ _ (ix2 ⟨mm.val, by omega⟩ j) (ix2 mm j)
    (fun a => match a with
      | ⟨0, _⟩ => by show mm.val = 0 + mm.val * (0 + 1); omega
      | ⟨1, _⟩ => by show j.val = 0 + j.val * (0 + 1); omega)

/-- The row of minima as a vector reads the row. -/
theorem v13V_apply (v12 : Vec F S1x1024 .f32) (mm : Fin 1024) : v13V v12 (ix1 mm) = v12 (ix2 0 mm) := by
  unfold v13V
  refine shapeCast_apply (s := S1x1024) (t := S1024) _ _ (ix1 mm) (ix2 0 mm) ?_
  rw [Shape.rowMajor_val_two, Shape.rowMajor_val_one]
  show 0 * 1024 + mm.val = mm.val
  omega

/-- The scalar result is the first entry of the result vector. -/
theorem v16V_apply (v14 : Vec F S16 .f32) : v16V v14 ix0 = v14 (ix1 0) := by
  unfold v16V v15V
  refine (shapeCast_apply (s := S1) (t := S_) _ _ ix0 (ix1 0) ?_).trans ?_
  · rw [Shape.rowMajor_val_one]
    have h := (S_.rowMajor ix0).isLt
    show 0 = (S_.rowMajor ix0).val
    have h1 : S_.numel = 1 := by decide
    omega
  exact extractStridedSlice_apply (s := S16) (t := S1) _ _ _ (ix1 0) (ix1 0)
    (fun a => match a with | ⟨0, _⟩ => rfl)

end Cert.Proof.HVW

end
-- ==== Proof.S1ValW.lean ====
/-
  The values of the first vector-subcore call, as pure functions of the slab of points a tile is handed and of
  the flattened `-2 e`: the sixteen lanes a tile stores for a column (lane `i` the lesser of
  `‖z_p‖² + Σ_j (-2 e_mj) z_pj` at points `p = i` and `p = 16 + i` of the slab), their least element in the
  program's tree order, and what the row of partial minima therefore holds. Where the float instance is the
  extended reals these read as the least of `D` over the slab's 32 points.
-/
import proofs.«209935_g88441966559691_cont_sun_c4_661_34_alg».proof.Proof.IfaceW
import Idealize.ShloMosaic.Lib.ValueIdx
import Idealize.ShloMosaic.Lib.ValueLayout

noncomputable section

namespace Cert.Proof.S1W

open Cert.Kernel Cert.Kernel.Gen
open Idealize.ShloMosaic Idealize.ShloMosaic.ValueIdx
open Cert.Proof.KIW

variable {F : FTy → Type} [FloatOps F]

/-! ## The pieces of one column's lanes -/

/-- A loaded `1 × 16` piece of a row of the slab as sixteen lanes. -/
def cast1 (v : Vec F S1x16 .f32) : FVec F S16 .f32 := shapeCast S16 v shapeCasts_S1x16_S16

/-- The sixteen scalars taken off a loaded row of `-2 e`, one per coordinate. -/
def scal (v : Vec F S16 .f32) : Fin 16 → Elt F .f32 :=
  ![k0_pay7 v, k0_pay8 v, k0_pay9 v, k0_pay10 v, k0_pay11 v, k0_pay12 v,
    k0_pay13 (k0_pay6 v), k0_pay14 (k0_pay6 v), k0_pay15 (k0_pay6 v), k0_pay16 (k0_pay6 v), k0_pay17 (k0_pay6 v),
    k0_pay18 (k0_pay6 v), k0_pay19 (k0_pay6 v), k0_pay24 (k0_pay6 v), k0_pay25 (k0_pay6 v), k0_pay26 (k0_pay6 v)]

/-- The squared norm of the first sixteen points, lane by lane, summed in the program's order. -/
def znA (za : Fin 16 → FVec F S16 .f32) : FVec F S16 .f32 :=
  k0_pay2 (za 4) (za 5) (za 6) (za 7) (za 8) (za 9) (za 10) (za 11) (k0_pay60 (za 0) (za 1) (za 2) (za 3))
/-- The squared norm of the second sixteen points but for the last five coordinates. -/
def znB (zb : Fin 16 → FVec F S16 .f32) : FVec F S16 .f32 :=
  k0_pay1 (zb 4) (zb 5) (zb 6) (zb 7) (zb 8) (zb 9) (zb 10) (k0_pay59 (zb 0) (zb 1) (zb 2)) (k0_pay61 (zb 3))
/-- The first twelve terms of `Σ_j s_j za_j`. -/
def accA (za : Fin 16 → FVec F S16 .f32) (s : Fin 16 → Elt F .f32) : FVec F S16 .f32 :=
  k0_pay22 (za 6) (za 7) (za 8) (za 9) (za 10) (za 11) (k0_pay20 (za 0) (za 1) (za 2) (za 3) (za 4) (za 5) (s 0) (s 1) (s 2) (s 3) (s 4) (s 5)) (s 6) (s 7) (s 8) (s 9) (s 10) (s 11)
/-- The first twelve terms of `Σ_j s_j zb_j`. -/
def accB (zb : Fin 16 → FVec F S16 .f32) (s : Fin 16 → Elt F .f32) : FVec F S16 .f32 :=
  k0_pay23 (zb 6) (zb 7) (zb 8) (zb 9) (zb 10) (zb 11) (k0_pay21 (zb 0) (zb 1) (zb 2) (zb 3) (zb 4) (zb 5) (s 0) (s 1) (s 2) (s 3) (s 4) (s 5)) (s 6) (s 7) (s 8) (s 9) (s 10) (s 11)
/-- The second half's lanes: `Σ_j s_j zb_j + Σ_j zb_j²`. -/
def laneB (zb : Fin 16 → FVec F S16 .f32) (s : Fin 16 → Elt F .f32) : FVec F S16 .f32 :=
  k0_pay3 (zb 11) (zb 12) (zb 13) (zb 14) (zb 15) (znB zb) (accB zb s) (s 12) (s 13) (s 14) (s 15)
/-- The sixteen lanes stored for one column: lane `i` is the lesser of the two halves' values at lane `i`. -/
def lane (za zb : Fin 16 → FVec F S16 .f32) (s : Fin 16 → Elt F .f32) : FVec F S16 .f32 :=
  k0_pay4 (za 12) (za 13) (za 14) (za 15) (znA za) (accA za s) (s 12) (s 13) (s 14) (s 15) (laneB zb s)

/-! ## The loads, off the slab and off `-2 e` -/

/-- The piece of row `j` of the slab a load of sixteen lanes from lane `16 h` answers. -/
def rowLd (zt : Vec F S16x32 .f32) (j : Fin 16) (h : Fin 2) : Vec F S1x16 .f32 :=
  fun x => zt (ix2 j ⟨16 * h.val + (x 1).val, by have h1 : (x 1).val < 16 := (x 1).isLt; have := h.isLt; show _ < 32; omega⟩)
/-- The sixteen lanes of row `m` of `-2 e`. -/
def eLd (e2 : Vec F S16000 .f32) (m : Fin 1000) : Vec F S16 .f32 :=
  fun x => e2 (ix1 ⟨16 * m.val + (x 0).val, by have h1 : (x 0).val < 16 := (x 0).isLt; have := m.isLt; show _ < 16000; omega⟩)

/-- The first and the second sixteen points' coordinates as the program holds them. -/
def zA (zt : Vec F S16x32 .f32) : Fin 16 → FVec F S16 .f32 := fun j => cast1 (rowLd zt j 0)
def zB (zt : Vec F S16x32 .f32) : Fin 16 → FVec F S16 .f32 := fun j => cast1 (rowLd zt j 1)

/-- The sixteen lanes the tile stores for column `m`. -/
def laneD (zt : Vec F S16x32 .f32) (e2 : Vec F S16000 .f32) (m : Fin 1000) : FVec F S16 .f32 :=
  lane (zA zt) (zB zt) (scal (eLd e2 m))

/-! ## The least of sixteen lanes, in the program's tree order -/

/-- The least element of sixteen lanes: pairs, then pairs of pairs, and so on. -/
def red16 (v : Vec F S16 .f32) : Elt F .f32 := k0_pay62 v

/-- The row vector whose lane `l` is `ss l`, assembled by compare-and-select against the lane numbers. -/
def rowV (ss : Fin 16 → Elt F .f32) : FVec F S16 .f32 :=
  k0_pay5 (ss 13) (ss 14) (ss 15) (iota .scVector S16 32 [0] iota_S16_d0_w32_scVector)
    (k0_pay129 (ss 1) (ss 2) (ss 3) (ss 4) (ss 5) (ss 6) (ss 7) (ss 8) (ss 9) (ss 10) (ss 11) (ss 12) (iota .scVector S16 32 [0] iota_S16_d0_w32_scVector) (k0_pay128 (ss 0)) 1#32) 13#32

/-- What the tile leaves at column `m` of its row. -/
def part1 (zt : Vec F S16x32 .f32) (e2 : Vec F S16000 .f32) (m : Fin 1000) : Elt F .f32 := red16 (laneD zt e2 m)

/-! ## The tile's post -/

/-- Slab `w` of the transposed points. -/
def slab {α : Type} (zt : S32x16x32.Idx → α) (w : Fin 32) : S16x32.Idx → α := fun x => zt (ix3 w (x 0) (x 1))

/-- Row `w` of the partial minima holds, at each of the first thousand columns, that column's least value. -/
def Post0 {d : Dev nD} (zt : Buf (Elt F) (ztLoc d)) (e2 : Buf (Elt F) (e2Loc d)) (w : Fin 32) (f : Buf (Elt F) (ptLoc d)) : Prop :=
  ∀ m : Fin 1000, f (ix2 w ⟨m.val, by have := m.isLt; omega⟩) = part1 (slab zt w) e2 m

/-! ## Reading the pieces at a lane -/

theorem laneAt0 {α : Type} (v : S16.Idx → α) : extractAt ![0] (extractStridedSlice S1 ![0] v slices_S16_o0_S1) inpos_S1_p0 = v (ix1 0) :=
  congrArg v (funext fun a => match a with | ⟨0, _⟩ => rfl)
theorem laneAt1 {α : Type} (v : S16.Idx → α) : extractAt ![0] (extractStridedSlice S1 ![1] v slices_S16_o1_S1) inpos_S1_p0 = v (ix1 1) :=
  congrArg v (funext fun a => match a with | ⟨0, _⟩ => rfl)
theorem laneAt2 {α : Type} (v : S16.Idx → α) : extractAt ![0] (extractStridedSlice S1 ![2] v slices_S16_o2_S1) inpos_S1_p0 = v (ix1 2) :=
  congrArg v (funext fun a => match a with | ⟨0, _⟩ => rfl)
theorem laneAt3 {α : Type} (v : S16.Idx → α) : extractAt ![0] (extractStridedSlice S1 ![3] v slices_S16_o3_S1) inpos_S1_p0 = v (ix1 3) :=
  congrArg v (funext fun a => match a with | ⟨0, _⟩ => rfl)
theorem laneAt4 {α : Type} (v : S16.Idx → α) : extractAt ![0] (extractStridedSlice S1 ![4] v slices_S16_o4_S1) inpos_S1_p0 = v (ix1 4) :=
  congrArg v (funext fun a => match a with | ⟨0, _⟩ => rfl)
theorem laneAt5 {α : Type} (v : S16.Idx → α) : extractAt ![0] (extractStridedSlice S1 ![5] v slices_S16_o5_S1) inpos_S1_p0 = v (ix1 5) :=
  congrArg v (funext fun a => match a with | ⟨0, _⟩ => rfl)
theorem laneAt6 {α : Type} (v : S16.Idx → α) : extractAt ![0] (extractStridedSlice S1 ![6] v slices_S16_o6_S1) inpos_S1_p0 = v (ix1 6) :=
  congrArg v (funext fun a => match a with | ⟨0, _⟩ => rfl)
theorem laneAt7 {α : Type} (v : S16.Idx → α) : extractAt ![0] (extractStridedSlice S1 ![7] v slices_S16_o7_S1) inpos_S1_p0 = v (ix1 7) :=
  congrArg v (funext fun a => match a with | ⟨0, _⟩ => rfl)
theorem laneAt8 {α : Type} (v : S16.Idx → α) : extractAt ![0] (extractStridedSlice S1 ![8] v slices_S16_o8_S1) inpos_S1_p0 = v (ix1 8) :=
  congrArg v (funext fun a => match a with | ⟨0, _⟩ => rfl)
theorem laneAt9 {α : Type} (v : S16.Idx → α) : extractAt ![0] (extractStridedSlice S1 ![9] v slices_S16_o9_S1) inpos_S1_p0 = v (ix1 9) :=
  congrArg v (funext fun a => match a with | ⟨0, _⟩ => rfl)
theorem laneAt10 {α : Type} (v : S16.Idx → α) : extractAt ![0] (extractStridedSlice S1 ![10] v slices_S16_o10_S1) inpos_S1_p0 = v (ix1 10) :=
  congrArg v (funext fun a => match a with | ⟨0, _⟩ => rfl)
theorem laneAt11 {α : Type} (v : S16.Idx → α) : extractAt ![0] (extractStridedSlice S1 ![11] v slices_S16_o11_S1) inpos_S1_p0 = v (ix1 11) :=
  congrArg v (funext fun a => match a with | ⟨0, _⟩ => rfl)
theorem laneAt12 {α : Type} (v : S16.Idx → α) : extractAt ![0] (extractStridedSlice S1 ![12] v slices_S16_o12_S1) inpos_S1_p0 = v (ix1 12) :=
  congrArg v (funext fun a => match a with | ⟨0, _⟩ => rfl)
theorem laneAt13 {α : Type} (v : S16.Idx → α) : extractAt ![0] (extractStridedSlice S1 ![13] v slices_S16_o13_S1) inpos_S1_p0 = v (ix1 13) :=
  congrArg v (funext fun a => match a with | ⟨0, _⟩ => rfl)
theorem laneAt14 {α : Type} (v : S16.Idx → α) : extractAt ![0] (extractStridedSlice S1 ![14] v slices_S16_o14_S1) inpos_S1_p0 = v (ix1 14) :=
  congrArg v (funext fun a => match a with | ⟨0, _⟩ => rfl)
theorem laneAt15 {α : Type} (v : S16.Idx → α) : extractAt ![0] (extractStridedSlice S1 ![15] v slices_S16_o15_S1) inpos_S1_p0 = v (ix1 15) :=
  congrArg v (funext fun a => match a with | ⟨0, _⟩ => rfl)

/-- A cast row read at lane `i` is the loaded piece there. -/
theorem cast1_apply (v : Vec F S1x16 .f32) (i : Fin 16) : cast1 v (ix1 i) = v (ix2 (0 : Fin 1) i) :=
  shapeCast_1a_a_apply v _ i

/-- The `j`-th scalar taken off a row is its `j`-th element. -/
theorem scal_apply (v : Vec F S16 .f32) (j : Fin 16) : scal v j = v (ix1 j) := by
  have h6 : k0_pay6 v = v := shapeCast_self v _
  have e0 : k0_pay7 v = v (ix1 0) := by unfold k0_pay7; simp only [h6, laneAt0]
  have e1 : k0_pay8 v = v (ix1 1) := by unfold k0_pay8; simp only [h6, laneAt1]
  have e2 : k0_pay9 v = v (ix1 2) := by unfold k0_pay9; simp only [h6, laneAt2]
  have e3 : k0_pay10 v = v (ix1 3) := by unfold k0_pay10; simp only [h6, laneAt3]
  have e4 : k0_pay11 v = v (ix1 4) := by unfold k0_pay11; simp only [h6, laneAt4]
  have e5 : k0_pay12 v = v (ix1 5) := by unfold k0_pay12; simp only [h6, laneAt5]
  have e6 : k0_pay13 (k0_pay6 v) = v (ix1 6) := by unfold k0_pay13; simp only [h6, laneAt6]
  have e7 : k0_pay14 (k0_pay6 v) = v (ix1 7) := by unfold k0_pay14; simp only [h6, laneAt7]
  have e8 : k0_pay15 (k0_pay6 v) = v (ix1 8) := by unfold k0_pay15; simp only [h6, laneAt8]
  have e9 : k0_pay16 (k0_pay6 v) = v (ix1 9) := by unfold k0_pay16; simp only [h6, laneAt9]
  have e10 : k0_pay17 (k0_pay6 v) = v (ix1 10) := by unfold k0_pay17; simp only [h6, laneAt10]
  have e11 : k0_pay18 (k0_pay6 v) = v (ix1 11) := by unfold k0_pay18; simp only [h6, laneAt11]
  have e12 : k0_pay19 (k0_pay6 v) = v (ix1 12) := by unfold k0_pay19; simp only [h6, laneAt12]
  have e13 : k0_pay24 (k0_pay6 v) = v (ix1 13) := by unfold k0_pay24; simp only [h6, laneAt13]
  have e14 : k0_pay25 (k0_pay6 v) = v (ix1 14) := by unfold k0_pay25; simp only [h6, laneAt14]
  have e15 : k0_pay26 (k0_pay6 v) = v (ix1 15) := by unfold k0_pay26; simp only [h6, laneAt15]
  fin_cases j
  exacts [e0, e1, e2, e3, e4, e5, e6, e7, e8, e9, e10, e11, e12, e13, e14, e15]

/-! ## The sixteen printed chains are one function -/

theorem chain0 (v : Vec F S16 .f32) : k0_pay62 v = red16 v := rfl
theorem chain1 (v : Vec F S16 .f32) : k0_pay63 v = red16 v := rfl
theorem chain2 (v : Vec F S16 .f32) : k0_pay64 v = red16 v := rfl
theorem chain3 (v : Vec F S16 .f32) : k0_pay67 (k0_pay65 v) (k0_pay66 v) = red16 v := rfl
theorem chain4 (v : Vec F S16 .f32) : k0_pay71 (k0_pay68 v) (k0_pay69 v) (k0_pay70 v) = red16 v := rfl
theorem chain5 (v : Vec F S16 .f32) : k0_pay75 (k0_pay72 v) (k0_pay73 v) (k0_pay74 v) = red16 v := rfl
theorem chain6 (v : Vec F S16 .f32) : k0_pay80 (k0_pay76 v) (k0_pay77 v) (k0_pay78 v) (k0_pay79 v) = red16 v := rfl
theorem chain7 (v : Vec F S16 .f32) : k0_pay85 (k0_pay81 v) (k0_pay82 v) (k0_pay83 v) (k0_pay84 v) = red16 v := rfl
theorem chain8 (v : Vec F S16 .f32) : k0_pay89 (k0_pay86 v) (k0_pay87 v) (k0_pay88 v) = red16 v := rfl
theorem chain9 (v : Vec F S16 .f32) : k0_pay95 (k0_pay90 v) (k0_pay91 v) (k0_pay92 v) (k0_pay93 v) (k0_pay94 v) = red16 v := rfl
theorem chain10 (v : Vec F S16 .f32) : k0_pay102 (k0_pay96 v) (k0_pay97 v) (k0_pay98 v) (k0_pay99 v) (k0_pay100 v) (k0_pay101 v) = red16 v := rfl
theorem chain11 (v : Vec F S16 .f32) : k0_pay108 (k0_pay103 v) (k0_pay104 v) (k0_pay105 v) (k0_pay106 v) (k0_pay107 v) = red16 v := rfl
theorem chain12 (v : Vec F S16 .f32) : k0_pay114 (k0_pay109 v) (k0_pay110 v) (k0_pay111 v) (k0_pay112 v) (k0_pay113 v) = red16 v := rfl
theorem chain13 (v : Vec F S16 .f32) : k0_pay122 (k0_pay116 v) (k0_pay117 v) (k0_pay118 v) (k0_pay119 v) (k0_pay120 v) (k0_pay121 v) = red16 v := rfl
theorem chain14 (v : Vec F S16 .f32) : k0_pay126 (k0_pay124 v) (k0_pay125 v) = red16 v := rfl
theorem chain15 (v : Vec F S16 .f32) : k0_pay127 v = red16 v := rfl

/-- The least of sixteen lanes as the tree of pairwise minima over the elements. -/
theorem red16_tree (v : Vec F S16 .f32) : red16 v = (Scalar.minimumf (Scalar.minimumf (Scalar.minimumf (Scalar.minimumf (v (ix1 0)) (v (ix1 1))) (Scalar.minimumf (v (ix1 2)) (v (ix1 3)))) (Scalar.minimumf (Scalar.minimumf (v (ix1 4)) (v (ix1 5))) (Scalar.minimumf (v (ix1 6)) (v (ix1 7))))) (Scalar.minimumf (Scalar.minimumf (Scalar.minimumf (v (ix1 8)) (v (ix1 9))) (Scalar.minimumf (v (ix1 10)) (v (ix1 11)))) (Scalar.minimumf (Scalar.minimumf (v (ix1 12)) (v (ix1 13))) (Scalar.minimumf (v (ix1 14)) (v (ix1 15)))))) := by
  have hv : shapeCast S16 v shapeCasts_S16_S16 = v := shapeCast_self v _
  unfold red16 k0_pay62
  simp only [hv, laneAt0, laneAt1, laneAt2, laneAt3, laneAt4, laneAt5, laneAt6, laneAt7, laneAt8, laneAt9, laneAt10, laneAt11, laneAt12, laneAt13, laneAt14, laneAt15]

/-- Lane `l` of the assembled row vector is the `l`-th scalar. -/
theorem rowV_apply (ss : Fin 16 → Elt F .f32) (l : Fin 16) : rowV ss (ix1 l) = ss l := by
  unfold rowV k0_pay5 k0_pay129 k0_pay128
  simp only [shapeCast_self]
  fin_cases l <;> rfl

end Cert.Proof.S1W

end
-- ==== Proof.TcValW.lean ====
/-
  The value of the matrix unit's pipeline, as pure functions: the carried 8 × 1024 array of running minima after each
  of the fifteen grid points, the row of minima the last point writes, and, over the extended reals, what that row is:
  column m holds the least of D b m over the rows b = 1024 … 16383.
-/
import proofs.«209935_g88441966559691_cont_sun_c4_661_34_alg».proof.Proof.IfaceW
import Idealize.ShloMosaic.Lib.ValueIdx
import Idealize.ShloMosaic.Lib.ValueLayout
import Idealize.ShloMosaic.Lib.Pipeline.Value
import Idealize.ShloMosaic.PureOps.Ideal.Laws

noncomputable section

namespace Cert.Proof.TcVW

open Cert.Kernel Cert.Kernel.Gen
open Idealize.ShloMosaic
open Idealize.ShloMosaic.ValueIdx
open Cert.Proof.KIW

variable {F : FTy → Type} [FloatOps F]

/-! ## The pipeline's value, at any float instance -/

/-- The block of z the pipeline's first window shows at grid point t: rows 1024 (t + 1) … 1024 (t + 1) + 1023. -/
def zBlk (z : Vec F S16384x16 .f32) (t : Fin cfg1.grid.N) : Vec F S1024x16 .f32 :=
  ((cfg1.win 0).blk t).view.read (Elt F) z

theorem gridN : cfg1.grid.N = 15 := by decide

/-- The same with the point a natural number (point 0's block past the grid's end; never used there). -/
def zBlkN (z : Vec F S16384x16 .f32) (n : ℕ) : Vec F S1024x16 .f32 :=
  if h : n < cfg1.grid.N then zBlk z ⟨n, h⟩ else zBlk z ⟨0, by decide⟩

theorem zBlkN_val (z : Vec F S16384x16 .f32) (t : Fin cfg1.grid.N) : zBlkN z t.val = zBlk z t := by
  unfold zBlkN; rw [dif_pos t.isLt]

/-- The carried array of running minima after grid point t: point 0 starts from the array of +∞. -/
def accAt (z : Vec F S16384x16 .f32) (v10 : Vec F S16x1024 .f32) : ℕ → Vec F S8x1024 .f32
  | 0 => k1_pay2 (zBlkN z 0) v10 k1_pay1
  | t + 1 => k1_pay2 (zBlkN z (t + 1)) v10 (accAt z v10 t)

/-- What point t leaves, from what it finds: at point 0 the array of +∞ it has just stored, later what point t - 1 left. -/
theorem accAt_step (z : Vec F S16384x16 .f32) (v10 : Vec F S16x1024 .f32) (t : Fin cfg1.grid.N) :
    accAt z v10 t.val = k1_pay2 (zBlk z t) v10 (if t.val = 0 then k1_pay1 else accAt z v10 (t.val - 1)) := by
  rw [← zBlkN_val]
  obtain ⟨n, hn⟩ := t
  cases n with
  | zero => rfl
  | succ n => show k1_pay2 _ _ _ = _; rw [if_neg (Nat.succ_ne_zero n)]; rfl

/-- The row of minima the last grid point writes. -/
def tcRow (z : Vec F S16384x16 .f32) (v10 : Vec F S16x1024 .f32) : Vec F S1x1024 .f32 := k1_pay3 (accAt z v10 14)

/-- The pipeline's second operand (-2 e, padded, transposed) and its result (the row of minima), as locations of device d. -/
abbrev v10Loc (d : Dev nD) : Loc nD τ sig := (SparseCore.T d).loc main_v10
abbrev v12Loc (d : Dev nD) : Loc nD τ sig := (SparseCore.T d).loc main_v12

/-- What the pipeline leaves in its result array, given the contents of its two operands. -/
def PostTC {d : Dev nD} (z : Buf (Elt F) (a0Loc d)) (v10 : Buf (Elt F) (v10Loc d)) (f : Buf (Elt F) (v12Loc d)) : Prop :=
  f = tcRow (F := F) z v10

/-! ## The block at an index -/

/-- The first window's block index at point t is (t + 1, 0). -/
theorem win0_index (t : Fin cfg1.grid.N) : win1_0.index t 0 = t.val + 1 ∧ win1_0.index t 1 = 0 :=
  (by decide +kernel : ∀ t : Fin cfg1.grid.N, win1_0.index t 0 = t.val + 1 ∧ win1_0.index t 1 = 0) t

/-- Entry (p, j) of the block at point t is entry (1024 (t + 1) + p, j) of z. -/
theorem zBlk_apply (z : Vec F S16384x16 .f32) (t : Fin cfg1.grid.N) (p : Fin 1024) (j : Fin 16)
    (hb : 1024 * (t.val + 1) + p.val < 16384) :
    zBlk z t (ix2 p j) = z (ix2 (⟨1024 * (t.val + 1) + p.val, hb⟩ : Fin 16384) j) := by
  show z (((cfg1.win 0).blk t).view.emb (ix2 p j)) = z _
  refine congrArg z (funext fun a => Fin.ext ?_)
  match a with
  | ⟨0, _⟩ =>
    show win1_0.index t 0 * 1024 + 1 * p.val = 1024 * (t.val + 1) + p.val
    rw [(win0_index t).1]; omega
  | ⟨1, _⟩ =>
    show win1_0.index t 1 * 16 + 1 * j.val = j.val
    rw [(win0_index t).2]; omega

end Cert.Proof.TcVW

end
-- ==== Proof.S2ValW.lean ====
/-
  The value of the second vector-subcore call, as pure functions of the three arrays it reads: the partial minima
  (32 × 1024), the matrix unit's row of minima (1024) and the padded transposed codebook (16 × 1024). Trip `t` of
  its loop reads columns `16 t … 16 t + 15`: the least of the 33 minima per column, the sum of the 16 squares per
  column, and adds their sum into a 16-lane accumulator on the lanes whose column is below 1000. After the loop the
  16 lanes are added up in order and scaled by `1/1000`.
-/
import proofs.«209935_g88441966559691_cont_sun_c4_661_34_alg».proof.Proof.IfaceW
import Idealize.ShloMosaic.Lib.ValueIdx
import Idealize.ShloMosaic.PureOps.Ideal.Laws

noncomputable section

namespace Cert.Proof.S2W

open Cert.Kernel Cert.Kernel.Gen
open Idealize.ShloMosaic
open Cert.Proof.KIW

variable {F : FTy → Type} [FloatOps F]

/-- A grid point at which the call's guard holds: evidence for the range facts of the printed offsets. -/
def i0 : grid2.Coords := fun a => ⟨0, by revert a; decide⟩
theorem h0 : k2_cond1 i0 = 1#1 := by decide

/-- The trips of the loop over the 64 groups of 16 columns. -/
abbrev Trip : Type := Fin k2_t1_loop.trips

/-- Sixteen consecutive columns of one row of the partial minima, from the offsets `off`. -/
def ldP (f : Vec F S32x1024 .f32) (off : Fin 2 → ℕ) (inb : ∀ a, off a + S1x16.size a ≤ S32x1024.size a) : Vec F S1x16 .f32 :=
  fun x => f ((Rect.unit (s := S32x1024) off S1x16.size inb).idx x)
/-- Sixteen consecutive entries of the row of minima. -/
def ldT (tc : Vec F S1024 .f32) (off : Fin 1 → ℕ) (inb : ∀ a, off a + S16.size a ≤ S1024.size a) : Vec F S16 .f32 :=
  fun x => tc ((Rect.unit (s := S1024) off S16.size inb).idx x)
/-- Sixteen consecutive columns of one row of the transposed codebook. -/
def ldE (et : Vec F S16x1024 .f32) (off : Fin 2 → ℕ) (inb : ∀ a, off a + S1x16.size a ≤ S16x1024.size a) : Vec F S1x16 .f32 :=
  fun x => et ((Rect.unit (s := S16x1024) off S1x16.size inb).idx x)

variable (f : Vec F S32x1024 .f32) (tc : Vec F S1024 .f32) (et : Vec F S16x1024 .f32)

/-- The least of rows 0 … 8 of the partial minima and of the row of minima, per column of trip `t`. -/
def mv2 (t : Trip) : FVec F S16 .f32 :=
  k2_pay2 (ldP f (k2_off1 t) (k2_off1_inb i0 t h0)) (ldT tc (k2_off2 t) (k2_off2_inb i0 t h0)) (ldP f (k2_off3 t) (k2_off3_inb i0 t h0)) (ldP f (k2_off4 t) (k2_off4_inb i0 t h0)) (ldP f (k2_off5 t) (k2_off5_inb i0 t h0)) (ldP f (k2_off6 t) (k2_off6_inb i0 t h0)) (ldP f (k2_off7 t) (k2_off7_inb i0 t h0)) (ldP f (k2_off8 t) (k2_off8_inb i0 t h0)) (ldP f (k2_off9 t) (k2_off9_inb i0 t h0)) (ldP f (k2_off10 t) (k2_off10_inb i0 t h0))
/-- … and of rows 9 … 18, -/
def mv3 (t : Trip) : FVec F S16 .f32 :=
  k2_pay3 (mv2 f tc t) (ldP f (k2_off11 t) (k2_off11_inb i0 t h0)) (ldP f (k2_off12 t) (k2_off12_inb i0 t h0)) (ldP f (k2_off13 t) (k2_off13_inb i0 t h0)) (ldP f (k2_off14 t) (k2_off14_inb i0 t h0)) (ldP f (k2_off15 t) (k2_off15_inb i0 t h0)) (ldP f (k2_off16 t) (k2_off16_inb i0 t h0)) (ldP f (k2_off17 t) (k2_off17_inb i0 t h0)) (ldP f (k2_off18 t) (k2_off18_inb i0 t h0)) (ldP f (k2_off19 t) (k2_off19_inb i0 t h0)) (ldP f (k2_off20 t) (k2_off20_inb i0 t h0))
/-- … and of rows 19 … 28, -/
def mv4 (t : Trip) : FVec F S16 .f32 :=
  k2_pay4 (mv3 f tc t) (ldP f (k2_off21 t) (k2_off21_inb i0 t h0)) (ldP f (k2_off22 t) (k2_off22_inb i0 t h0)) (ldP f (k2_off23 t) (k2_off23_inb i0 t h0)) (ldP f (k2_off24 t) (k2_off24_inb i0 t h0)) (ldP f (k2_off25 t) (k2_off25_inb i0 t h0)) (ldP f (k2_off26 t) (k2_off26_inb i0 t h0)) (ldP f (k2_off27 t) (k2_off27_inb i0 t h0)) (ldP f (k2_off28 t) (k2_off28_inb i0 t h0)) (ldP f (k2_off29 t) (k2_off29_inb i0 t h0)) (ldP f (k2_off30 t) (k2_off30_inb i0 t h0))
/-- … and of rows 29, 30, 31: the least of all 33. -/
def mv5 (t : Trip) : FVec F S16 .f32 :=
  k2_pay5 (mv4 f tc t) (ldP f (k2_off31 t) (k2_off31_inb i0 t h0)) (ldP f (k2_off32 t) (k2_off32_inb i0 t h0)) (ldP f (k2_off33 t) (k2_off33_inb i0 t h0))

/-- The squares of rows 0, 1, 2 of the codebook, added in order, per column of trip `t`. -/
def en6 (t : Trip) : FVec F S16 .f32 :=
  k2_pay6 (ldE et (k2_off34 t) (k2_off34_inb i0 t h0)) (ldE et (k2_off34 t) (k2_off34_inb i0 t h0)) (ldE et (k2_off35 t) (k2_off35_inb i0 t h0)) (ldE et (k2_off35 t) (k2_off35_inb i0 t h0)) (ldE et (k2_off36 t) (k2_off36_inb i0 t h0)) (ldE et (k2_off36 t) (k2_off36_inb i0 t h0))
/-- Row 3. -/
def x7 (t : Trip) : FVec F S16 .f32 := k2_pay7 (ldE et (k2_off37 t) (k2_off37_inb i0 t h0))
/-- The squares of rows 0 … 7. -/
def en8 (t : Trip) : FVec F S16 .f32 :=
  k2_pay8 (en6 et t) (x7 et t) (ldE et (k2_off37 t) (k2_off37_inb i0 t h0)) (ldE et (k2_off38 t) (k2_off38_inb i0 t h0)) (ldE et (k2_off38 t) (k2_off38_inb i0 t h0)) (ldE et (k2_off39 t) (k2_off39_inb i0 t h0)) (ldE et (k2_off39 t) (k2_off39_inb i0 t h0)) (ldE et (k2_off40 t) (k2_off40_inb i0 t h0)) (ldE et (k2_off40 t) (k2_off40_inb i0 t h0)) (ldE et (k2_off41 t) (k2_off41_inb i0 t h0)) (ldE et (k2_off41 t) (k2_off41_inb i0 t h0))
/-- Row 8. -/
def x9 (t : Trip) : FVec F S16 .f32 := k2_pay9 (ldE et (k2_off42 t) (k2_off42_inb i0 t h0))
/-- The squares of rows 0 … 12. -/
def en10 (t : Trip) : FVec F S16 .f32 :=
  k2_pay10 (en8 et t) (x9 et t) (ldE et (k2_off42 t) (k2_off42_inb i0 t h0)) (ldE et (k2_off43 t) (k2_off43_inb i0 t h0)) (ldE et (k2_off43 t) (k2_off43_inb i0 t h0)) (ldE et (k2_off44 t) (k2_off44_inb i0 t h0)) (ldE et (k2_off44 t) (k2_off44_inb i0 t h0)) (ldE et (k2_off45 t) (k2_off45_inb i0 t h0)) (ldE et (k2_off45 t) (k2_off45_inb i0 t h0)) (ldE et (k2_off46 t) (k2_off46_inb i0 t h0)) (ldE et (k2_off46 t) (k2_off46_inb i0 t h0))
/-- Row 13. -/
def x11 (t : Trip) : FVec F S16 .f32 := k2_pay11 (ldE et (k2_off47 t) (k2_off47_inb i0 t h0))

/-- One trip: the accumulator after trip `t` from the accumulator before it. -/
def stepAt (t : Trip) (acc : FVec F S16 .f32) : FVec F S16 .f32 :=
  k2_pay13 acc (Scf.iv 0#32 1#32 t) (mv5 f tc t) (en10 et t) (x11 et t) (ldE et (k2_off47 t) (k2_off47_inb i0 t h0)) (ldE et (k2_off48 t) (k2_off48_inb i0 t h0)) (ldE et (k2_off48 t) (k2_off48_inb i0 t h0)) (ldE et (k2_off49 t) (k2_off49_inb i0 t h0)) (ldE et (k2_off49 t) (k2_off49_inb i0 t h0))

/-- The accumulator before trip `n`. -/
def saccAt : ℕ → FVec F S16 .f32
  | 0 => k2_pay12
  | n + 1 => if h : n < k2_t1_loop.trips then stepAt f tc et ⟨n, h⟩ (saccAt n) else saccAt n

theorem saccAt_zero : saccAt f tc et 0 = k2_pay12 := rfl
theorem saccAt_succ (t : Trip) : saccAt f tc et (t.val + 1) = stepAt f tc et t (saccAt f tc et t.val) := by
  show (if h : t.val < k2_t1_loop.trips then stepAt f tc et ⟨t.val, h⟩ (saccAt f tc et t.val) else saccAt f tc et t.val) = _
  rw [dif_pos t.isLt]

/-- The vector the call stores and copies out: the 16 lanes added in order, scaled, on every lane. -/
def out2 : FVec F S16 .f32 :=
  k2_pay1 (k2_pay14 (saccAt f tc et k2_t1_loop.trips)) (k2_pay15 (saccAt f tc et k2_t1_loop.trips))

/-- What the call leaves in the result vector, from the contents of the three arrays it reads. -/
def Post2 {d : Dev nD} (f : Buf (Elt F) (ptLoc d)) (tc : Buf (Elt F) (tcLoc d)) (et : Buf (Elt F) (etLoc d))
    (o : Buf (Elt F) (ouLoc d)) : Prop :=
  o = out2 f tc et

end Cert.Proof.S2W

end
-- ==== Proof.Vals0W.lean ====
/-
  The stages wired together: the contents of the three host-computed operands as functions of the launch memory, what
  each tile of the first call leaves in its row (the least of the distances over its 32 points), what the
  pipeline leaves (the least over the remaining rows, read through the reshape), and what the second call leaves
  (the masked sum over the 1000 columns, scaled) of whatever the first two left.
-/
import proofs.«209935_g88441966559691_cont_sun_c4_661_34_alg».proof.Proof.IfaceW
import proofs.«209935_g88441966559691_cont_sun_c4_661_34_alg».proof.Proof.HostValW
import proofs.«209935_g88441966559691_cont_sun_c4_661_34_alg».proof.Proof.S1ValW
import proofs.«209935_g88441966559691_cont_sun_c4_661_34_alg».proof.Proof.TcValW
import proofs.«209935_g88441966559691_cont_sun_c4_661_34_alg».proof.Proof.S2ValW

noncomputable section

namespace Cert.Proof.RnW

open Cert.Kernel Cert.Kernel.Gen
open Cert.Proof.KIW
open Idealize.ShloMosaic
open Idealize.SL.Sem

variable {F : FTy → Type} [FloatOps F]

variable (m : (ℓ : Loc nD τ sig) → Buf (Elt F) ℓ)

/-- What tile `w` of the first call leaves in row `w`, over the launch memory. -/
def post0 (d : Dev nD) (w : Fin 32) (f : Buf (Elt F) (ptLoc d)) : Prop :=
  Cert.Proof.S1W.Post0 (d := d) (Cert.Proof.HVW.ztV (m (a0Loc d))) (Cert.Proof.HVW.e2V (m (a1Loc d))) w f
/-- What the pipeline leaves, read through the reshape of its 1 × 1024 row to 1024. -/
def postTC (d : Dev nD) (tc : Buf (Elt F) (tcLoc d)) : Prop :=
  ∃ f12 : Buf (Elt F) (Cert.Proof.TcVW.v12Loc d),
    Cert.Proof.TcVW.PostTC (d := d) (m (a0Loc d)) (Cert.Proof.HVW.v10V (m (a1Loc d))) f12 ∧ tc = Cert.Proof.HVW.v13V f12
/-- What the second call leaves, of whatever the first call and the pipeline left. -/
def post2 (d : Dev nD) (o : Buf (Elt F) (ouLoc d)) : Prop :=
  ∃ (f : Buf (Elt F) (ptLoc d)) (tc : Buf (Elt F) (tcLoc d)), (∀ w, post0 m d w f) ∧ postTC m d tc
    ∧ Cert.Proof.S2W.Post2 (d := d) f tc (Cert.Proof.HVW.etV (m (a1Loc d))) o

def X : Vals F where
  zt d := Cert.Proof.HVW.ztV (m (a0Loc d))
  e2 d := Cert.Proof.HVW.e2V (m (a1Loc d))
  et d := Cert.Proof.HVW.etV (m (a1Loc d))
  post0 := post0 m
  postTC := postTC m
  post2 := post2 m

end Cert.Proof.RnW

end
-- ==== Proof.LocalW.lean ====
/-
  What the first call's tile `w` is required to leave speaks of row `w` of the partial minima only: two contents of
  the array that agree on that row satisfy it together.
-/
import proofs.«209935_g88441966559691_cont_sun_c4_661_34_alg».proof.Proof.IfaceW
import proofs.«209935_g88441966559691_cont_sun_c4_661_34_alg».proof.Proof.S1ValW

noncomputable section

namespace Cert.Proof.LcW

open Cert.Kernel
open Idealize.ShloMosaic Idealize.ShloMosaic.ValueIdx
open Cert.Proof.KIW

variable {F : FTy → Type} [FloatOps F]

/-- Column `m` of row `w` lies in row `w`: the `w`-th of the 32 parts along the first axis. -/
theorem mem_pRowSet (w : Fin 32) (m : Fin 1024) : (ix2 w m : S32x1024.Idx) ∈ pRowSet w := by
  refine Rect.mem_set_unit.mpr fun a => ?_
  match a with
  | ⟨0, _⟩ =>
    show w.val * (32 / 32) ≤ w.val ∧ w.val < w.val * (32 / 32) + 32 / 32
    omega
  | ⟨1, _⟩ =>
    show 0 * 1024 ≤ m.val ∧ m.val < 0 * 1024 + 1024
    omega

/-- The tile's post reads the array on its own row only. -/
theorem post0_local {d : Dev nD} (zt : Buf (Elt F) (ztLoc d)) (e2 : Buf (Elt F) (e2Loc d)) (w : Fin 32)
    (f g : Buf (Elt F) (ptLoc d)) (h : ∀ x ∈ pRowSet w, f x = g x) :
    Cert.Proof.S1W.Post0 zt e2 w f → Cert.Proof.S1W.Post0 zt e2 w g :=
  fun hf m => (h _ (mem_pRowSet w _)).symm.trans (hf m)

end Cert.Proof.LcW

end
-- ==== Proof.S2BodyW.lean ====
/-
  The body of the second vector-subcore call on one tile at a symbolic place: the tile at coordinates (0, 0) copies
  the partial minima, the dense row of minima and the padded transposed table into its scratch, folds 64 trips of a
  carried 16-lane accumulator over them, adds the lanes, scales, and copies the 16-lane result out; every other tile
  does nothing. From it, the launch theorem's obligation for that call.
-/
import proofs.«209935_g88441966559691_cont_sun_c4_661_34_alg».proof.Proof.IfaceW
import proofs.«209935_g88441966559691_cont_sun_c4_661_34_alg».proof.Proof.S2ValW

noncomputable section

namespace Cert.Proof.S2BW

open Cert.Kernel Cert.Kernel.Gen
open Cert.Proof.KIW

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type} [FloatOps F]

local notation "𝕄" => MT nD τ sig (HIx 2) (Elt F) ℕ UU ℕ

-- the kernel's memrefs, spelt as the body table passes them
local notation "pW" => (Memref.whole Cert.Kernel.main_v11_scv : Memref Cert.Kernel.sig Kind.scVector Space.hbm Cert.Kernel.S32x1024 EltTy.f32)
local notation "tW" => (Memref.whole Cert.Kernel.main_v13_scv : Memref Cert.Kernel.sig Kind.scVector Space.hbm Cert.Kernel.S1024 EltTy.f32)
local notation "eW" => (Memref.whole Cert.Kernel.main_v8_scv : Memref Cert.Kernel.sig Kind.scVector Space.hbm Cert.Kernel.S16x1024 EltTy.f32)
local notation "oW" => (Memref.whole Cert.Kernel.main_v14_scv : Memref Cert.Kernel.sig Kind.scVector Space.hbm Cert.Kernel.S16 EltTy.f32)
local notation "sP" => (Memref.whole Cert.Kernel.cc2_scratch0 : Memref Cert.Kernel.sig Kind.scVector Space.vmem Cert.Kernel.S32x1024 EltTy.f32)
local notation "sT" => (Memref.whole Cert.Kernel.cc2_scratch1 : Memref Cert.Kernel.sig Kind.scVector Space.vmem Cert.Kernel.S1024 EltTy.f32)
local notation "sE" => (Memref.whole Cert.Kernel.cc2_scratch2 : Memref Cert.Kernel.sig Kind.scVector Space.vmem Cert.Kernel.S16x1024 EltTy.f32)
local notation "sO" => (Memref.whole Cert.Kernel.cc2_scratch3 : Memref Cert.Kernel.sig Kind.scVector Space.vmem Cert.Kernel.S16 EltTy.f32)

section Tile

variable (X : Vals F) (d : Dev nD) (L : grid2.Coords)

abbrev cV (L : grid2.Coords) : Fin τ.nSC := (L 0).castLE hcore2
abbrev jV (L : grid2.Coords) : Fin τ.nSub := (L 1).castLE hsub2
abbrev thr (d : Dev nD) (L : grid2.Coords) : Thread nD τ := V d (cV L) (jV L)

abbrev cell0 (d : Dev nD) (L : grid2.Coords) : GSem nD τ sig := (thr d L, .dma cc2_scoped0.sem)
abbrev cell1 (d : Dev nD) (L : grid2.Coords) : GSem nD τ sig := (thr d L, .dma cc2_scoped1.sem)
abbrev cell2 (d : Dev nD) (L : grid2.Coords) : GSem nD τ sig := (thr d L, .dma cc2_scoped2.sem)
abbrev cell3 (d : Dev nD) (L : grid2.Coords) : GSem nD τ sig := (thr d L, .dma cc2_scoped3.sem)

omit [FloatOps F] in
theorem cell_ne {a b : DmaSem sig} (h : a ≠ b) : ((thr d L, SemLoc.dma a) : GSem nD τ sig) ≠ (thr d L, SemLoc.dma b) :=
  fun e => h (SemLoc.dma.inj (Prod.mk.inj e).2)

omit [FloatOps F] in
theorem ownSems0_V :
    (ownSems0 (thr d L) : sProp 𝕄)
      = iprop(semVal (cell0 d L) 0 ∗ semVal (cell1 d L) 0 ∗ semVal (cell2 d L) 0 ∗ semVal (cell3 d L) 0
          ∗ bigSep (((((ownCells (thr d L)).erase (cell0 d L)).erase (cell1 d L)).erase (cell2 d L)).erase (cell3 d L))
              fun g => semVal g 0) := by
  unfold SparseCore.Cfg.ownSems0
  rw [SparseCore.bigSep_erase' ((mem_ownCells (g := cell0 d L)).mpr ⟨rfl, by
      show (SemLoc.dma cc2_scoped0.sem : SemLoc sig).isScoped .scVector = true; decide⟩),
    SparseCore.bigSep_erase' (Finset.mem_erase.mpr ⟨cell_ne d L (by decide),
      (mem_ownCells (g := cell1 d L)).mpr ⟨rfl, by show (SemLoc.dma cc2_scoped1.sem : SemLoc sig).isScoped .scVector = true; decide⟩⟩),
    SparseCore.bigSep_erase' (Finset.mem_erase.mpr ⟨cell_ne d L (by decide),
      Finset.mem_erase.mpr ⟨cell_ne d L (by decide),
      (mem_ownCells (g := cell2 d L)).mpr ⟨rfl, by show (SemLoc.dma cc2_scoped2.sem : SemLoc sig).isScoped .scVector = true; decide⟩⟩⟩),
    SparseCore.bigSep_erase' (Finset.mem_erase.mpr ⟨cell_ne d L (by decide),
      Finset.mem_erase.mpr ⟨cell_ne d L (by decide),
      Finset.mem_erase.mpr ⟨cell_ne d L (by decide),
      (mem_ownCells (g := cell3 d L)).mpr ⟨rfl, by show (SemLoc.dma cc2_scoped3.sem : SemLoc sig).isScoped .scVector = true; decide⟩⟩⟩⟩)]

abbrev pr (L : grid2.Coords) : Proc τ := Proc.scVector (cV L) (jV L)

omit [FloatOps F] in
/-- The four scratch buffers are among the subcore's own: they are them, at some contents, and the rest. -/
theorem ownBufs_V :
    (ownBufs (thr d L) : sProp 𝕄)
      = iprop((∃ f, (thr d L).loc cc2_scratch0 ↦{fullShare} f) ∗ (∃ f, (thr d L).loc cc2_scratch1 ↦{fullShare} f)
          ∗ (∃ f, (thr d L).loc cc2_scratch2 ↦{fullShare} f) ∗ (∃ f, (thr d L).loc cc2_scratch3 ↦{fullShare} f)
          ∗ bigSep (((((ownRefs (τ := τ) (.scVector (cV L) (jV L))).erase ((pr L).devRef cc2_scratch0)).erase
              ((pr L).devRef cc2_scratch1)).erase ((pr L).devRef cc2_scratch2)).erase ((pr L).devRef cc2_scratch3))
              fun b => iprop(∃ f, ((d, b) : Loc nD τ sig) ↦{fullShare} f)) := by
  unfold SparseCore.Cfg.ownBufs
  refine (SparseCore.bigSep_erase' (SparseCore.Cfg.mem_ownRefs_of_owner (p := pr L)
    (b := (pr L).devRef cc2_scratch0) rfl)).trans ?_
  rw [SparseCore.bigSep_erase' (Finset.mem_erase.mpr ⟨fun e => absurd (Proc.devRef_injective _ e) (show (cc2_scratch1 : Ref sig .scVector) ≠ cc2_scratch0 by decide),
    SparseCore.Cfg.mem_ownRefs_of_owner (p := pr L) (b := (pr L).devRef cc2_scratch1) rfl⟩),
    SparseCore.bigSep_erase' (Finset.mem_erase.mpr ⟨fun e => absurd (Proc.devRef_injective _ e) (show (cc2_scratch2 : Ref sig .scVector) ≠ cc2_scratch1 by decide),
      Finset.mem_erase.mpr ⟨fun e => absurd (Proc.devRef_injective _ e) (show (cc2_scratch2 : Ref sig .scVector) ≠ cc2_scratch0 by decide),
    SparseCore.Cfg.mem_ownRefs_of_owner (p := pr L) (b := (pr L).devRef cc2_scratch2) rfl⟩⟩),
    SparseCore.bigSep_erase' (Finset.mem_erase.mpr ⟨fun e => absurd (Proc.devRef_injective _ e) (show (cc2_scratch3 : Ref sig .scVector) ≠ cc2_scratch2 by decide),
      Finset.mem_erase.mpr ⟨fun e => absurd (Proc.devRef_injective _ e) (show (cc2_scratch3 : Ref sig .scVector) ≠ cc2_scratch1 by decide),
      Finset.mem_erase.mpr ⟨fun e => absurd (Proc.devRef_injective _ e) (show (cc2_scratch3 : Ref sig .scVector) ≠ cc2_scratch0 by decide),
    SparseCore.Cfg.mem_ownRefs_of_owner (p := pr L) (b := (pr L).devRef cc2_scratch3) rfl⟩⟩⟩)]

omit [FloatOps F] in
/-- The arrays as the tile's memrefs address them are the TensorCore's arrays. -/
theorem pts_p (f : Buf (Elt F) (ptLoc d)) :
    ((pW).view.loc (thr d L) ↦[(pW).view.set]{fullShare} f : sProp 𝕄) = ptLoc d ↦{fullShare} f := by
  simp only [Memref.view_whole, View.set_whole]
omit [FloatOps F] in
theorem pts_t (f : Buf (Elt F) (tcLoc d)) :
    ((tW).view.loc (thr d L) ↦[(tW).view.set]{fullShare} f : sProp 𝕄) = tcLoc d ↦{fullShare} f := by
  simp only [Memref.view_whole, View.set_whole]
omit [FloatOps F] in
theorem pts_e (f : Buf (Elt F) (etLoc d)) :
    ((eW).view.loc (thr d L) ↦[(eW).view.set]{fullShare} f : sProp 𝕄) = etLoc d ↦{fullShare} f := by
  simp only [Memref.view_whole, View.set_whole]
omit [FloatOps F] in
theorem pts_o (f : Buf (Elt F) (ouLoc d)) :
    ((oW).view.loc (thr d L) ↦[(oW).view.set]{fullShare} f : sProp 𝕄) = ouLoc d ↦{fullShare} f := by
  simp only [Memref.view_whole, View.set_whole]
omit [FloatOps F] in
theorem pts_sP (f : Buf (Elt F) ((thr d L).loc cc2_scratch0)) :
    ((sP).view.loc (thr d L) ↦[(sP).view.set]{fullShare} f : sProp 𝕄) = (thr d L).loc cc2_scratch0 ↦{fullShare} f := by
  simp only [Memref.view_whole, View.set_whole]
omit [FloatOps F] in
theorem pts_sT (f : Buf (Elt F) ((thr d L).loc cc2_scratch1)) :
    ((sT).view.loc (thr d L) ↦[(sT).view.set]{fullShare} f : sProp 𝕄) = (thr d L).loc cc2_scratch1 ↦{fullShare} f := by
  simp only [Memref.view_whole, View.set_whole]
omit [FloatOps F] in
theorem pts_sE (f : Buf (Elt F) ((thr d L).loc cc2_scratch2)) :
    ((sE).view.loc (thr d L) ↦[(sE).view.set]{fullShare} f : sProp 𝕄) = (thr d L).loc cc2_scratch2 ↦{fullShare} f := by
  simp only [Memref.view_whole, View.set_whole]
omit [FloatOps F] in
theorem pts_sO (f : Buf (Elt F) ((thr d L).loc cc2_scratch3)) :
    ((sO).view.loc (thr d L) ↦[(sO).view.set]{fullShare} f : sProp 𝕄) = (thr d L).loc cc2_scratch3 ↦{fullShare} f := by
  simp only [Memref.view_whole, View.set_whole]

/-- Before trip `k`: the three scratch copies at contents that read as the three arrays, the carried accumulator the
    fold of the first `k` trips over those arrays. -/
def inv (f : Vec F S32x1024 .f32) (tc : Vec F S1024 .f32) (et : Vec F S16x1024 .f32) (k : ℕ) (acc : FVec F S16 .f32) : sProp 𝕄 :=
  iprop(∃ (g0 : Buf (Elt F) ((thr d L).loc cc2_scratch0)) (g1 : Buf (Elt F) ((thr d L).loc cc2_scratch1))
      (g2 : Buf (Elt F) ((thr d L).loc cc2_scratch2)),
    ((sP).view.loc (thr d L) ↦[(sP).view.set]{fullShare} g0) ∗ ((sT).view.loc (thr d L) ↦[(sT).view.set]{fullShare} g1)
    ∗ ((sE).view.loc (thr d L) ↦[(sE).view.set]{fullShare} g2)
    ∗ ⌜(sP).view.read (Elt F) g0 = f⌝ ∗ ⌜(sT).view.read (Elt F) g1 = tc⌝ ∗ ⌜(sE).view.read (Elt F) g2 = et⌝
    ∗ ⌜acc = Cert.Proof.S2W.saccAt f tc et k⌝)

/-- One trip: 33 loads of 16 minima, 32 loads of 16 table entries, and the accumulator's next value is the fold's. -/
theorem region (hL : k2_cond1 L = 1#1) (f : Vec F S32x1024 .f32) (tc : Vec F S1024 .f32) (et : Vec F S16x1024 .f32)
    (k : Fin k2_t1_loop.trips) (acc : FVec F S16 .f32) :
    inv d L f tc et k.val acc
      ⊢ wp frame (wpE (defs₀ (F := F)) 𝒱₀ (thr d L) none) Set.univ
          (k2_t1_body L pW (Memref.isWhole_whole _) tW (Memref.isWhole_whole _) eW (Memref.isWhole_whole _) oW (Memref.isWhole_whole _)
            sP (Memref.isWhole_whole _) sT (Memref.isWhole_whole _) sE (Memref.isWhole_whole _) sO (Memref.isWhole_whole _)
            cc2_scoped0 cc2_scoped1 cc2_scoped2 cc2_scoped3 hL k acc)
          (inv d L f tc et (k.val + 1)) := by
  sl_unfold [k2_t1_body]
  rw [k2_part1_eq_skeleton, k2_part2_eq_skeleton, k2_part3_eq_skeleton, k2_part4_eq_skeleton, k2_part5_eq_skeleton, k2_part6_eq_skeleton]
  unfold inv
  iintro ⟨%g0, %g1, %g2, H0, H1, H2, %e0, %e1, %e2, %hacc⟩
  sl_exec
  sl_step
  iexists g0, g1, g2
  isplitl [H0]; · iexact H0
  isplitl [H1]; · iexact H1
  isplitl [H2]; · iexact H2
  isplitr; · ipureintro; exact e0
  isplitr; · ipureintro; exact e1
  isplitr; · ipureintro; exact e2
  ipureintro
  subst hacc e0 e1 e2
  rw [Cert.Proof.S2W.saccAt_succ]
  rfl

omit [FloatOps F] in
/-- The rectangle of all 16 lanes places each lane at itself. -/
theorem emb_all16 (x : (Rect.unit (s := S16) ![0] S16.size inb_S16_S16_0).shape.Idx) :
    (Rect.unit (s := S16) ![0] S16.size inb_S16_S16_0).emb x = x := by
  funext a; apply Fin.ext
  show (![0] : Fin 1 → ℕ) a + 1 * (x a : ℕ) = x a
  have : (![0] : Fin 1 → ℕ) a = 0 := by fin_cases a; rfl
  omega

omit [FloatOps F] in
/-- The result scratch after the store of all 16 lanes reads as what was stored. -/
theorem read_store_all16 (g : Buf (Elt F) ((thr d L).loc cc2_scratch3)) (w : S16.Idx → Elt F .f32) :
    (sO).view.read (Elt F) ((sO).view.writes (Elt F) g [⟨Rect.unit (s := S16) ![0] S16.size inb_S16_S16_0, w⟩]) = w := by
  funext y
  have h := View.read_writes_cons_emb (sO).view g (Rect.unit (s := S16) ![0] S16.size inb_S16_S16_0) w [] y
  rwa [emb_all16] at h

theorem tile_body (hX : ∀ d f tc o, (∀ w, X.post0 d w f) → X.postTC d tc → Cert.Proof.S2W.Post2 f tc (X.et d) o → X.post2 d o)
    (hL : k2_cond1 L = 1#1) (O : CellTallies nD τ sig (HIx 2)) (W : Waits sig (HIx 2)) (hO : ∀ g, O g none = 0) :
    iprop(levAts (K (F := F)).L (K (F := F)).lev ∗ emp ∗ go1 X d
        ∗ scopedBufs (thr d L) ∗ scopedSems0 (thr d L) ∗ owes (thr d L) O W)
      ⊢ wp frame (wpE (defs₀ (F := F)) 𝒱₀ (thr d L) none) Set.univ
          (cc2__sc_stage2 L pW (Memref.isWhole_whole _) tW (Memref.isWhole_whole _) eW (Memref.isWhole_whole _) oW (Memref.isWhole_whole _)
            sP (Memref.isWhole_whole _) sT (Memref.isWhole_whole _) sE (Memref.isWhole_whole _) sO (Memref.isWhole_whole _) cc2_scoped0 cc2_scoped1 cc2_scoped2 cc2_scoped3)
          fun _ => iprop(td1 X d ∗ scopedBufs (thr d L) ∗ scopedSems0 (thr d L)
            ∗ ∃ W', ⌜∀ p ∈ W', p ∈ W ∨ p.2 = none⌝ ∗ owes (thr d L) O W') := by
  sl_unfold [cc2__sc_stage2, cc2__sc_stage2_skel]
  rw [k2_part7_eq_skeleton]
  rw [(K (F := F)).scopedBufs_V facts d (cV L) (jV L), SparseCore.Cfg.scopedSems0_V (Val := Elt F) d (cV L) (jV L), ownSems0_V, ownBufs_V]
  unfold go1 td1
  iintro ⟨#Hlv, -, ⟨%f, %tc, %hf, %htc, Hp, Ht, He, %o0, Ho⟩, ⟨⟨%g0, Hs0⟩, ⟨%g1, Hs1⟩, ⟨%g2, Hs2⟩, ⟨%g3, Hs3⟩, Hbufs⟩, ⟨Hsem0, Hsem1, Hsem2, Hsem3, Hsems⟩, HO⟩
  ihave Hmw := ((K (F := F)).mayWaits_none (thr := thr d L) hO) $$ Hlv
  ihave Hp' := (Entails.of_eq (pts_p (F := F) d L _).symm) $$ Hp
  ihave Ht' := (Entails.of_eq (pts_t (F := F) d L _).symm) $$ Ht
  ihave He' := (Entails.of_eq (pts_e (F := F) d L _).symm) $$ He
  ihave Ho' := (Entails.of_eq (pts_o (F := F) d L _).symm) $$ Ho
  ihave Hs0' := (Entails.of_eq (pts_sP (F := F) d L _).symm) $$ Hs0
  ihave Hs1' := (Entails.of_eq (pts_sT (F := F) d L _).symm) $$ Hs1
  ihave Hs2' := (Entails.of_eq (pts_sE (F := F) d L _).symm) $$ Hs2
  ihave Hs3' := (Entails.of_eq (pts_sO (F := F) d L _).symm) $$ Hs3
  -- the three copies in, each waited at once
  sl_exec
  -- the 64 trips
  sl_for (inv d L f tc (X.et d)) $$ [Hs0' Hs1' Hs2']
  case region =>
    intro k acc
    exact region d L hL f tc (X.et d) k acc
  · unfold inv
    iexists _, _, _
    isplitl [Hs0']; · iexact Hs0'
    isplitl [Hs1']; · iexact Hs1'
    isplitl [Hs2']; · iexact Hs2'
    isplitr; · ipureintro; exact View.read_writes_whole _ _ _
    isplitr; · ipureintro; exact View.read_writes_whole _ _ _
    isplitr; · ipureintro; exact View.read_writes_whole _ _ _
    ipureintro
    rfl
  iintro %acc HI
  unfold inv
  icases HI with ⟨%g0', %g1', %g2', H0, H1, H2, -, -, -, %hacc⟩
  -- the lanes added, scaled, stored, copied out
  sl_exec
  sl_step
  isplitl [Hp' Ht' He' Ho']
  · isplitl [Hp']; · iexists _; iapply (Entails.of_eq (pts_p (F := F) d L _)); iexact Hp'
    isplitl [Ht']; · iexists _; iapply (Entails.of_eq (pts_t (F := F) d L _)); iexact Ht'
    isplitl [He']; · iapply (Entails.of_eq (pts_e (F := F) d L _)); iexact He'
    iexists _; isplitr
    on_goal 2 => (iapply (Entails.of_eq (pts_o (F := F) d L _)); iexact Ho')
    ipureintro
    refine hX d f tc _ hf htc ?_
    show _ = Cert.Proof.S2W.out2 f tc (X.et d)
    subst hacc
    refine (View.read_writes_whole (oW).view o0 _).trans ?_
    sl_unfold_run_names
    exact read_store_all16 d L g3 _
  isplitl [H0 H1 H2 Hs3' Hbufs]
  · isplitl [H0]; · iexists _; iapply (Entails.of_eq (pts_sP (F := F) d L _)); iexact H0
    isplitl [H1]; · iexists _; iapply (Entails.of_eq (pts_sT (F := F) d L _)); iexact H1
    isplitl [H2]; · iexists _; iapply (Entails.of_eq (pts_sE (F := F) d L _)); iexact H2
    isplitl [Hs3']; · iexists _; iapply (Entails.of_eq (pts_sO (F := F) d L _)); iexact Hs3'
    iexact Hbufs
  isplitl [Hsem0 Hsem1 Hsem2 Hsem3 Hsems]
  · isplitl [Hsem0]; · iexact Hsem0
    isplitl [Hsem1]; · iexact Hsem1
    isplitl [Hsem2]; · iexact Hsem2
    isplitl [Hsem3]; · iexact Hsem3
    iexact Hsems
  iexists _; isplitr
  on_goal 2 => iexact HO
  ipureintro; intro p hp
  rcases Finset.mem_insert.mp hp with rfl | hp
  · exact .inr rfl
  rcases Finset.mem_insert.mp hp with rfl | hp
  · exact .inr rfl
  rcases Finset.mem_insert.mp hp with rfl | hp
  · exact .inr rfl
  rcases Finset.mem_insert.mp hp with rfl | hp
  · exact .inr rfl
  · exact .inl hp

theorem tile_idle (hL : ¬ k2_cond1 L = 1#1) (O : CellTallies nD τ sig (HIx 2)) (W : Waits sig (HIx 2)) :
    (iprop(levAts (K (F := F)).L (K (F := F)).lev ∗ emp ∗ emp
        ∗ scopedBufs (thr d L) ∗ scopedSems0 (thr d L) ∗ owes (thr d L) O W) : sProp 𝕄)
      ⊢ wp frame (wpE (defs₀ (F := F)) 𝒱₀ (thr d L) none) Set.univ
          (cc2__sc_stage2 L pW (Memref.isWhole_whole _) tW (Memref.isWhole_whole _) eW (Memref.isWhole_whole _) oW (Memref.isWhole_whole _)
            sP (Memref.isWhole_whole _) sT (Memref.isWhole_whole _) sE (Memref.isWhole_whole _) sO (Memref.isWhole_whole _) cc2_scoped0 cc2_scoped1 cc2_scoped2 cc2_scoped3)
          fun _ => iprop(emp ∗ scopedBufs (thr d L) ∗ scopedSems0 (thr d L)
            ∗ ∃ W', ⌜∀ p ∈ W', p ∈ W ∨ p.2 = none⌝ ∗ owes (thr d L) O W') := by
  sl_unfold [cc2__sc_stage2, cc2__sc_stage2_skel]
  iintro ⟨-, -, Hst, Hsb, Hss, HO⟩
  sl_exec
  sl_step
  isplitl [Hst]; · iexact Hst
  isplitl [Hsb]; · iexact Hsb
  isplitl [Hss]; · iexact Hss
  iexists W; isplitr
  · ipureintro; exact fun p hp => .inl hp
  · iexact HO

end Tile

/-! ## The launch theorem's obligation -/

def coordsV (c : Fin (grid2.bound 0)) (s : Fin (grid2.bound 1)) : grid2.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 2 ⟨⟩
      = SparseCore.onTile hcore2 hsub2 (fun c s => cc2__sc_stage2 (coordsV c s)
          pW (Memref.isWhole_whole _) tW (Memref.isWhole_whole _) eW (Memref.isWhole_whole _) oW (Memref.isWhole_whole _)
          sP (Memref.isWhole_whole _) sT (Memref.isWhole_whole _) sE (Memref.isWhole_whole _) sO (Memref.isWhole_whole _)
          cc2_scoped0 cc2_scoped1 cc2_scoped2 cc2_scoped3) ⟨⟩ c s := rfl

/-- The call's guard holds exactly on the tile at coordinates (0, 0). -/
theorem cond_iff : ∀ (c : Fin (grid2.bound 0)) (s : Fin (grid2.bound 1)), k2_cond1 (coordsV c s) = 1#1 ↔ (c.val = 0 ∧ s.val = 0) := by
  decide

omit [FloatOps F] in
theorem obl_post {t : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl1 (X : Vals F) (hX : ∀ d f tc o, (∀ w, X.post0 d w f) → X.postTC d tc → Cert.Proof.S2W.Post2 f tc (X.et d) o → X.post2 d o) :
    (K (F := F)).TileObl (D (F := F)) 𝒱 (P X) v₀ 1 := by
  intro d c i O W hO _ _
  simp only [show (P X).ox = fun _ _ => 0 from rfl, add_zero]
  change _ ⊢ wp _ _ _ (Pipeline.liftProg (defs₀ (F := F) (.scVector ((K (F := F)).core 1 c) ((K (F := F)).sub 1 i)) 2 ⟨⟩)) _
  refine BI.Entails.trans ?_ (Pipeline.wp_liftProg (D (F := F)) (Pipeline.defs_kernel pcfgs defs₀) 𝒱₀ _ Set.univ none _ _)
  have hc : ((K (F := F)).core 1 c).val < grid2.bound 0 ∧ ((K (F := F)).sub 1 i).val < grid2.bound 1 := ⟨c.isLt, i.isLt⟩
  rw [defs₀_vector]; simp only [SparseCore.onTile, hc, and_self, ↓reduceDIte]
  show iprop(_ ∗ emp ∗ (if c.val = 0 ∧ i.val = 0 then go1 X d else iprop(emp)) ∗ _) ⊢ wp _ _ _ _ (fun _ => iprop((if c.val = 0 ∧ i.val = 0 then td1 X d else iprop(emp)) ∗ _))
  by_cases h : c.val = 0 ∧ i.val = 0
  · rw [if_pos h, if_pos h]
    exact (tile_body X d (coordsV ⟨_, hc.1⟩ ⟨_, hc.2⟩) hX ((cond_iff _ _).mpr h) O W hO).trans (wp_mono frame _ _ fun _ => obl_post)
  · rw [if_neg h, if_neg h]
    exact (tile_idle d (coordsV ⟨_, hc.1⟩ ⟨_, hc.2⟩) (fun e => h ((cond_iff _ _).mp e)) O W).trans (wp_mono frame _ _ fun _ => obl_post)

end Cert.Proof.S2BW
end
-- ==== Proof.TcBlocksW.lean ====
/-
  The two windows of the matrix unit's pipeline whose block is their whole array (the second operand and the row of
  minima: index map constantly zero): a block read off the array is the array, and the array after the run is what
  the one write-back, at the last grid point, wrote.
-/
import proofs.«209935_g88441966559691_cont_sun_c4_661_34_alg».proof.Proof.IfaceW
import Idealize.ShloMosaic.Lib.Pipeline.Value

noncomputable section

namespace Cert.Proof.TcBW

open Cert.Kernel Cert.Kernel.Gen
open Cert.Proof.KIW
open Idealize.ShloMosaic Idealize.ShloMosaic.TcCoe
open Idealize.ShloMosaic.SparseCore.Cfg (HIx)
open Idealize.SL Idealize.SL.Sem

variable {F : FTy → Type} [FloatOps F]

/-- The second operand's block index is (0, 0) at every point. -/
theorem index1_zero (t : Fin cfg1.N) : (fun a => win1_1.index t a * main_v10.ty.shape.size a) = fun _ => 0 :=
  funext fun a => by fin_cases a <;> rfl

/-- The result's block index is (0, 0) at every point. -/
theorem index2_zero (t : Fin cfg1.N) : (fun a => win1_2.index t a * main_v12.ty.shape.size a) = fun _ => 0 :=
  funext fun a => by fin_cases a <;> rfl

/-- The second operand's block at any point, read off the array, is the array. -/
theorem vBlk_eq (v : Vec F S16x1024 .f32) (t : Fin cfg1.N) : ((cfg1.win 1).blk t).view.read (Elt F) v = v :=
  Memref.read_access_unit_zero (Elt F) main_v10 (index1_zero t) (fun a => by rw [congrFun (index1_zero t) a]; simp) v

/-- The result's block at any point, read off the array, is the array. -/
theorem rBlk_eq (r : Vec F S1x1024 .f32) (t : Fin cfg1.N) : ((cfg1.win 2).blk t).view.read (Elt F) r = r :=
  Memref.read_access_unit_zero (Elt F) main_v12 (index2_zero t) (fun a => by rw [congrFun (index2_zero t) a]; simp) r

/-- The result's block at any point covers the whole array. -/
theorem mem_rBlk (t : Fin cfg1.N) (i : S1x1024.Idx) : i ∈ ((cfg1.win 2).blk t).view.set := by
  show i ∈ ((View.whole main_v12).slice (win1_2.rect t)).set
  rw [View.set_slice_whole]
  exact View.mem_set_unit_zero (index2_zero t) _ i

/-- Only the last point writes the result back: the array after the run holds what the body left there. -/
theorem arrAt2_eq_of {c : Dev nD} (dat : Pipeline.Dat τ (Elt F) (HIx 2) ℕ UU ℕ cfg1 c) (r : Vec F S1x1024 .f32)
    (t₁ : Fin cfg1.N) (ht₁ : t₁.val = 14) (h : dat.after 2 t₁ = r) : dat.arrAt 2 cfg1.N = r := by
  refine dat.arrAt_eq_of_cover 2 r (fun t hf => ?_) (fun i => ⟨t₁, (flush1_2 t₁).mpr (by rw [ht₁]), mem_rBlk t₁ i⟩)
  have hN : cfg1.N = 15 := N_1
  have h14 : t.val = 14 := by have := (flush1_2 t).mp hf; have := t.isLt; omega
  obtain rfl : t = t₁ := Fin.ext (h14.trans ht₁.symm)
  show dat.after 2 t = _
  rw [h]
  exact (rBlk_eq r t).symm

theorem arrAt2_eq {c : Dev nD} (dat : Pipeline.Dat τ (Elt F) (HIx 2) ℕ UU ℕ cfg1 c) (r : Vec F S1x1024 .f32)
    (h : dat.after 2 ⟨14, by decide⟩ = r) : dat.arrAt 2 cfg1.N = r :=
  arrAt2_eq_of dat r ⟨14, by decide⟩ rfl h

end Cert.Proof.TcBW

end
-- ==== Proof.TcRegionW.lean ====
/-
  The TensorCore pipeline between the two SparseCore calls, as the TensorCore thread runs it inside the whole program.
  Grid of 15 points; at point t the body reads the first operand's window at that point (its rows 1024 (t + 1) to 1024 (t + 2) - 1, 16 wide) and the whole second
  operand (16 × 1024), and keeps in a scratch of 8 × 1024 the running minimum, over the groups of 8 rows met so far, of
  the squared norms plus the products: reset to +∞ at the first point, updated at every point, and at the last point
  its minimum over the 8 rows is stored into the result's block (1 × 1024), written back there only.
  Here: the body at a point in its three control cases, the proof data (the scratch carried between points holds the
  accumulator after each point), the body obligation, the region's record around the thread state (what the TensorCore
  owes between the calls, the three arrays), the staging cells' ghost state from the launch element, and the region's
  triple under the whole program's body table.
-/
import proofs.«209935_g88441966559691_cont_sun_c4_661_34_alg».proof.Proof.IfaceW
import proofs.«209935_g88441966559691_cont_sun_c4_661_34_alg».proof.Proof.TcValW
import proofs.«209935_g88441966559691_cont_sun_c4_661_34_alg».proof.Proof.TcBlocksW
import Idealize.ShloMosaic.Lib.Pipeline.Frame
import Idealize.ShloMosaic.Lib.Pipeline.FrameBody
import Idealize.ShloMosaic.Lib.Pipeline.Value

set_option maxRecDepth 16384

noncomputable section

namespace Cert.Proof.TcRW

open Cert.Kernel Cert.Kernel.Gen
open Cert.Proof.KIW
open Cert.Proof.TcVW (zBlk accAt accAt_step tcRow v10Loc v12Loc)

open Idealize.ShloMosaic Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

/-! ## The two conditions of the body, from the grid coordinates -/

/-- The first branch's condition: the point is the grid's first. -/
abbrev condFirst (i : grid1.Coords) : Prop :=
  (Scalar.cmpi .ne (Scalar.extui (Scalar.cmpi .eq (BitVec.ofNat 32 (i 0).val) 0#32)) 0#32) = 1#1
/-- The second branch's condition: the point is the grid's last. -/
abbrev condLast (i : grid1.Coords) : Prop := k1_cond2 i = 1#1

theorem hcondFirst : ∀ t : Fin cfg1.N, condFirst (grid1.coords t) ↔ t.val = 0 :=
  (by decide +kernel : ∀ t : Fin grid1.N, condFirst (grid1.coords t) ↔ t.val = 0)
theorem hcondLast : ∀ t : Fin cfg1.N, condLast (grid1.coords t) ↔ t.val = 14 :=
  (by decide +kernel : ∀ t : Fin grid1.N, condLast (grid1.coords t) ↔ t.val = 14)

/-! ## Whole-buffer loads and stores -/

theorem zero2 : (![0, 0] : Fin 2 → Nat) = fun _ => 0 := by funext a; fin_cases a <;> rfl

/-- A load of the whole shape reads the contents. -/
theorem readAt_full {κ : Kind} {sp : Space} {S : Shape} {e : EltTy} (v : View sig κ sp S e) (f : v.ty.Contents (Elt F))
    {off : Fin S.rank → Nat} (h : off = fun _ => 0) (inb : ∀ a, off a + S.size a ≤ S.size a) :
    v.readAt (Elt F) (Rect.unit off S.size inb).toLoadRect f = v.read (Elt F) f := by
  rw [View.readAt_eq_ld]; exact View.ld_unit_zero h inb _

/-- A store of the whole shape, last, leaves its payload. -/
theorem read_writes_full {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ fun y => ⟨_, List.mem_cons_self, View.mem_set_unit_zero h inb y⟩).trans
    (View.canon_cons_unit_zero h inb w L)

/-! ## The body at a point, case by case -/

section Runs

variable (c : Dev nD) (i : grid1.Coords)
  (arg1 : Memref sig .tc .vmem S1024x16 .f32) (harg1 : arg1.IsWhole) (arg2 : Memref sig .tc .vmem S16x1024 .f32) (harg2 : arg2.IsWhole)
  (arg3 : Memref sig .tc .vmem S1x1024 .f32) (harg3 : arg3.IsWhole) (arg4 : Memref sig .tc .vmem S8x1024 .f32) (harg4 : arg4.IsWhole)
  (x0 : Vec F S1024x16 .f32) (x1 : Vec F S16x1024 .f32) (xo : Vec F S1x1024 .f32) (xs : Vec F S8x1024 .f32)

set_option maxHeartbeats 1000000 in
/-- A point that is neither the first nor the last: the accumulator is updated, the result's buffer untouched. -/
theorem run_mid (h1 : ¬condFirst i) (h2 : ¬condLast i) (E : Set ℕ) (Kont : PUnit → sProp 𝕄) :
    iprop(owns (c : Thread nD τ) arg1 fullShare x0 ∗ owns (c : Thread nD τ) arg2 fullShare x1 ∗ owns (c : Thread nD τ) arg3 fullShare xo
        ∗ owns (c : Thread nD τ) arg4 fullShare xs
        ∗ (iprop(owns (c : Thread nD τ) arg1 fullShare x0 ∗ owns (c : Thread nD τ) arg2 fullShare x1 ∗ owns (c : Thread nD τ) arg3 fullShare xo
            ∗ owns (c : Thread nD τ) arg4 fullShare (k1_pay2 x0 x1 xs)) -∗ Kont ⟨⟩))
      ⊢ wp frame (wpE (defs₀ (F := F)) 𝒱₀ c none) E (cc1__tc_dense i arg1 harg1 arg2 harg2 arg3 harg3 arg4 harg4) Kont := by
  simp only [cc1__tc_dense_eq_skeleton]; unfold cc1__tc_dense_skel
  unfold owns
  iintro ⟨⟨%f0, %hf0, H0⟩, ⟨%f1, %hf1, H1⟩, ⟨%f2, %hf2, H2⟩, ⟨%fs, %hfs, HS⟩, Hk⟩
  obtain rfl := harg1.eq_unread hf0; obtain rfl := harg2.eq_unread hf1; obtain rfl := harg3.eq_unread hf2; obtain rfl := harg4.eq_unread hfs
  sl_exec (disch := first | exact h1 | exact h2)
  sl_step
  iapply Hk
  simp only [readAt_full (F := F) arg1.view _ zero2, readAt_full (F := F) arg2.view _ zero2, readAt_full (F := F) arg4.view _ zero2, hf0, hf1, hfs]
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  iexists _; isplitr; swap; · iexact HS
  ipureintro; exact read_writes_full (F := F) arg4.view _ zero2 _ _ _

set_option maxHeartbeats 1000000 in
/-- The first point: the accumulator is reset, then updated. -/
theorem run_first (h1 : condFirst i) (h2 : ¬condLast i) (E : Set ℕ) (Kont : PUnit → sProp 𝕄) :
    iprop(owns (c : Thread nD τ) arg1 fullShare x0 ∗ owns (c : Thread nD τ) arg2 fullShare x1 ∗ owns (c : Thread nD τ) arg3 fullShare xo
        ∗ owns (c : Thread nD τ) arg4 fullShare xs
        ∗ (iprop(owns (c : Thread nD τ) arg1 fullShare x0 ∗ owns (c : Thread nD τ) arg2 fullShare x1 ∗ owns (c : Thread nD τ) arg3 fullShare xo
            ∗ owns (c : Thread nD τ) arg4 fullShare (k1_pay2 x0 x1 (k1_pay1 (F := F)))) -∗ Kont ⟨⟩))
      ⊢ wp frame (wpE (defs₀ (F := F)) 𝒱₀ c none) E (cc1__tc_dense i arg1 harg1 arg2 harg2 arg3 harg3 arg4 harg4) Kont := by
  simp only [cc1__tc_dense_eq_skeleton]; unfold cc1__tc_dense_skel
  unfold owns
  iintro ⟨⟨%f0, %hf0, H0⟩, ⟨%f1, %hf1, H1⟩, ⟨%f2, %hf2, H2⟩, ⟨%fs, %hfs, HS⟩, Hk⟩
  obtain rfl := harg1.eq_unread hf0; obtain rfl := harg2.eq_unread hf1; obtain rfl := harg3.eq_unread hf2; obtain rfl := harg4.eq_unread hfs
  sl_exec (disch := first | exact h1 | exact h2)
  sl_step
  iapply Hk
  unfold run_first.sl.v14 run_first.sl.HS_1
  simp only [readAt_full (F := F) arg1.view _ zero2, readAt_full (F := F) arg2.view _ zero2, readAt_full (F := F) arg4.view _ zero2, View.readCov_unit_zero arg4.view zero2, hf0, hf1, hfs]
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  iexists _; isplitr; swap; · iexact HS
  ipureintro; exact read_writes_full (F := F) arg4.view _ zero2 _ _ _

set_option maxHeartbeats 1000000 in
/-- The last point: the accumulator is updated and its minimum over the rows stored into the result's buffer. -/
theorem run_last (h1 : ¬condFirst i) (h2 : condLast i) (E : Set ℕ) (Kont : PUnit → sProp 𝕄) :
    iprop(owns (c : Thread nD τ) arg1 fullShare x0 ∗ owns (c : Thread nD τ) arg2 fullShare x1 ∗ owns (c : Thread nD τ) arg3 fullShare xo
        ∗ owns (c : Thread nD τ) arg4 fullShare xs
        ∗ (iprop(owns (c : Thread nD τ) arg1 fullShare x0 ∗ owns (c : Thread nD τ) arg2 fullShare x1
            ∗ owns (c : Thread nD τ) arg3 fullShare (k1_pay3 (k1_pay2 x0 x1 xs))
            ∗ owns (c : Thread nD τ) arg4 fullShare (k1_pay2 x0 x1 xs)) -∗ Kont ⟨⟩))
      ⊢ wp frame (wpE (defs₀ (F := F)) 𝒱₀ c none) E (cc1__tc_dense i arg1 harg1 arg2 harg2 arg3 harg3 arg4 harg4) Kont := by
  simp only [cc1__tc_dense_eq_skeleton]; unfold cc1__tc_dense_skel
  unfold owns
  iintro ⟨⟨%f0, %hf0, H0⟩, ⟨%f1, %hf1, H1⟩, ⟨%f2, %hf2, H2⟩, ⟨%fs, %hfs, HS⟩, Hk⟩
  obtain rfl := harg1.eq_unread hf0; obtain rfl := harg2.eq_unread hf1; obtain rfl := harg3.eq_unread hf2; obtain rfl := harg4.eq_unread hfs
  sl_exec (disch := first | exact h1 | exact h2)
  sl_step
  iapply Hk
  unfold run_last.sl.v22 run_last.sl.HS_1
  simp only [readAt_full (F := F) arg1.view _ zero2, readAt_full (F := F) arg2.view _ zero2, readAt_full (F := F) arg4.view _ zero2, View.readCov_unit_zero arg4.view zero2, hf0, hf1, hfs]
  isplitl [H0]; · iexists _; isplitr; · ipureintro; exact hf0
                  iexact H0
  isplitl [H1]; · iexists _; isplitr; · ipureintro; exact hf1
                  iexact H1
  isplitl [H2]; · iexists _; isplitr; swap; · iexact H2
                  ipureintro; exact read_writes_full (F := F) arg3.view _ zero2 _ _ _
  iexists _; isplitr; swap; · iexact HS
  ipureintro; exact read_writes_full (F := F) arg4.view _ zero2 _ _ _

end Runs

/-! ## The proof data -/

/-- The second operand through its (whole-array) block. -/
def vBlk (v : Vec F S16x1024 .f32) (t : Fin cfg1.N) : Vec F S16x1024 .f32 := ((cfg1.win 1).blk t).view.read (Elt F) v

variable (z : (d : Dev nD) → Buf (Elt F) (a0Loc d)) (v10 : (d : Dev nD) → Buf (Elt F) (v10Loc d)) (f₀ : (d : Dev nD) → Buf (Elt F) (v12Loc d))

/-- The carried scratch between points: before the first point at anything, after point n at the accumulator. -/
def PhiT (c : Dev nD) : ℕ → sProp 𝕄
  | 0 => Pipeline.scopedRest spec1 c
  | n + 1 => owns (c : Thread nD τ) (Memref.whole cc1_scratch0) fullShare (accAt (F := F) (z c) (v10 c) n)

theorem PhiT_succ (c : Dev nD) (n : ℕ) :
    PhiT z v10 c (n + 1) = owns (c : Thread nD τ) (Memref.whole cc1_scratch0) fullShare (accAt (F := F) (z c) (v10 c) n) := rfl
theorem PhiT_pos (c : Dev nD) (n : ℕ) (h : n ≠ 0) :
    PhiT z v10 c n = owns (c : Thread nD τ) (Memref.whole cc1_scratch0) fullShare (accAt (F := F) (z c) (v10 c) (n - 1)) := by
  cases n with
  | zero => exact absurd rfl h
  | succ n => rfl

/-- The recorded pairs of the TensorCore stay at or below the first call's band. -/
def recB (c : Dev nD) : Set (SemLoc sig × HIx 2) := {p | (K (F := F)).lev (SparseCore.T c, p.1) p.2 ≤ 8}

def dats (_ : Fin 1) (c : Dev nD) : Dat τ (Elt F) (HIx 2) ℕ UU ℕ cfg1 c where
  A w := match w with
    | ⟨0, _⟩ => z c
    | ⟨1, _⟩ => v10 c
    | ⟨2, _⟩ => f₀ c
  after w t := match w with
    | ⟨0, _⟩ => zBlk (F := F) (z c) t
    | ⟨1, _⟩ => vBlk (F := F) (v10 c) t
    | ⟨2, _⟩ => tcRow (F := F) (z c) (v10 c)
  Φ t := PhiT z v10 c t.val
  q _ := fullShare
  owed _ := (K (F := F)).Otc c 1
  recorded _ := recB (F := F) c

theorem after_0 (c : Dev nD) (t : Fin cfg1.N) : (dats z v10 f₀ 0 c).after 0 t = zBlk (F := F) (z c) t := by dsimp only [dats]
theorem after_1 (c : Dev nD) (t : Fin cfg1.N) : (dats z v10 f₀ 0 c).after 1 t = vBlk (F := F) (v10 c) t := by dsimp only [dats]
theorem after_2 (c : Dev nD) (t : Fin cfg1.N) : (dats z v10 f₀ 0 c).after 2 t = tcRow (F := F) (z c) (v10 c) := by dsimp only [dats]

/-- The first operand's current buffer holds its block: it is fetched at every point. -/
theorem before_0 (c : Dev nD) (t : Fin cfg1.N) (d) : (dats z v10 f₀ 0 c).before 0 t d = zBlk (F := F) (z c) t := by
  unfold Dat.before; rw [if_pos (fetch1_0 t)]; rfl

/-- The second operand's buffer holds the whole operand at every point, fetched there or not. -/
theorem before_1 (c : Dev nD) (t : Fin cfg1.N) (d) : (dats z v10 f₀ 0 c).before 1 t d = vBlk (F := F) (v10 c) t :=
  ((dats z v10 f₀ 0 c).before_in_eq_fetched 1 rfl (fun _ => rfl) (fun _ _ _ => rfl) (fun t => by rw [after_1]; rfl) t d).trans rfl

/-- The pipeline has no prefetched table. -/
abbrev adm : (p : Fin 1) → (pcfgs (F := F) p).Adm := fun p => (cfgs p).toPCfg_adm

/-! ## The body obligation -/

/-- The result's window is idle wherever the point is not the last, -/
theorem idle2_of_not_last : ∀ t : Fin cfg1.N, ¬condLast (grid1.coords t) → cfg1.idle 2 (grid1.coords t) = true := by decide +kernel
/-- live at the last, -/
theorem live2_of_last : ∀ t : Fin cfg1.N, condLast (grid1.coords t) → cfg1.idle 2 (grid1.coords t) = false := by decide +kernel
/-- and written back there only. -/
theorem noFlush2 (t : Fin cfg1.N) (h : t.val ≠ 14) : (cfg1.win 2).flush t = false := by
  cases hf : (cfg1.win 2).flush t
  · rfl
  · exfalso; have h1 := (flush1_2 t).mp hf; have h2 : t.val < 15 := lt_of_lt_of_eq t.isLt N_1; omega

abbrev ι₀ : HIx 2 := none

variable (hvBlk : ∀ (v : Vec F S16x1024 .f32) (t : Fin cfg1.N), vBlk v t = v)

/-- What the body is called with at point t, the windows one by one, -/
def bodyPre (c : Dev nD) (t : Fin cfg1.N) : sProp 𝕄 :=
  iprop((dats z v10 f₀ 0 c).Φ t.castSucc ∗ (dats z v10 f₀ 0 c).owesAt ι₀ t.castSucc
    ∗ (∃ d, owns (c : Thread nD τ) (st1_0 t) fullShare ((dats z v10 f₀ 0 c).before 0 t d))
    ∗ (∃ d, owns (c : Thread nD τ) (st1_1 t) fullShare ((dats z v10 f₀ 0 c).before 1 t d))
    ∗ (∃ d, owns (c : Thread nD τ) (st1_2 t) fullShare ((dats z v10 f₀ 0 c).before 2 t d)))

/-- and what it returns. -/
def bodyPost (c : Dev nD) (t : Fin cfg1.N) : sProp 𝕄 :=
  iprop((dats z v10 f₀ 0 c).Φ t.succ ∗ (dats z v10 f₀ 0 c).owesAt ι₀ t.succ
    ∗ (dats z v10 f₀ 0 c).leavesExact 0 t
    ∗ (dats z v10 f₀ 0 c).leavesExact 1 t
    ∗ (dats z v10 f₀ 0 c).leavesExact 2 t)

include hvBlk in
set_option maxHeartbeats 2000000 in
theorem sound_body (c : Dev nD) (t : Fin cfg1.N) :
    bodyPre z v10 f₀ c t ⊢ wp frame (wpE (defs₀ (F := F)) 𝒱₀ c none) Set.univ (bodyAt1 t) (fun _ => bodyPost z v10 f₀ c t) := by
  unfold bodyPre bodyPost bodyAt1
  simp only [before_0, before_1]
  rw [show (dats z v10 f₀ 0 c).owesAt ι₀ t.succ = (dats z v10 f₀ 0 c).owesAt ι₀ t.castSucc from rfl]
  rw [show (dats z v10 f₀ 0 c).leavesExact 0 t = owns (c : Thread nD τ) (st1_0 t) fullShare ((dats z v10 f₀ 0 c).after 0 t) from rfl, after_0]
  rw [show (dats z v10 f₀ 0 c).leavesExact 1 t = owns (c : Thread nD τ) (st1_1 t) fullShare ((dats z v10 f₀ 0 c).after 1 t) from rfl, after_1]
  rw [show (dats z v10 f₀ 0 c).Φ t.succ = PhiT z v10 c (t.val + 1) from rfl, PhiT_succ, accAt_step, hvBlk]
  rw [show (dats z v10 f₀ 0 c).Φ t.castSucc = PhiT z v10 c t.val from rfl]
  have hN : t.val < 15 := lt_of_lt_of_eq t.isLt N_1
  by_cases hF : t.val = 0
  · have hL : t.val ≠ 14 := by omega
    have c1 : condFirst (grid1.coords t) := (hcondFirst t).mpr hF
    have c2 : ¬condLast (grid1.coords t) := fun h => hL ((hcondLast t).mp h)
    rw [Dat.leavesExact_idle _ 2 t (idle2_of_not_last t c2) (noFlush2 t hL)]
    rw [show PhiT z v10 c t.val = Pipeline.scopedRest spec1 c from by rw [hF]; rfl, scopedRest1_eq, if_pos hF]
    iintro ⟨⟨%fs, HS⟩, Ho, ⟨%d0, H0⟩, ⟨%d1, H1⟩, ⟨%d2, H2⟩⟩
    iapply (run_first c (grid1.coords t) _ _ _ _ _ _ _ _ (zBlk (z c) t) (v10 c) _ fs c1 c2 Set.univ _)
    isplitl [H0]; · iexact H0
    isplitl [H1]; · iexact H1
    isplitl [H2]; · iexact H2
    isplitl [HS]
    · rw [owns_whole_eq]; iexists fs; isplitr; · ipureintro; rfl
      iexact HS
    iintro ⟨H0, H1, H2, HS⟩
    isplitl [HS]; · iexact HS
    isplitl [Ho]; · iexact Ho
    isplitl [H0]; · iexact H0
    isplitl [H1]; · iexact H1
    iexists _; iexact H2
  · rw [PhiT_pos z v10 c t.val hF, if_neg hF]
    by_cases hL : t.val = 14
    · have c1 : ¬condFirst (grid1.coords t) := fun h => hF ((hcondFirst t).mp h)
      have c2 : condLast (grid1.coords t) := (hcondLast t).mpr hL
      have e : tcRow (F := F) (z c) (v10 c) = k1_pay3 (k1_pay2 (zBlk (z c) t) (v10 c) (accAt (z c) (v10 c) (t.val - 1))) := by
        have h := accAt_step (F := F) (z c) (v10 c) t
        rw [if_neg hF] at h
        unfold Cert.Proof.TcVW.tcRow; rw [← hL, h]
      rw [show (dats z v10 f₀ 0 c).leavesExact 2 t = owns (c : Thread nD τ) (st1_2 t) fullShare ((dats z v10 f₀ 0 c).after 2 t) from by
        unfold Dat.leavesExact; rw [live2_of_last t c2], after_2, e]
      iintro ⟨HS, Ho, ⟨%d0, H0⟩, ⟨%d1, H1⟩, ⟨%d2, H2⟩⟩
      iapply (run_last c (grid1.coords t) _ _ _ _ _ _ _ _ (zBlk (z c) t) (v10 c) _ _ c1 c2 Set.univ _)
      isplitl [H0]; · iexact H0
      isplitl [H1]; · iexact H1
      isplitl [H2]; · iexact H2
      isplitl [HS]; · iexact HS
      iintro ⟨H0, H1, H2, HS⟩
      isplitl [HS]; · iexact HS
      isplitl [Ho]; · iexact Ho
      isplitl [H0]; · iexact H0
      isplitl [H1]; · iexact H1
      iexact H2
    · have c1 : ¬condFirst (grid1.coords t) := fun h => hF ((hcondFirst t).mp h)
      have c2 : ¬condLast (grid1.coords t) := fun h => hL ((hcondLast t).mp h)
      rw [Dat.leavesExact_idle _ 2 t (idle2_of_not_last t c2) (noFlush2 t hL)]
      iintro ⟨HS, Ho, ⟨%d0, H0⟩, ⟨%d1, H1⟩, ⟨%d2, H2⟩⟩
      iapply (run_mid c (grid1.coords t) _ _ _ _ _ _ _ _ (zBlk (z c) t) (v10 c) _ _ c1 c2 Set.univ _)
      isplitl [H0]; · iexact H0
      isplitl [H1]; · iexact H1
      isplitl [H2]; · iexact H2
      isplitl [HS]; · iexact HS
      iintro ⟨H0, H1, H2, HS⟩
      isplitl [HS]; · iexact HS
      isplitl [Ho]; · iexact Ho
      isplitl [H0]; · iexact H0
      isplitl [H1]; · iexact H1
      iexists _; iexact H2

include hvBlk in
/-- The library's body obligation, at every point. -/
theorem body_obligation (c : Dev nD) : BodyObligation (dats z v10 f₀ 0 c) (defs₀ (F := F)) 𝒱₀ ι₀ Set.univ := fun t => by
  rw [bigSep_W1, bigSep_W1]
  exact sound_body z v10 f₀ hvBlk c t

/-! ## The region: the pipeline's layout, the body obligation, and the thread state around it -/

theorem share_full (c : Dev nD) : ∀ w, (dats z v10 f₀ 0 c).share w = fullShare := (dats z v10 f₀ 0 c).share_full fun _ => rfl

/-- What the TensorCore owes between the two SparseCore calls, its recorded pairs within the first call's band. -/
def owesT (c : Dev nD) : sProp 𝕄 :=
  iprop(∃ W, ⌜(K (F := F)).WBelow (SparseCore.T c) W (8 * 1)⌝ ∗ owes (SparseCore.T c) ((K (F := F)).Otc c 1) W)

/-- What the TensorCore owes before the second call has no unit at the kernels' own index. -/
theorem Otc_none (d : Dev nD) (g : GSem nD τ sig) : (K (F := F)).Otc d 1 g none = 0 := by
  by_contra h
  have h' := SparseCore.Cfg.lev_of_Otc_pos (K := K (F := F)) (Nat.pos_of_ne_zero h)
  rw [SparseCore.Cfg.lev_none] at h'; omega

theorem wbelow_of_bound (c : Dev nD) (W : Waits sig (HIx 2))
    (h : (↑W : Set (SemLoc sig × HIx 2)) ⊆ recB (F := F) c ∪ cfg1.waitPairs none) : (K (F := F)).WBelow (SparseCore.T c) W (8 * 1) := by
  intro p hp
  rcases h hp with h1 | ⟨w, s, rfl⟩
  · exact h1
  · rw [SparseCore.Cfg.lev_none]; omega

theorem bound_of_wbelow (c : Dev nD) (W : Waits sig (HIx 2)) (h : (K (F := F)).WBelow (SparseCore.T c) W (8 * 1)) :
    (↑W : Set (SemLoc sig × HIx 2)) ⊆ recB (F := F) c ∪ cfg1.waitPairs none :=
  fun p hp => Or.inl (h p hp)

set_option backward.isDefEq.respectTransparency.types false in
/-- The region's record: entered with what the TensorCore owes and the three arrays, left with the same and the result's
    array at the row of minima. -/
def reg : Pipeline.RegionSeg (pcfgs (F := F)) adm (dats z v10 f₀) ι₀ defs₀ 𝒱₀ (K (F := F)).L (K (F := F)).lev 0 where
  win := launch1.win.to₀
  block_pos := launch1.block_pos
  stage_whole := launch1.stage_whole
  K := PEmpty
  osem := fun k => k.elim
  ho := Pipeline.OwnSemFacts.none _
  hbody c := (body_obligation z v10 f₀ hvBlk c).loose
  hwaits c := Pipeline.cellsWaits_intro cfgs (dats z v10 f₀) ι₀ 0 c fun w s t => (K (F := F)).mayWait_none _ (Otc_none c)
  pre c := iprop(owesT (F := F) c ∗ (a0Loc c ↦{fullShare} z c) ∗ (v10Loc c ↦{fullShare} v10 c) ∗ (v12Loc c ↦{fullShare} f₀ c))
  post c := iprop(owesT (F := F) c ∗ (a0Loc c ↦{fullShare} z c) ∗ (v10Loc c ↦{fullShare} v10 c) ∗ (v12Loc c ↦{fullShare} tcRow (F := F) (z c) (v10 c)))
  X c := iprop(emp)
  Y c := iprop(emp)
  Z c := iprop(emp)
  hentry c := by
    rw [Pipeline.arrays_eq cfgs (dats z v10 f₀) 0 c launch1.arr_whole (share_full z v10 f₀ c), bigSep_W1]
    unfold owesT
    iintro ⟨⟨HO, Ha, Hv, Hr⟩, -, -⟩
    imodintro
    isplitl [Ha Hv Hr]
    · isplitl [Ha]; · iexact Ha
      isplitl [Hv]; · iexact Hv
      iexact Hr
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact bound_of_wbelow c W hW
      iexact HO
    isplitl <;> iempintro
  hin c := by
    rw [show (dats z v10 f₀ 0 c).Φ 0 = Pipeline.scopedRest spec1 c from rfl]
    iintro ⟨-, -, Hr⟩; iexact Hr
  hout c := by
    have e : (dats z v10 f₀ 0 c).Φ (Fin.last cfg1.N) = PhiT z v10 c (14 + 1) := by
      show PhiT z v10 c (Fin.last cfg1.N).val = _
      rw [Fin.val_last, show cfg1.N = 14 + 1 from N_1]
    rw [e, PhiT_succ, scopedRest1_eq, owns_whole_eq, Pipeline.ownSems0_none]
    iintro ⟨%f, -, H⟩
    isplitr; · iempintro
    isplitr; · iempintro
    iexists f; iexact H
  hexit c := by
    have e2 : (dats z v10 f₀ 0 c).arrAt 2 (Pipeline.pin (pcfgs (F := F)) adm 0).N = tcRow (F := F) (z c) (v10 c) :=
      Cert.Proof.TcBW.arrAt2_eq (dats z v10 f₀ 0 c) _ (after_2 z v10 f₀ c _)
    rw [Pipeline.arrays_eq cfgs (dats z v10 f₀) 0 c launch1.arr_whole (share_full z v10 f₀ c), bigSep_W1,
      (dats z v10 f₀ 0 c).arrAt_in 0 rfl, (dats z v10 f₀ 0 c).arrAt_in 1 rfl, e2]
    unfold owesT
    iintro ⟨⟨Ha, Hv, Hr⟩, HO, -, -⟩
    imodintro
    isplitl [HO]
    · unfold Pipeline.Dat.owesAt Pipeline.owesWithin
      icases HO with ⟨%W, %hW, HO⟩; iexists W; isplitr; · ipureintro; exact wbelow_of_bound c W hW
      iexact HO
    isplitl [Ha]; · iexact Ha
    isplitl [Hv]; · iexact Hv
    iexact Hr

/-! ## The staging cells' ghost state, and the region as the TensorCore thread runs it -/

/-- The launch element of the pipeline's staging cells. -/
def tcU₀ : UP := initOf (Pipeline.cells cfgs cellOf_inj) (Pipeline.launchToks cfgs cellOf_inj)

/-- What a device's TensorCore holds of the staging cells' ghost state from the launch to the region. -/
def tcGhost (d : Dev nD) : sProp 𝕄 :=
  iprop(Pipeline.cellsGhost cfgs (EP (F := F)) 0 d ∗ Pipeline.toksInit cfgs (EP (F := F)) 0 d)

theorem tcFund : (BI.own ((EP (F := F)) tcU₀) : sProp 𝕄) ⊢ |==> bigSep Finset.univ fun d : Dev nD => tcGhost (F := F) d := by
  have e1 : (bigSep Finset.univ fun c : Dev nD => bigSep Finset.univ fun p : Fin 1 => (Pipeline.cellsGhost cfgs (EP (F := F)) p c : sProp 𝕄))
      = bigSep Finset.univ fun c : Dev nD => Pipeline.cellsGhost cfgs (EP (F := F)) 0 c :=
    bigSep_congr fun c _ => bigSep_univ_of_subsingleton (0 : Fin 1)
  have e2 : (bigSep Finset.univ fun c : Dev nD => bigSep Finset.univ fun p : Fin 1 => (Pipeline.toksInit cfgs (EP (F := F)) p c : sProp 𝕄))
      = bigSep Finset.univ fun c : Dev nD => Pipeline.toksInit cfgs (EP (F := F)) 0 c :=
    bigSep_congr fun c _ => bigSep_univ_of_subsingleton (0 : Fin 1)
  have h := Pipeline.fund_ghost cfgs (EP (F := F)) cellOf_inj
  rw [e1, e2, ← bigSep_sep'] at h
  exact h

/-- The region's entry under the pipeline's table is @main's line under the whole program's. -/
theorem enter (d : Dev nD) (Φ : PUnit → sProp 𝕄) :
    wp frame (wpE (D (F := F)) 𝒱 (SparseCore.T d) none) Set.univ (Prog.op (.customCall (Pipeline.entry (0 : Fin 1)) ()) .ret) Φ
      ⊢ wp frame (wpE ((K (F := F)).defs (D (F := F))) 𝒱 (SparseCore.T d) none) Set.univ
          (Prog.lift (.customCall (SparseCore.inner (Pipeline.entry 0)) ())) Φ :=
  (K (F := F)).wp_liftProg (D (F := F)) 𝒱 (SparseCore.T d) Set.univ none (Prog.op (.customCall (Pipeline.entry (0 : Fin 1)) ()) .ret) Φ

set_option backward.isDefEq.respectTransparency.types false in
set_option maxHeartbeats 1000000 in
/-- THE REGION between the two SparseCore calls: from what the TensorCore holds after the first call, the staging
    cells' ghost state and the three arrays, the pipeline runs and leaves the same with the result's array at the row
    of minima over the rows it was handed. -/
theorem tcRegion (X : Vals F) (κ : GSem nD τ sig → ℕ) (d : Dev nD)
    (z : (d : Dev nD) → Buf (Elt F) (a0Loc d)) (v10 : (d : Dev nD) → Buf (Elt F) (v10Loc d)) (f₀ : (d : Dev nD) → Buf (Elt F) (v12Loc d)) :
    iprop((K (F := F)).ctx EH (P X) κ ∗ (K (F := F)).tcSt EH d 1 ∗ tcGhost d ∗ boundary (SparseCore.T d)
        ∗ (a0Loc d ↦{fullShare} z d) ∗ (v10Loc d ↦{fullShare} v10 d) ∗ (v12Loc d ↦{fullShare} f₀ d))
      ⊢ wp frame (wpE ((K (F := F)).defs (D (F := F))) 𝒱 (SparseCore.T d) none) Set.univ
          (Prog.lift (.customCall (SparseCore.inner (Pipeline.entry 0)) ())) fun _ =>
          iprop((K (F := F)).tcSt EH d 1 ∗ boundary (SparseCore.T d)
            ∗ (a0Loc d ↦{fullShare} z d) ∗ (v10Loc d ↦{fullShare} v10 d)
            ∗ ∃ f, ⌜Cert.Proof.TcVW.PostTC (z d) (v10 d) f⌝ ∗ (v12Loc d ↦{fullShare} f)) := by
  unfold SparseCore.Cfg.tcSt tcGhost
  iintro ⟨#Hctx, ⟨HO, Hrest⟩, ⟨Hcg, Htk⟩, Hbd, Ha, Hv, Hr⟩
  ihave Hlev := (SparseCore.Cfg.ctx_levAts κ) $$ Hctx
  iapply (enter d _)
  iapply (Pipeline.RegionSeg.wp (pcfgs (F := F)) adm (dats z v10 f₀) ι₀ cellOf_inj (EP (F := F)) defs₀ 𝒱₀ (K (F := F)).L (K (F := F)).lev
    (reg z v10 f₀ (fun v t => Cert.Proof.TcBW.vBlk_eq v t)) d none (fun u hu => nomatch hu) .ret _)
  isplitl [Hrest]
  · iintro ⟨Hbd, Hpost⟩
    iapply (le_wp_ret _ _)
    unfold reg owesT
    icases Hpost with ⟨HO, Ha, Hv, Hr⟩
    isplitl [HO Hrest]
    · isplitl [HO]; · iexact HO
      iexact Hrest
    isplitl [Hbd]; · iexact Hbd
    isplitl [Ha]; · iexact Ha
    isplitl [Hv]; · iexact Hv
    iexists (tcRow (F := F) (z d) (v10 d)); isplitr; · ipureintro; rfl
    iexact Hr
  isplitl [Hbd]; · iexact Hbd
  isplitl [HO Ha Hv Hr]
  · unfold reg owesT
    isplitl [HO]; · iexact HO
    isplitl [Ha]; · iexact Ha
    isplitl [Hv]; · iexact Hv
    iexact Hr
  isplitl [Hlev]; · iexact Hlev
  isplitl [Hcg]; · iexact Hcg
  iexact Htk

end Cert.Proof.TcRW

end
-- ==== Proof.MainW.lean ====
/-
  @main on the TensorCore of one device: the host operations that compute the operands of the first call, the
  first call on every tile (each handed its slab of the transposed points, a read share of the scaled codebook and
  its row of the partial minima), the TensorCore pipeline, the second call on the one working tile, and the final
  slice; in the shape the launch theorem takes.
-/
import proofs.«209935_g88441966559691_cont_sun_c4_661_34_alg».proof.Proof.IfaceW
import Idealize.ShloMosaic.Lib.Pipeline.Frame
import proofs.«209935_g88441966559691_cont_sun_c4_661_34_alg».proof.Proof.HostValW
import proofs.«209935_g88441966559691_cont_sun_c4_661_34_alg».proof.Proof.TcRegionW

noncomputable section

namespace Cert.Proof.MnW

open Cert.Kernel Cert.Kernel.Gen
open Cert.Proof.KIW
open Cert.Proof.HVW (hostOps op13 ops16)

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.StableHlo (held held_split held_sdiff_result wp_hlo_within)
open Idealize.ShloMosaic.Tactic

variable {F : FTy → Type} [FloatOps F]

local notation "𝕄" => MT nD τ sig (HIx 2) (Elt F) ℕ UU ℕ

/-! ## The tiles' pieces, regrouped -/

/-- Tile `(c, i)` ↦ slab `2 i + c` is a bijection of the 2 × 16 tiles with the 32 slabs. -/
def widE : Fin 2 × Fin 16 ≃ Fin 32 where
  toFun p := wid p.1 p.2
  invFun w := (⟨w.val % 2, Nat.mod_lt _ (by decide)⟩, ⟨w.val / 2, by omega⟩)
  left_inv := fun ⟨c, i⟩ => by
    apply Prod.ext <;> apply Fin.ext <;> simp only [wid] <;> omega
  right_inv := fun w => by apply Fin.ext; simp only [wid]; omega

theorem regroup (Φ : Fin 32 → sProp 𝕄) :
    (bigSep Finset.univ Φ) = bigSep Finset.univ fun c : Fin 2 => bigSep Finset.univ fun i : Fin 16 => Φ (wid c i) := by
  rw [bigSep_univ_equiv widE Φ, bigSep_univ_prod]; rfl

variable (X : Vals F)

theorem st0_eq (d : Dev nD) :
    (bigSep Finset.univ fun c : Fin ((K (F := F)).nCore 0) => (P X).st 0 d c) = bigSep Finset.univ fun w : Fin 32 => go0 X d w := by
  rw [regroup (go0 X d)]; rfl
theorem dn0_eq (d : Dev nD) :
    (bigSep Finset.univ fun c : Fin ((K (F := F)).nCore 0) => (P X).dn 0 d c) = bigSep Finset.univ fun w : Fin 32 => td0 X d w := by
  rw [regroup (td0 X d)]; rfl

theorem zRows_disjoint : ∀ i ∈ (Finset.univ : Finset (Fin 32)), ∀ j ∈ (Finset.univ : Finset (Fin 32)), i ≠ j → Disjoint (zRowSet i) (zRowSet j) :=
  fun _ _ _ _ h => Rect.part_disjoint hdivZ h
theorem zRows_cover : (Finset.univ : Finset (Fin 32)).biUnion zRowSet = Finset.univ := Rect.biUnion_part hdivZ
theorem pRows_disjoint : ∀ i ∈ (Finset.univ : Finset (Fin 32)), ∀ j ∈ (Finset.univ : Finset (Fin 32)), i ≠ j → Disjoint (pRowSet i) (pRowSet j) :=
  fun _ _ _ _ h => Rect.part_disjoint hdivP h
theorem pRows_cover : (Finset.univ : Finset (Fin 32)).biUnion pRowSet = Finset.univ := Rect.biUnion_part hdivP

theorem zt_rows (d : Dev nD) (f : Buf (Elt F) (ztLoc d)) :
    (ztLoc d ↦{fullShare} f : sProp 𝕄) = bigSep Finset.univ fun w : Fin 32 => ztLoc d ↦[zRowSet w]{fullShare} f := by
  rw [← pointsTo_biUnion Finset.univ (ℓ := ztLoc d) zRowSet zRows_disjoint, zRows_cover]; try rfl
theorem pt_rows (d : Dev nD) (f : Buf (Elt F) (ptLoc d)) :
    (ptLoc d ↦{fullShare} f : sProp 𝕄) = bigSep Finset.univ fun w : Fin 32 => ptLoc d ↦[pRowSet w]{fullShare} f := by
  rw [← pointsTo_biUnion Finset.univ (ℓ := ptLoc d) pRowSet pRows_disjoint, pRows_cover]; try rfl

/-- What the first call is handed: from the three arrays whole, every tile's piece; a remainder of the share of the
    scaled codebook stays behind. -/
theorem present0 (d : Dev nD) (f : Buf (Elt F) (ptLoc d)) :
    iprop((ztLoc d ↦{fullShare} X.zt d) ∗ (e2Loc d ↦{fullShare} X.e2 d) ∗ (ptLoc d ↦{fullShare} f))
      ⊢ (iprop((e2Loc d ↦{shareDrop fullShare 32} X.e2 d) ∗ bigSep Finset.univ fun c : Fin ((K (F := F)).nCore 0) => (P X).st 0 d c) : sProp 𝕄) := by
  rw [st0_eq]
  unfold go0
  rw [bigSep_sep', bigSep_sep', zt_rows, pt_rows]
  iintro ⟨Hz, He, Hp⟩
  ihave He' := (pointsTo_toks_split (ℓ := e2Loc d) (S := Finset.univ) (f := X.e2 d) fullShare 32) $$ He
  icases He' with ⟨Hd, Ht⟩
  isplitl [Hd]; · iexact Hd
  isplitl [Hz]; · iexact Hz
  isplitl [Ht]; · iexact Ht
  have hp : (bigSep Finset.univ fun w : Fin 32 => (ptLoc d ↦[pRowSet w]{fullShare} f : sProp 𝕄))
      ⊢ bigSep Finset.univ fun w : Fin 32 => iprop(∃ f, ptLoc d ↦[pRowSet w]{fullShare} f) :=
    bigSep_mono fun w _ => show (ptLoc d ↦[pRowSet w]{fullShare} f : sProp 𝕄) ⊢ iprop(∃ f, ptLoc d ↦[pRowSet w]{fullShare} f) from by
      iintro H; iexists f; iexact H
  iapply hp; iexact Hp

/-- What the first call hands back: the slabs and the shares rejoin; the rows of the partial minima, each at contents
    satisfying its tile's post, join into one array every row of which satisfies its post. -/
theorem back0 (hloc0 : ∀ d w (f g : Buf (Elt F) (ptLoc d)), (∀ x ∈ pRowSet w, f x = g x) → X.post0 d w f → X.post0 d w g) (d : Dev nD) :
    (iprop((e2Loc d ↦{shareDrop fullShare 32} X.e2 d) ∗ bigSep Finset.univ fun c : Fin ((K (F := F)).nCore 0) => (P X).dn 0 d c) : sProp 𝕄)
      ⊢ iprop((ztLoc d ↦{fullShare} X.zt d) ∗ (e2Loc d ↦{fullShare} X.e2 d) ∗ ∃ f, ⌜∀ w, X.post0 d w f⌝ ∗ ptLoc d ↦{fullShare} f) := by
  rw [dn0_eq]
  unfold td0
  rw [bigSep_sep', bigSep_sep', zt_rows]
  iintro ⟨Hd, Hz, Ht, Hp⟩
  isplitl [Hz]; · iexact Hz
  isplitl [Hd Ht]
  · iapply (pointsTo_toks_join (ℓ := e2Loc d) (S := Finset.univ) (f := X.e2 d) fullShare 32)
    isplitl [Hd]; · iexact Hd
    iexact Ht
  ihave Hp' := (bigSep_exists_pi Finset.univ (fun (w : Fin 32) (f : Buf (Elt F) (ptLoc d)) => iprop(⌜X.post0 d w f⌝ ∗ ptLoc d ↦[pRowSet w]{fullShare} f))) $$ Hp
  icases Hp' with ⟨%fs, Hp⟩
  ihave Hp' := (bigSep_pure_sep Finset.univ (fun w : Fin 32 => X.post0 d w (fs w)) (fun w : Fin 32 => (ptLoc d ↦[pRowSet w]{fullShare} fs w : sProp 𝕄))) $$ Hp
  icases Hp' with ⟨%hpost, Hp⟩
  ihave Hj := (pointsTo_biUnion_join Finset.univ pRowSet fs (fs 0) pRows_disjoint) $$ Hp
  icases Hj with ⟨%g, %hg, Hg⟩
  rw [pRows_cover]
  iexists g
  isplitr
  · ipureintro
    exact fun w => hloc0 d w (fs w) g (fun x hx => (hg w (Finset.mem_univ w) x hx).symm) (hpost w (Finset.mem_univ w))
  iexact Hg

/-! ## @main's host operations, as lines -/

/-- A TensorCore reference as a device buffer. -/
abbrev r (b : Ref sig .tc) : DevRef τ sig := Proc.devRef .tc b

/-- @main is: the host line, the first call, the pipeline, the reshape, the second call, the final line. -/
theorem main_eq (d : Dev nD) :
    main (F := F) d = (StableHlo.seq hostOps >>= fun _ => (K (F := F)).run d 0 >>= fun _ =>
      Prog.lift (.customCall (SparseCore.inner (Pipeline.entry 0)) ()) >>= fun _ =>
      StableHlo.seq [op13] >>= fun _ => (K (F := F)).run d 1 >>= fun _ => StableHlo.seq ops16 >>= fun _ => pure ⟨⟩) := rfl

/-- Each host operation touches TensorCore references only, and determines its result. -/
theorem hostOps_tc : (hostOps : List (HloOp τ sig (Elt F))).Forall fun op => op.bufs ⊆ StableHlo.tcRefs τ sig :=
  ⟨StableHlo.unary_bufs_sub .., StableHlo.unary_bufs_sub .., StableHlo.reshape_bufs_sub .., StableHlo.unary_bufs_sub ..,
    StableHlo.nullary_bufs_sub .., StableHlo.unary_bufs_sub .., StableHlo.binary_bufs_sub .., StableHlo.reshape_bufs_sub ..,
    StableHlo.nullary_bufs_sub .., StableHlo.unary_bufs_sub .., StableHlo.binary_bufs_sub .., StableHlo.unary_bufs_sub ..,
    StableHlo.nullary_bufs_sub .., StableHlo.unary_bufs_sub .., StableHlo.binary_bufs_sub ..⟩
theorem ops16_tc : (ops16 : List (HloOp τ sig (Elt F))).Forall fun op => op.bufs ⊆ StableHlo.tcRefs τ sig :=
  ⟨StableHlo.unary_bufs_sub .., StableHlo.reshape_bufs_sub ..⟩
theorem op13_tc : (op13 (F := F)).bufs ⊆ StableHlo.tcRefs τ sig := StableHlo.reshape_bufs_sub ..

/-! ## The unscoped buffers as one held set -/

/-- The TensorCore's unscoped buffers: @main's twenty-four arrays. -/
abbrev UC : Finset (DevRef τ sig) := Pipeline.ucRefs τ sig

theorem uc_mem (b : Ref sig .tc) (h : (r b).isScoped = false := by rfl) : r b ∈ UC :=
  Finset.mem_filter.mpr ⟨StableHlo.devRef_mem_tcRefs b, fun h' => Bool.false_ne_true (h.symm.trans h')⟩

theorem hostOps_sub : ∀ op ∈ (hostOps : List (HloOp τ sig (Elt F))), op.bufs ⊆ UC :=
  fun op hop => Pipeline.sub_ucRefs op ((List.forall_iff_forall_mem.mp hostOps_tc) op hop)
theorem ops16_sub : ∀ op ∈ (ops16 : List (HloOp τ sig (Elt F))), op.bufs ⊆ UC :=
  fun op hop => Pipeline.sub_ucRefs op ((List.forall_iff_forall_mem.mp ops16_tc) op hop)
theorem op13_sub : ∀ op ∈ ([op13] : List (HloOp τ sig (Elt F))), op.bufs ⊆ UC :=
  fun op hop => by rw [List.mem_singleton.mp hop]; exact Pipeline.sub_ucRefs _ op13_tc
theorem hostOps_fresh : ∀ op ∈ (hostOps : List (HloOp τ sig (Elt F))), op.fresh = ∅ := by
  intro _ h; (repeat (cases h with | head => rfl | tail _ h => ?_)); exact nomatch h
theorem ops16_fresh : ∀ op ∈ (ops16 : List (HloOp τ sig (Elt F))), op.fresh = ∅ := by
  intro _ h; (repeat (cases h with | head => rfl | tail _ h => ?_)); exact nomatch h
theorem op13_fresh : ∀ op ∈ ([op13] : List (HloOp τ sig (Elt F))), op.fresh = ∅ := by
  intro _ h; (repeat (cases h with | head => rfl | tail _ h => ?_)); exact nomatch h

theorem held3 (c : Thread nD τ) {a b e : DevRef τ sig} (hab : a ≠ b) (hae : a ≠ e) (hbe : b ≠ e) (W : Valuation τ sig (Elt F)) :
    (held c {a, b, e} W : sProp 𝕄) = iprop(((c.1, a) ↦{fullShare} W a) ∗ ((c.1, b) ↦{fullShare} W b) ∗ (c.1, e) ↦{fullShare} W e) := by
  unfold held
  rw [SparseCore.bigSep_insert' (by simp [hab, hae]), SparseCore.bigSep_insert' (by simp [hbe]), bigSep_singleton]
theorem held4 (c : Thread nD τ) {a b e g : DevRef τ sig} (hab : a ≠ b) (hae : a ≠ e) (hag : a ≠ g) (hbe : b ≠ e) (hbg : b ≠ g) (heg : e ≠ g)
    (W : Valuation τ sig (Elt F)) :
    (held c {a, b, e, g} W : sProp 𝕄)
      = iprop(((c.1, a) ↦{fullShare} W a) ∗ ((c.1, b) ↦{fullShare} W b) ∗ ((c.1, e) ↦{fullShare} W e) ∗ (c.1, g) ↦{fullShare} W g) := by
  unfold held
  rw [SparseCore.bigSep_insert' (by simp [hab, hae, hag]), SparseCore.bigSep_insert' (by simp [hbe, hbg]), SparseCore.bigSep_insert' (by simp [heg]), bigSep_singleton]

/-! ## The second call's operands: the one working tile's -/

theorem bigSep_emp' {I : Type} (s : Finset I) : (bigSep s fun _ => iprop(emp)) = (iprop(emp) : sProp 𝕄) := bigSep_emp_const s

theorem bigSep_one (A : sProp 𝕄) :
    (bigSep (Finset.univ : Finset (Fin 2)) fun c => bigSep (Finset.univ : Finset (Fin 16)) fun i =>
      if c.val = 0 ∧ i.val = 0 then A else iprop(emp)) = A := by
  rw [← bigSep_univ_prod (fun p : Fin 2 × Fin 16 => if p.1.val = 0 ∧ p.2.val = 0 then A else iprop(emp)),
    bigSep_erase (Finset.mem_univ ((0 : Fin 2), (0 : Fin 16))),
    bigSep_congr (Ψ := fun _ => (iprop(emp) : sProp 𝕄)) (fun p hp => if_neg fun h => Finset.ne_of_mem_erase hp (Prod.ext (Fin.ext h.1) (Fin.ext h.2))),
    bigSep_emp', if_pos ⟨rfl, rfl⟩]
  exact BI.equiv_iff.mp sep_emp

theorem st1_eq (d : Dev nD) : (bigSep Finset.univ fun c : Fin ((K (F := F)).nCore 1) => (P X).st 1 d c) = go1 X d :=
  bigSep_one (go1 X d)
theorem dn1_eq (d : Dev nD) : (bigSep Finset.univ fun c : Fin ((K (F := F)).nCore 1) => (P X).dn 1 d c) = td1 X d :=
  bigSep_one (td1 X d)

/-! ## Buffers taken out of the held set and put back -/

theorem take3 (c : Thread nD τ) {A : Finset (DevRef τ sig)} {a b e : DevRef τ sig} (ha : a ∈ A) (hb : b ∈ A) (he : e ∈ A)
    (hab : a ≠ b) (hae : a ≠ e) (hbe : b ≠ e) (W : Valuation τ sig (Elt F)) :
    (held c A W : sProp 𝕄)
      = iprop((((c.1, a) ↦{fullShare} W a) ∗ ((c.1, b) ↦{fullShare} W b) ∗ (c.1, e) ↦{fullShare} W e) ∗ held c (A \ {a, b, e}) W) := by
  rw [StableHlo.held_sub_split c (show ({a, b, e} : Finset (DevRef τ sig)) ⊆ A from by
        intro x hx; simp only [Finset.mem_insert, Finset.mem_singleton] at hx; rcases hx with rfl | rfl | rfl <;> assumption) W,
      held3 c hab hae hbe W]
theorem put3 (c : Thread nD τ) {A : Finset (DevRef τ sig)} {a b e : DevRef τ sig} (ha : a ∈ A) (hb : b ∈ A) (he : e ∈ A)
    (hab : a ≠ b) (hae : a ≠ e) (hbe : b ≠ e) (W W' : Valuation τ sig (Elt F))
    (h : ∀ x, x ∉ ({a, b, e} : Finset (DevRef τ sig)) → W' x = W x) :
    iprop((((c.1, a) ↦{fullShare} W' a) ∗ ((c.1, b) ↦{fullShare} W' b) ∗ (c.1, e) ↦{fullShare} W' e) ∗ held c (A \ {a, b, e}) W)
      = (held c A W' : sProp 𝕄) := by
  rw [take3 c ha hb he hab hae hbe W', StableHlo.held_congr c (V := W') (V' := W) (fun x hx => h x (Finset.mem_sdiff.mp hx).2)]
theorem take4 (c : Thread nD τ) {A : Finset (DevRef τ sig)} {a b e g : DevRef τ sig} (ha : a ∈ A) (hb : b ∈ A) (he : e ∈ A) (hg : g ∈ A)
    (hab : a ≠ b) (hae : a ≠ e) (hag : a ≠ g) (hbe : b ≠ e) (hbg : b ≠ g) (heg : e ≠ g) (W : Valuation τ sig (Elt F)) :
    (held c A W : sProp 𝕄)
      = iprop((((c.1, a) ↦{fullShare} W a) ∗ ((c.1, b) ↦{fullShare} W b) ∗ ((c.1, e) ↦{fullShare} W e) ∗ (c.1, g) ↦{fullShare} W g)
          ∗ held c (A \ {a, b, e, g}) W) := by
  rw [StableHlo.held_sub_split c (show ({a, b, e, g} : Finset (DevRef τ sig)) ⊆ A from by
        intro x hx; simp only [Finset.mem_insert, Finset.mem_singleton] at hx; rcases hx with rfl | rfl | rfl | rfl <;> assumption) W,
      held4 c hab hae hag hbe hbg heg W]
theorem put4 (c : Thread nD τ) {A : Finset (DevRef τ sig)} {a b e g : DevRef τ sig} (ha : a ∈ A) (hb : b ∈ A) (he : e ∈ A) (hg : g ∈ A)
    (hab : a ≠ b) (hae : a ≠ e) (hag : a ≠ g) (hbe : b ≠ e) (hbg : b ≠ g) (heg : e ≠ g) (W W' : Valuation τ sig (Elt F))
    (h : ∀ x, x ∉ ({a, b, e, g} : Finset (DevRef τ sig)) → W' x = W x) :
    iprop((((c.1, a) ↦{fullShare} W' a) ∗ ((c.1, b) ↦{fullShare} W' b) ∗ ((c.1, e) ↦{fullShare} W' e) ∗ (c.1, g) ↦{fullShare} W' g)
          ∗ held c (A \ {a, b, e, g}) W)
      = (held c A W' : sProp 𝕄) := by
  rw [take4 c ha hb he hg hab hae hag hbe hbg heg W', StableHlo.held_congr c (V := W') (V' := W) (fun x hx => h x (Finset.mem_sdiff.mp hx).2)]

theorem ne_r {x y : Ref sig .tc} (h : x ≠ y := by decide) : r x ≠ r y := StableHlo.devRef_ne_of_ne h

/-! ## @main on the TensorCore -/

section Main

variable (m : (ℓ : Loc nD τ sig) → Buf (Elt F) ℓ) (ρ : Dev nD → PrngReg)

abbrev a2Loc (d : Dev nD) : Loc nD τ sig := (SparseCore.T d).loc main_arg2
abbrev v10Loc (d : Dev nD) : Loc nD τ sig := (SparseCore.T d).loc main_v10
abbrev v12Loc (d : Dev nD) : Loc nD τ sig := (SparseCore.T d).loc main_v12
abbrev v16Loc (d : Dev nD) : Loc nD τ sig := (SparseCore.T d).loc main_v16

/-- The launch contents of device `d`'s buffers, and the contents after the host line. -/
abbrev W0 (d : Dev nD) : Valuation τ sig (Elt F) := fun b => m (d, b)
abbrev Wh (d : Dev nD) : Valuation τ sig (Elt F) := StableHlo.after hostOps (W0 m d)

variable (d : Dev nD)

/-- The buffers of the first call, of the pipeline, of the second call, and of the claim. -/
abbrev B0 : Finset (DevRef τ sig) := {r main_v3, r main_v6, r main_v11}
abbrev B1 : Finset (DevRef τ sig) := {r main_arg0, r main_v10, r main_v12}
abbrev B2 : Finset (DevRef τ sig) := {r main_v11, r main_v13, r main_v8, r main_v14}
abbrev B3 : Finset (DevRef τ sig) := {r main_arg0, r main_arg1, r main_arg2, r main_v16}

theorem take_call0 (W : Valuation τ sig (Elt F)) :
    (held (SparseCore.T d) UC W : sProp 𝕄)
      = iprop(((ztLoc d ↦{fullShare} W (r main_v3)) ∗ (e2Loc d ↦{fullShare} W (r main_v6)) ∗ (ptLoc d ↦{fullShare} W (r main_v11)))
          ∗ held (SparseCore.T d) (UC \ B0) W) :=
  take3 (SparseCore.T d) (uc_mem main_v3) (uc_mem main_v6) (uc_mem main_v11) ne_r ne_r ne_r W
theorem put_call0 (W W' : Valuation τ sig (Elt F)) (h : ∀ x, x ∉ (B0 : Finset (DevRef τ sig)) → W' x = W x) :
    iprop(((ztLoc d ↦{fullShare} W' (r main_v3)) ∗ (e2Loc d ↦{fullShare} W' (r main_v6)) ∗ (ptLoc d ↦{fullShare} W' (r main_v11)))
          ∗ held (SparseCore.T d) (UC \ B0) W)
      = (held (SparseCore.T d) UC W' : sProp 𝕄) :=
  put3 (SparseCore.T d) (uc_mem main_v3) (uc_mem main_v6) (uc_mem main_v11) ne_r ne_r ne_r W W' h
theorem take_reg (W : Valuation τ sig (Elt F)) :
    (held (SparseCore.T d) UC W : sProp 𝕄)
      = iprop(((a0Loc d ↦{fullShare} W (r main_arg0)) ∗ (v10Loc d ↦{fullShare} W (r main_v10)) ∗ (v12Loc d ↦{fullShare} W (r main_v12)))
          ∗ held (SparseCore.T d) (UC \ B1) W) :=
  take3 (SparseCore.T d) (uc_mem main_arg0) (uc_mem main_v10) (uc_mem main_v12) ne_r ne_r ne_r W
theorem put_reg (W W' : Valuation τ sig (Elt F)) (h : ∀ x, x ∉ (B1 : Finset (DevRef τ sig)) → W' x = W x) :
    iprop(((a0Loc d ↦{fullShare} W' (r main_arg0)) ∗ (v10Loc d ↦{fullShare} W' (r main_v10)) ∗ (v12Loc d ↦{fullShare} W' (r main_v12)))
          ∗ held (SparseCore.T d) (UC \ B1) W)
      = (held (SparseCore.T d) UC W' : sProp 𝕄) :=
  put3 (SparseCore.T d) (uc_mem main_arg0) (uc_mem main_v10) (uc_mem main_v12) ne_r ne_r ne_r W W' h
theorem take_call1 (W : Valuation τ sig (Elt F)) :
    (held (SparseCore.T d) UC W : sProp 𝕄)
      = iprop(((ptLoc d ↦{fullShare} W (r main_v11)) ∗ (tcLoc d ↦{fullShare} W (r main_v13)) ∗ (etLoc d ↦{fullShare} W (r main_v8))
            ∗ (ouLoc d ↦{fullShare} W (r main_v14)))
          ∗ held (SparseCore.T d) (UC \ B2) W) :=
  take4 (SparseCore.T d) (uc_mem main_v11) (uc_mem main_v13) (uc_mem main_v8) (uc_mem main_v14) ne_r ne_r ne_r ne_r ne_r ne_r W
theorem put_call1 (W W' : Valuation τ sig (Elt F)) (h : ∀ x, x ∉ (B2 : Finset (DevRef τ sig)) → W' x = W x) :
    iprop(((ptLoc d ↦{fullShare} W' (r main_v11)) ∗ (tcLoc d ↦{fullShare} W' (r main_v13)) ∗ (etLoc d ↦{fullShare} W' (r main_v8))
            ∗ (ouLoc d ↦{fullShare} W' (r main_v14)))
          ∗ held (SparseCore.T d) (UC \ B2) W)
      = (held (SparseCore.T d) UC W' : sProp 𝕄) :=
  put4 (SparseCore.T d) (uc_mem main_v11) (uc_mem main_v13) (uc_mem main_v8) (uc_mem main_v14) ne_r ne_r ne_r ne_r ne_r ne_r W W' h
theorem take_fin (W : Valuation τ sig (Elt F)) :
    (held (SparseCore.T d) UC W : sProp 𝕄)
      = iprop(((a0Loc d ↦{fullShare} W (r main_arg0)) ∗ (a1Loc d ↦{fullShare} W (r main_arg1)) ∗ (a2Loc d ↦{fullShare} W (r main_arg2))
            ∗ (v16Loc d ↦{fullShare} W (r main_v16)))
          ∗ held (SparseCore.T d) (UC \ B3) W) :=
  take4 (SparseCore.T d) (uc_mem main_arg0) (uc_mem main_arg1) (uc_mem main_arg2) (uc_mem main_v16) ne_r ne_r ne_r ne_r ne_r ne_r W

end Main

section Calls

variable (m : (ℓ : Loc nD τ sig) → Buf (Elt F) ℓ) (d : Dev nD)

/-! ## What the host lines leave -/

theorem Wh_zt : Wh m d (r main_v3) = HVW.ztV (m (a0Loc d)) := HVW.after_hostOps_zt (W0 m d)
theorem Wh_e2 : Wh m d (r main_v6) = HVW.e2V (m (a1Loc d)) := HVW.after_hostOps_e2 (W0 m d)
theorem Wh_et : Wh m d (r main_v8) = HVW.etV (m (a1Loc d)) := HVW.after_hostOps_et (W0 m d)
theorem Wh_v10 : Wh m d (r main_v10) = HVW.v10V (m (a1Loc d)) := HVW.after_hostOps_v10 (W0 m d)
theorem Wh_a0 : Wh m d (r main_arg0) = m (a0Loc d) := HVW.after_hostOps_arg0 (W0 m d)
theorem Wh_a1 : Wh m d (r main_arg1) = m (a1Loc d) := HVW.after_hostOps_arg1 (W0 m d)
theorem Wh_a2 : Wh m d (r main_arg2) = m (a2Loc d) :=
  StableHlo.after_of_writes_sub hostOps (W0 m d) HVW.hostOps_writes (by decide)

/-- The reshape writes `main_v13` only; the final line `main_v15` and `main_v16` only. -/
theorem after13_ne (W : Valuation τ sig (Elt F)) {b : DevRef τ sig} (hb : b ≠ r main_v13) : StableHlo.after [op13] W b = W b :=
  StableHlo.after_of_forall_not_mem [op13] W fun op hop => by
    rw [List.mem_singleton.mp hop]; unfold HVW.op13; rw [StableHlo.reshape_writes]
    exact fun h => hb (Finset.mem_singleton.mp h)
theorem after16_ne (W : Valuation τ sig (Elt F)) {b : DevRef τ sig} (h15 : b ≠ r main_v15) (h16 : b ≠ r main_v16) :
    StableHlo.after ops16 W b = W b :=
  StableHlo.after_of_forall_not_mem ops16 W fun op hop => by
    unfold HVW.ops16 at hop
    rcases List.mem_cons.mp hop with rfl | hop
    · rw [StableHlo.unary_writes]; exact fun h => h15 (Finset.mem_singleton.mp h)
    · rw [List.mem_singleton.mp hop, StableHlo.reshape_writes]; exact fun h => h16 (Finset.mem_singleton.mp h)

/-! ## The two calls and the pipeline, over the held set -/

/-- Before the first call: the three operands leave the held set and are dealt to the tiles. -/
theorem call0_pre (W : Valuation τ sig (Elt F)) (hz : W (r main_v3) = X.zt d) (he : W (r main_v6) = X.e2 d) :
    (held (SparseCore.T d) UC W : sProp 𝕄)
      ⊢ iprop((e2Loc d ↦{shareDrop fullShare 32} X.e2 d) ∗ (bigSep Finset.univ fun c : Fin ((K (F := F)).nCore 0) => (P X).st 0 d c)
          ∗ held (SparseCore.T d) (UC \ B0) W) := by
  rw [take_call0 d W, hz, he]
  iintro ⟨⟨Hz, He, Hp⟩, Hrest⟩
  ihave H := (present0 X d (W (r main_v11))) $$ [Hz He Hp]
  · isplitl [Hz]; · iexact Hz
    isplitl [He]; · iexact He
    iexact Hp
  icases H with ⟨Hd, Hst⟩
  isplitl [Hd]; · iexact Hd
  isplitl [Hst]; · iexact Hst
  iexact Hrest

/-- After it: they come back, the partial minima at contents every row of which satisfies its tile's post. -/
theorem call0_post (hloc0 : ∀ d w (f g : Buf (Elt F) (ptLoc d)), (∀ x ∈ pRowSet w, f x = g x) → X.post0 d w f → X.post0 d w g)
    (W : Valuation τ sig (Elt F)) (hz : W (r main_v3) = X.zt d) (he : W (r main_v6) = X.e2 d) :
    (iprop((e2Loc d ↦{shareDrop fullShare 32} X.e2 d) ∗ (bigSep Finset.univ fun c : Fin ((K (F := F)).nCore 0) => (P X).dn 0 d c)
          ∗ held (SparseCore.T d) (UC \ B0) W) : sProp 𝕄)
      ⊢ iprop(∃ g : Buf (Elt F) (ptLoc d), ⌜∀ w, X.post0 d w g⌝ ∗ held (SparseCore.T d) UC (Function.update W (r main_v11) g)) := by
  iintro ⟨Hd, Hdn, Hrest⟩
  ihave H := (back0 X hloc0 d) $$ [Hd Hdn]
  · isplitl [Hd] <;> iassumption
  icases H with ⟨Hz, He, %g, %hg, Hp⟩
  iexists g
  isplitr; · ipureintro; exact hg
  rw [← put_call0 d W (Function.update W (r main_v11) g)
      (fun x hx => Function.update_of_ne (fun e => hx (by rw [e]; simp)) _ _),
    Function.update_self, Function.update_of_ne (ne_r (x := main_v3) (y := main_v11)), Function.update_of_ne (ne_r (x := main_v6) (y := main_v11)), hz, he]
  isplitl [Hz He Hp]
  · isplitl [Hz]; · iexact Hz
    isplitl [He]; · iexact He
    iexact Hp
  iexact Hrest

/-- After the pipeline: its three arrays go back, the row of minima at what it left. -/
theorem reg_post (W : Valuation τ sig (Elt F)) (f : Buf (Elt F) (v12Loc d)) :
    (iprop(((a0Loc d ↦{fullShare} W (r main_arg0)) ∗ (v10Loc d ↦{fullShare} W (r main_v10)) ∗ (v12Loc d ↦{fullShare} f))
          ∗ held (SparseCore.T d) (UC \ B1) W) : sProp 𝕄)
      ⊢ held (SparseCore.T d) UC (Function.update W (r main_v12) f) := by
  rw [← put_reg d W (Function.update W (r main_v12) f)
      (fun x hx => Function.update_of_ne (fun e => hx (by rw [e]; simp)) _ _),
    Function.update_self, Function.update_of_ne (ne_r (x := main_arg0) (y := main_v12)), Function.update_of_ne (ne_r (x := main_v10) (y := main_v12))]

/-- Before the second call: the working tile's four arrays, the partial minima and the row of minima at their posts. -/
theorem call1_pre (W : Valuation τ sig (Elt F)) (h0 : ∀ w, X.post0 d w (W (r main_v11))) (hT : X.postTC d (W (r main_v13)))
    (he : W (r main_v8) = X.et d) :
    (held (SparseCore.T d) UC W : sProp 𝕄)
      ⊢ iprop((bigSep Finset.univ fun c : Fin ((K (F := F)).nCore 1) => (P X).st 1 d c) ∗ held (SparseCore.T d) (UC \ B2) W) := by
  rw [take_call1 d W, st1_eq, he]
  unfold go1
  iintro ⟨⟨Hp, Ht, He, Ho⟩, Hrest⟩
  isplitr [Hrest]
  · iexists (W (r main_v11)); iexists (W (r main_v13))
    isplitr; · ipureintro; exact h0
    isplitr; · ipureintro; exact hT
    isplitl [Hp]; · iexact Hp
    isplitl [Ht]; · iexact Ht
    isplitl [He]; · iexact He
    iexists _; iexact Ho
  iexact Hrest

/-- After it: they come back, the result vector at its post. -/
theorem call1_post (W : Valuation τ sig (Elt F)) (he : W (r main_v8) = X.et d) :
    (iprop((bigSep Finset.univ fun c : Fin ((K (F := F)).nCore 1) => (P X).dn 1 d c) ∗ held (SparseCore.T d) (UC \ B2) W) : sProp 𝕄)
      ⊢ iprop(∃ (f : Buf (Elt F) (ptLoc d)) (t : Buf (Elt F) (tcLoc d)) (o : Buf (Elt F) (ouLoc d)), ⌜X.post2 d o⌝ ∗
          held (SparseCore.T d) UC (Function.update (Function.update (Function.update W (r main_v11) f) (r main_v13) t) (r main_v14) o)) := by
  rw [dn1_eq]; unfold td1
  iintro ⟨⟨⟨%f, Hp⟩, ⟨%t, Ht⟩, He, %o, %ho, Ho⟩, Hrest⟩
  iexists f; iexists t; iexists o
  isplitr; · ipureintro; exact ho
  have n13 : r main_v11 ≠ r main_v13 := ne_r
  have n14 : r main_v11 ≠ r main_v14 := ne_r
  have n34 : r main_v13 ≠ r main_v14 := ne_r
  have n81 : r main_v8 ≠ r main_v11 := ne_r
  have n83 : r main_v8 ≠ r main_v13 := ne_r
  have n84 : r main_v8 ≠ r main_v14 := ne_r
  rw [← put_call1 d W (Function.update (Function.update (Function.update W (r main_v11) f) (r main_v13) t) (r main_v14) o)
      (fun x hx => by
        have h1 : x ≠ r main_v11 := fun e => hx (by rw [e]; simp)
        have h3 : x ≠ r main_v13 := fun e => hx (by rw [e]; simp)
        have h4 : x ≠ r main_v14 := fun e => hx (by rw [e]; simp)
        rw [Function.update_of_ne h4, Function.update_of_ne h3, Function.update_of_ne h1]),
    Function.update_self, Function.update_of_ne n34, Function.update_self, Function.update_of_ne n14, Function.update_of_ne n13, Function.update_self,
    Function.update_of_ne n84, Function.update_of_ne n83, Function.update_of_ne n81, he]
  isplitl [Hp Ht He Ho]
  · isplitl [Hp]; · iexact Hp
    isplitl [Ht]; · iexact Ht
    isplitl [He]; · iexact He
    iexact Ho
  iexact Hrest

/-- A buffer none of the later steps writes is, at the end, as the host line left it. -/
theorem keep (W : Valuation τ sig (Elt F)) (g f' : Buf (Elt F) (ptLoc d)) (f : Buf (Elt F) (v12Loc d)) (t' : Buf (Elt F) (tcLoc d))
    (o : Buf (Elt F) (ouLoc d)) {b : Ref sig .tc} (h11 : b ≠ main_v11) (h12 : b ≠ main_v12) (h13 : b ≠ main_v13) (h14 : b ≠ main_v14)
    (h15 : b ≠ main_v15) (h16 : b ≠ main_v16) :
    StableHlo.after ops16 (Function.update (Function.update (Function.update
      (StableHlo.after [op13] (Function.update (Function.update W (r main_v11) g) (r main_v12) f)) (r main_v11) f') (r main_v13) t') (r main_v14) o) (r b)
      = W (r b) := by
  rw [after16_ne _ (ne_r h15) (ne_r h16), Function.update_of_ne (ne_r h14), Function.update_of_ne (ne_r h13), Function.update_of_ne (ne_r h11),
    after13_ne _ (ne_r h13), Function.update_of_ne (ne_r h12), Function.update_of_ne (ne_r h11)]

end Calls

section Hmain

variable (m : (ℓ : Loc nD τ sig) → Buf (Elt F) ℓ) (ρ : Dev nD → PrngReg)
-- The pipeline's ghost state on a device, and what the pipeline leaves in its row of minima: the pipeline's module says what they are.
variable (tcGhost : Dev nD → sProp (MT nD τ sig (HIx 2) (Elt F) ℕ UU ℕ))
variable (PostTC : (d : Dev nD) → Buf (Elt F) (a0Loc d) → Buf (Elt F) (v10Loc d) → Buf (Elt F) (v12Loc d) → Prop)

/-- What @main leaves the claim: the three arguments at their launch contents, and the result at the first entry of a
    result vector that satisfies the second call's post. -/
def FIN (d : Dev nD) : sProp 𝕄 :=
  iprop((a0Loc d ↦{fullShare} m (a0Loc d)) ∗ (a1Loc d ↦{fullShare} m (a1Loc d)) ∗ (a2Loc d ↦{fullShare} m (a2Loc d))
    ∗ ∃ v : Buf (Elt F) (v16Loc d), ⌜∃ o : Buf (Elt F) (ouLoc d), X.post2 d o ∧ v = HVW.v16V o⌝ ∗ v16Loc d ↦{fullShare} v)

theorem fin_of (d : Dev nD) (W : Valuation τ sig (Elt F)) (h0 : W (r main_arg0) = m (a0Loc d)) (h1 : W (r main_arg1) = m (a1Loc d))
    (h2 : W (r main_arg2) = m (a2Loc d)) (o : Buf (Elt F) (ouLoc d)) (ho : X.post2 d o) (hv : W (r main_v16) = HVW.v16V o) :
    (held (SparseCore.T d) UC W : sProp 𝕄) ⊢ FIN X m d := by
  rw [take_fin d W, h0, h1, h2, hv]; unfold FIN
  iintro ⟨⟨H0, H1, H2, Hv⟩, -⟩
  isplitl [H0]; · iexact H0
  isplitl [H1]; · iexact H1
  isplitl [H2]; · iexact H2
  iexists (HVW.v16V o)
  isplitr; · ipureintro; exact ⟨o, ho, rfl⟩
  iexact Hv

set_option backward.isDefEq.respectTransparency.types false in
/-- @main on device `d`'s TensorCore: the host line; the first call, every tile handed its pieces; the pipeline; the reshape;
    the second call on the one working tile; the final slice. The arguments are kept. -/
theorem hmain
    (hloc0 : ∀ d w (f g : Buf (Elt F) (ptLoc d)), (∀ x ∈ pRowSet w, f x = g x) → X.post0 d w f → X.post0 d w g)
    (hzt : ∀ d, X.zt d = HVW.ztV (m (a0Loc d))) (he2 : ∀ d, X.e2 d = HVW.e2V (m (a1Loc d))) (het : ∀ d, X.et d = HVW.etV (m (a1Loc d)))
    (hregion : ∀ (κ : GSem nD τ sig → ℕ) (d : Dev nD)
      (z : (d : Dev nD) → Buf (Elt F) (a0Loc d)) (v10 : (d : Dev nD) → Buf (Elt F) (v10Loc d)) (f₀ : (d : Dev nD) → Buf (Elt F) (v12Loc d)),
      iprop((K (F := F)).ctx EH (P X) κ ∗ (K (F := F)).tcSt EH d 1 ∗ tcGhost d ∗ boundary (SparseCore.T d)
          ∗ (a0Loc d ↦{fullShare} z d) ∗ (v10Loc d ↦{fullShare} v10 d) ∗ (v12Loc d ↦{fullShare} f₀ d))
        ⊢ wp frame (wpE ((K (F := F)).defs (D (F := F))) 𝒱 (SparseCore.T d) none) Set.univ
            (Prog.lift (.customCall (SparseCore.inner (Pipeline.entry 0)) ())) fun _ =>
            iprop((K (F := F)).tcSt EH d 1 ∗ boundary (SparseCore.T d)
              ∗ (a0Loc d ↦{fullShare} z d) ∗ (v10Loc d ↦{fullShare} v10 d) ∗ ∃ f, ⌜PostTC d (z d) (v10 d) f⌝ ∗ (v12Loc d ↦{fullShare} f)))
    (hTC : ∀ d (f : Buf (Elt F) (v12Loc d)), PostTC d (m (a0Loc d)) (HVW.v10V (m (a1Loc d))) f → X.postTC d (HVW.v13V f))
    (κ : GSem nD τ sig → ℕ) (d : Dev nD) :
    iprop((K (F := F)).ctx EH (P X) κ ∗ (K (F := F)).tcSt EH d 0 ∗ (K (F := F)).tcRes m ρ d ∗ tcGhost d)
      ⊢ wp frame (wpE ((K (F := F)).defs (D (F := F))) 𝒱 (SparseCore.T d) none) Set.univ (main d)
          fun _ => iprop((K (F := F)).tcSt EH d 2 ∗ FIN X m d) := by
  have ez : Wh m d (r main_v3) = X.zt d := (Wh_zt m d).trans (hzt d).symm
  have ee : Wh m d (r main_v6) = X.e2 d := (Wh_e2 m d).trans (he2 d).symm
  unfold SparseCore.Cfg.tcRes
  rw [show (unscopedBufs d (fun b => m ((SparseCore.T d).loc b)) : sProp 𝕄) = held (SparseCore.T d) UC (W0 m d)
        from Pipeline.unscopedBufs_held d (W0 m d), main_eq]
  iintro ⟨#Hctx, Hst, ⟨Hb, Hheld, -, -⟩, Hg⟩
  -- the host line
  iapply (StableHlo.wp_seq (defs := (K (F := F)).defs (D (F := F))) 𝒱 none Set.univ d UC _ hostOps hostOps_sub hostOps_fresh (W0 m d)) $$ [Hb Hheld]
  · isplitl [Hb] <;> iassumption
  iintro ⟨Hb, Hheld⟩
  -- the first call
  ihave H0 := (call0_pre X d (Wh m d) ez ee) $$ Hheld
  icases H0 with ⟨Hdrop, Hst0, Hrest⟩
  rw [wp_bind]
  iapply ((K (F := F)).wp_run (D (F := F)) 𝒱 (EH := EH) (P := P X) κ d 0)
  isplitr; · iexact Hctx
  isplitl [Hst]; · iexact Hst
  isplitl [Hst0]; · iexact Hst0
  iintro ⟨Hst, Hdn⟩
  ihave H0 := (call0_post X d hloc0 (Wh m d) ez ee) $$ [Hdrop Hdn Hrest]
  · isplitl [Hdrop]; · iexact Hdrop
    isplitl [Hdn] <;> iassumption
  icases H0 with ⟨%g, %hg, Hheld⟩
  -- the pipeline
  ihave H1 := (Entails.of_eq (take_reg d (Function.update (Wh m d) (r main_v11) g))) $$ Hheld
  icases H1 with ⟨⟨Ha, Hv10, Hv12⟩, Hrest⟩
  rw [wp_bind]
  iapply (wp_wand_r frame _ Set.univ)
  isplitl [Hst Hg Hb Ha Hv10 Hv12]
  · iapply (hregion κ d (fun _ => Function.update (Wh m d) (r main_v11) g (r main_arg0))
      (fun _ => Function.update (Wh m d) (r main_v11) g (r main_v10)) (fun _ => Function.update (Wh m d) (r main_v11) g (r main_v12)))
    isplitr; · iexact Hctx
    isplitl [Hst]; · iexact Hst
    isplitl [Hg]; · iexact Hg
    isplitl [Hb]; · iexact Hb
    isplitl [Ha]; · iexact Ha
    isplitl [Hv10]; · iexact Hv10
    iexact Hv12
  iintro %_ ⟨Hst, Hb, Ha, Hv10, %f, %hf, Hv12⟩
  ihave Hheld := (reg_post d (Function.update (Wh m d) (r main_v11) g) f) $$ [Ha Hv10 Hv12 Hrest]
  · isplitl [Ha Hv10 Hv12]
    · isplitl [Ha]; · iexact Ha
      isplitl [Hv10]; · iexact Hv10
      iexact Hv12
    iexact Hrest
  -- the reshape
  iapply (StableHlo.wp_seq (defs := (K (F := F)).defs (D (F := F))) 𝒱 none Set.univ d UC _ [op13] op13_sub op13_fresh
    (Function.update (Function.update (Wh m d) (r main_v11) g) (r main_v12) f)) $$ [Hb Hheld]
  · isplitl [Hb] <;> iassumption
  iintro ⟨Hb, Hheld⟩
  -- what the second call finds
  have n11_12 : r main_v11 ≠ r main_v12 := ne_r
  have n11_13 : r main_v11 ≠ r main_v13 := ne_r
  have e11 : StableHlo.after [op13] (Function.update (Function.update (Wh m d) (r main_v11) g) (r main_v12) f) (r main_v11) = g := by
    rw [after13_ne _ n11_13, Function.update_of_ne n11_12, Function.update_self]
  have e13 : StableHlo.after [op13] (Function.update (Function.update (Wh m d) (r main_v11) g) (r main_v12) f) (r main_v13) = HVW.v13V f := by
    rw [HVW.after_op13, Function.update_self]
  have e8 : StableHlo.after [op13] (Function.update (Function.update (Wh m d) (r main_v11) g) (r main_v12) f) (r main_v8) = X.et d := by
    rw [after13_ne _ (ne_r (x := main_v8) (y := main_v13)), Function.update_of_ne (ne_r (x := main_v8) (y := main_v12)),
      Function.update_of_ne (ne_r (x := main_v8) (y := main_v11)), Wh_et, het d]
  have hpre : PostTC d (m (a0Loc d)) (HVW.v10V (m (a1Loc d))) f := by
    have := hf
    rw [Function.update_of_ne (ne_r (x := main_arg0) (y := main_v11)), Function.update_of_ne (ne_r (x := main_v10) (y := main_v11)), Wh_a0, Wh_v10] at this
    exact this
  -- the second call
  ihave H1 := (call1_pre X d _ (by rw [e11]; exact hg) (by rw [e13]; exact hTC d f hpre) e8) $$ Hheld
  icases H1 with ⟨Hst1, Hrest⟩
  rw [wp_bind]
  iapply ((K (F := F)).wp_run (D (F := F)) 𝒱 (EH := EH) (P := P X) κ d 1)
  isplitr; · iexact Hctx
  isplitl [Hst]; · iexact Hst
  isplitl [Hst1]; · iexact Hst1
  iintro ⟨Hst, Hdn⟩
  ihave H1 := (call1_post X d _ e8) $$ [Hdn Hrest]
  · isplitl [Hdn] <;> iassumption
  icases H1 with ⟨%f', %t', %o, %ho, Hheld⟩
  -- the final line
  iapply (StableHlo.wp_seq (defs := (K (F := F)).defs (D (F := F))) 𝒱 none Set.univ d UC _ ops16 ops16_sub ops16_fresh _) $$ [Hb Hheld]
  · isplitl [Hb] <;> iassumption
  iintro ⟨Hb, Hheld⟩
  rw [wp_pure]; imodintro
  isplitl [Hst]; · iexact Hst
  iapply (fin_of X m d (StableHlo.after ops16 (Function.update (Function.update (Function.update
      (StableHlo.after [op13] (Function.update (Function.update (Wh m d) (r main_v11) g) (r main_v12) f)) (r main_v11) f') (r main_v13) t') (r main_v14) o))
    (by rw [keep d (Wh m d) g f' f t' o (b := main_arg0) (by decide) (by decide) (by decide) (by decide) (by decide) (by decide)]; exact Wh_a0 m d)
    (by rw [keep d (Wh m d) g f' f t' o (b := main_arg1) (by decide) (by decide) (by decide) (by decide) (by decide) (by decide)]; exact Wh_a1 m d)
    (by rw [keep d (Wh m d) g f' f t' o (b := main_arg2) (by decide) (by decide) (by decide) (by decide) (by decide) (by decide)]; exact Wh_a2 m d)
    o ho (by rw [HVW.after_ops16, Function.update_self]))
  iexact Hheld

/-- What the final memory says of the claim: the arguments unchanged, the result the first entry of a result vector that
    satisfies the second call's post. -/
def fq (d : Dev nD) (s' : Phys nD τ sig (Elt F)) : Prop :=
  s'.mem.mem (a0Loc d) = m (a0Loc d) ∧ s'.mem.mem (a1Loc d) = m (a1Loc d) ∧ s'.mem.mem (a2Loc d) = m (a2Loc d)
    ∧ ∃ o : Buf (Elt F) (ouLoc d), X.post2 d o ∧ s'.mem.mem (v16Loc d) = HVW.v16V o

theorem hfin (d : Dev nD) (s' : Phys nD τ sig (Elt F)) : iprop(FIN X m d ∗ SI s') ⊢ (⌜fq X m d s'⌝ : sProp 𝕄) := by
  unfold FIN
  iintro ⟨⟨H0, H1, H2, %v, %hv, Hv⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (persistent_entails_right (SI_pointsTo_agree (st := s') (ℓ := a2Loc d) (I := Finset.univ) (q := fullShare) (f := m (a2Loc d)))) $$ [HSI H2]
  · isplitl [HSI] <;> iassumption
  icases H with ⟨%h2, HSI, -⟩
  ihave H := (SI_pointsTo_agree (st := s') (ℓ := v16Loc d) (I := Finset.univ) (q := fullShare) (f := v)) $$ [HSI Hv]
  · isplitl [HSI] <;> iassumption
  icases H with %h3
  ipureintro
  obtain ⟨o, ho, rfl⟩ := hv
  exact ⟨funext fun i => h0 i (Finset.mem_univ i), funext fun i => h1 i (Finset.mem_univ i), funext fun i => h2 i (Finset.mem_univ i),
    o, ho, funext fun i => h3 i (Finset.mem_univ i)⟩

end Hmain

/-! ## The same at the pipeline's own ghost state and post -/

section HmainTc

variable (m : (ℓ : Loc nD τ sig) → Buf (Elt F) ℓ) (ρ : Dev nD → PrngReg)

/-- `hmain` with the pipeline's region rule put in: its staging cells' ghost state on the device, its result the row of
    minima as a function of its two operands. -/
theorem hmainTc
    (hloc0 : ∀ d w (f g : Buf (Elt F) (ptLoc d)), (∀ x ∈ pRowSet w, f x = g x) → X.post0 d w f → X.post0 d w g)
    (hzt : ∀ d, X.zt d = HVW.ztV (m (a0Loc d))) (he2 : ∀ d, X.e2 d = HVW.e2V (m (a1Loc d))) (het : ∀ d, X.et d = HVW.etV (m (a1Loc d)))
    (hTC : ∀ d (f : Buf (Elt F) (v12Loc d)), Cert.Proof.TcVW.PostTC (d := d) (m (a0Loc d)) (HVW.v10V (m (a1Loc d))) f → X.postTC d (HVW.v13V f))
    (κ : GSem nD τ sig → ℕ) (d : Dev nD) :
    iprop((K (F := F)).ctx EH (P X) κ ∗ (K (F := F)).tcSt EH d 0 ∗ (K (F := F)).tcRes m ρ d ∗ Cert.Proof.TcRW.tcGhost d)
      ⊢ wp frame (wpE ((K (F := F)).defs (D (F := F))) 𝒱 (SparseCore.T d) none) Set.univ (main d)
          fun _ => iprop((K (F := F)).tcSt EH d 2 ∗ FIN X m d) :=
  hmain X m ρ Cert.Proof.TcRW.tcGhost (fun d z v f => Cert.Proof.TcVW.PostTC (d := d) z v f) hloc0 hzt he2 het
    (fun κ d z v10 f₀ => Cert.Proof.TcRW.tcRegion X κ d z v10 f₀) hTC κ d

end HmainTc

end Cert.Proof.MnW

end
-- ==== Proof.S1AuxW.lean ====
/-
  How the loads of the first vector-subcore call read the scratch buffers: a load of sixteen lanes through a
  unit-stride rectangle is the buffer's contents at the rectangle's offset plus the lane, so the pieces the value
  functions are stated over are what the loads answer; and the tile's slab of the transposed points read through
  the sliced and squeezed view.
-/
import proofs.«209935_g88441966559691_cont_sun_c4_661_34_alg».proof.Proof.IfaceW
import proofs.«209935_g88441966559691_cont_sun_c4_661_34_alg».proof.Proof.S1ValW

noncomputable section

namespace Cert.Proof.S1AW

open Cert.Kernel Cert.Kernel.Gen
open Idealize.ShloMosaic Idealize.ShloMosaic.ValueIdx
open Cert.Proof.KIW Cert.Proof.S1W

variable {F : FTy → Type} [FloatOps F]

/-! ## Loads of sixteen lanes -/

/-- A load of row `j` of the slab from lane `16 h`. -/
theorem rowLd_readAt {κ : Kind} {sp : Space} (m : Memref sig κ sp S16x32 .f32) (f : m.view.ty.Contents (Elt F)) (j : Fin 16) (h : Fin 2)
    (inb : ∀ a, (![j.val, 16 * h.val] : Fin 2 → ℕ) a + S1x16.size a ≤ S16x32.size a) :
    m.view.readAt (Elt F) (Rect.unit (s := S16x32) ![j.val, 16 * h.val] S1x16.size inb).toLoadRect f = rowLd (m.view.read (Elt F) f) j h := by
  funext x
  show m.view.read (Elt F) f _ = m.view.read (Elt F) f _
  congr 1
  funext a
  match a with
  | ⟨0, _⟩ => exact Fin.ext (by have h0 : (x 0).val < 1 := (x 0).isLt; show j.val + 1 * (x 0).val = j.val; omega)
  | ⟨1, _⟩ => exact Fin.ext (by show 16 * h.val + 1 * (x 1).val = 16 * h.val + (x 1).val; omega)

/-! The same at each literal offset, as the program prints the thirty-two loads. -/

theorem rowLd_readAt_0_0 {κ : Kind} {sp : Space} (m : Memref sig κ sp S16x32 .f32) (f : m.view.ty.Contents (Elt F))
    (inb : ∀ a, (![0, 0] : Fin 2 → ℕ) a + S1x16.size a ≤ S16x32.size a) :
    m.view.readAt (Elt F) (Rect.unit (s := S16x32) ![0, 0] S1x16.size inb).toLoadRect f = rowLd (m.view.read (Elt F) f) 0 0 :=
  rowLd_readAt m f 0 0 inb
theorem rowLd_readAt_0_16 {κ : Kind} {sp : Space} (m : Memref sig κ sp S16x32 .f32) (f : m.view.ty.Contents (Elt F))
    (inb : ∀ a, (![0, 16] : Fin 2 → ℕ) a + S1x16.size a ≤ S16x32.size a) :
    m.view.readAt (Elt F) (Rect.unit (s := S16x32) ![0, 16] S1x16.size inb).toLoadRect f = rowLd (m.view.read (Elt F) f) 0 1 :=
  rowLd_readAt m f 0 1 inb
theorem rowLd_readAt_1_0 {κ : Kind} {sp : Space} (m : Memref sig κ sp S16x32 .f32) (f : m.view.ty.Contents (Elt F))
    (inb : ∀ a, (![1, 0] : Fin 2 → ℕ) a + S1x16.size a ≤ S16x32.size a) :
    m.view.readAt (Elt F) (Rect.unit (s := S16x32) ![1, 0] S1x16.size inb).toLoadRect f = rowLd (m.view.read (Elt F) f) 1 0 :=
  rowLd_readAt m f 1 0 inb
theorem rowLd_readAt_1_16 {κ : Kind} {sp : Space} (m : Memref sig κ sp S16x32 .f32) (f : m.view.ty.Contents (Elt F))
    (inb : ∀ a, (![1, 16] : Fin 2 → ℕ) a + S1x16.size a ≤ S16x32.size a) :
    m.view.readAt (Elt F) (Rect.unit (s := S16x32) ![1, 16] S1x16.size inb).toLoadRect f = rowLd (m.view.read (Elt F) f) 1 1 :=
  rowLd_readAt m f 1 1 inb
theorem rowLd_readAt_2_0 {κ : Kind} {sp : Space} (m : Memref sig κ sp S16x32 .f32) (f : m.view.ty.Contents (Elt F))
    (inb : ∀ a, (![2, 0] : Fin 2 → ℕ) a + S1x16.size a ≤ S16x32.size a) :
    m.view.readAt (Elt F) (Rect.unit (s := S16x32) ![2, 0] S1x16.size inb).toLoadRect f = rowLd (m.view.read (Elt F) f) 2 0 :=
  rowLd_readAt m f 2 0 inb
theorem rowLd_readAt_2_16 {κ : Kind} {sp : Space} (m : Memref sig κ sp S16x32 .f32) (f : m.view.ty.Contents (Elt F))
    (inb : ∀ a, (![2, 16] : Fin 2 → ℕ) a + S1x16.size a ≤ S16x32.size a) :
    m.view.readAt (Elt F) (Rect.unit (s := S16x32) ![2, 16] S1x16.size inb).toLoadRect f = rowLd (m.view.read (Elt F) f) 2 1 :=
  rowLd_readAt m f 2 1 inb
theorem rowLd_readAt_3_0 {κ : Kind} {sp : Space} (m : Memref sig κ sp S16x32 .f32) (f : m.view.ty.Contents (Elt F))
    (inb : ∀ a, (![3, 0] : Fin 2 → ℕ) a + S1x16.size a ≤ S16x32.size a) :
    m.view.readAt (Elt F) (Rect.unit (s := S16x32) ![3, 0] S1x16.size inb).toLoadRect f = rowLd (m.view.read (Elt F) f) 3 0 :=
  rowLd_readAt m f 3 0 inb
theorem rowLd_readAt_3_16 {κ : Kind} {sp : Space} (m : Memref sig κ sp S16x32 .f32) (f : m.view.ty.Contents (Elt F))
    (inb : ∀ a, (![3, 16] : Fin 2 → ℕ) a + S1x16.size a ≤ S16x32.size a) :
    m.view.readAt (Elt F) (Rect.unit (s := S16x32) ![3, 16] S1x16.size inb).toLoadRect f = rowLd (m.view.read (Elt F) f) 3 1 :=
  rowLd_readAt m f 3 1 inb
theorem rowLd_readAt_4_0 {κ : Kind} {sp : Space} (m : Memref sig κ sp S16x32 .f32) (f : m.view.ty.Contents (Elt F))
    (inb : ∀ a, (![4, 0] : Fin 2 → ℕ) a + S1x16.size a ≤ S16x32.size a) :
    m.view.readAt (Elt F) (Rect.unit (s := S16x32) ![4, 0] S1x16.size inb).toLoadRect f = rowLd (m.view.read (Elt F) f) 4 0 :=
  rowLd_readAt m f 4 0 inb
theorem rowLd_readAt_4_16 {κ : Kind} {sp : Space} (m : Memref sig κ sp S16x32 .f32) (f : m.view.ty.Contents (Elt F))
    (inb : ∀ a, (![4, 16] : Fin 2 → ℕ) a + S1x16.size a ≤ S16x32.size a) :
    m.view.readAt (Elt F) (Rect.unit (s := S16x32) ![4, 16] S1x16.size inb).toLoadRect f = rowLd (m.view.read (Elt F) f) 4 1 :=
  rowLd_readAt m f 4 1 inb
theorem rowLd_readAt_5_0 {κ : Kind} {sp : Space} (m : Memref sig κ sp S16x32 .f32) (f : m.view.ty.Contents (Elt F))
    (inb : ∀ a, (![5, 0] : Fin 2 → ℕ) a + S1x16.size a ≤ S16x32.size a) :
    m.view.readAt (Elt F) (Rect.unit (s := S16x32) ![5, 0] S1x16.size inb).toLoadRect f = rowLd (m.view.read (Elt F) f) 5 0 :=
  rowLd_readAt m f 5 0 inb
theorem rowLd_readAt_5_16 {κ : Kind} {sp : Space} (m : Memref sig κ sp S16x32 .f32) (f : m.view.ty.Contents (Elt F))
    (inb : ∀ a, (![5, 16] : Fin 2 → ℕ) a + S1x16.size a ≤ S16x32.size a) :
    m.view.readAt (Elt F) (Rect.unit (s := S16x32) ![5, 16] S1x16.size inb).toLoadRect f = rowLd (m.view.read (Elt F) f) 5 1 :=
  rowLd_readAt m f 5 1 inb
theorem rowLd_readAt_6_0 {κ : Kind} {sp : Space} (m : Memref sig κ sp S16x32 .f32) (f : m.view.ty.Contents (Elt F))
    (inb : ∀ a, (![6, 0] : Fin 2 → ℕ) a + S1x16.size a ≤ S16x32.size a) :
    m.view.readAt (Elt F) (Rect.unit (s := S16x32) ![6, 0] S1x16.size inb).toLoadRect f = rowLd (m.view.read (Elt F) f) 6 0 :=
  rowLd_readAt m f 6 0 inb
theorem rowLd_readAt_6_16 {κ : Kind} {sp : Space} (m : Memref sig κ sp S16x32 .f32) (f : m.view.ty.Contents (Elt F))
    (inb : ∀ a, (![6, 16] : Fin 2 → ℕ) a + S1x16.size a ≤ S16x32.size a) :
    m.view.readAt (Elt F) (Rect.unit (s := S16x32) ![6, 16] S1x16.size inb).toLoadRect f = rowLd (m.view.read (Elt F) f) 6 1 :=
  rowLd_readAt m f 6 1 inb
theorem rowLd_readAt_7_0 {κ : Kind} {sp : Space} (m : Memref sig κ sp S16x32 .f32) (f : m.view.ty.Contents (Elt F))
    (inb : ∀ a, (![7, 0] : Fin 2 → ℕ) a + S1x16.size a ≤ S16x32.size a) :
    m.view.readAt (Elt F) (Rect.unit (s := S16x32) ![7, 0] S1x16.size inb).toLoadRect f = rowLd (m.view.read (Elt F) f) 7 0 :=
  rowLd_readAt m f 7 0 inb
theorem rowLd_readAt_7_16 {κ : Kind} {sp : Space} (m : Memref sig κ sp S16x32 .f32) (f : m.view.ty.Contents (Elt F))
    (inb : ∀ a, (![7, 16] : Fin 2 → ℕ) a + S1x16.size a ≤ S16x32.size a) :
    m.view.readAt (Elt F) (Rect.unit (s := S16x32) ![7, 16] S1x16.size inb).toLoadRect f = rowLd (m.view.read (Elt F) f) 7 1 :=
  rowLd_readAt m f 7 1 inb
theorem rowLd_readAt_8_0 {κ : Kind} {sp : Space} (m : Memref sig κ sp S16x32 .f32) (f : m.view.ty.Contents (Elt F))
    (inb : ∀ a, (![8, 0] : Fin 2 → ℕ) a + S1x16.size a ≤ S16x32.size a) :
    m.view.readAt (Elt F) (Rect.unit (s := S16x32) ![8, 0] S1x16.size inb).toLoadRect f = rowLd (m.view.read (Elt F) f) 8 0 :=
  rowLd_readAt m f 8 0 inb
theorem rowLd_readAt_8_16 {κ : Kind} {sp : Space} (m : Memref sig κ sp S16x32 .f32) (f : m.view.ty.Contents (Elt F))
    (inb : ∀ a, (![8, 16] : Fin 2 → ℕ) a + S1x16.size a ≤ S16x32.size a) :
    m.view.readAt (Elt F) (Rect.unit (s := S16x32) ![8, 16] S1x16.size inb).toLoadRect f = rowLd (m.view.read (Elt F) f) 8 1 :=
  rowLd_readAt m f 8 1 inb
theorem rowLd_readAt_9_0 {κ : Kind} {sp : Space} (m : Memref sig κ sp S16x32 .f32) (f : m.view.ty.Contents (Elt F))
    (inb : ∀ a, (![9, 0] : Fin 2 → ℕ) a + S1x16.size a ≤ S16x32.size a) :
    m.view.readAt (Elt F) (Rect.unit (s := S16x32) ![9, 0] S1x16.size inb).toLoadRect f = rowLd (m.view.read (Elt F) f) 9 0 :=
  rowLd_readAt m f 9 0 inb
theorem rowLd_readAt_9_16 {κ : Kind} {sp : Space} (m : Memref sig κ sp S16x32 .f32) (f : m.view.ty.Contents (Elt F))
    (inb : ∀ a, (![9, 16] : Fin 2 → ℕ) a + S1x16.size a ≤ S16x32.size a) :
    m.view.readAt (Elt F) (Rect.unit (s := S16x32) ![9, 16] S1x16.size inb).toLoadRect f = rowLd (m.view.read (Elt F) f) 9 1 :=
  rowLd_readAt m f 9 1 inb
theorem rowLd_readAt_10_0 {κ : Kind} {sp : Space} (m : Memref sig κ sp S16x32 .f32) (f : m.view.ty.Contents (Elt F))
    (inb : ∀ a, (![10, 0] : Fin 2 → ℕ) a + S1x16.size a ≤ S16x32.size a) :
    m.view.readAt (Elt F) (Rect.unit (s := S16x32) ![10, 0] S1x16.size inb).toLoadRect f = rowLd (m.view.read (Elt F) f) 10 0 :=
  rowLd_readAt m f 10 0 inb
theorem rowLd_readAt_10_16 {κ : Kind} {sp : Space} (m : Memref sig κ sp S16x32 .f32) (f : m.view.ty.Contents (Elt F))
    (inb : ∀ a, (![10, 16] : Fin 2 → ℕ) a + S1x16.size a ≤ S16x32.size a) :
    m.view.readAt (Elt F) (Rect.unit (s := S16x32) ![10, 16] S1x16.size inb).toLoadRect f = rowLd (m.view.read (Elt F) f) 10 1 :=
  rowLd_readAt m f 10 1 inb
theorem rowLd_readAt_11_0 {κ : Kind} {sp : Space} (m : Memref sig κ sp S16x32 .f32) (f : m.view.ty.Contents (Elt F))
    (inb : ∀ a, (![11, 0] : Fin 2 → ℕ) a + S1x16.size a ≤ S16x32.size a) :
    m.view.readAt (Elt F) (Rect.unit (s := S16x32) ![11, 0] S1x16.size inb).toLoadRect f = rowLd (m.view.read (Elt F) f) 11 0 :=
  rowLd_readAt m f 11 0 inb
theorem rowLd_readAt_11_16 {κ : Kind} {sp : Space} (m : Memref sig κ sp S16x32 .f32) (f : m.view.ty.Contents (Elt F))
    (inb : ∀ a, (![11, 16] : Fin 2 → ℕ) a + S1x16.size a ≤ S16x32.size a) :
    m.view.readAt (Elt F) (Rect.unit (s := S16x32) ![11, 16] S1x16.size inb).toLoadRect f = rowLd (m.view.read (Elt F) f) 11 1 :=
  rowLd_readAt m f 11 1 inb
theorem rowLd_readAt_12_0 {κ : Kind} {sp : Space} (m : Memref sig κ sp S16x32 .f32) (f : m.view.ty.Contents (Elt F))
    (inb : ∀ a, (![12, 0] : Fin 2 → ℕ) a + S1x16.size a ≤ S16x32.size a) :
    m.view.readAt (Elt F) (Rect.unit (s := S16x32) ![12, 0] S1x16.size inb).toLoadRect f = rowLd (m.view.read (Elt F) f) 12 0 :=
  rowLd_readAt m f 12 0 inb
theorem rowLd_readAt_12_16 {κ : Kind} {sp : Space} (m : Memref sig κ sp S16x32 .f32) (f : m.view.ty.Contents (Elt F))
    (inb : ∀ a, (![12, 16] : Fin 2 → ℕ) a + S1x16.size a ≤ S16x32.size a) :
    m.view.readAt (Elt F) (Rect.unit (s := S16x32) ![12, 16] S1x16.size inb).toLoadRect f = rowLd (m.view.read (Elt F) f) 12 1 :=
  rowLd_readAt m f 12 1 inb
theorem rowLd_readAt_13_0 {κ : Kind} {sp : Space} (m : Memref sig κ sp S16x32 .f32) (f : m.view.ty.Contents (Elt F))
    (inb : ∀ a, (![13, 0] : Fin 2 → ℕ) a + S1x16.size a ≤ S16x32.size a) :
    m.view.readAt (Elt F) (Rect.unit (s := S16x32) ![13, 0] S1x16.size inb).toLoadRect f = rowLd (m.view.read (Elt F) f) 13 0 :=
  rowLd_readAt m f 13 0 inb
theorem rowLd_readAt_13_16 {κ : Kind} {sp : Space} (m : Memref sig κ sp S16x32 .f32) (f : m.view.ty.Contents (Elt F))
    (inb : ∀ a, (![13, 16] : Fin 2 → ℕ) a + S1x16.size a ≤ S16x32.size a) :
    m.view.readAt (Elt F) (Rect.unit (s := S16x32) ![13, 16] S1x16.size inb).toLoadRect f = rowLd (m.view.read (Elt F) f) 13 1 :=
  rowLd_readAt m f 13 1 inb
theorem rowLd_readAt_14_0 {κ : Kind} {sp : Space} (m : Memref sig κ sp S16x32 .f32) (f : m.view.ty.Contents (Elt F))
    (inb : ∀ a, (![14, 0] : Fin 2 → ℕ) a + S1x16.size a ≤ S16x32.size a) :
    m.view.readAt (Elt F) (Rect.unit (s := S16x32) ![14, 0] S1x16.size inb).toLoadRect f = rowLd (m.view.read (Elt F) f) 14 0 :=
  rowLd_readAt m f 14 0 inb
theorem rowLd_readAt_14_16 {κ : Kind} {sp : Space} (m : Memref sig κ sp S16x32 .f32) (f : m.view.ty.Contents (Elt F))
    (inb : ∀ a, (![14, 16] : Fin 2 → ℕ) a + S1x16.size a ≤ S16x32.size a) :
    m.view.readAt (Elt F) (Rect.unit (s := S16x32) ![14, 16] S1x16.size inb).toLoadRect f = rowLd (m.view.read (Elt F) f) 14 1 :=
  rowLd_readAt m f 14 1 inb
theorem rowLd_readAt_15_0 {κ : Kind} {sp : Space} (m : Memref sig κ sp S16x32 .f32) (f : m.view.ty.Contents (Elt F))
    (inb : ∀ a, (![15, 0] : Fin 2 → ℕ) a + S1x16.size a ≤ S16x32.size a) :
    m.view.readAt (Elt F) (Rect.unit (s := S16x32) ![15, 0] S1x16.size inb).toLoadRect f = rowLd (m.view.read (Elt F) f) 15 0 :=
  rowLd_readAt m f 15 0 inb
theorem rowLd_readAt_15_16 {κ : Kind} {sp : Space} (m : Memref sig κ sp S16x32 .f32) (f : m.view.ty.Contents (Elt F))
    (inb : ∀ a, (![15, 16] : Fin 2 → ℕ) a + S1x16.size a ≤ S16x32.size a) :
    m.view.readAt (Elt F) (Rect.unit (s := S16x32) ![15, 16] S1x16.size inb).toLoadRect f = rowLd (m.view.read (Elt F) f) 15 1 :=
  rowLd_readAt m f 15 1 inb

/-- A load of sixteen lanes of a rank-one buffer of `n` words at offset `o`: the contents at `o + lane`. -/
theorem readAt16 {κ : Kind} {sp : Space} {n : ℕ} (m : Memref sig κ sp ⟨1, ![n]⟩ .f32) (f : m.view.ty.Contents (Elt F))
    (off : Fin 1 → ℕ) (inb : ∀ a, off a + S16.size a ≤ (⟨1, ![n]⟩ : Shape).size a) (o : ℕ) (ho : off 0 = o) :
    m.view.readAt (Elt F) (Rect.unit (s := ⟨1, ![n]⟩) off S16.size inb).toLoadRect f
      = fun x => m.view.read (Elt F) f (ix1 ⟨o + (x 0).val, by
          have h0 : (x 0).val < 16 := (x 0).isLt
          have h1 : off 0 + 16 ≤ n := inb 0
          omega⟩) := by
  funext x
  show m.view.read (Elt F) f _ = m.view.read (Elt F) f _
  congr 1
  funext a
  match a with
  | ⟨0, _⟩ => exact Fin.ext (by show off 0 + 1 * (x 0).val = o + (x 0).val; omega)

theorem t1_lt (c : Fin k0_t1_loop.trips) : c.val < 10 := lt_of_lt_of_le c.isLt k0_t1_abs.2.1
theorem t2_lt (k : Fin k0_t2_loop.trips) : k.val < 100 := lt_of_lt_of_le k.isLt k0_t2_abs.2.1
theorem t3_lt (k : Fin k0_t3_loop.trips) : k.val < 100 := lt_of_lt_of_le k.isLt k0_t3_abs.2.1
theorem t4_lt (g : Fin k0_t4_loop.trips) : g.val < 64 := lt_of_lt_of_le g.isLt k0_t4_abs.2.1

/-- Column `100 c + k`: row `k` of chunk `c`. -/
def col (c : Fin k0_t1_loop.trips) (k : Fin k0_t2_loop.trips) : Fin 1000 :=
  ⟨100 * c.val + k.val, by have := t1_lt c; have := t2_lt k; omega⟩

/-- The load of row `k` of chunk `c` of `-2 e`. -/
theorem eLd_readAt {κ : Kind} {sp : Space} (m : Memref sig κ sp S16000 .f32) (f : m.view.ty.Contents (Elt F))
    (c : Fin k0_t1_loop.trips) (k : Fin k0_t2_loop.trips) (inb : ∀ a, (k0_off2 c k) a + S16.size a ≤ S16000.size a) :
    m.view.readAt (Elt F) (Rect.unit (s := S16000) (k0_off2 c k) S16.size inb).toLoadRect f = eLd (m.view.read (Elt F) f) (col c k) := by
  rw [readAt16 m f (k0_off2 c k) inb (16 * (col c k).val) (by rw [k0_off2_eq]; show 1600 * c.val + 16 * k.val = 16 * (100 * c.val + k.val); omega)]
  rfl

/-- The load of row `16 g + l` of the lanes' buffer in the reduction's trip `g`. -/
theorem minsLd_readAt {κ : Kind} {sp : Space} (m : Memref sig κ sp S16384 .f32) (f : m.view.ty.Contents (Elt F))
    (g : Fin k0_t4_loop.trips) (l : Fin 16) (inb : ∀ a, (k0_off7 g (BitVec.ofNat 32 l.val)) a + S16.size a ≤ S16384.size a) :
    m.view.readAt (Elt F) (Rect.unit (s := S16384) (k0_off7 g (BitVec.ofNat 32 l.val)) S16.size inb).toLoadRect f
      = fun x => m.view.read (Elt F) f (ix1 ⟨256 * g.val + 16 * l.val + (x 0).val, by
          have h0 : (x 0).val < 16 := (x 0).isLt
          have := t4_lt g; have := l.isLt
          show _ < 16384; omega⟩) :=
  readAt16 m f _ inb _ (by rw [k0_off7_eq]; rfl)

/-! ## The tile's slab through the sliced and squeezed view -/

theorem wL_lt (L : grid0.Coords) : 2 * (L 1).val + (L 0).val < 32 := by
  have h0 : (L 0).val < 2 := (L 0).isLt
  have h1 : (L 1).val < 16 := (L 1).isLt
  omega

/-- The slab of the transposed points the tile at grid coordinates `L` copies in, read through the sliced and
    squeezed view of the whole array: slab `2 L₁ + L₀`. -/
theorem slab_read (L : grid0.Coords)
    (f : (Memref.whole main_v3_scv : Memref sig .scVector .hbm S32x16x32 .f32).view.ty.Contents (Elt F)) :
    (((Memref.whole main_v3_scv : Memref sig .scVector .hbm S32x16x32 .f32).slice
        (Rect.unit (s := S32x16x32) (k0_off1 L) S1x16x32.size (k0_off1_inb L)) (fun _ => rfl)).squeeze S16x32 squeezes_S1x16x32_S16x32).view.read (Elt F) f
      = slab f ⟨2 * (L 1).val + (L 0).val, wL_lt L⟩ := by
  funext x
  rw [View.read_apply, cast_eq]
  show f _ = f _
  congr 1
  have hx : Shape.reshapeEquiv squeezes_S1x16x32_S16x32.numel_eq x = ix3 (⟨0, Nat.one_pos⟩ : Fin 1) (x 0) (x 1) := by
    conv_lhs => rw [eq_ix2 x]
    exact reshapeEquiv_ix2_1ab _ (x 0) (x 1)
  have e1 : k0_off1 L = ![2 * (L 1).val + (L 0).val, 0, 0] := k0_off1_eq L
  funext a
  refine Fin.ext ?_
  show ((Rect.unit (s := S32x16x32) (k0_off1 L) S1x16x32.size (k0_off1_inb L)).emb (Shape.reshapeEquiv squeezes_S1x16x32_S16x32.numel_eq x) a).val = _
  rw [Rect.emb_apply, hx]
  match a with
  | ⟨0, _⟩ => show k0_off1 L 0 + 1 * 0 = 2 * (L 1).val + (L 0).val; rw [e1]; rfl
  | ⟨1, _⟩ => show k0_off1 L 1 + 1 * (x 0).val = (x 0).val; rw [e1]; show 0 + 1 * (x 0).val = (x 0).val; omega
  | ⟨2, _⟩ => show k0_off1 L 2 + 1 * (x 1).val = (x 1).val; rw [e1]; show 0 + 1 * (x 1).val = (x 1).val; omega

/-! ## The tile's row of the partial minima from what the last copy leaves -/

/-- Writing the row buffer `pay` through the sliced and squeezed view of row `2 L₁ + L₀` of the partial minima
    leaves column `m` of that row at `pay m`; so the tile's post holds once `pay` holds each column's least value. -/
theorem post0_of (d : Dev nD) (L : grid0.Coords) (zt : Buf (Elt F) (ztLoc d)) (e2 : Buf (Elt F) (e2Loc d))
    (fp : Buf (Elt F) (ptLoc d)) (pay : S1024.Idx → Elt F .f32)
    (hpay : ∀ m : Fin 1000, pay (ix1 ⟨m.val, by have := m.isLt; omega⟩) = part1 (slab zt ⟨2 * (L 1).val + (L 0).val, wL_lt L⟩) e2 m) :
    Post0 zt e2 ⟨2 * (L 1).val + (L 0).val, wL_lt L⟩
      ((((Memref.whole main_v11_scv : Memref sig .scVector .hbm S32x1024 .f32).slice
          (Rect.unit (s := S32x1024) (k0_off9 L) S1x1024.size (k0_off9_inb L)) (fun _ => rfl)).squeeze S1024 squeezes_S1x1024_S1024).view.writes
        (Elt F) fp [⟨Rect.whole S1024, pay⟩]) := by
  intro m
  rw [← hpay m]
  have hx : Shape.reshapeEquiv squeezes_S1x1024_S1024.numel_eq (ix1 (⟨m.val, by have := m.isLt; omega⟩ : Fin 1024))
      = ix2 (⟨0, Nat.one_pos⟩ : Fin 1) (⟨m.val, by have := m.isLt; omega⟩ : Fin 1024) :=
    Shape.reshapeEquiv_eq_of_rowMajor _ (by
      rw [Shape.rowMajor_val_two, Shape.rowMajor_val_one]
      show 0 * 1024 + m.val = m.val
      omega)
  have e9 : k0_off9 L = ![2 * (L 1).val + (L 0).val, 0] := k0_off9_eq L
  have hemb : (((((Memref.whole main_v11_scv : Memref sig .scVector .hbm S32x1024 .f32).slice
          (Rect.unit (s := S32x1024) (k0_off9 L) S1x1024.size (k0_off9_inb L)) (fun _ => rfl)).squeeze S1024 squeezes_S1x1024_S1024).view.slice
        (Rect.whole S1024)).emb (ix1 (⟨m.val, by have := m.isLt; omega⟩ : Fin 1024)) : S32x1024.Idx)
      = ix2 (⟨2 * (L 1).val + (L 0).val, wL_lt L⟩ : Fin 32) (⟨m.val, by have := m.isLt; omega⟩ : Fin 1024) := by
    funext a
    refine Fin.ext ?_
    show ((Rect.unit (s := S32x1024) (k0_off9 L) S1x1024.size (k0_off9_inb L)).emb
      (Shape.reshapeEquiv squeezes_S1x1024_S1024.numel_eq ((Rect.whole S1024).emb (ix1 (⟨m.val, by have := m.isLt; omega⟩ : Fin 1024)))) a).val = _
    rw [Rect.emb_whole_apply, Rect.emb_apply, hx]
    match a with
    | ⟨0, _⟩ => show k0_off9 L 0 + 1 * 0 = 2 * (L 1).val + (L 0).val; rw [e9]; rfl
    | ⟨1, _⟩ => show k0_off9 L 1 + 1 * m.val = m.val; rw [e9]; show 0 + 1 * m.val = m.val; omega
  rw [View.writes_singleton, ← hemb, View.write_emb_of_mem _ _ (Finset.mem_univ _), cast_eq]

end Cert.Proof.S1AW

end
-- ==== Proof.S1RedW.lean ====
/-
  The last loop of the first vector-subcore call: sixty-four trips, trip `g` reducing the sixteen columns
  `16 g … 16 g + 15`. Each column's sixteen lanes are loaded from the lanes' buffer and reduced to their least
  element by the tree of pairwise minima; the sixteen results are assembled into one row vector, lane `l` the
  result of column `16 g + l`, and stored at words `16 g … 16 g + 15` of the row buffer. The invariant: the
  lanes' buffer is unchanged, and every column of an earlier group holds the least of its sixteen lanes.
-/
import proofs.«209935_g88441966559691_cont_sun_c4_661_34_alg».proof.Proof.IfaceW
import proofs.«209935_g88441966559691_cont_sun_c4_661_34_alg».proof.Proof.S1ValW
import proofs.«209935_g88441966559691_cont_sun_c4_661_34_alg».proof.Proof.S1AuxW

noncomputable section

namespace Cert.Proof.S1RW

open Cert.Kernel Cert.Kernel.Gen
open Cert.Proof.KIW Cert.Proof.S1W Cert.Proof.S1AW

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic

variable {F : FTy → Type} [FloatOps F]

local notation "𝕄" => MT nD τ sig (HIx 2) (Elt F) ℕ UU ℕ

local notation "ztW" => (Memref.whole Cert.Kernel.main_v3_scv : Memref Cert.Kernel.sig Kind.scVector Space.hbm Cert.Kernel.S32x16x32 EltTy.f32)
local notation "e2W" => (Memref.whole Cert.Kernel.main_v6_scv : Memref Cert.Kernel.sig Kind.scVector Space.hbm Cert.Kernel.S16000 EltTy.f32)
local notation "ptW" => (Memref.whole Cert.Kernel.main_v11_scv : Memref Cert.Kernel.sig Kind.scVector Space.hbm Cert.Kernel.S32x1024 EltTy.f32)
local notation "sZ" => (Memref.whole Cert.Kernel.cc0_scratch0 : Memref Cert.Kernel.sig Kind.scVector Space.vmem Cert.Kernel.S16x32 EltTy.f32)
local notation "sE" => (Memref.whole Cert.Kernel.cc0_scratch1 : Memref Cert.Kernel.sig Kind.scVector Space.vmem Cert.Kernel.S16000 EltTy.f32)
local notation "sM" => (Memref.whole Cert.Kernel.cc0_scratch2 : Memref Cert.Kernel.sig Kind.scVector Space.vmem Cert.Kernel.S16384 EltTy.f32)
local notation "sR" => (Memref.whole Cert.Kernel.cc0_scratch3 : Memref Cert.Kernel.sig Kind.scVector Space.vmem Cert.Kernel.S1024 EltTy.f32)
local notation "sS" => (Memref.whole Cert.Kernel.cc0_scratch4 : Memref Cert.Kernel.sig Kind.scVector Space.smem Cert.Kernel.S1600 EltTy.f32)

/-- The tile's core and subcore numbers. -/
abbrev cV (L : grid0.Coords) : Fin τ.nSC := (L 0).castLE hcore0
abbrev jV (L : grid0.Coords) : Fin τ.nSub := (L 1).castLE hsub0

theorem col_lt (m : Fin 1024) (x : S16.Idx) : 16 * m.val + (x 0).val < 16384 := by
  have h0 : (x 0).val < 16 := (x 0).isLt
  have := m.isLt
  omega

/-- Before group `g` of sixteen columns is reduced: the lanes' buffer is as it was, and every column of an earlier
    group holds the least of its sixteen lanes. -/
def invR (d : Dev nD) (L : grid0.Coords) (f7 : Buf (Elt F) ((V d (cV L) (jV L)).loc cc0_scratch2)) (g : Nat) (_ : PUnit) : sProp 𝕄 :=
  iprop(((sM).view.loc (V d (cV L) (jV L)) ↦{fullShare} f7)
    ∗ ∃ r, ((sR).view.loc (V d (cV L) (jV L)) ↦{fullShare} r)
      ∗ ⌜∀ m : Fin 1024, m.val < 16 * g →
          (sR).view.read (Elt F) r (ix1 m) = red16 (fun x => (sM).view.read (Elt F) f7 (ix1 ⟨16 * m.val + (x 0).val, col_lt m x⟩))⌝)

set_option maxRecDepth 65536 in
/-- One trip: the sixteen loads, the sixteen reductions, the assembled row stored; columns below `16 g` are not
    touched, and column `16 g + l` receives lane `l` of the stored row, the least of its own sixteen lanes. -/
theorem t4_trip (d : Dev nD) (L : grid0.Coords) (f7 : Buf (Elt F) ((V d (cV L) (jV L)).loc cc0_scratch2)) (g : Fin k0_t4_loop.trips) (acc : PUnit) :
    invR (F := F) d L f7 g.val acc ⊢ wp frame (wpE (defs₀ (F := F)) 𝒱₀ (V d (cV L) (jV L)) none) Set.univ
      (k0_t4_body (F := F) L ztW (Memref.isWhole_whole _) e2W (Memref.isWhole_whole _) ptW (Memref.isWhole_whole _)
        sZ (Memref.isWhole_whole _) sE (Memref.isWhole_whole _) sM (Memref.isWhole_whole _) sR (Memref.isWhole_whole _) sS (Memref.isWhole_whole _)
        cc0_scoped0 cc0_scoped1 cc0_scoped2 g acc)
      (invR (F := F) d L f7 (g.val + 1)) := by
  unfold k0_t4_body
  simp only [k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
  unfold invR
  iintro ⟨Hm, ⟨%r, Hr, %hr⟩⟩
  sl_exec
  sl_step
  isplitl [Hm]
  · iexact Hm
  iexists _
  isplitl [Hr]
  · iexact Hr
  ipureintro
  intro m hm
  have hg := t4_lt g
  have e8 : k0_off8 g 0 = 16 * g.val := by rw [k0_off8_eq]; rfl
  by_cases hlo : m.val < 16 * g.val
  · -- an earlier group's column: the store does not reach it
    rw [View.read_writes_apply_of_forall_not_mem]
    · exact hr m hlo
    · intro p hp
      rw [List.mem_singleton] at hp
      subst hp
      intro hmem
      have h0 := (Rect.mem_set_unit (s := S1024) (off := k0_off8 g) (size := S16.size) (inb := k0_off8_inb g) (i := (ix1 m : S1024.Idx))).mp hmem (0 : Fin 1)
      rw [e8] at h0
      have h1 : 16 * g.val ≤ m.val := h0.1
      omega
  · -- a column of this group: lane `m - 16 g` of the stored row
    have hl : m.val - 16 * g.val < 16 := by omega
    have hy : (ix1 m : S1024.Idx) = (Rect.unit (s := S1024) (k0_off8 g) S16.size (k0_off8_inb g)).emb (ix1 (⟨m.val - 16 * g.val, hl⟩ : Fin 16)) := by
      funext a
      match a with
      | ⟨0, _⟩ =>
        refine Fin.ext ?_
        rw [Rect.emb_apply]
        show m.val = k0_off8 g 0 + 1 * (m.val - 16 * g.val)
        rw [e8]
        omega
    rw [hy, View.read_writes_cons_emb]
    sl_unfold_run_names
    show rowV (fun l : Fin 16 => red16 ((sM).view.readAt (Elt F) (Rect.unit (s := S16384) (k0_off7 g (BitVec.ofNat 32 l.val)) S16.size (k0_off7_inb g l)).toLoadRect f7)) (ix1 (⟨m.val - 16 * g.val, hl⟩ : Fin 16)) = _
    rw [rowV_apply, minsLd_readAt]
    congr 1
    funext x
    congr 2
    refine Fin.ext ?_
    show 256 * g.val + 16 * (m.val - 16 * g.val) + (x 0).val = 16 * m.val + (x 0).val
    omega

end Cert.Proof.S1RW

end
-- ==== Proof.S1DistW.lean ====
/-
  One trip of the first vector-subcore call's distance loop, at a symbolic tile, chunk and column: sixteen scalars of
  the chunk's row of `-2 e` are read off the scalar memory, the sixteen lanes of the column are computed from them and
  the slab's registers and stored as row `100 c + mm` of the lanes' scratch; the rows before it keep their lanes.
-/
import proofs.«209935_g88441966559691_cont_sun_c4_661_34_alg».proof.Proof.IfaceW
import proofs.«209935_g88441966559691_cont_sun_c4_661_34_alg».proof.Proof.S1ValW
import proofs.«209935_g88441966559691_cont_sun_c4_661_34_alg».proof.Proof.S1AuxW

noncomputable section

namespace Cert.Proof.S1DW

open Cert.Kernel Cert.Kernel.Gen
open Cert.Proof.KIW

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic
open Idealize.ShloMosaic.ValueIdx

variable {F : FTy → Type} [FloatOps F]

local notation "𝕄" => MT nD τ sig (HIx 2) (Elt F) ℕ UU ℕ

-- the kernel's memrefs, spelt as the body table passes them
local notation "ztW" => (Memref.whole Cert.Kernel.main_v3_scv : Memref Cert.Kernel.sig Kind.scVector Space.hbm Cert.Kernel.S32x16x32 EltTy.f32)
local notation "e2W" => (Memref.whole Cert.Kernel.main_v6_scv : Memref Cert.Kernel.sig Kind.scVector Space.hbm Cert.Kernel.S16000 EltTy.f32)
local notation "ptW" => (Memref.whole Cert.Kernel.main_v11_scv : Memref Cert.Kernel.sig Kind.scVector Space.hbm Cert.Kernel.S32x1024 EltTy.f32)
local notation "sZ" => (Memref.whole Cert.Kernel.cc0_scratch0 : Memref Cert.Kernel.sig Kind.scVector Space.vmem Cert.Kernel.S16x32 EltTy.f32)
local notation "sE" => (Memref.whole Cert.Kernel.cc0_scratch1 : Memref Cert.Kernel.sig Kind.scVector Space.vmem Cert.Kernel.S16000 EltTy.f32)
local notation "sM" => (Memref.whole Cert.Kernel.cc0_scratch2 : Memref Cert.Kernel.sig Kind.scVector Space.vmem Cert.Kernel.S16384 EltTy.f32)
local notation "sR" => (Memref.whole Cert.Kernel.cc0_scratch3 : Memref Cert.Kernel.sig Kind.scVector Space.vmem Cert.Kernel.S1024 EltTy.f32)
local notation "sS" => (Memref.whole Cert.Kernel.cc0_scratch4 : Memref Cert.Kernel.sig Kind.scVector Space.smem Cert.Kernel.S1600 EltTy.f32)

section Tile

variable (d : Dev nD) (L : grid0.Coords)

abbrev cV (L : grid0.Coords) : Fin τ.nSC := (L 0).castLE hcore0
abbrev jV (L : grid0.Coords) : Fin τ.nSub := (L 1).castLE hsub0

/-- Before column `mm` of chunk `c`: the scalar memory at its fixed contents, and the rows below `100 c + mm` of the lanes'
    scratch hold the lanes `G` names. -/
def invD (G : Fin 1000 → FVec F S16 .f32) (c : ℕ) (fS : Buf (Elt F) ((sS).view.loc (V d (cV L) (jV L)))) (mm : ℕ) (_ : PUnit) : sProp 𝕄 :=
  iprop(((sS).view.loc (V d (cV L) (jV L)) ↦{fullShare} fS)
    ∗ ∃ fM, ((sM).view.loc (V d (cV L) (jV L)) ↦{fullShare} fM)
      ∗ ⌜∀ m : Fin 1000, m.val < 100 * c + mm → ∀ l : Fin 16,
          (sM).view.read (Elt F) fM (ix1 ⟨16 * m.val + l.val, by have := m.isLt; have := l.isLt; omega⟩) = G m (ix1 l)⌝)

omit [FloatOps F] in
/-- A load of one word of a rank-one buffer at offset `o`: the contents at `o`. -/
theorem read1 {κ : Kind} {sp : Space} {n : ℕ} (m : Memref sig κ sp ⟨1, ![n]⟩ .f32) (f : m.view.ty.Contents (Elt F))
    (off : Fin 1 → ℕ) (inb : ∀ a, off a + S1.size a ≤ (⟨1, ![n]⟩ : Shape).size a)
    (x : (Rect.unit (s := ⟨1, ![n]⟩) off S1.size inb).toLoadRect.shape.Idx) (o : ℕ) (ho : off 0 = o) (hlt : o < n) :
    m.view.readAt (Elt F) (Rect.unit (s := ⟨1, ![n]⟩) off S1.size inb).toLoadRect f x = m.view.read (Elt F) f (ix1 ⟨o, hlt⟩) := by
  show m.view.read (Elt F) f _ = m.view.read (Elt F) f _
  congr 1
  funext a
  match a with
  | ⟨0, _⟩ => exact Fin.ext (by have h0 : (x 0).val < 1 := (x 0).isLt; show off 0 + 1 * (x 0).val = o; omega)

omit [FloatOps F] in
/-- The offset of the trip's scalar `r + 1`. -/
theorem off5 (mm : Fin k0_t3_loop.trips) (r : Fin 15) (w : BitVec 32) (hw : w = BitVec.ofNat 32 (1 + r.val)) :
    k0_off5 mm w 0 = 16 * mm.val + (r.val + 1) := by
  subst hw; rw [k0_off5_eq]; show 16 * mm.val + r.val + 1 = _; omega

/-- The column the trip works on. -/
abbrev colD (c : Fin k0_t1_loop.trips) (mm : Fin k0_t3_loop.trips) : Fin 1000 :=
  ⟨100 * c.val + mm.val, by have := S1AW.t1_lt c; have := S1AW.t3_lt mm; omega⟩

omit [FloatOps F] in
/-- The trip's scalar 0 is coordinate 0 of the column's row of `-2 e`. -/
theorem rd0_eq (e2 : Vec F S16000 .f32) (c : Fin k0_t1_loop.trips) (fS : Buf (Elt F) ((sS).view.loc (V d (cV L) (jV L))))
    (hS : ∀ (k' : Fin 100) (j : Fin 16),
      (sS).view.read (Elt F) fS (ix1 ⟨16 * k'.val + j.val, by have := k'.isLt; have := j.isLt; omega⟩)
        = S1W.scal (S1W.eLd e2 ⟨100 * c.val + k'.val, by have := S1AW.t1_lt c; have := k'.isLt; omega⟩) j)
    (mm : Fin k0_t3_loop.trips) (inb : ∀ a, (k0_off4 mm) a + S1.size a ≤ S1600.size a)
    (x : (Rect.unit (s := S1600) (k0_off4 mm) S1.size inb).toLoadRect.shape.Idx) :
    (sS).view.readAt (Elt F) (Rect.unit (s := S1600) (k0_off4 mm) S1.size inb).toLoadRect fS x
      = S1W.scal (S1W.eLd e2 (colD c mm)) 0 := by
  have hmm := S1AW.t3_lt mm
  rw [read1 (sS) fS (k0_off4 mm) inb x (16 * mm.val + 0) (by rw [k0_off4_eq]; rfl) (by omega)]
  exact hS ⟨mm.val, hmm⟩ 0

omit [FloatOps F] in
/-- The trip's scalar `j` is coordinate `j` of the column's row of `-2 e`. -/
theorem rd_eq (e2 : Vec F S16000 .f32) (c : Fin k0_t1_loop.trips) (fS : Buf (Elt F) ((sS).view.loc (V d (cV L) (jV L))))
    (hS : ∀ (k' : Fin 100) (j : Fin 16),
      (sS).view.read (Elt F) fS (ix1 ⟨16 * k'.val + j.val, by have := k'.isLt; have := j.isLt; omega⟩)
        = S1W.scal (S1W.eLd e2 ⟨100 * c.val + k'.val, by have := S1AW.t1_lt c; have := k'.isLt; omega⟩) j)
    (mm : Fin k0_t3_loop.trips) (w : BitVec 32) (inb : ∀ a, (k0_off5 mm w) a + S1.size a ≤ S1600.size a)
    (x : (Rect.unit (s := S1600) (k0_off5 mm w) S1.size inb).toLoadRect.shape.Idx) (j : ℕ) (hj : j < 16)
    (hoff : k0_off5 mm w 0 = 16 * mm.val + j) :
    (sS).view.readAt (Elt F) (Rect.unit (s := S1600) (k0_off5 mm w) S1.size inb).toLoadRect fS x
      = S1W.scal (S1W.eLd e2 (colD c mm)) ⟨j, hj⟩ := by
  have hmm := S1AW.t3_lt mm
  rw [read1 (sS) fS (k0_off5 mm w) inb x (16 * mm.val + j) hoff (by omega)]
  exact hS ⟨mm.val, hmm⟩ ⟨j, hj⟩

/-- The trip's stored lanes, as the column's lanes over the sixteen scalars read. -/
theorem lane_eq (za zb : Fin 16 → FVec F S16 .f32) (s0 s1 s2 s3 s4 s5 s6 s7 s8 s9 s10 s11 s12 s13 s14 s15 : Elt F .f32) :
    k0_pay4 (za 12) (za 13) (za 14) (za 15) (S1W.znA za)
        (k0_pay22 (za 6) (za 7) (za 8) (za 9) (za 10) (za 11) (k0_pay20 (za 0) (za 1) (za 2) (za 3) (za 4) (za 5) s0 s1 s2 s3 s4 s5) s6 s7 s8 s9 s10 s11)
        s12 s13 s14 s15
        (k0_pay3 (zb 11) (zb 12) (zb 13) (zb 14) (zb 15) (S1W.znB zb)
          (k0_pay23 (zb 6) (zb 7) (zb 8) (zb 9) (zb 10) (zb 11) (k0_pay21 (zb 0) (zb 1) (zb 2) (zb 3) (zb 4) (zb 5) s0 s1 s2 s3 s4 s5) s6 s7 s8 s9 s10 s11)
          s12 s13 s14 s15)
      = S1W.lane za zb ![s0, s1, s2, s3, s4, s5, s6, s7, s8, s9, s10, s11, s12, s13, s14, s15] := rfl

theorem t3_trip (e2 : Vec F S16000 .f32) (G : Fin 1000 → FVec F S16 .f32) (za zb : Fin 16 → FVec F S16 .f32)
    (c : Fin k0_t1_loop.trips) (fS : Buf (Elt F) ((sS).view.loc (V d (cV L) (jV L))))
    (hS : ∀ (k' : Fin 100) (j : Fin 16),
      (sS).view.read (Elt F) fS (ix1 ⟨16 * k'.val + j.val, by have := k'.isLt; have := j.isLt; omega⟩)
        = S1W.scal (S1W.eLd e2 ⟨100 * c.val + k'.val, by have := S1AW.t1_lt c; have := k'.isLt; omega⟩) j)
    (hG : ∀ mm : Fin 100, G ⟨100 * c.val + mm.val, by have := S1AW.t1_lt c; have := mm.isLt; omega⟩
        = S1W.lane za zb (S1W.scal (S1W.eLd e2 ⟨100 * c.val + mm.val, by have := S1AW.t1_lt c; have := mm.isLt; omega⟩)))
    (mm : Fin k0_t3_loop.trips) (acc : PUnit) :
    invD d L G c.val fS mm.val acc
      ⊢ wp frame (wpE (defs₀ (F := F)) 𝒱₀ (V d (cV L) (jV L)) none) Set.univ
          (k0_t3_body (F := F) L ztW (Memref.isWhole_whole _) e2W (Memref.isWhole_whole _) ptW (Memref.isWhole_whole _)
            sZ (Memref.isWhole_whole _) sE (Memref.isWhole_whole _) sM (Memref.isWhole_whole _) sR (Memref.isWhole_whole _) sS (Memref.isWhole_whole _)
            cc0_scoped0 cc0_scoped1 cc0_scoped2 c
            (za 0) (za 1) (za 2) (za 3) (za 4) (za 5) (za 6) (za 7) (za 8) (za 9) (za 10) (za 11) (za 12) (za 13) (za 14) (za 15)
            (zb 0) (zb 1) (zb 2) (zb 3) (zb 4) (zb 5) (zb 6) (zb 7) (zb 8) (zb 9) (zb 10) (zb 11) (zb 12) (zb 13) (zb 14) (zb 15)
            (S1W.znB zb) (S1W.znA za) mm acc)
          (invD d L G c.val fS (mm.val + 1)) := by
  sl_unfold [k0_t3_body]
  rw [k0_part3_eq_skeleton, k0_part4_eq_skeleton]
  unfold invD
  iintro ⟨Hs, ⟨%fM, Hm, %hM⟩⟩
  sl_exec
  sl_step
  isplitl [Hs]; · iexact Hs
  iexists _; isplitl [Hm]; · iexact Hm
  ipureintro
  sl_unfold_run_names
  intro m hm l
  have hc := S1AW.t1_lt c
  have hmm := S1AW.t3_lt mm
  have hoff : k0_off6 c mm 0 = 1600 * c.val + 16 * mm.val := by rw [k0_off6_eq]; rfl
  by_cases hlt : m.val < 100 * c.val + mm.val
  · -- a row stored before this trip: the store leaves it alone
    rw [View.read_writes_apply_of_forall_not_mem]
    · exact hM m hlt l
    · intro p hp
      rw [List.mem_singleton] at hp; subst hp
      rw [Rect.mem_set_unit]; intro h
      have h0 : k0_off6 c mm 0 ≤ 16 * m.val + l.val := (h 0).1
      rw [hoff] at h0
      omega
  · -- the row this trip stores
    have hm' : m = colD c mm := Fin.ext (by show m.val = 100 * c.val + mm.val; omega)
    subst hm'
    have hix : (ix1 (⟨16 * (colD c mm).val + l.val, by have := l.isLt; show 16 * (100 * c.val + mm.val) + l.val < 16384; omega⟩ : Fin 16384) : S16384.Idx)
        = (Rect.unit (s := S16384) (k0_off6 c mm) S16.size (k0_off6_inb c mm)).emb (ix1 l) := by
      funext a
      match a with
      | ⟨0, _⟩ => exact Fin.ext (by show 16 * (100 * c.val + mm.val) + l.val = k0_off6 c mm 0 + 1 * l.val; rw [hoff]; omega)
    rw [hix, View.read_writes_cons_emb]
    refine (congrFun (lane_eq za zb _ _ _ _ _ _ _ _ _ _ _ _ _ _ _ _) (ix1 l)).trans ?_
    rw [hG ⟨mm.val, hmm⟩]
    refine congrFun (congrArg (S1W.lane za zb) ?_) (ix1 l)
    funext j
    fin_cases j
    · exact rd0_eq d L e2 c fS hS mm _ _
    · exact rd_eq d L e2 c fS hS mm 1#32 _ _ 1 (by decide) (off5 mm ⟨0, by decide⟩ 1#32 rfl)
    · exact rd_eq d L e2 c fS hS mm 2#32 _ _ 2 (by decide) (off5 mm ⟨1, by decide⟩ 2#32 rfl)
    · exact rd_eq d L e2 c fS hS mm 3#32 _ _ 3 (by decide) (off5 mm ⟨2, by decide⟩ 3#32 rfl)
    · exact rd_eq d L e2 c fS hS mm 4#32 _ _ 4 (by decide) (off5 mm ⟨3, by decide⟩ 4#32 rfl)
    · exact rd_eq d L e2 c fS hS mm 5#32 _ _ 5 (by decide) (off5 mm ⟨4, by decide⟩ 5#32 rfl)
    · exact rd_eq d L e2 c fS hS mm 6#32 _ _ 6 (by decide) (off5 mm ⟨5, by decide⟩ 6#32 rfl)
    · exact rd_eq d L e2 c fS hS mm 7#32 _ _ 7 (by decide) (off5 mm ⟨6, by decide⟩ 7#32 rfl)
    · exact rd_eq d L e2 c fS hS mm 8#32 _ _ 8 (by decide) (off5 mm ⟨7, by decide⟩ 8#32 rfl)
    · exact rd_eq d L e2 c fS hS mm 9#32 _ _ 9 (by decide) (off5 mm ⟨8, by decide⟩ 9#32 rfl)
    · exact rd_eq d L e2 c fS hS mm 10#32 _ _ 10 (by decide) (off5 mm ⟨9, by decide⟩ 10#32 rfl)
    · exact rd_eq d L e2 c fS hS mm 11#32 _ _ 11 (by decide) (off5 mm ⟨10, by decide⟩ 11#32 rfl)
    · exact rd_eq d L e2 c fS hS mm 12#32 _ _ 12 (by decide) (off5 mm ⟨11, by decide⟩ 12#32 rfl)
    · exact rd_eq d L e2 c fS hS mm 13#32 _ _ 13 (by decide) (off5 mm ⟨12, by decide⟩ 13#32 rfl)
    · exact rd_eq d L e2 c fS hS mm 14#32 _ _ 14 (by decide) (off5 mm ⟨13, by decide⟩ 14#32 rfl)
    · exact rd_eq d L e2 c fS hS mm 15#32 _ _ 15 (by decide) (off5 mm ⟨14, by decide⟩ 15#32 rfl)

end Tile
end Cert.Proof.S1DW
end
-- ==== Proof.S1BodyW.lean ====
/-
  The first vector-subcore call at one tile. The tile fetches its slab of the transposed points and the whole of the
  flattened `-2 e`; for each of ten chunks of a hundred columns it spreads the chunk's rows of `-2 e` over its scalar
  memory and stores, per column, sixteen lanes: lane by lane the lesser of `Σ_j s_j za_j + Σ_j za_j²` and
  `Σ_j s_j zb_j + Σ_j zb_j²` over the two halves of the slab; then it reduces each column's sixteen lanes to their
  least element and copies the row of least elements into its row of the partial minima. Each loop goes through by an
  invariant that carries the values: the columns done so far hold their lanes, the rows spread so far hold their
  scalars, the columns reduced so far hold their least element. From the run of the body follows the launch
  theorem's obligation for the call.
-/
import proofs.«209935_g88441966559691_cont_sun_c4_661_34_alg».proof.Proof.IfaceW
import proofs.«209935_g88441966559691_cont_sun_c4_661_34_alg».proof.Proof.S1ValW
import proofs.«209935_g88441966559691_cont_sun_c4_661_34_alg».proof.Proof.S1AuxW
import proofs.«209935_g88441966559691_cont_sun_c4_661_34_alg».proof.Proof.S1RedW
import proofs.«209935_g88441966559691_cont_sun_c4_661_34_alg».proof.Proof.S1DistW

noncomputable section

namespace Cert.Proof.S1BW

open Cert.Kernel Cert.Kernel.Gen
open Cert.Proof.KIW

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers
open Idealize.ShloMosaic.Tactic
open Idealize.ShloMosaic.ValueIdx

variable {F : FTy → Type} [FloatOps F]

local notation "𝕄" => MT nD τ sig (HIx 2) (Elt F) ℕ UU ℕ

/-! ## The kernel's memrefs, spelt as the body table passes them -/

local notation "ztW" => (Memref.whole Cert.Kernel.main_v3_scv : Memref Cert.Kernel.sig Kind.scVector Space.hbm Cert.Kernel.S32x16x32 EltTy.f32)
local notation "e2W" => (Memref.whole Cert.Kernel.main_v6_scv : Memref Cert.Kernel.sig Kind.scVector Space.hbm Cert.Kernel.S16000 EltTy.f32)
local notation "ptW" => (Memref.whole Cert.Kernel.main_v11_scv : Memref Cert.Kernel.sig Kind.scVector Space.hbm Cert.Kernel.S32x1024 EltTy.f32)
local notation "sZ" => (Memref.whole Cert.Kernel.cc0_scratch0 : Memref Cert.Kernel.sig Kind.scVector Space.vmem Cert.Kernel.S16x32 EltTy.f32)
local notation "sE" => (Memref.whole Cert.Kernel.cc0_scratch1 : Memref Cert.Kernel.sig Kind.scVector Space.vmem Cert.Kernel.S16000 EltTy.f32)
local notation "sM" => (Memref.whole Cert.Kernel.cc0_scratch2 : Memref Cert.Kernel.sig Kind.scVector Space.vmem Cert.Kernel.S16384 EltTy.f32)
local notation "sR" => (Memref.whole Cert.Kernel.cc0_scratch3 : Memref Cert.Kernel.sig Kind.scVector Space.vmem Cert.Kernel.S1024 EltTy.f32)
local notation "sS" => (Memref.whole Cert.Kernel.cc0_scratch4 : Memref Cert.Kernel.sig Kind.scVector Space.smem Cert.Kernel.S1600 EltTy.f32)

section Tile

variable (X : Vals F) (d : Dev nD) (L : grid0.Coords)

abbrev cV (L : grid0.Coords) : Fin τ.nSC := (L 0).castLE hcore0
abbrev jV (L : grid0.Coords) : Fin τ.nSub := (L 1).castLE hsub0
/-- The tile's thread. -/
abbrev thr : Thread nD τ := V d (cV L) (jV L)

theorem wL_lt : 2 * (L 1).val + (L 0).val < 32 := by
  have h0 : (L 0).val < 2 := (L 0).isLt
  have h1 : (L 1).val < 16 := (L 1).isLt
  omega
/-- The slab the tile at coordinates `L` works on. -/
def wL : Fin 32 := ⟨2 * (L 1).val + (L 0).val, wL_lt L⟩

/-- The tile's slab of `zt` and its row of the partial minima, as the kernel slices them. -/
abbrev zRect : Rect S32x16x32 := Rect.unit (s := S32x16x32) (k0_off1 L) S1x16x32.size (k0_off1_inb L)
abbrev pRect : Rect S32x1024 := Rect.unit (s := S32x1024) (k0_off9 L) S1x1024.size (k0_off9_inb L)
abbrev zSl : Memref sig .scVector .hbm S16x32 .f32 := ((ztW).slice (zRect L) (fun _ => rfl)).squeeze S16x32 squeezes_S1x16x32_S16x32
abbrev pSl : Memref sig .scVector .hbm S1024 .f32 := ((ptW).slice (pRect L) (fun _ => rfl)).squeeze S1024 squeezes_S1x1024_S1024

omit [FloatOps F] in
theorem zRect_eq : zRect L = zRow (wL L) := by
  unfold zRect zRow Rect.part Rect.block
  congr 1 <;> funext a
  · rw [k0_off1_eq]
    match a with
    | 0 => simp [Shape.partIx, Shape.partSize, wL]
    | 1 => simp [Shape.partIx, Shape.partSize]
    | 2 => simp [Shape.partIx, Shape.partSize]
  · match a with
    | 0 => simp [Shape.partSize]
    | 1 => simp [Shape.partSize]
    | 2 => simp [Shape.partSize]
omit [FloatOps F] in
theorem pRect_eq : pRect L = pRow (wL L) := by
  unfold pRect pRow Rect.part Rect.block
  congr 1 <;> funext a
  · rw [k0_off9_eq]
    match a with
    | 0 => simp [Shape.partIx, Shape.partSize, wL]
    | 1 => simp [Shape.partIx, Shape.partSize]
  · match a with
    | 0 => simp [Shape.partSize]
    | 1 => simp [Shape.partSize]

omit [FloatOps F] in
theorem set_zSl : (zSl L).view.set = zRowSet (wL L) := by
  show (((ztW).view.slice (zRect L)).reshape S16x32 squeezes_S1x16x32_S16x32.numel_eq).set = (zRow (wL L)).set
  rw [View.set_reshape]
  show ((View.whole (main_v3_scv : Ref sig .scVector)).slice (zRect L)).set = _
  rw [View.set_slice, zRect_eq]; exact Finset.map_refl
omit [FloatOps F] in
theorem set_pSl : (pSl L).view.set = pRowSet (wL L) := by
  show (((ptW).view.slice (pRect L)).reshape S1024 squeezes_S1x1024_S1024.numel_eq).set = (pRow (wL L)).set
  rw [View.set_reshape]
  show ((View.whole (main_v11_scv : Ref sig .scVector)).slice (pRect L)).set = _
  rw [View.set_slice, pRect_eq]; exact Finset.map_refl

omit [FloatOps F] in
theorem pts_zSl (f : Buf (Elt F) (ztLoc d)) :
    ((zSl L).view.loc (V d (cV L) (jV L)) ↦[(zSl L).view.set]{fullShare} f : sProp 𝕄) = ztLoc d ↦[zRowSet (wL L)]{fullShare} f := by
  rw [set_zSl]
omit [FloatOps F] in
theorem pts_pSl (f : Buf (Elt F) (ptLoc d)) :
    ((pSl L).view.loc (V d (cV L) (jV L)) ↦[(pSl L).view.set]{fullShare} f : sProp 𝕄) = ptLoc d ↦[pRowSet (wL L)]{fullShare} f := by
  rw [set_pSl]
omit [FloatOps F] in
theorem pts_e2 (q : PosShare TreeShare) (f : Buf (Elt F) (e2Loc d)) :
    ((e2W).view.loc (V d (cV L) (jV L)) ↦{q} f : sProp 𝕄) = e2Loc d ↦{q} f := by
  simp only [Memref.view_whole, View.set_whole]

abbrev c0cell : GSem nD τ sig := ((V d (cV L) (jV L)), SemLoc.dma cc0_scoped0.sem)
abbrev c1cell : GSem nD τ sig := ((V d (cV L) (jV L)), SemLoc.dma cc0_scoped1.sem)
abbrev c2cell : GSem nD τ sig := ((V d (cV L) (jV L)), SemLoc.dma cc0_scoped2.sem)

omit [FloatOps F] in
theorem ownSems0_V :
    (ownSems0 (V d (cV L) (jV L)) : sProp 𝕄)
      = iprop(semVal (c0cell d L) 0 ∗ semVal (c1cell d L) 0 ∗ semVal (c2cell d L) 0
          ∗ bigSep ((((ownCells (V d (cV L) (jV L))).erase (c0cell d L)).erase (c1cell d L)).erase (c2cell d L)) fun g => semVal g 0) := by
  unfold SparseCore.Cfg.ownSems0
  rw [SparseCore.bigSep_erase' ((mem_ownCells (g := c0cell d L)).mpr ⟨rfl, by show (SemLoc.dma cc0_scoped0.sem : SemLoc sig).isScoped .scVector = true; decide⟩),
    SparseCore.bigSep_erase' (Finset.mem_erase.mpr ⟨by simp [c1cell, c0cell]; decide, (mem_ownCells (g := c1cell d L)).mpr ⟨rfl, by show (SemLoc.dma cc0_scoped1.sem : SemLoc sig).isScoped .scVector = true; decide⟩⟩),
    SparseCore.bigSep_erase' (Finset.mem_erase.mpr ⟨by simp [c2cell, c1cell]; decide, Finset.mem_erase.mpr ⟨by simp [c2cell, c0cell]; decide, (mem_ownCells (g := c2cell d L)).mpr ⟨rfl, by show (SemLoc.dma cc0_scoped2.sem : SemLoc sig).isScoped .scVector = true; decide⟩⟩⟩)]

omit [FloatOps F] in
/-- The five scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f)
          ∗ bigSep ((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4))
              fun b => iprop(∃ f, ((d, b) : Loc nD τ sig) ↦{fullShare} f)) := by
  unfold SparseCore.Cfg.ownBufs
  refine (SparseCore.bigSep_erase' (SparseCore.Cfg.mem_ownRefs_of_owner (p := (Proc.scVector (cV L) (jV L))) (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := (Proc.scVector (cV L) (jV L))) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := (Proc.scVector (cV L) (jV L))) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := (Proc.scVector (cV L) (jV L))) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := (Proc.scVector (cV L) (jV L))) (b := (Proc.scVector (cV L) (jV L)).devRef cc0_scratch4) rfl⟩⟩⟩⟩)]

omit [FloatOps F] in
theorem pts_z (f : Buf (Elt F) ((V d (cV L) (jV L)).loc cc0_scratch0)) :
    ((sZ).view.loc (V d (cV L) (jV L)) ↦{fullShare} f : sProp 𝕄) = (V d (cV L) (jV L)).loc cc0_scratch0 ↦{fullShare} f := rfl

omit [FloatOps F] in
theorem pts_e (f : Buf (Elt F) ((V d (cV L) (jV L)).loc cc0_scratch1)) :
    ((sE).view.loc (V d (cV L) (jV L)) ↦{fullShare} f : sProp 𝕄) = (V d (cV L) (jV L)).loc cc0_scratch1 ↦{fullShare} f := rfl

omit [FloatOps F] in
theorem pts_m (f : Buf (Elt F) ((V d (cV L) (jV L)).loc cc0_scratch2)) :
    ((sM).view.loc (V d (cV L) (jV L)) ↦{fullShare} f : sProp 𝕄) = (V d (cV L) (jV L)).loc cc0_scratch2 ↦{fullShare} f := rfl

omit [FloatOps F] in
theorem pts_r (f : Buf (Elt F) ((V d (cV L) (jV L)).loc cc0_scratch3)) :
    ((sR).view.loc (V d (cV L) (jV L)) ↦{fullShare} f : sProp 𝕄) = (V d (cV L) (jV L)).loc cc0_scratch3 ↦{fullShare} f := rfl

omit [FloatOps F] in
theorem pts_s (f : Buf (Elt F) ((V d (cV L) (jV L)).loc cc0_scratch4)) :
    ((sS).view.loc (V d (cV L) (jV L)) ↦{fullShare} f : sProp 𝕄) = (V d (cV L) (jV L)).loc cc0_scratch4 ↦{fullShare} f := rfl

/-! ## The values the buffers hold, and the loops' invariants -/

/-- The tile's slab of points and the flattened `-2 e`, as the value functions read them. -/
abbrev slV : Vec F S16x32 .f32 := S1W.slab (X.zt d) (wL L)
abbrev e2V : Vec F S16000 .f32 := X.e2 d

/-- What the two fetches leave in the slab's and the rows' scratch. -/
def fZ0 : Buf (Elt F) ((sZ).view.loc (V d (cV L) (jV L))) := (zSl L).view.read (Elt F) (X.zt d)
def fE0 : Buf (Elt F) ((sE).view.loc (V d (cV L) (jV L))) := (e2W).view.read (Elt F) (X.e2 d)

/-- Columns below `n` of the lanes' scratch hold their sixteen lanes. -/
def Mdone (fM : Buf (Elt F) ((sM).view.loc (V d (cV L) (jV L)))) (n : Nat) : Prop :=
  ∀ m : Fin 1000, m.val < n → ∀ l : Fin 16,
    (sM).view.read (Elt F) fM (ix1 ⟨16 * m.val + l.val, by have := m.isLt; have := l.isLt; omega⟩) = S1W.laneD (slV X d L) (e2V X d) m (ix1 l)

/-- Rows below `k` of chunk `c` of `-2 e` are spread over the scalar memory. -/
def Sdone (c : Nat) (hc : c < 10) (fS : Buf (Elt F) ((sS).view.loc (V d (cV L) (jV L)))) (k : Nat) : Prop :=
  ∀ k' : Fin 100, k'.val < k → ∀ j : Fin 16,
    (sS).view.read (Elt F) fS (ix1 ⟨16 * k'.val + j.val, by have := k'.isLt; have := j.isLt; omega⟩)
      = S1W.scal (S1W.eLd (e2V X d) ⟨100 * c + k'.val, by have := k'.isLt; omega⟩) j

/-- Before chunk `c` of the ten chunks of columns. -/
def inv1 (c : Nat) (_ : PUnit) : sProp 𝕄 :=
  iprop(((sZ).view.loc (V d (cV L) (jV L)) ↦{fullShare} fZ0 X d L)
    ∗ ((sE).view.loc (V d (cV L) (jV L)) ↦{fullShare} fE0 X d L)
    ∗ (∃ fM, ((sM).view.loc (V d (cV L) (jV L)) ↦{fullShare} fM) ∗ ⌜Mdone X d L fM (100 * c)⌝)
    ∗ (∃ fS, (sS).view.loc (V d (cV L) (jV L)) ↦{fullShare} fS))

/-- Before row `k` of the chunk's hundred rows of `-2 e` is spread over the scalar memory. -/
def inv2 (c : Nat) (hc : c < 10) (k : Nat) (_ : PUnit) : sProp 𝕄 :=
  iprop(((sE).view.loc (V d (cV L) (jV L)) ↦{fullShare} fE0 X d L)
    ∗ (∃ fS, ((sS).view.loc (V d (cV L) (jV L)) ↦{fullShare} fS) ∗ ⌜Sdone X d L c hc fS k⌝))

omit [FloatOps F] in
theorem trips1 : k0_t1_loop.trips = 10 := by decide
omit [FloatOps F] in
theorem trips2 : k0_t2_loop.trips = 100 := by decide
omit [FloatOps F] in
theorem trips3 : k0_t3_loop.trips = 100 := by decide
omit [FloatOps F] in
theorem trips4 : k0_t4_loop.trips = 64 := by decide

/-! ## One trip of the spreading loop: sixteen single-word stores -/

omit [FloatOps F] in
theorem off3_at (k : Fin k0_t2_loop.trips) (J : Fin 16) : k0_off3 k (BitVec.ofNat 32 J.val) 0 = 16 * k.val + J.val := by
  rw [k0_off3_eq k J]; rfl

/-- The store of word `J` of trip `k`. -/
abbrev P3 (k : Fin k0_t2_loop.trips) (vv : Fin 16 → Elt F .f32)
    (inb : ∀ J : Fin 16, ∀ a, (k0_off3 k (BitVec.ofNat 32 J.val)) a + S1.size a ≤ S1600.size a) (J : Fin 16) : View.Piece (Elt F) S1600 .f32 :=
  ⟨Rect.unit (s := S1600) (k0_off3 k (BitVec.ofNat 32 J.val)) S1.size (inb J), fun _ => vv J⟩

/-- The trip's stores, the last first. -/
abbrev PL3 (k : Fin k0_t2_loop.trips) (vv : Fin 16 → Elt F .f32)
    (inb : ∀ J : Fin 16, ∀ a, (k0_off3 k (BitVec.ofNat 32 J.val)) a + S1.size a ≤ S1600.size a) : List (View.Piece (Elt F) S1600 .f32) :=
  [P3 k vv inb 15, P3 k vv inb 14, P3 k vv inb 13, P3 k vv inb 12, P3 k vv inb 11, P3 k vv inb 10, P3 k vv inb 9, P3 k vv inb 8, P3 k vv inb 7, P3 k vv inb 6, P3 k vv inb 5, P3 k vv inb 4, P3 k vv inb 3, P3 k vv inb 2, P3 k vv inb 1, P3 k vv inb 0]

omit [FloatOps F] in
theorem mem_PL3 {k : Fin k0_t2_loop.trips} {vv : Fin 16 → Elt F .f32} {inb} {p : View.Piece (Elt F) S1600 .f32} (hp : p ∈ PL3 k vv inb) :
    ∃ J : Fin 16, p = P3 k vv inb J := by
  simp only [PL3, List.mem_cons, List.not_mem_nil, or_false] at hp
  rcases hp with rfl | rfl | rfl | rfl | rfl | rfl | rfl | rfl | rfl | rfl | rfl | rfl | rfl | rfl | rfl | rfl
  · exact ⟨15, rfl⟩
  · exact ⟨14, rfl⟩
  · exact ⟨13, rfl⟩
  · exact ⟨12, rfl⟩
  · exact ⟨11, rfl⟩
  · exact ⟨10, rfl⟩
  · exact ⟨9, rfl⟩
  · exact ⟨8, rfl⟩
  · exact ⟨7, rfl⟩
  · exact ⟨6, rfl⟩
  · exact ⟨5, rfl⟩
  · exact ⟨4, rfl⟩
  · exact ⟨3, rfl⟩
  · exact ⟨2, rfl⟩
  · exact ⟨1, rfl⟩
  · exact ⟨0, rfl⟩

omit [FloatOps F] in
theorem P3_mem (k : Fin k0_t2_loop.trips) (vv : Fin 16 → Elt F .f32) (inb) (J : Fin 16) : P3 k vv inb J ∈ PL3 k vv inb := by
  fin_cases J <;> simp [PL3]

omit [FloatOps F] in
theorem P3_mem_set (k : Fin k0_t2_loop.trips) (vv : Fin 16 → Elt F .f32) (inb) (J : Fin 16) (y : S1600.Idx) :
    y ∈ (P3 k vv inb J).1.set ↔ (y 0).val = 16 * k.val + J.val := by
  rw [Rect.mem_set_unit]
  constructor
  · intro h; have h0 := h 0; rw [off3_at] at h0
    have : S1.size 0 = 1 := rfl
    omega
  · intro h a
    obtain rfl : a = 0 := Subsingleton.elim _ _
    rw [off3_at]
    have : S1.size 0 = 1 := rfl
    omega

omit [FloatOps F] in
/-- What the scalar memory holds after the trip: words outside the trip's sixteen keep their contents, word `J` of
    the sixteen holds the value stored there. -/
theorem sfill (k : Fin k0_t2_loop.trips) (hk : k.val < 100) (vv : Fin 16 → Elt F .f32) (inb)
    (v : View sig .scVector .smem S1600 .f32) (fS : v.ty.Contents (Elt F)) :
    (∀ y : S1600.Idx, ((y 0).val < 16 * k.val ∨ 16 * k.val + 16 ≤ (y 0).val) →
        v.read (Elt F) (v.writes (Elt F) fS (PL3 k vv inb)) y = v.read (Elt F) fS y)
    ∧ (∀ J : Fin 16, v.read (Elt F) (v.writes (Elt F) fS (PL3 k vv inb)) (ix1 ⟨16 * k.val + J.val, by have := J.isLt; omega⟩) = vv J) := by
  constructor
  · intro y hy
    refine View.read_writes_apply_of_forall_not_mem v fS y _ fun p hp => ?_
    obtain ⟨J, rfl⟩ := mem_PL3 hp
    rw [P3_mem_set]; have := J.isLt; omega
  · intro J
    have hJ := J.isLt
    refine (View.read_writes_apply_of_pieces v fS (fun y => vv ⟨(y 0).val % 16, Nat.mod_lt _ (by omega)⟩) _ (fun p hp x => ?_) _ ⟨P3 k vv inb J, P3_mem k vv inb J, ?_⟩).trans ?_
    · obtain ⟨J', rfl⟩ := mem_PL3 hp
      show vv J' = vv _
      congr 1; apply Fin.ext
      show J'.val = ((P3 k vv inb J').1.emb x 0).val % 16
      rw [Rect.emb_apply]
      show J'.val = (k0_off3 k (BitVec.ofNat 32 J'.val) 0 + 1 * (x 0).val) % 16
      rw [off3_at]
      have hx : (x 0).val < 1 := (x 0).isLt
      have := J'.isLt
      omega
    · rw [P3_mem_set]
    · show vv _ = vv J
      congr 1; apply Fin.ext
      show (16 * k.val + J.val) % 16 = J.val
      omega

/-- The trip of the columns' loop with the thirty-two loaded rows and the two sums of squares as separate values. -/
theorem t3_regs (e2 : Vec F S16000 .f32) (G : Fin 1000 → FVec F S16 .f32)
    (a0 a1 a2 a3 a4 a5 a6 a7 a8 a9 a10 a11 a12 a13 a14 a15 b0 b1 b2 b3 b4 b5 b6 b7 b8 b9 b10 b11 b12 b13 b14 b15 vB vA : FVec F S16 .f32)
    (c : Fin k0_t1_loop.trips) (fS : Buf (Elt F) ((sS).view.loc (V d (cV L) (jV L))))
    (hS : ∀ (k' : Fin 100) (j : Fin 16),
      (sS).view.read (Elt F) fS (ix1 ⟨16 * k'.val + j.val, by have := k'.isLt; have := j.isLt; omega⟩)
        = S1W.scal (S1W.eLd e2 ⟨100 * c.val + k'.val, by have := S1AW.t1_lt c; have := k'.isLt; omega⟩) j)
    (hB : vB = S1W.znB ![b0, b1, b2, b3, b4, b5, b6, b7, b8, b9, b10, b11, b12, b13, b14, b15]) (hA : vA = S1W.znA ![a0, a1, a2, a3, a4, a5, a6, a7, a8, a9, a10, a11, a12, a13, a14, a15])
    (hG : ∀ mm : Fin 100, G ⟨100 * c.val + mm.val, by have := S1AW.t1_lt c; have := mm.isLt; omega⟩
        = S1W.lane ![a0, a1, a2, a3, a4, a5, a6, a7, a8, a9, a10, a11, a12, a13, a14, a15] ![b0, b1, b2, b3, b4, b5, b6, b7, b8, b9, b10, b11, b12, b13, b14, b15] (S1W.scal (S1W.eLd e2 ⟨100 * c.val + mm.val, by have := S1AW.t1_lt c; have := mm.isLt; omega⟩)))
    (mm : Fin k0_t3_loop.trips) (acc : PUnit) :
    S1DW.invD (F := F) d L G c.val fS mm.val acc
      ⊢ wp frame (wpE (defs₀ (F := F)) 𝒱₀ (V d (cV L) (jV L)) none) Set.univ
          (k0_t3_body (F := F) L ztW (Memref.isWhole_whole _) e2W (Memref.isWhole_whole _) ptW (Memref.isWhole_whole _)
            sZ (Memref.isWhole_whole _) sE (Memref.isWhole_whole _) sM (Memref.isWhole_whole _) sR (Memref.isWhole_whole _) sS (Memref.isWhole_whole _)
            cc0_scoped0 cc0_scoped1 cc0_scoped2 c a0 a1 a2 a3 a4 a5 a6 a7 a8 a9 a10 a11 a12 a13 a14 a15 b0 b1 b2 b3 b4 b5 b6 b7 b8 b9 b10 b11 b12 b13 b14 b15 vB vA mm acc)
          (S1DW.invD (F := F) d L G c.val fS (mm.val + 1)) := by
  subst hB hA
  exact S1DW.t3_trip (F := F) d L e2 G ![a0, a1, a2, a3, a4, a5, a6, a7, a8, a9, a10, a11, a12, a13, a14, a15] ![b0, b1, b2, b3, b4, b5, b6, b7, b8, b9, b10, b11, b12, b13, b14, b15] c fS hS hG mm acc

/-- The kernel function at the tile's coordinates, over the arrays and scratch the body table passes. -/
abbrev prog : Prog (TpuEff nD τ sig (Elt F) Λ₀ (.scVector (cV L) (jV L))) PUnit :=
  cc0__sc_stage1 (F := F) L ztW (Memref.isWhole_whole _) e2W (Memref.isWhole_whole _) ptW (Memref.isWhole_whole _)
    sZ (Memref.isWhole_whole _) sE (Memref.isWhole_whole _) sM (Memref.isWhole_whole _) sR (Memref.isWhole_whole _) sS (Memref.isWhole_whole _)
    cc0_scoped0 cc0_scoped1 cc0_scoped2

/-- The stage on the tile at coordinates `L`: from its slab of the points, a read share of `-2 e`, its row of the partial
    minima at any contents, its scratch and its semaphores at zero, to the same with the row satisfying the tile's post. -/
theorem tile_body (hX : ∀ d w f, S1W.Post0 (X.zt d) (X.e2 d) w f → X.post0 d w f) (hF : (K (F := F)).Facts) (O : CellTallies nD τ sig (HIx 2)) (W : Waits sig (HIx 2)) (hO : ∀ g, O g none = 0) :
    iprop(levAts (K (F := F)).L (K (F := F)).lev ∗ emp ∗ go0 X d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ (prog (F := F) L)
          fun _ => iprop(td0 X d (wL L) ∗ scopedBufs (V d (cV L) (jV L)) ∗ scopedSems0 (V d (cV L) (jV L))
            ∗ ∃ W', ⌜∀ p ∈ W', p ∈ W ∨ p.2 = none⌝ ∗ owes (V d (cV L) (jV L)) O W') := by
  unfold prog
  simp only [cc0__sc_stage1_eq_skeleton]; unfold cc0__sc_stage1_skel
  rw [(K (F := F)).scopedBufs_V hF d (cV L) (jV L), SparseCore.Cfg.scopedSems0_V (Val := Elt F) d (cV L) (jV L), ownSems0_V, ownBufs_V]
  unfold go0
  iintro ⟨#Hlv, -, ⟨Hz, He, %fp, Hp⟩, ⟨⟨%fz, Hsz⟩, ⟨%fe, Hse⟩, ⟨%fm, Hsm⟩, ⟨%fr, Hsr⟩, ⟨%fs, Hss⟩, Hbufs⟩, ⟨Hsem0, Hsem1, Hsem2, Hsems⟩, HO⟩
  ihave Hmw := ((K (F := F)).mayWaits_none (thr := (V d (cV L) (jV L))) hO) $$ Hlv
  ihave Hz' := (Entails.of_eq (pts_zSl (F := F) d L _).symm) $$ Hz
  ihave Hp' := (Entails.of_eq (pts_pSl (F := F) d L _).symm) $$ Hp
  ihave He' := (Entails.of_eq (pts_e2 (F := F) d L _ _).symm) $$ He
  ihave Hsz' := (Entails.of_eq (pts_z (F := F) d L _).symm) $$ Hsz
  ihave Hse' := (Entails.of_eq (pts_e (F := F) d L _).symm) $$ Hse
  ihave Hsm' := (Entails.of_eq (pts_m (F := F) d L _).symm) $$ Hsm
  ihave Hsr' := (Entails.of_eq (pts_r (F := F) d L _).symm) $$ Hsr
  ihave Hss' := (Entails.of_eq (pts_s (F := F) d L _).symm) $$ Hss
  sl_exec
  have e0 : View.write (Elt F) (sZ).view fz (tile_body.sl.dma0 X d L) Finset.univ = fZ0 X d L := by
    unfold tile_body.sl.dma0; exact View.write_whole_univ _ _ _
  have e1 : View.write (Elt F) (sE).view fe (tile_body.sl.dma0_1 X d) Finset.univ = fE0 X d L := by
    unfold tile_body.sl.dma0_1; exact View.write_whole_univ _ _ _
  rw [e0, e1]
  sl_for (inv1 (F := F) X d L) $$ [Hsz' Hse' Hsm' Hss']
  case region =>
    intro c _
    have hc : c.val < 10 := trips1 ▸ c.isLt
    unfold inv1
    iintro ⟨Hz, He, ⟨%fM, Hm, %hM⟩, ⟨%fS, Hs⟩⟩
    sl_exec
    sl_for (inv2 (F := F) X d L c.val hc) $$ [He Hs]
    case region =>
      intro k _
      have hk : k.val < 100 := trips2 ▸ k.isLt
      unfold inv2
      iintro ⟨He, ⟨%fS, Hs, %hS⟩⟩
      sl_exec
      sl_step
      isplitl [He]; · iexact He
      iexists _; isplitl [Hs]; · iexact Hs
      ipureintro
      have h168 : ((sE).view.readAt (Elt F) (Rect.unit (s := S16000) (k0_off2 c k) S16.size (k0_off2_inb c k)).toLoadRect (fE0 X d L))
          = S1W.eLd (e2V X d) ⟨100 * c.val + k.val, by omega⟩ := S1AW.eLd_readAt (sE) (fE0 X d L) c k _
      have hfill := sfill (F := F) k hk (S1W.scal ((sE).view.readAt (Elt F) (Rect.unit (s := S16000) (k0_off2 c k) S16.size (k0_off2_inb c k)).toLoadRect (fE0 X d L))) (fun J => k0_off3_inb k J) (sS).view fS
      intro k' hk' j
      by_cases hlt : k'.val < k.val
      · exact (hfill.1 _ (Or.inl (by show 16 * k'.val + j.val < 16 * k.val; have := j.isLt; omega))).trans (hS k' hlt j)
      · have hk'k : k'.val = k.val := by omega
        obtain rfl : k' = ⟨k.val, hk⟩ := Fin.ext hk'k
        exact (hfill.2 j).trans (by rw [h168])
    · unfold inv2
      isplitl [He]; · iexact He
      iexists _; isplitl [Hs]; · iexact Hs
      ipureintro; intro k' hk'; exact absurd hk' (Nat.not_lt_zero _)
    iintro %_ HI
    unfold inv2
    icases HI with ⟨He, ⟨%fS', Hs, %hS⟩⟩
    sl_exec
    have hZ0 : (sZ).view.read (Elt F) (fZ0 X d L) = slV X d L := S1AW.slab_read L (X.zt d)
    have hS100 : ∀ (k' : Fin 100) (j : Fin 16),
        (sS).view.read (Elt F) fS' (ix1 ⟨16 * k'.val + j.val, by have := k'.isLt; have := j.isLt; omega⟩)
          = S1W.scal (S1W.eLd (e2V X d) ⟨100 * c.val + k'.val, by have := S1AW.t1_lt c; have := k'.isLt; omega⟩) j := fun k' j =>
      hS k' (by have h : Scf.trips k0_t2_loop.lb k0_t2_loop.ub k0_t2_loop.st = 100 := by decide
                have := k'.isLt; omega) j
    sl_for (S1DW.invD (F := F) d L (S1W.laneD (slV X d L) (e2V X d)) c.val fS') $$ [Hs Hm]
    case region =>
      intro mm acc
      refine t3_regs (F := F) d L (e2V X d) _ _ _ _ _ _ _ _ _ _ _ _ _ _ _ _ _ _ _ _ _ _ _ _ _ _ _ _ _ _ _ _ _ _ _ c fS' hS100 ?_ ?_ ?_ mm acc
      · rfl
      · rfl
      · intro mm'
        show S1W.lane (S1W.zA (slV X d L)) (S1W.zB (slV X d L)) _ = S1W.lane _ _ _
        congr 1
        · funext j; fin_cases j
          · show S1W.cast1 (S1W.rowLd (slV X d L) 0 0) = S1W.cast1 ((sZ).view.readAt (Elt F) (Rect.unit (s := S16x32) ![0, 0] S1x16.size _).toLoadRect (fZ0 X d L))
            rw [S1AW.rowLd_readAt_0_0 (sZ) (fZ0 X d L), hZ0]
          · show S1W.cast1 (S1W.rowLd (slV X d L) 1 0) = S1W.cast1 ((sZ).view.readAt (Elt F) (Rect.unit (s := S16x32) ![1, 0] S1x16.size _).toLoadRect (fZ0 X d L))
            rw [S1AW.rowLd_readAt_1_0 (sZ) (fZ0 X d L), hZ0]
          · show S1W.cast1 (S1W.rowLd (slV X d L) 2 0) = S1W.cast1 ((sZ).view.readAt (Elt F) (Rect.unit (s := S16x32) ![2, 0] S1x16.size _).toLoadRect (fZ0 X d L))
            rw [S1AW.rowLd_readAt_2_0 (sZ) (fZ0 X d L), hZ0]
          · show S1W.cast1 (S1W.rowLd (slV X d L) 3 0) = S1W.cast1 ((sZ).view.readAt (Elt F) (Rect.unit (s := S16x32) ![3, 0] S1x16.size _).toLoadRect (fZ0 X d L))
            rw [S1AW.rowLd_readAt_3_0 (sZ) (fZ0 X d L), hZ0]
          · show S1W.cast1 (S1W.rowLd (slV X d L) 4 0) = S1W.cast1 ((sZ).view.readAt (Elt F) (Rect.unit (s := S16x32) ![4, 0] S1x16.size _).toLoadRect (fZ0 X d L))
            rw [S1AW.rowLd_readAt_4_0 (sZ) (fZ0 X d L), hZ0]
          · show S1W.cast1 (S1W.rowLd (slV X d L) 5 0) = S1W.cast1 ((sZ).view.readAt (Elt F) (Rect.unit (s := S16x32) ![5, 0] S1x16.size _).toLoadRect (fZ0 X d L))
            rw [S1AW.rowLd_readAt_5_0 (sZ) (fZ0 X d L), hZ0]
          · show S1W.cast1 (S1W.rowLd (slV X d L) 6 0) = S1W.cast1 ((sZ).view.readAt (Elt F) (Rect.unit (s := S16x32) ![6, 0] S1x16.size _).toLoadRect (fZ0 X d L))
            rw [S1AW.rowLd_readAt_6_0 (sZ) (fZ0 X d L), hZ0]
          · show S1W.cast1 (S1W.rowLd (slV X d L) 7 0) = S1W.cast1 ((sZ).view.readAt (Elt F) (Rect.unit (s := S16x32) ![7, 0] S1x16.size _).toLoadRect (fZ0 X d L))
            rw [S1AW.rowLd_readAt_7_0 (sZ) (fZ0 X d L), hZ0]
          · show S1W.cast1 (S1W.rowLd (slV X d L) 8 0) = S1W.cast1 ((sZ).view.readAt (Elt F) (Rect.unit (s := S16x32) ![8, 0] S1x16.size _).toLoadRect (fZ0 X d L))
            rw [S1AW.rowLd_readAt_8_0 (sZ) (fZ0 X d L), hZ0]
          · show S1W.cast1 (S1W.rowLd (slV X d L) 9 0) = S1W.cast1 ((sZ).view.readAt (Elt F) (Rect.unit (s := S16x32) ![9, 0] S1x16.size _).toLoadRect (fZ0 X d L))
            rw [S1AW.rowLd_readAt_9_0 (sZ) (fZ0 X d L), hZ0]
          · show S1W.cast1 (S1W.rowLd (slV X d L) 10 0) = S1W.cast1 ((sZ).view.readAt (Elt F) (Rect.unit (s := S16x32) ![10, 0] S1x16.size _).toLoadRect (fZ0 X d L))
            rw [S1AW.rowLd_readAt_10_0 (sZ) (fZ0 X d L), hZ0]
          · show S1W.cast1 (S1W.rowLd (slV X d L) 11 0) = S1W.cast1 ((sZ).view.readAt (Elt F) (Rect.unit (s := S16x32) ![11, 0] S1x16.size _).toLoadRect (fZ0 X d L))
            rw [S1AW.rowLd_readAt_11_0 (sZ) (fZ0 X d L), hZ0]
          · show S1W.cast1 (S1W.rowLd (slV X d L) 12 0) = S1W.cast1 ((sZ).view.readAt (Elt F) (Rect.unit (s := S16x32) ![12, 0] S1x16.size _).toLoadRect (fZ0 X d L))
            rw [S1AW.rowLd_readAt_12_0 (sZ) (fZ0 X d L), hZ0]
          · show S1W.cast1 (S1W.rowLd (slV X d L) 13 0) = S1W.cast1 ((sZ).view.readAt (Elt F) (Rect.unit (s := S16x32) ![13, 0] S1x16.size _).toLoadRect (fZ0 X d L))
            rw [S1AW.rowLd_readAt_13_0 (sZ) (fZ0 X d L), hZ0]
          · show S1W.cast1 (S1W.rowLd (slV X d L) 14 0) = S1W.cast1 ((sZ).view.readAt (Elt F) (Rect.unit (s := S16x32) ![14, 0] S1x16.size _).toLoadRect (fZ0 X d L))
            rw [S1AW.rowLd_readAt_14_0 (sZ) (fZ0 X d L), hZ0]
          · show S1W.cast1 (S1W.rowLd (slV X d L) 15 0) = S1W.cast1 ((sZ).view.readAt (Elt F) (Rect.unit (s := S16x32) ![15, 0] S1x16.size _).toLoadRect (fZ0 X d L))
            rw [S1AW.rowLd_readAt_15_0 (sZ) (fZ0 X d L), hZ0]
        · funext j; fin_cases j
          · show S1W.cast1 (S1W.rowLd (slV X d L) 0 1) = S1W.cast1 ((sZ).view.readAt (Elt F) (Rect.unit (s := S16x32) ![0, 16] S1x16.size _).toLoadRect (fZ0 X d L))
            rw [S1AW.rowLd_readAt_0_16 (sZ) (fZ0 X d L), hZ0]
          · show S1W.cast1 (S1W.rowLd (slV X d L) 1 1) = S1W.cast1 ((sZ).view.readAt (Elt F) (Rect.unit (s := S16x32) ![1, 16] S1x16.size _).toLoadRect (fZ0 X d L))
            rw [S1AW.rowLd_readAt_1_16 (sZ) (fZ0 X d L), hZ0]
          · show S1W.cast1 (S1W.rowLd (slV X d L) 2 1) = S1W.cast1 ((sZ).view.readAt (Elt F) (Rect.unit (s := S16x32) ![2, 16] S1x16.size _).toLoadRect (fZ0 X d L))
            rw [S1AW.rowLd_readAt_2_16 (sZ) (fZ0 X d L), hZ0]
          · show S1W.cast1 (S1W.rowLd (slV X d L) 3 1) = S1W.cast1 ((sZ).view.readAt (Elt F) (Rect.unit (s := S16x32) ![3, 16] S1x16.size _).toLoadRect (fZ0 X d L))
            rw [S1AW.rowLd_readAt_3_16 (sZ) (fZ0 X d L), hZ0]
          · show S1W.cast1 (S1W.rowLd (slV X d L) 4 1) = S1W.cast1 ((sZ).view.readAt (Elt F) (Rect.unit (s := S16x32) ![4, 16] S1x16.size _).toLoadRect (fZ0 X d L))
            rw [S1AW.rowLd_readAt_4_16 (sZ) (fZ0 X d L), hZ0]
          · show S1W.cast1 (S1W.rowLd (slV X d L) 5 1) = S1W.cast1 ((sZ).view.readAt (Elt F) (Rect.unit (s := S16x32) ![5, 16] S1x16.size _).toLoadRect (fZ0 X d L))
            rw [S1AW.rowLd_readAt_5_16 (sZ) (fZ0 X d L), hZ0]
          · show S1W.cast1 (S1W.rowLd (slV X d L) 6 1) = S1W.cast1 ((sZ).view.readAt (Elt F) (Rect.unit (s := S16x32) ![6, 16] S1x16.size _).toLoadRect (fZ0 X d L))
            rw [S1AW.rowLd_readAt_6_16 (sZ) (fZ0 X d L), hZ0]
          · show S1W.cast1 (S1W.rowLd (slV X d L) 7 1) = S1W.cast1 ((sZ).view.readAt (Elt F) (Rect.unit (s := S16x32) ![7, 16] S1x16.size _).toLoadRect (fZ0 X d L))
            rw [S1AW.rowLd_readAt_7_16 (sZ) (fZ0 X d L), hZ0]
          · show S1W.cast1 (S1W.rowLd (slV X d L) 8 1) = S1W.cast1 ((sZ).view.readAt (Elt F) (Rect.unit (s := S16x32) ![8, 16] S1x16.size _).toLoadRect (fZ0 X d L))
            rw [S1AW.rowLd_readAt_8_16 (sZ) (fZ0 X d L), hZ0]
          · show S1W.cast1 (S1W.rowLd (slV X d L) 9 1) = S1W.cast1 ((sZ).view.readAt (Elt F) (Rect.unit (s := S16x32) ![9, 16] S1x16.size _).toLoadRect (fZ0 X d L))
            rw [S1AW.rowLd_readAt_9_16 (sZ) (fZ0 X d L), hZ0]
          · show S1W.cast1 (S1W.rowLd (slV X d L) 10 1) = S1W.cast1 ((sZ).view.readAt (Elt F) (Rect.unit (s := S16x32) ![10, 16] S1x16.size _).toLoadRect (fZ0 X d L))
            rw [S1AW.rowLd_readAt_10_16 (sZ) (fZ0 X d L), hZ0]
          · show S1W.cast1 (S1W.rowLd (slV X d L) 11 1) = S1W.cast1 ((sZ).view.readAt (Elt F) (Rect.unit (s := S16x32) ![11, 16] S1x16.size _).toLoadRect (fZ0 X d L))
            rw [S1AW.rowLd_readAt_11_16 (sZ) (fZ0 X d L), hZ0]
          · show S1W.cast1 (S1W.rowLd (slV X d L) 12 1) = S1W.cast1 ((sZ).view.readAt (Elt F) (Rect.unit (s := S16x32) ![12, 16] S1x16.size _).toLoadRect (fZ0 X d L))
            rw [S1AW.rowLd_readAt_12_16 (sZ) (fZ0 X d L), hZ0]
          · show S1W.cast1 (S1W.rowLd (slV X d L) 13 1) = S1W.cast1 ((sZ).view.readAt (Elt F) (Rect.unit (s := S16x32) ![13, 16] S1x16.size _).toLoadRect (fZ0 X d L))
            rw [S1AW.rowLd_readAt_13_16 (sZ) (fZ0 X d L), hZ0]
          · show S1W.cast1 (S1W.rowLd (slV X d L) 14 1) = S1W.cast1 ((sZ).view.readAt (Elt F) (Rect.unit (s := S16x32) ![14, 16] S1x16.size _).toLoadRect (fZ0 X d L))
            rw [S1AW.rowLd_readAt_14_16 (sZ) (fZ0 X d L), hZ0]
          · show S1W.cast1 (S1W.rowLd (slV X d L) 15 1) = S1W.cast1 ((sZ).view.readAt (Elt F) (Rect.unit (s := S16x32) ![15, 16] S1x16.size _).toLoadRect (fZ0 X d L))
            rw [S1AW.rowLd_readAt_15_16 (sZ) (fZ0 X d L), hZ0]
    · unfold S1DW.invD
      isplitl [Hs]; · iexact Hs
      iexists _; isplitl [Hm]; · iexact Hm
      ipureintro; exact hM
    iintro %_ HI
    unfold S1DW.invD
    icases HI with ⟨Hs, ⟨%fM', Hm, %hM'⟩⟩
    sl_exec
    sl_step
    isplitl [Hz]; · iexact Hz
    isplitl [He]; · iexact He
    isplitl [Hm]
    · iexists _; isplitl [Hm]; · iexact Hm
      ipureintro
      intro m hm
      exact hM' m (by have h3 : Scf.trips k0_t3_loop.lb k0_t3_loop.ub k0_t3_loop.st = 100 := by decide
                      omega)
    iexists _; iexact Hs
  · unfold inv1
    isplitl [Hsz']; · iexact Hsz'
    isplitl [Hse']; · iexact Hse'
    isplitl [Hsm']
    · iexists _; isplitl [Hsm']; · iexact Hsm'
      ipureintro; intro m hm; exact absurd hm (by omega)
    iexists _; iexact Hss'
  iintro %_ HI
  unfold inv1
  icases HI with ⟨Hsz, Hse, ⟨%fM, Hm, %hM⟩, ⟨%fS, Hs⟩⟩
  sl_for (S1RW.invR (F := F) d L fM) $$ [Hm Hsr']
  case region =>
    intro g acc
    exact S1RW.t4_trip (F := F) d L fM g acc
  · unfold S1RW.invR
    isplitl [Hm]; · iexact Hm
    iexists _; isplitl [Hsr']; · iexact Hsr'
    ipureintro; intro m hm; exact absurd hm (by omega)
  iintro %_ HI
  unfold S1RW.invR
  icases HI with ⟨Hm, ⟨%fR, Hr, %hR⟩⟩
  sl_exec
  sl_step
  have hM1000 : Mdone X d L fM 1000 := by
    have h : Scf.trips k0_t1_loop.lb k0_t1_loop.ub k0_t1_loop.st = 10 := by decide
    rw [h] at hM; exact hM
  isplitl [Hz' He' Hp']
  · unfold td0
    isplitl [Hz']; · iapply (Entails.of_eq (pts_zSl (F := F) d L _)); iexact Hz'
    isplitl [He']; · iapply (Entails.of_eq (pts_e2 (F := F) d L _ _)); iexact He'
    iexists ((pSl L).view.writes (Elt F) fp [⟨Rect.whole S1024, tile_body.sl.dma0_2 d L fR⟩]); isplitr
    · ipureintro; refine hX d (wL L) _ ?_
      refine S1AW.post0_of d L (X.zt d) (X.e2 d) fp _ (fun m => ?_)
      have hR' : ∀ m : Fin 1024, (sR).view.read (Elt F) fR (ix1 m)
          = S1W.red16 (fun x => (sM).view.read (Elt F) fM (ix1 ⟨16 * m.val + (x 0).val, S1RW.col_lt m x⟩)) := fun m =>
        hR m (by have h : Scf.trips k0_t4_loop.lb k0_t4_loop.ub k0_t4_loop.st = 64 := by decide
                 have := m.isLt; omega)
      show (sR).view.read (Elt F) fR (ix1 ⟨m.val, _⟩) = S1W.part1 (slV X d L) (e2V X d) m
      rw [hR' ⟨m.val, by have := m.isLt; omega⟩]
      show S1W.red16 _ = S1W.red16 (S1W.laneD (slV X d L) (e2V X d) m)
      congr 1; funext x
      obtain ⟨l, rfl⟩ : ∃ l : Fin 16, x = ix1 l := ⟨x 0, eq_ix1 x⟩
      exact hM1000 m m.isLt l
    · iapply (Entails.of_eq (pts_pSl (F := F) d L _)); iexact Hp'
  isplitl [Hsz Hse Hm Hr Hs Hbufs]
  · isplitl [Hsz]; · iexists _; iexact Hsz
    isplitl [Hse]; · iexists _; iexact Hse
    isplitl [Hm]; · iexists _; iexact Hm
    isplitl [Hr]; · iexists _; iexact Hr
    isplitl [Hs]; · iexists _; iexact Hs
    iexact Hbufs
  isplitl [Hsem0 Hsem1 Hsem2 Hsems]
  · isplitl [Hsem0]; · iexact Hsem0
    isplitl [Hsem1]; · iexact Hsem1
    isplitl [Hsem2]; · iexact Hsem2
    iexact Hsems
  iexists _; isplitr; rotate_left
  · iexact HO
  · ipureintro; intro p hp
    rcases Finset.mem_insert.mp hp with hp | hp
    · exact Or.inr (show p.2 = none by rw [hp]; rfl)
    rcases Finset.mem_insert.mp hp with hp | hp
    · exact Or.inr (show p.2 = none by rw [hp]; rfl)
    rcases Finset.mem_insert.mp hp with hp | hp
    · exact Or.inr (show p.2 = none by rw [hp]; rfl)
    exact .inl hp

end Tile

/-! ## The launch theorem's obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_stage1 (F := F) (coordsV c s)
          ztW (Memref.isWhole_whole _) e2W (Memref.isWhole_whole _) ptW (Memref.isWhole_whole _)
          sZ (Memref.isWhole_whole _) sE (Memref.isWhole_whole _) sM (Memref.isWhole_whole _) sR (Memref.isWhole_whole _) sS (Memref.isWhole_whole _)
          cc0_scoped0 cc0_scoped1 cc0_scoped2) ⟨⟩ c s := rfl

omit [FloatOps F] in
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- `TileObl` at call 0: every tile of the grid runs the stage on its own slab. -/
theorem tileObl0 (X : Vals F) (hX : ∀ d w f, Cert.Proof.S1W.Post0 (X.zt d) (X.e2 d) w f → X.post0 d w f) :
    (K (F := F)).TileObl (D (F := F)) 𝒱 (P X) v₀ 0 := by
  intro d c i O W hO _ _
  -- this kernel owes nothing for a protocol of its own
  simp only [show (P X).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body X d (coordsV ⟨_, hc.1⟩ ⟨_, hc.2⟩) hX facts O W hO).trans (wp_mono frame _ _ fun _ => obl_post)

end Cert.Proof.S1BW
end
-- ==== Proof.RunW.lean ====
/-
  The program's run: every weakly fair execution of the device's 35 threads terminates, nothing faulting, with the
  three arguments as they were and the result the first entry of a vector that satisfies the second call's
  post — the launch theorem fed the two calls' tile obligations, the pipeline's region, the TensorCore thread's
  proof and the reading of the final memory, at the stages' values as functions of the launch memory.
-/
import proofs.«209935_g88441966559691_cont_sun_c4_661_34_alg».proof.Proof.LaunchW
import proofs.«209935_g88441966559691_cont_sun_c4_661_34_alg».proof.Proof.Vals0W
import proofs.«209935_g88441966559691_cont_sun_c4_661_34_alg».proof.Proof.LocalW
import proofs.«209935_g88441966559691_cont_sun_c4_661_34_alg».proof.Proof.S2BodyW
import proofs.«209935_g88441966559691_cont_sun_c4_661_34_alg».proof.Proof.TcRegionW
import proofs.«209935_g88441966559691_cont_sun_c4_661_34_alg».proof.Proof.MainW
import proofs.«209935_g88441966559691_cont_sun_c4_661_34_alg».proof.Proof.S1BodyW

noncomputable section

namespace Cert.Proof.RnW

open Cert.Kernel Cert.Kernel.Gen
open Cert.Proof.KIW

open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- What the run's post says of one device's final memory: the result is the first entry of a result vector that
    satisfies the second call's post, and the three arguments are as they were. -/
def Qd (m : (ℓ : Loc nD τ sig) → Buf (Elt F) ℓ) (c : Dev nD) (μ : (ℓ : Loc nD τ sig) → Buf (Elt F) ℓ) : Prop :=
  (∃ o : Buf (Elt F) (ouLoc c), post2 m c o ∧ μ ((c.tc : Thread nD τ).loc main_v16) = Cert.Proof.HVW.v16V o)
    ∧ μ ((c.tc : Thread nD τ).loc main_arg0) = m ((c.tc : Thread nD τ).loc main_arg0)
    ∧ μ ((c.tc : Thread nD τ).loc main_arg1) = m ((c.tc : Thread nD τ).loc main_arg1)
    ∧ μ ((c.tc : Thread nD τ).loc main_arg2) = m ((c.tc : Thread nD τ).loc main_arg2)

/-- The run, from the first call's tile obligation. -/
theorem run_of [∀ e, Nonempty (Elt F e)]
    (tileObl0 : ∀ (X : Vals F) (hX : ∀ d w f, Cert.Proof.S1W.Post0 (X.zt d) (X.e2 d) w f → X.post0 d w f),
      (K (F := F)).TileObl (D (F := F)) 𝒱 (P X) v₀ 0)
    (m : (ℓ : Loc nD τ sig) → Buf (Elt F) ℓ) (ρ : Dev nD → PrngReg) :
    θ_run (Cert.Kernel.defs (F := F)) (Cert.Kernel.threads (F := F)) ⟨m, fun _ => 0, ρ⟩
      (fun r => ∀ c : Dev nD, Qd m c r.2.mem) :=
  Cert.Proof.KIW.run_main (X m) m ρ
    (tileObl0 (X m) (fun d w f h => h))
    (Cert.Proof.S2BW.tileObl1 (X m) (fun d f tc o h0 hT h2 => ⟨f, tc, h0, hT, h2⟩))
    Cert.Proof.TcRW.tcU₀ Cert.Proof.TcRW.tcGhost Cert.Proof.TcRW.tcFund (Cert.Proof.MnW.FIN (X m) m)
    (Cert.Proof.MnW.hmainTc (X m) m ρ
      (fun d w f g h => Cert.Proof.LcW.post0_local _ _ w f g h)
      (fun _ => rfl) (fun _ => rfl) (fun _ => rfl)
      (fun d f h => ⟨f, h, rfl⟩))
    (Cert.Proof.MnW.fq (X m) m) (Cert.Proof.MnW.hfin (X m) m)
    (fun r => ∀ c : Dev nD, Qd m c r.2.mem)
    (fun s' h c => by
      obtain ⟨h0, h1, h2, o, ho, hv⟩ := h c
      exact ⟨⟨o, ho, hv⟩, h0, h1, h2⟩)

/-- The run. -/
theorem run [∀ e, Nonempty (Elt F e)] (m : (ℓ : Loc nD τ sig) → Buf (Elt F) ℓ) (ρ : Dev nD → PrngReg) :
    θ_run (Cert.Kernel.defs (F := F)) (Cert.Kernel.threads (F := F)) ⟨m, fun _ => 0, ρ⟩
      (fun r => ∀ c : Dev nD, Qd m c r.2.mem) :=
  run_of Cert.Proof.S1BW.tileObl0 m ρ

end Cert.Proof.RnW

end
-- ==== Proof.lean ====
/-
  The certificate. The kernel computes, per column m of e, the least over the rows b of z of
  D b m = ‖z_b‖² − 2⟨e_m, z_b⟩ — the first 1024 rows in 32 groups of 32 on the vector subcores, the remaining 15360 on
  the matrix unit —, adds ‖e_m‖² back, sums over the 1000 columns and scales by 1/1000; the reference takes the mean
  over m of the least ‖z_b − e_m‖² (as the square of its square root). Over the reals the two are one number: the
  term ‖e_m‖² does not depend on b and leaves the minimum, the 16384 rows are the 32 × 32 slab rows together with the
  other 15360, and a quotient by 1000 is the product with the named constant 1/1000. The three frames say that the
  programs run and keep their arguments; the word-level program's is the run of the same proof text read at the words.
-/
import proofs.«209935_g88441966559691_cont_sun_c4_661_34_alg».proof.Defs
import proofs.«209935_g88441966559691_cont_sun_c4_661_34_alg».proof.Proof.Gen.Kernel
import proofs.«209935_g88441966559691_cont_sun_c4_661_34_alg».proof.Proof.Gen.Kernel.Skeleton
import proofs.«209935_g88441966559691_cont_sun_c4_661_34_alg».proof.Proof.Gen.Kernel.Launch
import proofs.«209935_g88441966559691_cont_sun_c4_661_34_alg».proof.Proof.Gen.Kernel.Points
import proofs.«209935_g88441966559691_cont_sun_c4_661_34_alg».proof.Proof.Gen.KernelIdeal
import proofs.«209935_g88441966559691_cont_sun_c4_661_34_alg».proof.Proof.Gen.KernelIdeal.Skeleton
import proofs.«209935_g88441966559691_cont_sun_c4_661_34_alg».proof.Proof.Gen.KernelIdeal.Launch
import proofs.«209935_g88441966559691_cont_sun_c4_661_34_alg».proof.Proof.Gen.KernelIdeal.Points
import proofs.«209935_g88441966559691_cont_sun_c4_661_34_alg».proof.Proof.Gen.ReferenceIdeal
import proofs.«209935_g88441966559691_cont_sun_c4_661_34_alg».proof.Proof.Gen.Pre_input_domain
import proofs.«209935_g88441966559691_cont_sun_c4_661_34_alg».proof.Proof.RefValue
import proofs.«209935_g88441966559691_cont_sun_c4_661_34_alg».proof.Proof.Bridge
import proofs.«209935_g88441966559691_cont_sun_c4_661_34_alg».proof.Proof.Run
import proofs.«209935_g88441966559691_cont_sun_c4_661_34_alg».proof.Proof.RunW
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level program runs and keeps its arguments. -/
theorem frame_K : @Cert.frame_Kernel Cert.Kernel.Gen.facts Cert.Pre_input_domain.Gen.facts := fun m ρ _ =>
  (θ_run Cert.Kernel.defs _ _).mono (fun _ h c => (h c).2) (Cert.Proof.RnW.run (F := Bits) m ρ)

/-- The idealized program runs and keeps its arguments. -/
theorem frame_KI : @Cert.frame_KernelIdeal Cert.KernelIdeal.Gen.facts Cert.Pre_input_domain.Gen.facts := fun m ρ _ =>
  (θ_run Cert.KernelIdeal.defs _ _).mono (fun _ h c => (h c).2) (Cert.Proof.Rn.run (F := Ideal) m ρ)

/-- The reference runs and keeps its arguments: under the precondition every entry is a real, and the run with its value
    read is the run. -/
theorem frame_RI : @Cert.frame_ReferenceIdeal Cert.ReferenceIdeal.Gen.facts Cert.Pre_input_domain.Gen.facts := by
  intro m g hpre
  have c0 : Dev Cert.ReferenceIdeal.nD := ⟨0, by decide⟩
  obtain ⟨hzf, hef⟩ := Cert.Proof.Ref.finite_of_pre _ _ _ (hpre c0)
  choose zf hzf using hzf
  choose ef hef using hef
  refine (θ_run Cert.ReferenceIdeal.defs _ _).mono (fun _ h c => (h c).2)
    (Cert.Proof.Ref.ref_run m g (fun b j => zf (ix2 b j)) (fun mm j => ef (ix2 mm j)) (fun c b j => ?_) (fun c mm j => ?_))
  · rw [Subsingleton.elim c c0]; exact hzf _
  · rw [Subsingleton.elim c c0]; exact hef _

/-- The folded reciprocal is named 1/1000. -/
theorem preserves : Cert.preserves_Kernel_KernelIdeal :=
  IdealRules.named_const.statement Cert.KernelIdeal.κ "inv_1000" .f32 0x3A83126F#32 ((1 / 1000 : ℝ) : EReal) rfl

/-- Over the extended reals, from memories that agree on the arguments, both programs end with the reference's real
    number: under the precondition the arguments are real, the kernel's stages compute the kernel's real formula, which
    is the reference's, and the reference computes its own. -/
theorem algebraic : @Cert.algebraic_KernelIdeal_ReferenceIdeal Cert.KernelIdeal.Gen.facts Cert.ReferenceIdeal.Gen.facts Cert.Pre_input_domain.Gen.facts := by
  intro m ρ m' ρ' hpre hagree
  have c0 : Dev Cert.KernelIdeal.nD := ⟨0, by decide⟩
  obtain ⟨hzf, hef⟩ := Cert.Proof.Ref.finite_of_pre _ _ _ (hpre c0)
  choose zf hzf using hzf
  choose ef hef using hef
  have hz : ∀ (d : Dev Cert.KernelIdeal.nD) (b : Fin 16384) (j : Fin 16),
      (m (Cert.Proof.KI.a0Loc d) : Vec Ideal Cert.KernelIdeal.S16384x16 .f32) (ix2 b j) = ((zf (ix2 b j) : ℝ) : EReal) := fun d b j => by
    rw [Subsingleton.elim d c0]; exact hzf _
  have he : ∀ (d : Dev Cert.KernelIdeal.nD) (mm : Fin 1000) (j : Fin 16),
      (m (Cert.Proof.KI.a1Loc d) : Vec Ideal Cert.KernelIdeal.S1000x16 .f32) (ix2 mm j) = ((ef (ix2 mm j) : ℝ) : EReal) := fun d mm j => by
    rw [Subsingleton.elim d c0]; exact hef _
  refine ⟨fun _ _ => ((Cert.Proof.Spec.refReal (fun b j => zf (ix2 b j)) (fun mm j => ef (ix2 mm j)) : ℝ) : EReal), ?_, ?_⟩
  · refine (θ_run Cert.KernelIdeal.defs _ _).mono (fun _ h c => ?_) (Cert.Proof.Rn.run (F := Ideal) m ρ)
    obtain ⟨⟨o, ho, hv⟩, hargs⟩ := h c
    exact ⟨hv.trans (Cert.Proof.Br.result_real m _ _ hz he c o ho), hargs⟩
  · refine Cert.Proof.Ref.ref_run m' ρ' _ _ (fun c b j => ?_) (fun c mm j => ?_)
    · rw [(hagree c).1]; exact hz c b j
    · rw [(hagree c).2.1]; exact he c mm j

/-- The claim. -/
theorem claim : Cert.Claim :=
  ⟨Cert.Kernel.Gen.facts, Cert.KernelIdeal.Gen.facts, Cert.ReferenceIdeal.Gen.facts, Cert.Pre_input_domain.Gen.facts,
    frame_K, frame_KI, frame_RI, preserves, algebraic⟩

end Cert.Proof

end
